-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S2x1x4096 : Shape := ⟨3, ![2, 1, 4096]⟩
abbrev S256x4096 : Shape := ⟨2, ![256, 4096]⟩
abbrev S12288x4096 : Shape := ⟨2, ![12288, 4096]⟩
abbrev S12288 : Shape := ⟨1, ![12288]⟩
abbrev S256 : Shape := ⟨1, ![256]⟩
abbrev S_ : Shape := ⟨0, ![]⟩

class Facts : Prop where
  bcast_S_S2x1x4096 : S_.BroadcastsInDim S2x1x4096 (![] : Fin 0 → Fin S2x1x4096.rank)
  reducesTo_S2x1x4096_S_d0_1_2 : S2x1x4096.ReducesTo [0, 1, 2] S_
  h_S_ : 0 < S_.numel
  bcast_S_S256x4096 : S_.BroadcastsInDim S256x4096 (![] : Fin 0 → Fin S256x4096.rank)
  reducesTo_S256x4096_S_d0_1 : S256x4096.ReducesTo [0, 1] S_
  bcast_S_S12288x4096 : S_.BroadcastsInDim S12288x4096 (![] : Fin 0 → Fin S12288x4096.rank)
  reducesTo_S12288x4096_S_d0_1 : S12288x4096.ReducesTo [0, 1] S_
  bcast_S_S12288 : S_.BroadcastsInDim S12288 (![] : Fin 0 → Fin S12288.rank)
  reducesTo_S12288_S_d0 : S12288.ReducesTo [0] S_
  bcast_S_S256 : S_.BroadcastsInDim S256 (![] : Fin 0 → Fin S256.rank)
  reducesTo_S256_S_d0 : S256.ReducesTo [0] S_
  bcast_S_S1 : S_.BroadcastsInDim S1 (![] : Fin 0 → Fin S1.rank)
  reducesTo_S1_S_d0 : S1.ReducesTo [0] S_

variable [Facts]

def fn_part3 {F : FTy → Type} [FloatOps F] (main_arg0 : IVec S1 32) (main_arg12 : FVec F S256 .f32) (main_v48 : IVec S_ 1) (main_v49 : FVec F S256x4096 .f32) (main_v50 : FVec F S256x4096 .f32) : IVec S_ 1 :=
  let main_v51 : IVec S256x4096 1 := cmpf .olt main_v49 main_v50
  let main_c_19 : IVec S_ 1 := constantI S_ 1 1#1
  let main_v52 : IVec S_ 1 := (fun x v => Host.reduce IntOp.andi x v reducesTo_S256x4096_S_d0_1 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_c_22 : IVec S_ 32 := constantI S_ 32 0#32
  let main_v59 : IVec S1 32 := broadcastInDim S1 ![] bcast_S_S1 main_c_22
  let main_v60 : IVec S1 1 := cmpi .sge main_arg0 main_v59
  let main_c_23 : IVec S_ 1 := constantI S_ 1 1#1
  let main_v61 : IVec S_ 1 := (fun x v => Host.reduce IntOp.andi x v reducesTo_S1_S_d0 h_S_) main_v60 main_c_23
  let main_v62 : IVec S_ 1 := andi main_v58 main_v61
  let main_c_24 : IVec S_ 32 := constantI S_ 32 256#32
  let main_v63 : IVec S1 32 := broadcastInDim S1 ![] bcast_S_S1 main_c_24
  let main_v64 : IVec S1 1 := cmpi .slt main_arg0 main_v63
  let main_c_25 : IVec S_ 1 := constantI S_ 1 1#1
  let main_v65 : IVec S_ 1 := (fun x v => Host.reduce IntOp.andi x v reducesTo_S1_S_d0 h_S_) main_v64 main_c_25
  let main_v66 : IVec S_ 1 := andi main_v62 main_v65
  main_v66

def fn_part2 {F : FTy → Type} [FloatOps F] (main_arg0 : IVec S1 32) (main_arg8 : FVec F S12288x4096 .f32) (main_arg9 : FVec F S12288 .f32) (main_arg10 : FVec F S12288 .f32) (main_arg11 : FVec F S256x4096 .f32) (main_arg12 : FVec F S256 .f32) (main_v33 : IVec S_ 1) : IVec S_ 1 :=
  let main_v34 : FVec F S12288x4096 .f32 := Host.absf main_arg8
  let main_cst_12 : FVec F S_ .f32 := constant S_ .f32 0x7F800000#32
  let main_v35 : FVec F S12288x4096 .f32 := broadcastInDim S12288x4096 ![] bcast_S_S12288x4096 main_cst_12
  let main_v36 : IVec S12288x4096 1 := cmpf .olt main_v34 main_v35
  let main_c_13 : IVec S_ 1 := constantI S_ 1 1#1
  let main_v37 : IVec S_ 1 := (fun x v => Host.reduce IntOp.andi x v reducesTo_S12288x4096_S_d0_1 h_S_) main_v36 main_c_13
  let main_v38 : IVec S_ 1 := andi main_v33 main_v37
  let main_v39 : FVec F S12288 .f32 := Host.absf main_arg9
  let main_cst_14 : FVec F S_ .f32 := constant S_ .f32 0x7F800000#32
  let main_v40 : FVec F S12288 .f32 := broadcastInDim S12288 ![] bcast_S_S12288 main_cst_14
  let main_v41 : IVec S12288 1 := cmpf .olt main_v39 main_v40
  let main_c_15 : IVec S_ 1 := constantI S_ 1 1#1
  let main_v42 : IVec S_ 1 := (fun x v => Host.reduce IntOp.andi x v reducesTo_S12288_S_d0 h_S_) main_v41 main_c_15
  let main_v43 : IVec S_ 1 := andi main_v38 main_v42
  let main_v44 : FVec F S12288 .f32 := Host.absf main_arg10
  let main_cst_16 : FVec F S_ .f32 := constant S_ .f32 0x7F800000#32
  let main_v45 : FVec F S12288 .f32 := broadcastInDim S12288 ![] bcast_S_S12288 main_cst_16
  let main_v46 : IVec S12288 1 := cmpf .olt main_v44 main_v45
  let main_c_17 : IVec S_ 1 := constantI S_ 1 1#1
  let main_v47 : IVec S_ 1 := (fun x v => Host.reduce IntOp.andi x v reducesTo_S12288_S_d0 h_S_) main_v46 main_c_17
  let main_v48 : IVec S_ 1 := andi main_v43 main_v47
  let main_v49 : FVec F S256x4096 .f32 := Host.absf main_arg11
  let main_cst_18 : FVec F S_ .f32 := constant S_ .f32 0x7F800000#32
  let main_v50 : FVec F S256x4096 .f32 := broadcastInDim S256x4096 ![] bcast_S_S256x4096 main_cst_18
  fn_part3 (F := F) main_arg0 main_arg12 main_v48 main_v49 main_v50

def fn_part1 {F : FTy → Type} [FloatOps F] (main_arg0 : IVec S1 32) (main_arg5 : FVec F S12288 .f32) (main_arg6 : FVec F S12288 .f32) (main_arg7 : FVec F S12288x4096 .f32) (main_arg8 : FVec F S12288x4096 .f32) (main_arg9 : FVec F S12288 .f32) (main_arg10 : FVec F S12288 .f32) (main_arg11 : FVec F S256x4096 .f32) (main_arg12 : FVec F S256 .f32) (main_v13 : IVec S_ 1) (main_v16 : IVec S12288x4096 1) : IVec S_ 1 :=
  let main_c_5 : IVec S_ 1 := constantI S_ 1 1#1
  let main_v17 : IVec S_ 1 := (fun x v => Host.reduce IntOp.andi x v reducesTo_S12288x4096_S_d0_1 h_S_) main_v16 main_c_5
  let main_v18 : IVec S_ 1 := andi main_v13 main_v17
  let main_v19 : FVec F S12288 .f32 := Host.absf main_arg5
  let main_cst_6 : FVec F S_ .f32 := constant S_ .f32 0x7F800000#32
  let main_v20 : FVec F S12288 .f32 := broadcastInDim S12288 ![] bcast_S_S12288 main_cst_6
  let main_v21 : IVec S12288 1 := cmpf .olt main_v19 main_v20
  let main_c_7 : IVec S_ 1 := constantI S_ 1 1#1
  let main_v22 : IVec S_ 1 := (fun x v => Host.reduce IntOp.andi x v reducesTo_S12288_S_d0 h_S_) main_v21 main_c_7
  let main_v23 : IVec S_ 1 := andi main_v18 main_v22
  let main_v24 : FVec F S12288 .f32 := Host.absf main_arg6
  let main_cst_8 : FVec F S_ .f32 := constant S_ .f32 0x7F800000#32
  let main_v25 : FVec F S12288 .f32 := broadcastInDim S12288 ![] bcast_S_S12288 main_cst_8
  let main_v26 : IVec S12288 1 := cmpf .olt main_v24 main_v25
  let main_c_9 : IVec S_ 1 := constantI S_ 1 1#1
  let main_v27 : IVec S_ 1 := (fun x v => Host.reduce IntOp.andi x v reducesTo_S12288_S_d0 h_S_) main_v26 main_c_9
  let main_v28 : IVec S_ 1 := andi main_v23 main_v27
  let main_v29 : FVec F S12288x4096 .f32 := Host.absf main_arg7
  let main_cst_10 : FVec F S_ .f32 := constant S_ .f32 0x7F800000#32
  let main_v30 : FVec F S12288x4096 .f32 := broadcastInDim S12288x4096 ![] bcast_S_S12288x4096 main_cst_10
  let main_v31 : IVec S12288x4096 1 := cmpf .olt main_v29 main_v30
  let main_c_11 : IVec S_ 1 := constantI S_ 1 1#1
  let main_v32 : IVec S_ 1 := (fun x v => Host.reduce IntOp.andi x v reducesTo_S12288x4096_S_d0_1 h_S_) main_v31 main_c_11
  let main_v33 : IVec S_ 1 := andi main_v28 main_v32
  fn_part2 (F := F) main_arg0 main_arg8 main_arg9 main_arg10 main_arg11 main_arg12 main_v33

def fn {F : FTy → Type} [FloatOps F] (main_arg0 : IVec S1 32) (main_arg1 : FVec F S2x1x4096 .f32) (main_arg2 : FVec F S256x4096 .f32) (main_arg3 : FVec F S12288x4096 .f32) (main_arg4 : FVec F S12288x4096 .f32) (main_arg5 : FVec F S12288 .f32) (main_arg6 : FVec F S12288 .f32) (main_arg7 : FVec F S12288x4096 .f32) (main_arg8 : FVec F S12288x4096 .f32) (main_arg9 : FVec F S12288 .f32) (main_arg10 : FVec F S12288 .f32) (main_arg11 : FVec F S256x4096 .f32) (main_arg12 : FVec F S256 .f32) : IVec S_ 1 :=
  let main_v0 : FVec F S2x1x4096 .f32 := Host.absf main_arg1
  let main_cst : FVec F S_ .f32 := constant S_ .f32 0x7F800000#32
  let main_v1 : FVec F S2x1x4096 .f32 := broadcastInDim S2x1x4096 ![] bcast_S_S2x1x4096 main_cst
  let main_v2 : IVec S2x1x4096 1 := cmpf .olt main_v0 main_v1
  let main_c : IVec S_ 1 := constantI S_ 1 1#1
  let main_v3 : IVec S_ 1 := (fun x v => Host.reduce IntOp.andi x v reducesTo_S2x1x4096_S_d0_1_2 h_S_) main_v2 main_c
  let main_v4 : FVec F S256x4096 .f32 := Host.absf main_arg2
  let main_cst_0 : FVec F S_ .f32 := constant S_ .f32 0x7F800000#32
  let main_v5 : FVec F S256x4096 .f32 := broadcastInDim S256x4096 ![] bcast_S_S256x4096 main_cst_0
  let main_v6 : IVec S256x4096 1 := cmpf .olt main_v4 main_v5
  let main_c_1 : IVec S_ 1 := constantI S_ 1 1#1
  let main_v7 : IVec S_ 1 := (fun x v => Host.reduce IntOp.andi x v reducesTo_S256x4096_S_d0_1 h_S_) main_v6 main_c_1
  let main_v8 : IVec S_ 1 := andi main_v3 main_v7
  let main_v9 : FVec F S12288x4096 .f32 := Host.absf main_arg3
  let main_cst_2 : FVec F S_ .f32 := constant S_ .f32 0x7F800000#32
  let main_v10 : FVec F S12288x4096 .f32 := broadcastInDim S12288x4096 ![] bcast_S_S12288x4096 main_cst_2
  let main_v11 : IVec S12288x4096 1 := cmpf .olt main_v9 main_v10
  let main_c_3 : IVec S_ 1 := constantI S_ 1 1#1
  let main_v12 : IVec S_ 1 := (fun x v => Host.reduce IntOp.andi x v reducesTo_S12288x4096_S_d0_1 h_S_) main_v11 main_c_3
  let main_v13 : IVec S_ 1 := andi main_v8 main_v12
  let main_v14 : FVec F S12288x4096 .f32 := Host.absf main_arg4
  let main_cst_4 : FVec F S_ .f32 := constant S_ .f32 0x7F800000#32
  let main_v15 : FVec F S12288x4096 .f32 := broadcastInDim S12288x4096 ![] bcast_S_S12288x4096 main_cst_4
  let main_v16 : IVec S12288x4096 1 := cmpf .olt main_v14 main_v15
  fn_part1 (F := F) main_arg0 main_arg5 main_arg6 main_arg7 main_arg8 main_arg9 main_arg10 main_arg11 main_arg12 main_v13 main_v16
-- ==== Kernel.lean ====
abbrev S1 : Shape := ⟨1, ![1]⟩
abbrev S2x1x4096 : Shape := ⟨3, ![2, 1, 4096]⟩
abbrev S256x4096 : Shape := ⟨2, ![256, 4096]⟩
abbrev S12288x4096 : Shape := ⟨2, ![12288, 4096]⟩
abbrev S12288 : Shape := ⟨1, ![12288]⟩
abbrev S256 : Shape := ⟨1, ![256]⟩
abbrev S_ : Shape := ⟨0, ![]⟩
abbrev S1x4096 : Shape := ⟨2, ![1, 4096]⟩
abbrev S1x1x4096 : Shape := ⟨3, ![1, 1, 4096]⟩
abbrev S3x4096x4096 : Shape := ⟨3, ![3, 4096, 4096]⟩
abbrev S3x4096 : Shape := ⟨2, ![3, 4096]⟩
abbrev S3x128x4096 : Shape := ⟨3, ![3, 128, 4096]⟩
abbrev S3x128 : Shape := ⟨2, ![3, 128]⟩
abbrev S1x128 : Shape := ⟨2, ![1, 128]⟩
abbrev S1x128x4096 : Shape := ⟨3, ![1, 128, 4096]⟩
abbrev S128x4096 : Shape := ⟨2, ![128, 4096]⟩
abbrev S1x256 : Shape := ⟨2, ![1, 256]⟩

abbrev nBuf : Space → Nat
  | .hbm => 40
  | .vmem => 36
  | .smem => 1
  | _ => 0

abbrev bufTy : (tb : Table) → Fin (tcTables nBuf tb) → BufTy
  | .hbm, ⟨0, _⟩ => ⟨S1, .i32⟩
  | .hbm, ⟨1, _⟩ => ⟨S2x1x4096, .f32⟩
  | .hbm, ⟨2, _⟩ => ⟨S256x4096, .f32⟩
  | .hbm, ⟨3, _⟩ => ⟨S12288x4096, .f32⟩
  | .hbm, ⟨4, _⟩ => ⟨S12288x4096, .f32⟩
  | .hbm, ⟨5, _⟩ => ⟨S12288, .f32⟩
  | .hbm, ⟨6, _⟩ => ⟨S12288, .f32⟩
  | .hbm, ⟨7, _⟩ => ⟨S12288x4096, .f32⟩
  | .hbm, ⟨8, _⟩ => ⟨S12288x4096, .f32⟩
  | .hbm, ⟨9, _⟩ => ⟨S12288, .f32⟩
  | .hbm, ⟨10, _⟩ => ⟨S12288, .f32⟩
  | .hbm, ⟨11, _⟩ => ⟨S256x4096, .f32⟩
  | .hbm, ⟨12, _⟩ => ⟨S256, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S1x4096, .f32⟩
  | .hbm, ⟨21, _⟩ => ⟨S1x1x4096, .f32⟩
  | .hbm, ⟨22, _⟩ => ⟨S1x4096, .f32⟩
  | .hbm, ⟨23, _⟩ => ⟨S1x1x4096, .f32⟩
  | .hbm, ⟨24, _⟩ => ⟨S1x4096, .f32⟩
  | .hbm, ⟨25, _⟩ => ⟨S3x4096x4096, .f32⟩
  | .hbm, ⟨26, _⟩ => ⟨S3x4096x4096, .f32⟩
  | .hbm, ⟨27, _⟩ => ⟨S3x4096, .f32⟩
  | .hbm, ⟨28, _⟩ => ⟨S3x4096, .f32⟩
  | .hbm, ⟨29, _⟩ => ⟨S1x4096, .f32⟩
  | .hbm, ⟨30, _⟩ => ⟨S3x4096x4096, .f32⟩
  | .hbm, ⟨31, _⟩ => ⟨S3x4096x4096, .f32⟩
  | .hbm, ⟨32, _⟩ => ⟨S3x4096, .f32⟩
  | .hbm, ⟨33, _⟩ => ⟨S3x4096, .f32⟩
  | .hbm, ⟨34, _⟩ => ⟨S1x4096, .f32⟩
  | .hbm, ⟨35, _⟩ => ⟨S1x256, .f32⟩
  | .hbm, ⟨36, _⟩ => ⟨S1x256, .f32⟩
  | .hbm, ⟨37, _⟩ => ⟨S1x1x4096, .f32⟩
  | .hbm, ⟨38, _⟩ => ⟨S1x1x4096, .f32⟩
  | .hbm, ⟨39, _⟩ => ⟨S2x1x4096, .f32⟩
  | .local _ .vmem, ⟨0, _⟩ => ⟨S1x4096, .f32⟩
  | .local _ .vmem, ⟨1, _⟩ => ⟨S1x4096, .f32⟩
  | .local _ .vmem, ⟨2, _⟩ => ⟨S1x4096, .f32⟩
  | .local _ .vmem, ⟨3, _⟩ => ⟨S3x128x4096, .f32⟩
  | .local _ .vmem, ⟨4, _⟩ => ⟨S3x128x4096, .f32⟩
  | .local _ .vmem, ⟨5, _⟩ => ⟨S3x128x4096, .f32⟩
  | .local _ .vmem, ⟨6, _⟩ => ⟨S3x128x4096, .f32⟩
  | .local _ .vmem, ⟨7, _⟩ => ⟨S3x128, .f32⟩
  | .local _ .vmem, ⟨8, _⟩ => ⟨S3x128, .f32⟩
  | .local _ .vmem, ⟨9, _⟩ => ⟨S3x128, .f32⟩
  | .local _ .vmem, ⟨10, _⟩ => ⟨S3x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x4096, .f32⟩
  | .local _ .vmem, ⟨16, _⟩ => ⟨S1x4096, .f32⟩
  | .local _ .vmem, ⟨17, _⟩ => ⟨S3x128x4096, .f32⟩
  | .local _ .vmem, ⟨18, _⟩ => ⟨S3x128x4096, .f32⟩
  | .local _ .vmem, ⟨19, _⟩ => ⟨S3x128x4096, .f32⟩
  | .local _ .vmem, ⟨20, _⟩ => ⟨S3x128x4096, .f32⟩
  | .local _ .vmem, ⟨21, _⟩ => ⟨S3x128, .f32⟩
  | .local _ .vmem, ⟨22, _⟩ => ⟨S3x128, .f32⟩
  | .local _ .vmem, ⟨23, _⟩ => ⟨S3x128, .f32⟩
  | .local _ .vmem, ⟨24, _⟩ => ⟨S3x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x4096, .f32⟩
  | .local _ .vmem, ⟨30, _⟩ => ⟨S128x4096, .f32⟩
  | .local _ .vmem, ⟨31, _⟩ => ⟨S128x4096, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_c_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v0 : Ref sig .tc := ⟨.smem, 0, rfl⟩
abbrev cc0_stg0_0 : Ref sig .tc := ⟨.vmem, 0, rfl⟩
abbrev cc1_stg0_0 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc1_stg3_1 : Ref sig .tc := ⟨.vmem, 6, rfl⟩
abbrev cc1_stg4_0 : Ref sig .tc := ⟨.vmem, 7, rfl⟩
abbrev cc1_stg4_1 : Ref sig .tc := ⟨.vmem, 8, rfl⟩
abbrev cc1_stg5_0 : Ref sig .tc := ⟨.vmem, 9, rfl⟩
abbrev cc1_stg5_1 : Ref sig .tc := ⟨.vmem, 10, rfl⟩
abbrev cc1_stg6_0 : Ref sig .tc := ⟨.vmem, 11, rfl⟩
abbrev cc1_stg6_1 : Ref sig .tc := ⟨.vmem, 12, rfl⟩
abbrev cc1_stg7_0 : Ref sig .tc := ⟨.vmem, 13, rfl⟩
abbrev cc1_stg7_1 : Ref sig .tc := ⟨.vmem, 14, rfl⟩
abbrev cc2_stg0_0 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc2_stg6_1 : Ref sig .tc := ⟨.vmem, 26, rfl⟩
abbrev cc2_stg7_0 : Ref sig .tc := ⟨.vmem, 27, rfl⟩
abbrev cc2_stg7_1 : Ref sig .tc := ⟨.vmem, 28, rfl⟩
abbrev cc3_stg0_0 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg3_1 : Ref sig .tc := ⟨.vmem, 35, rfl⟩
abbrev cc0_sem0_0 : DmaSem sig := 0
abbrev cc1_sem0_0 : DmaSem sig := 2
abbrev cc1_sem1_0 : DmaSem sig := 3
abbrev cc1_sem2_0 : DmaSem sig := 4
abbrev cc1_sem2_1 : DmaSem sig := 5
abbrev cc1_sem3_0 : DmaSem sig := 6
abbrev cc1_sem3_1 : DmaSem sig := 7
abbrev cc1_sem4_0 : DmaSem sig := 8
abbrev cc1_sem4_1 : DmaSem sig := 9
abbrev cc1_sem5_0 : DmaSem sig := 10
abbrev cc1_sem5_1 : DmaSem sig := 11
abbrev cc1_sem6_0 : DmaSem sig := 12
abbrev cc1_sem6_1 : DmaSem sig := 13
abbrev cc1_sem7_0 : DmaSem sig := 14
abbrev cc1_sem7_1 : DmaSem sig := 15
abbrev cc2_sem0_0 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23
abbrev cc2_sem5_0 : DmaSem sig := 24
abbrev cc2_sem5_1 : DmaSem sig := 25
abbrev cc2_sem6_0 : DmaSem sig := 26
abbrev cc2_sem6_1 : DmaSem sig := 27
abbrev cc2_sem7_0 : DmaSem sig := 28
abbrev cc2_sem7_1 : DmaSem sig := 29
abbrev cc3_sem0_0 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem3_1 : DmaSem sig := 36

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (v0 : BitVec 32) : Fin 2 → Nat :=
  let c0_i32 : BitVec 32 := 0#32
  ![v0.toNat, 0]

def k0_chk1 (v0 : BitVec 32) : Prop :=
  (∀ a, (k0_off1 v0) a + S1x4096.size a ≤ S256x4096.size a)
instance k0_chk1.dec : ∀ (v0 : BitVec 32), Decidable (k0_chk1 v0) := fun v0 => decidable_of_iff' _ (Iff.of_eq (k0_chk1.eq_1 v0))
theorem k0_off1_inb : ∀ (v0 : BitVec 32) (k0_hw1 : k0_chk1 v0), ∀ a, (k0_off1 v0) a + S1x4096.size a ≤ S256x4096.size a := fun v0 k0_hw1 => k0_hw1

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S3x128x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3x128x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S3x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S3x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S3x128x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S3x128x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S3x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S3x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 1 → Memref sig .tc .vmem S1x4096 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S128x4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bcast_S_S1 : S_.BroadcastsInDim S1 (![] : Fin 0 → Fin S1.rank)
  inb_S1_S1_0 : ∀ a, (![0] : Fin 1 → Nat) a + S1.size a ≤ S1.size a
  numel1_S1 : S1.numel = 1
  slices_S2x1x4096_S1x1x4096_0_0_0 : S2x1x4096.Slices ![0, 0, 0] S1x1x4096
  shapeCasts_S1x1x4096_S1x4096 : S1x1x4096.ShapeCasts S1x4096
  slices_S2x1x4096_S1x1x4096_1_0_0 : S2x1x4096.Slices ![1, 0, 0] S1x1x4096
  shapeCasts_S12288x4096_S3x4096x4096 : S12288x4096.ShapeCasts S3x4096x4096
  shapeCasts_S12288_S3x4096 : S12288.ShapeCasts S3x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  bitsLt_bf16_f32 : FTy.bits .bf16 < FTy.bits .f32
  inb_S3x128x4096_S3x128x4096_0_0_0 : ∀ a, (![0, 0, 0] : Fin 3 → Nat) a + S3x128x4096.size a ≤ S3x128x4096.size a
  h_S3x128x4096 : 0 < S3x128x4096.numel
  shapeCasts_S3x128x4096_S3x128x4096 : S3x128x4096.ShapeCasts S3x128x4096
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  slices_S3x128x4096_o0_0_0_S1x128x4096 : S3x128x4096.Slices ![0, 0, 0] S1x128x4096
  shapeCasts_S1x128x4096_S128x4096 : S1x128x4096.ShapeCasts S128x4096
  slices_S3x128_o0_0_S1x128 : S3x128.Slices ![0, 0] S1x128
  slices_S3x128x4096_o1_0_0_S1x128x4096 : S3x128x4096.Slices ![1, 0, 0] S1x128x4096
  slices_S3x128_o1_0_S1x128 : S3x128.Slices ![1, 0] S1x128
  slices_S3x128x4096_o2_0_0_S1x128x4096 : S3x128x4096.Slices ![2, 0, 0] S1x128x4096
  slices_S3x128_o2_0_S1x128 : S3x128.Slices ![2, 0] S1x128
  shapeCasts_S256_S1x256 : S256.ShapeCasts S1x256
  inb_S128x4096_S128x4096_0_0 : ∀ a, (![0, 0] : Fin 2 → Nat) a + S128x4096.size a ≤ S128x4096.size a
  h_S128x4096 : 0 < S128x4096.numel
  bcast_S1x4096_S1x1x4096_1_2 : S1x4096.BroadcastsInDim S1x1x4096 (![1, 2] : Fin 2 → Fin S1x1x4096.rank)
  concatenates_S1x1x4096_S1x1x4096_S2x1x4096_d0 : Shape.Concatenates [S1x1x4096, S1x1x4096] S2x1x4096 0
  dot_S1x4096_S128x4096_S1x128_1_1_0_0_n_n_wf : DotDims.WF S1x4096 S128x4096 S1x128 [1] [1] [0] [0] [] []
  hcc0_scratch0 : 1 + S_.numel ≤ 37
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_1 i = cc0_transform_1 i'
  hinb0_0 : ∀ (i : grid0.Coords) a, (cc0_transform_1 i a + 1) * S1x4096.size a ≤ S1x4096.size a
  hwx0_0 : ∀ i : grid0.Coords, EltTy.bits .f32 = 32 ∨ (Rect.block (s := S1x4096) S1x4096.size (cc0_transform_1 i) (hinb0_0 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x4096.size a
  hwx1_0 : ∀ i : grid1.Coords, EltTy.bits .f32 = 32 ∨ (Rect.block (s := S1x4096) S1x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3x128x4096.size a ≤ S3x4096x4096.size a
  hwx1_2 : ∀ i : grid1.Coords, EltTy.bits .f32 = 32 ∨ (Rect.block (s := S3x4096x4096) S3x128x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3x128x4096.size a ≤ S3x4096x4096.size a
  hwx1_3 : ∀ i : grid1.Coords, EltTy.bits .f32 = 32 ∨ (Rect.block (s := S3x4096x4096) S3x128x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3x128.size a ≤ S3x4096.size a
  hwx1_4 : ∀ i : grid1.Coords, EltTy.bits .f32 = 32 ∨ (Rect.block (s := S3x4096) S3x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S3x128.size a ≤ S3x4096.size a
  hwx1_5 : ∀ i : grid1.Coords, EltTy.bits .f32 = 32 ∨ (Rect.block (s := S3x4096) S3x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x4096.size a
  hwx1_6 : ∀ i : grid1.Coords, EltTy.bits .f32 = 32 ∨ (Rect.block (s := S1x4096) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x4096.size a
  hwx1_7 : ∀ i : grid1.Coords, EltTy.bits .f32 = 32 ∨ (Rect.block (s := S1x4096) S1x128.size (cc1_transform_7 i) (hinb1_7 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x4096.size a ≤ S1x4096.size a
  hwx2_0 : ∀ i : grid2.Coords, EltTy.bits .f32 = 32 ∨ (Rect.block (s := S1x4096) S1x4096.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x4096.size a ≤ S1x4096.size a
  hwx2_1 : ∀ i : grid2.Coords, EltTy.bits .f32 = 32 ∨ (Rect.block (s := S1x4096) S1x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3x128x4096.size a ≤ S3x4096x4096.size a
  hwx2_2 : ∀ i : grid2.Coords, EltTy.bits .f32 = 32 ∨ (Rect.block (s := S3x4096x4096) S3x128x4096.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S3x128x4096.size a ≤ S3x4096x4096.size a
  hwx2_3 : ∀ i : grid2.Coords, EltTy.bits .f32 = 32 ∨ (Rect.block (s := S3x4096x4096) S3x128x4096.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S3x128.size a ≤ S3x4096.size a
  hwx2_4 : ∀ i : grid2.Coords, EltTy.bits .f32 = 32 ∨ (Rect.block (s := S3x4096) S3x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S3x128.size a ≤ S3x4096.size a
  hwx2_5 : ∀ i : grid2.Coords, EltTy.bits .f32 = 32 ∨ (Rect.block (s := S3x4096) S3x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x4096.size a
  hwx2_6 : ∀ i : grid2.Coords, EltTy.bits .f32 = 32 ∨ (Rect.block (s := S1x4096) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x4096.size a
  hwx2_7 : ∀ i : grid2.Coords, EltTy.bits .f32 = 32 ∨ (Rect.block (s := S1x4096) S1x128.size (cc2_transform_7 i) (hinb2_7 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1x4096.size a ≤ S1x4096.size a
  hwx3_0 : ∀ i : grid3.Coords, EltTy.bits .f32 = 32 ∨ (Rect.block (s := S1x4096) S1x4096.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S128x4096.size a ≤ S256x4096.size a
  hwx3_1 : ∀ i : grid3.Coords, EltTy.bits .f32 = 32 ∨ (Rect.block (s := S256x4096) S128x4096.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x256.size a
  hwx3_2 : ∀ i : grid3.Coords, EltTy.bits .f32 = 32 ∨ (Rect.block (s := S1x256) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x256.size a
  hwx3_3 : ∀ i : grid3.Coords, EltTy.bits .f32 = 32 ∨ (Rect.block (s := S1x256) S1x128.size (cc3_transform_3 i) (hinb3_3 i)).WholeWords (EltTy.packing .f32)

variable [Facts₀]

abbrev cc0_scratch0 : DmaSems sig S_ := SemArray.consecutive 1 S_ hcc0_scratch0
def dot_S1x4096_S128x4096_S1x128_1_1_0_0_n_n : DotDims S1x4096 S128x4096 S1x128 where
  lhsContracting := [1]
  rhsContracting := [1]
  lhsNonContracting := [0]
  rhsNonContracting := [0]
  lhsBatch := []
  rhsBatch := []
  wf := dot_S1x4096_S128x4096_S1x128_1_1_0_0_n_n_wf

abbrev spec0_0 : Pipeline.WinSpec sig grid0.rank :=
  Pipeline.WinSpec.ofSpec (Memref.whole main_v1) S1x4096.size reads0_0 true true 1 stage0_0 sem0_0 nbuf0_0 hstage0_0

abbrev spec0 : Fin 1 → Pipeline.WinSpec sig grid0.rank := fun | 0 => spec0_0 | ⟨_ + 1, h⟩ => absurd h (Nat.not_lt.2 (Nat.le_add_left _ _))
theorem hcount0 : ∀ w, grid0.bufCount (spec0 w).reads (spec0 w).sync = (spec0 w).nbuf := fun | 0 => nbuf0_0 | ⟨_ + 1, h⟩ => absurd h (Nat.not_lt.2 (Nat.le_add_left _ _))
abbrev ix0 (pf : pre0.Contents (Elt F)) : (w : Fin 1) → grid0.Coords → Fin (spec0 w).shape.rank → Nat := fun | 0 => cc0_transform_1 | ⟨_ + 1, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | ⟨_ + 1, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | ⟨_ + 1, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | ⟨_ + 1, h⟩ => absurd h (Nat.not_lt.2 (Nat.le_add_left _ _))
abbrev win1_0 : Pipeline.Window sig grid1 :=
  Pipeline.Window.ofSpec (Memref.whole main_v1) S1x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S3x128x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S3x128x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S3x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9) S3x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3) S1x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v10) S1x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v10) S1x4096.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1x4096.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S3x128x4096.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v12) S3x128x4096.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v13) S3x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v14) S3x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v5) S1x128.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v15) S1x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v15) S1x4096.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg11) S128x4096.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S1x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v17) S1x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where
  harr0 : ∀ w, (spec0 w).arr.IsWhole

variable [Facts]
-- ==== ReferenceIdeal.lean ====
abbrev S1 : Shape := ⟨1, ![1]⟩
abbrev S2x1x4096 : Shape := ⟨3, ![2, 1, 4096]⟩
abbrev S256x4096 : Shape := ⟨2, ![256, 4096]⟩
abbrev S12288x4096 : Shape := ⟨2, ![12288, 4096]⟩
abbrev S12288 : Shape := ⟨1, ![12288]⟩
abbrev S256 : Shape := ⟨1, ![256]⟩
abbrev S_ : Shape := ⟨0, ![]⟩
abbrev S1x1 : Shape := ⟨2, ![1, 1]⟩
abbrev S1x4096 : Shape := ⟨2, ![1, 4096]⟩
abbrev S1x1x4096 : Shape := ⟨3, ![1, 1, 4096]⟩
abbrev S4096x12288 : Shape := ⟨2, ![4096, 12288]⟩
abbrev S1x12288 : Shape := ⟨2, ![1, 12288]⟩
abbrev S4096x256 : Shape := ⟨2, ![4096, 256]⟩
abbrev S1x256 : Shape := ⟨2, ![1, 256]⟩

abbrev nBuf : Space → Nat
  | .hbm => 115
  | .vmem => 0
  | .smem => 0
  | _ => 0

abbrev bufTy : (tb : Table) → Fin (tcTables nBuf tb) → BufTy
  | .hbm, ⟨0, _⟩ => ⟨S1, .i32⟩
  | .hbm, ⟨1, _⟩ => ⟨S2x1x4096, .f32⟩
  | .hbm, ⟨2, _⟩ => ⟨S256x4096, .f32⟩
  | .hbm, ⟨3, _⟩ => ⟨S12288x4096, .f32⟩
  | .hbm, ⟨4, _⟩ => ⟨S12288x4096, .f32⟩
  | .hbm, ⟨5, _⟩ => ⟨S12288, .f32⟩
  | .hbm, ⟨6, _⟩ => ⟨S12288, .f32⟩
  | .hbm, ⟨7, _⟩ => ⟨S12288x4096, .f32⟩
  | .hbm, ⟨8, _⟩ => ⟨S12288x4096, .f32⟩
  | .hbm, ⟨9, _⟩ => ⟨S12288, .f32⟩
  | .hbm, ⟨10, _⟩ => ⟨S12288, .f32⟩
  | .hbm, ⟨11, _⟩ => ⟨S256x4096, .f32⟩
  | .hbm, ⟨12, _⟩ => ⟨S256, .f32⟩
  | .hbm, ⟨13, _⟩ => ⟨S_, .i32⟩
  | .hbm, ⟨14, _⟩ => ⟨S1, .i32⟩
  | .hbm, ⟨15, _⟩ => ⟨S1, .i1⟩
  | .hbm, ⟨16, _⟩ => ⟨S_, .i32⟩
  | .hbm, ⟨17, _⟩ => ⟨S1, .i32⟩
  | .hbm, ⟨18, _⟩ => ⟨S1, .i32⟩
  | .hbm, ⟨19, _⟩ => ⟨S1, .i32⟩
  | .hbm, ⟨20, _⟩ => ⟨S1x1, .i32⟩
  | .hbm, ⟨21, _⟩ => ⟨S1x4096, .f32⟩
  | .hbm, ⟨22, _⟩ => ⟨S1x1x4096, .f32⟩
  | .hbm, ⟨23, _⟩ => ⟨S1x4096, .f32⟩
  | .hbm, ⟨24, _⟩ => ⟨S4096x12288, .f32⟩
  | .hbm, ⟨25, _⟩ => ⟨S1x12288, .f32⟩
  | .hbm, ⟨26, _⟩ => ⟨S1x12288, .f32⟩
  | .hbm, ⟨27, _⟩ => ⟨S1x12288, .f32⟩
  | .hbm, ⟨28, _⟩ => ⟨S4096x12288, .f32⟩
  | .hbm, ⟨29, _⟩ => ⟨S1x12288, .f32⟩
  | .hbm, ⟨30, _⟩ => ⟨S1x12288, .f32⟩
  | .hbm, ⟨31, _⟩ => ⟨S1x12288, .f32⟩
  | .hbm, ⟨32, _⟩ => ⟨S1x4096, .f32⟩
  | .hbm, ⟨33, _⟩ => ⟨S1x4096, .f32⟩
  | .hbm, ⟨34, _⟩ => ⟨S1x4096, .f32⟩
  | .hbm, ⟨35, _⟩ => ⟨S1x4096, .f32⟩
  | .hbm, ⟨36, _⟩ => ⟨S1x4096, .f32⟩
  | .hbm, ⟨37, _⟩ => ⟨S1x4096, .f32⟩
  | .hbm, ⟨38, _⟩ => ⟨S1x4096, .f32⟩
  | .hbm, ⟨39, _⟩ => ⟨S1x4096, .f32⟩
  | .hbm, ⟨40, _⟩ => ⟨S1x4096, .f32⟩
  | .hbm, ⟨41, _⟩ => ⟨S_, .f32⟩
  | .hbm, ⟨42, _⟩ => ⟨S1x4096, .f32⟩
  | .hbm, ⟨43, _⟩ => ⟨S1x4096, .f32⟩
  | .hbm, ⟨44, _⟩ => ⟨S_, .f32⟩
  | .hbm, ⟨45, _⟩ => ⟨S1x4096, .f32⟩
  | .hbm, ⟨46, _⟩ => ⟨S1x4096, .f32⟩
  | .hbm, ⟨47, _⟩ => ⟨S1x4096, .f32⟩
  | .hbm, ⟨48, _⟩ => ⟨S1x4096, .f32⟩
  | .hbm, ⟨49, _⟩ => ⟨S1x4096, .f32⟩
  | .hbm, ⟨50, _⟩ => ⟨S_, .f32⟩
  | .hbm, ⟨51, _⟩ => ⟨S1x4096, .f32⟩
  | .hbm, ⟨52, _⟩ => ⟨S1x4096, .f32⟩
  | .hbm, ⟨53, _⟩ => ⟨S_, .f32⟩
  | .hbm, ⟨54, _⟩ => ⟨S1x4096, .f32⟩
  | .hbm, ⟨55, _⟩ => ⟨S1x4096, .f32⟩
  | .hbm, ⟨56, _⟩ => ⟨S1x4096, .f32⟩
  | .hbm, ⟨57, _⟩ => ⟨S1x4096, .f32⟩
  | .hbm, ⟨58, _⟩ => ⟨S1x4096, .f32⟩
  | .hbm, ⟨59, _⟩ => ⟨S_, .f32⟩
  | .hbm, ⟨60, _⟩ => ⟨S1x4096, .f32⟩
  | .hbm, ⟨61, _⟩ => ⟨S1x4096, .f32⟩
  | .hbm, ⟨62, _⟩ => ⟨S1x4096, .f32⟩
  | .hbm, ⟨63, _⟩ => ⟨S1x4096, .f32⟩
  | .hbm, ⟨64, _⟩ => ⟨S1x4096, .f32⟩
  | .hbm, ⟨65, _⟩ => ⟨S1x1x4096, .f32⟩
  | .hbm, ⟨66, _⟩ => ⟨S1x4096, .f32⟩
  | .hbm, ⟨67, _⟩ => ⟨S4096x12288, .f32⟩
  | .hbm, ⟨68, _⟩ => ⟨S1x12288, .f32⟩
  | .hbm, ⟨69, _⟩ => ⟨S1x12288, .f32⟩
  | .hbm, ⟨70, _⟩ => ⟨S1x12288, .f32⟩
  | .hbm, ⟨71, _⟩ => ⟨S4096x12288, .f32⟩
  | .hbm, ⟨72, _⟩ => ⟨S1x12288, .f32⟩
  | .hbm, ⟨73, _⟩ => ⟨S1x12288, .f32⟩
  | .hbm, ⟨74, _⟩ => ⟨S1x12288, .f32⟩
  | .hbm, ⟨75, _⟩ => ⟨S1x4096, .f32⟩
  | .hbm, ⟨76, _⟩ => ⟨S1x4096, .f32⟩
  | .hbm, ⟨77, _⟩ => ⟨S1x4096, .f32⟩
  | .hbm, ⟨78, _⟩ => ⟨S1x4096, .f32⟩
  | .hbm, ⟨79, _⟩ => ⟨S1x4096, .f32⟩
  | .hbm, ⟨80, _⟩ => ⟨S1x4096, .f32⟩
  | .hbm, ⟨81, _⟩ => ⟨S1x4096, .f32⟩
  | .hbm, ⟨82, _⟩ => ⟨S1x4096, .f32⟩
  | .hbm, ⟨83, _⟩ => ⟨S1x4096, .f32⟩
  | .hbm, ⟨84, _⟩ => ⟨S_, .f32⟩
  | .hbm, ⟨85, _⟩ => ⟨S1x4096, .f32⟩
  | .hbm, ⟨86, _⟩ => ⟨S1x4096, .f32⟩
  | .hbm, ⟨87, _⟩ => ⟨S_, .f32⟩
  | .hbm, ⟨88, _⟩ => ⟨S1x4096, .f32⟩
  | .hbm, ⟨89, _⟩ => ⟨S1x4096, .f32⟩
  | .hbm, ⟨90, _⟩ => ⟨S1x4096, .f32⟩
  | .hbm, ⟨91, _⟩ => ⟨S1x4096, .f32⟩
  | .hbm, ⟨92, _⟩ => ⟨S1x4096, .f32⟩
  | .hbm, ⟨93, _⟩ => ⟨S_, .f32⟩
  | .hbm, ⟨94, _⟩ => ⟨S1x4096, .f32⟩
  | .hbm, ⟨95, _⟩ => ⟨S1x4096, .f32⟩
  | .hbm, ⟨96, _⟩ => ⟨S_, .f32⟩
  | .hbm, ⟨97, _⟩ => ⟨S1x4096, .f32⟩
  | .hbm, ⟨98, _⟩ => ⟨S1x4096, .f32⟩
  | .hbm, ⟨99, _⟩ => ⟨S1x4096, .f32⟩
  | .hbm, ⟨100, _⟩ => ⟨S1x4096, .f32⟩
  | .hbm, ⟨101, _⟩ => ⟨S1x4096, .f32⟩
  | .hbm, ⟨102, _⟩ => ⟨S_, .f32⟩
  | .hbm, ⟨103, _⟩ => ⟨S1x4096, .f32⟩
  | .hbm, ⟨104, _⟩ => ⟨S1x4096, .f32⟩
  | .hbm, ⟨105, _⟩ => ⟨S1x4096, .f32⟩
  | .hbm, ⟨106, _⟩ => ⟨S1x4096, .f32⟩
  | .hbm, ⟨107, _⟩ => ⟨S1x4096, .f32⟩
  | .hbm, ⟨108, _⟩ => ⟨S4096x256, .f32⟩
  | .hbm, ⟨109, _⟩ => ⟨S1x256, .f32⟩
  | .hbm, ⟨110, _⟩ => ⟨S1x256, .f32⟩
  | .hbm, ⟨111, _⟩ => ⟨S1x256, .f32⟩
  | .hbm, ⟨112, _⟩ => ⟨S1x1x4096, .f32⟩
  | .hbm, ⟨113, _⟩ => ⟨S1x1x4096, .f32⟩
  | .hbm, ⟨114, _⟩ => ⟨S2x1x4096, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst : Ref sig .tc := ⟨.hbm, 41, rfl⟩
abbrev main_v26 : Ref sig .tc := ⟨.hbm, 42, rfl⟩
abbrev main_v27 : Ref sig .tc := ⟨.hbm, 43, rfl⟩
abbrev main_cst_1 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_2 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_4 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_5 : Ref sig .tc := ⟨.hbm, 84, rfl⟩
abbrev main_v64 : Ref sig .tc := ⟨.hbm, 85, rfl⟩
abbrev main_v65 : Ref sig .tc := ⟨.hbm, 86, rfl⟩
abbrev main_cst_6 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_7 : Ref sig .tc := ⟨.hbm, 93, rfl⟩
abbrev main_v71 : Ref sig .tc := ⟨.hbm, 94, rfl⟩
abbrev main_v72 : Ref sig .tc := ⟨.hbm, 95, rfl⟩
abbrev main_cst_8 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_9 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  slices_S2x1x4096_S1x1x4096_0_0_0 : S2x1x4096.Slices ![0, 0, 0] S1x1x4096
  shapeCasts_S1x1x4096_S1x4096 : S1x1x4096.ShapeCasts S1x4096
  transposes_S12288x4096_S4096x12288_1_0 : S12288x4096.Transposes [1, 0] S4096x12288
  bcast_S12288_S1x12288_1 : S12288.BroadcastsInDim S1x12288 (![1] : Fin 1 → Fin S1x12288.rank)
  slices_S1x12288_S1x4096_0_0 : S1x12288.Slices ![0, 0] S1x4096
  slices_S1x12288_S1x4096_0_4096 : S1x12288.Slices ![0, 4096] S1x4096
  slices_S1x12288_S1x4096_0_8192 : S1x12288.Slices ![0, 8192] S1x4096
  bcast_S_S1x4096 : S_.BroadcastsInDim S1x4096 (![] : Fin 0 → Fin S1x4096.rank)
  slices_S2x1x4096_S1x1x4096_1_0_0 : S2x1x4096.Slices ![1, 0, 0] S1x1x4096
  transposes_S256x4096_S4096x256_1_0 : S256x4096.Transposes [1, 0] S4096x256
  bcast_S256_S1x256_1 : S256.BroadcastsInDim S1x256 (![1] : Fin 1 → Fin S1x256.rank)
  bcast_S1x4096_S1x1x4096_1_2 : S1x4096.BroadcastsInDim S1x1x4096 (![1, 2] : Fin 2 → Fin S1x1x4096.rank)
  concatenates_S1x1x4096_S1x1x4096_S2x1x4096_d0 : Shape.Concatenates [S1x1x4096, S1x1x4096] S2x1x4096 0
  gather_S256x4096_S1x1_S1x4096_1_0_n_n_0_1_14096_wf : GatherDims.WF S256x4096 S1x1 S1x4096 [1] [0] [] [0] [] 1 ![1, 4096]
  dot_S1x4096_S4096x12288_S1x12288_1_0_0_1_n_n_wf : DotDims.WF S1x4096 S4096x12288 S1x12288 [1] [0] [0] [1] [] []
  dot_S1x4096_S4096x256_S1x256_1_0_0_1_n_n_wf : DotDims.WF S1x4096 S4096x256 S1x256 [1] [0] [0] [1] [] []

variable [Facts₀]

def gather_S256x4096_S1x1_S1x4096_1_0_n_n_0_1_14096 : GatherDims S256x4096 S1x1 S1x4096 where
  offsetDims := [1]
  collapsedSliceDims := [0]
  operandBatchingDims := []
  startIndicesBatchingDims := []
  startIndexMap := [0]
  indexVectorDim := 1
  sliceSizes := ![1, 4096]
  wf := gather_S256x4096_S1x1_S1x4096_1_0_n_n_0_1_14096_wf
def dot_S1x4096_S4096x12288_S1x12288_1_0_0_1_n_n : DotDims S1x4096 S4096x12288 S1x12288 where
  lhsContracting := [1]
  rhsContracting := [0]
  lhsNonContracting := [0]
  rhsNonContracting := [1]
  lhsBatch := []
  rhsBatch := []
  wf := dot_S1x4096_S4096x12288_S1x12288_1_0_0_1_n_n_wf
def dot_S1x4096_S4096x256_S1x256_1_0_0_1_n_n : DotDims S1x4096 S4096x256 S1x256 where
  lhsContracting := [1]
  rhsContracting := [0]
  lhsNonContracting := [0]
  rhsNonContracting := [1]
  lhsBatch := []
  rhsBatch := []
  wf := dot_S1x4096_S4096x256_S1x256_1_0_0_1_n_n_wf

class Facts : Prop extends Facts₀ where

variable [Facts]
-- ==== Proof.K.Emb.lean ====
/-
  The embedding lookup's launch (the first pallas_call of the program), at the contents V the launch finds in
  the buffers and at admissible contents a of its one prefetched table.

  The grid has one point and one window, the output block [1,4096]. The body reads the table's one word w,
  takes row w of the [256,4096] embedding array, which stays in HBM, by a copy of its own onto its own DMA
  cell, straight into the output block's staging buffer, and waits for the copy before it returns. The row
  must lie inside the array: that is the side condition on w the body's run is stated under. The output
  block ends as row min(w,255) of the array, which under the side condition is row w.
-/
import proofs.«417261_j67628555043381_3_alg».proof.Proof.Gen.Kernel.Launch
import proofs.«417261_j67628555043381_3_alg».proof.Proof.Gen.Kernel.Skeleton
import Idealize.ShloMosaic.Lib.Pipeline.Launch
import Idealize.ShloMosaic.Lib.Exec.Geometry
import Idealize.ShloMosaic.Lib.Pipeline.Frame
import Idealize.ShloMosaic.Lib.Pipeline.Regions
import Idealize.ShloMosaic.Lib.Pipeline.RegionsLoop
import Idealize.ShloMosaic.Lib.Pipeline.Kit
import Idealize.ShloMosaic.Lib.ValueIdx
import Idealize.ShloMosaic.Lib.Pipeline.Value
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (a : (pcfg0 (F := F)).Adm)
-- the TensorCore's buffer contents when the region is entered: the parameter everything here is stated at
variable (V : (c : Dev nD) → (b : Ref sig .tc) → Buf (Elt F) ((c : Thread nD τ).loc b))

/-! ## The operands the pipeline does not stage -/

/-- The table, whole, as the body is handed it. -/
abbrev tabM0 : Memref sig .tc .smem S1 .i32 := Memref.whole main_v0
/-- The embedding array, whole, left in HBM. -/
abbrev hbM0 : Memref sig .tc .hbm S256x4096 .f32 := Memref.whole main_arg2
/-- The contents type of a memref's buffer on core `c`, and the buffer held whole at `f`. -/
abbrev MBuf0 (c : Dev nD) {sp : Space} {S : Shape} {e : EltTy} (M : Memref sig .tc sp S e) : Type := Buf (Elt F) (M.view.loc (c : Thread nD τ))
abbrev mPt0 (c : Dev nD) {sp : Space} {S : Shape} {e : EltTy} (M : Memref sig .tc sp S e) (f : MBuf0 (F := F) c M) : sProp 𝕄 :=
  M.view.loc (c : Thread nD τ) ↦{fullShare} f

/-- The table's one word, as a load of it through the table's memref reads it. -/
def word0 (pf : pre0.Contents (Elt F)) : BitVec 32 :=
  tabM0.view.readAt (Elt F) (Rect.unit (s := S1) ![0] S1.size inb_S1_S1_0).toLoadRect (pf 0) (Shape.Idx.first (numel1_S1.symm ▸ Nat.one_pos))

/-- A load of the table's one word reads the buffer's one entry, -/
theorem tabRead0 (f : (tabM0 : Memref sig .tc .smem S1 .i32).view.ty.Contents (Elt F)) :
    tabM0.view.readAt (Elt F) (Rect.unit (s := S1) ![0] S1.size inb_S1_S1_0).toLoadRect f (Shape.Idx.first (numel1_S1.symm ▸ Nat.one_pos))
      = (f : IVec S1 32) (ValueIdx.ix1 0) := by
  rw [View.readAt_apply, View.read_apply]
  have hi : tabM0.view.emb ((Rect.unit (s := S1) ![0] S1.size inb_S1_S1_0).toLoadRect.idx (Shape.Idx.first (numel1_S1.symm ▸ Nat.one_pos)))
      = ValueIdx.ix1 0 := by
    funext d
    match d with
    | ⟨0, _⟩ => rfl
  rw [hi]; rfl
/-- so that word is the table's entry. -/
theorem word0_eq (pf : pre0.Contents (Elt F)) : word0 pf = (pf 0 : IVec S1 32) (ValueIdx.ix1 0) := tabRead0 (pf 0)

/-- The row offsets at word `w`, cut to the array: row min(w,255), column 0. -/
def off0 (w : BitVec 32) : Fin 2 → Nat := ![min w.toNat 255, 0]
theorem off0_inb (w : BitVec 32) : ∀ ax, off0 w ax + S1x4096.size ax ≤ S256x4096.size ax := fun ax =>
  match ax with
  | ⟨0, _⟩ => by show min w.toNat 255 + 1 ≤ 256; omega
  | ⟨1, _⟩ => by show 0 + 4096 ≤ 4096; omega
/-- Under the side condition they are the offsets the body computes. -/
theorem off0_eq (w : BitVec 32) (h : k0_chk1 w) : k0_off1 w = off0 w := by
  have h0 : w.toNat + 1 ≤ 256 := h 0
  unfold k0_off1 off0
  rw [Nat.min_eq_left (by omega)]

/-- Row min(w,255) of the embedding array, as a memref. -/
abbrev rowM0 (w : BitVec 32) : Memref sig .tc .hbm S1x4096 .f32 :=
  hbM0.slice (Rect.unit (s := S256x4096) (off0 w) S1x4096.size (off0_inb w)) (fun _ => rfl)

/-- What the copy delivers: that row of the array's entry contents. -/
def row0 (c : Dev nD) : Vec F S1x4096 .f32 := (rowM0 (word0 a.1)).view.read (Elt F) (V c main_arg2)

/-! ## The kernel's own cell and the operand it copies from -/

/-- The body's own DMA cell. -/
abbrev osem0 : Fin 1 → SemLoc sig := fun j => (![SemLoc.dma 1] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 1) 0) := by
  rw [Pipeline.ownSems0_eq_of_list c osem0 [0] (by decide) (by decide)]; rfl

/-- The operand left in HBM that the body copies from: unscoped, no window's array, no table. -/
def H0 : Finset (Ref sig .tc) := {main_arg2}
theorem H0_sub : H0 ⊆ Pipeline.restRefsP sig pre0 spec0 := by decide
theorem hbmPts0_eq (c : Dev nD) :
    (bigSep H0 (fun b => ((c : Thread nD τ).loc b) ↦{fullShare} V c b) : sProp 𝕄) = iprop(mPt0 c hbM0 (V c main_arg2)) := by
  rw [BI.bigSep_eq_bigSepL_of_eq [main_arg2] (by decide) (by decide)]; rfl
/-- The table held whole is its one buffer's points-to. -/
theorem prefHeld0_eq (c : Dev nD) (pf : pre0.Contents (Elt F)) :
    (Pipeline.prefHeld (Ix := Unit) (Name := ℕ) (U := Pipeline.UD sig nD τ) (Lvl := ℕ) pre0 c (fun _ => fullShare) pf : sProp 𝕄)
      = iprop(mPt0 c tabM0 (pf 0)) := by
  unfold Pipeline.prefHeld; rw [bigSep_W0]; rfl

/-- The invariant: the scoped rest, the generator register, the own cell at zero, the embedding array whole at its
    entry contents, and the table whole at `a`'s contents. -/
def Inv0 (c : Dev nD) : sProp 𝕄 :=
  iprop(Pipeline.ΦD osem0 spec0 H0 V c ∗ Pipeline.prefHeld (Ix := Unit) (Name := ℕ) (U := Pipeline.UD sig nD τ) (Lvl := ℕ) pre0 c (fun _ => fullShare) a.1)

theorem Inv0_eq (c : Dev nD) :
    (Inv0 a V c : sProp 𝕄)
      = iprop(iprop(Pipeline.scopedRest (Ix := Unit) (Name := ℕ) (U := Pipeline.UD sig nD τ) (Lvl := ℕ) (Val := Elt F) spec0 c ∗ (∃ r, prngReg c r)
          ∗ iprop(semVal ((c : Thread nD τ), SemLoc.dma 1) 0) ∗ iprop(mPt0 c hbM0 (V c main_arg2))) ∗ iprop(mPt0 c tabM0 (a.1 0))) := by
  unfold Inv0; rw [Pipeline.ΦD_eq, ownSems00_eq, hbmPts0_eq, prefHeld0_eq]

/-! ## The proof data -/

def dat0 (c : Dev nD) : Dat τ (Elt F) Unit ℕ (Pipeline.UD sig nD τ) ℕ (cfg0 a) c where
  A w := V c (Pipeline.arrRef spec0 w)
  after w t := match w with
    | ⟨0, _⟩ => row0 a V c
  Φ _ := Inv0 a V c
  q _ := fullShare
  owed _ := 0

theorem A_eq0 (c : Dev nD) (w : Fin (cfg0 a).W) : (dat0 a V c).A w = V c (Pipeline.arrRef spec0 w) := by dsimp only [dat0]
theorem Phi0 (c : Dev nD) (n : Fin ((cfg0 a).N + 1)) : (dat0 a V c).Φ n = Inv0 a V c := by dsimp only [dat0]
theorem owed0 (c : Dev nD) (n : Fin ((cfg0 a).N + 1)) : (dat0 a V c).owed n = 0 := by dsimp only [dat0]
theorem after0_0 (c : Dev nD) (t : Fin (cfg0 a).N) : (dat0 a V c).after 0 t = row0 a V c := by dsimp only [dat0]; rfl

/-! ## The body's run -/

/-- A row read at two spellings of one offset. -/
theorem rowRead0_congr {off off' : Fin 2 → Nat} (e : off = off') (h : ∀ ax, off ax + S1x4096.size ax ≤ S256x4096.size ax)
    (c : Dev nD) (f : MBuf0 (F := F) c hbM0) :
    (hbM0.slice (Rect.unit (s := S256x4096) off S1x4096.size h) (fun _ => rfl)).view.read (Elt F) f
      = (hbM0.slice (Rect.unit (s := S256x4096) off' S1x4096.size (e ▸ h)) (fun _ => rfl)).view.read (Elt F) f := by
  subst e; rfl

/-- The body on any whole staging memref `arg3` of the output block: from the table at `a`'s contents, the staging
    buffer at anything, the own cell at zero, the embedding array at its entry contents and the core owing nothing,
    under the side condition on the table's word, it runs to the continuation holding the table, the cell and the
    array as they were and the staging buffer at the copied row. -/
theorem run0 (c : Dev nD) (i : grid0.Coords) (arg3 : Memref sig .tc .vmem S1x4096 .f32) (harg3 : arg3.IsWhole)
    (hchk : k0_chk1 (word0 a.1)) (W : Waits sig Unit) (K : PUnit → sProp 𝕄) :
    iprop(mPt0 c tabM0 (a.1 0) ∗ (∃ d, owns (c : Thread nD τ) arg3 fullShare d)
        ∗ semVal ((c : Thread nD τ), SemLoc.dma 1) 0 ∗ mPt0 c hbM0 (V c main_arg2) ∗ owes (c : Thread nD τ) 0 W
        ∗ (iprop(mPt0 c tabM0 (a.1 0) ∗ owns (c : Thread nD τ) arg3 fullShare (row0 a V c)
            ∗ semVal ((c : Thread nD τ), SemLoc.dma 1) 0 ∗ mPt0 c hbM0 (V c main_arg2) ∗ (∃ W', owes (c : Thread nD τ) 0 W')) -∗ K ⟨⟩))
      ⊢ wp frame (wpE (defs₀ (F := F)) Variants.none c none) Set.univ
          (cc0__emb_kernel i tabM0 (Memref.isWhole_whole _) hbM0 (Memref.isWhole_whole _) arg3 harg3 cc0_scratch0) K := by
  simp only [cc0__emb_kernel_eq_skeleton]; unfold cc0__emb_kernel_skel
  unfold owns
  unfold word0 at hchk
  iintro ⟨Ht, ⟨%d1, %f1, -, H1⟩, Hq0, Hh0, HW, Hk⟩
  sl_exec (disch := exact hchk)
  sl_step
  iapply Hk
  isplitl [Ht]; · iexact Ht
  isplitl [H1]
  · iexists _; isplitr; swap; · iexact H1
    ipureintro
    rw [View.read_writes_whole]
    exact rowRead0_congr (off0_eq _ hchk) _ c (V c main_arg2)
  isplitl [Hq0]; · iexact Hq0
  isplitl [Hh0]; · iexact Hh0
  iexists _; iexact HW

/-! ## The body obligation -/

/-- The staging buffer the output block is on at point `t`, and that it is a whole buffer. -/
abbrev ms0_0 (t : Fin (cfg0 a).N) : Memref sig .tc .vmem S1x4096 .f32 := spec0_0.stage ((cfg0 a).slots t 0)
abbrev hs0_0 (t : Fin (cfg0 a).N) : (ms0_0 a t).IsWhole := hstage0_0 (((cfg0 a).slots t 0).cast nbuf0_0)
/-- The body's call at point `t`: the table, the embedding array, the output block's current staging buffer, the own cell. -/
abbrev bodyAt0 (t : Fin (cfg0 a).N) : Prog (TpuEff nD τ sig (Elt F) Λ₀ .tc) PUnit :=
  cc0__emb_kernel (grid0.coords t) tabM0 (Memref.isWhole_whole _) hbM0 (Memref.isWhole_whole _) (ms0_0 a t) (hs0_0 a t) cc0_scratch0

/-- The obligation's precondition at point `t`: the invariant, what the core owes, the output block's staging buffer at anything. -/
def bodyPre0 (c : Dev nD) (t : Fin (cfg0 a).N) : sProp 𝕄 :=
  iprop((dat0 a V c).Φ t.castSucc ∗ (dat0 a V c).owesAt () t.castSucc
    ∗ (∃ d, owns (c : Thread nD τ) (ms0_0 a t) fullShare ((dat0 a V c).before 0 t d)))
/-- Its postcondition: the invariant and the debt unchanged, the staging buffer at the copied row. -/
def bodyPost0 (c : Dev nD) (t : Fin (cfg0 a).N) : sProp 𝕄 :=
  iprop((dat0 a V c).Φ t.succ ∗ (dat0 a V c).owesAt () t.succ
    ∗ owns (c : Thread nD τ) (ms0_0 a t) fullShare ((dat0 a V c).after 0 t))

/-- The body at the point: the invariant hands the run the table, the cell at zero and the embedding array, and takes
    them back as they were; the output block's staging buffer, at anything before, ends at the copied row. -/
theorem sound_body0 (c : Dev nD) (hchk : k0_chk1 (word0 a.1)) (t : Fin (cfg0 a).N) :
    bodyPre0 a V c t ⊢ wp frame (wpE (defs₀ (F := F)) Variants.none c none) Set.univ (bodyAt0 a t) (fun _ => bodyPost0 a V c t) := by
  unfold bodyPre0 bodyPost0 bodyAt0
  rw [Phi0, Phi0, after0_0, Inv0_eq]
  unfold Dat.owesAt Pipeline.owesWithin
  rw [owed0, owed0]
  iintro ⟨⟨⟨HR, Hg, Hq0, Hh0⟩, Ht⟩, ⟨%W, -, HW⟩, ⟨%d0, H0⟩⟩
  iapply (run0 a V c (grid0.coords t) _ _ hchk W _)
  isplitl [Ht]; · iexact Ht
  isplitl [H0]; · iexists _; iexact H0
  isplitl [Hq0]; · iexact Hq0
  isplitl [Hh0]; · iexact Hh0
  isplitl [HW]; · iexact HW
  iintro ⟨Ht, H0, Hq0, Hh0, ⟨%W', HW'⟩⟩
  isplitl [HR Hg Hq0 Hh0 Ht]
  · isplitl [HR Hg Hq0 Hh0]
    · isplitl [HR]; · iexact HR
      isplitl [Hg]; · iexact Hg
      isplitl [Hq0]; · iexact Hq0
      iexact Hh0
    iexact Ht
  isplitl [HW']
  · iexists W'; isplitr; · ipureintro; exact fun _ _ => Or.inl trivial
    iexact HW'
  iexact H0

/-- The body obligation at the grid's one point, under the side condition on the table's word. -/
theorem body_obligation0 (c : Dev nD) (hchk : k0_chk1 (word0 a.1)) :
    BodyObligation (dat0 (F := F) a V c) (defs₀ (F := F)) Variants.none () Set.univ := fun t => by
  rw [bigSep_W0, bigSep_W0]
  exact sound_body0 a V c hchk t

/-! ## What the output block holds, entry by entry -/

/-- The output block at column `j` is the embedding array's entry contents at row min(w,255), column `j`: stated at
    any index `y` of the array with those two coordinates. -/
theorem after0_0_apply (c : Dev nD) (t : Fin (cfg0 a).N) (j : S1x4096.Idx) (y : S256x4096.Idx)
    (hy0 : (y 0).val = min (word0 a.1).toNat 255) (hy1 : (y 1).val = (j 1).val) :
    (dat0 a V c).after 0 t j = V c main_arg2 y := by
  rw [after0_0]; unfold row0
  have hy : (Rect.unit (s := S256x4096) (off0 (word0 a.1)) S1x4096.size (off0_inb _)).emb j = y := by
    funext ax; apply Fin.ext; rw [Rect.emb_apply]
    match ax with
    | ⟨0, _⟩ =>
      have h0 : (j 0).val < 1 := (j 0).isLt
      show min (word0 a.1).toNat 255 + 1 * (j 0).val = (y 0).val
      omega
    | ⟨1, _⟩ =>
      show 0 + 1 * (j 1).val = (y 1).val
      omega
  rw [← hy]; rfl

/-! ## What the output array holds after the launch -/

/-- The output block is written back at the grid's one point. -/
theorem flush0_0 : ∀ t : Fin (cfg0 a).N, ((cfg0 a).win 0).flush t = true :=
  (by decide +kernel : ∀ t : Fin grid0.N, Pipeline.Window.flushOf grid0 true cc0_transform_1 t = true)

/-- The one block is the whole array: an element of the block sits in the array at its own index. -/
theorem blkEmb0 (j : S1x4096.Idx) : (((cfg0 a).win 0).blk t0_0).view.emb j = j := by
  funext ax; apply Fin.ext
  exact Pipeline.Window.rect_emb_val_of_index_zero ((cfg0 a).win 0) t0_0 ax
    (match ax with | ⟨0, _⟩ => rfl | ⟨1, _⟩ => rfl) j

/-- So after the launch the output array at column `j` is the embedding array's entry contents at row min(w,255),
    column `j`. -/
theorem embArr_apply (c : Dev nD) (j : S1x4096.Idx) (y : S256x4096.Idx)
    (hy0 : (y 0).val = min (word0 a.1).toNat 255) (hy1 : (y 1).val = (j 1).val) :
    (dat0 a V c).arrAt 0 (cfg0 a).N j = V c main_arg2 y := by
  have hdisj : ∀ t t' : Fin (cfg0 a).N, ((cfg0 a).win 0).flush t = true → ((cfg0 a).win 0).flush t' = true → t ≠ t' →
      Disjoint (((cfg0 a).win 0).blk t).view.set (((cfg0 a).win 0).blk t').view.set :=
    fun t t' _ _ hne => absurd ((fin_N0 t).trans (fin_N0 t').symm) hne
  have h := (dat0 a V c).arrAt_emb_eq_flushed 0 hdisj t0_0 (flush0_0 a t0_0) j
  rw [blkEmb0 a j] at h
  exact h.trans (after0_0_apply a V c t0_0 j y hy0 hy1)

/-! ## The region's four entailments, at an entry valuation `W` -/

variable (W : Dev nD → Valuation τ sig (Elt F))
/-- the valuation read at the TensorCore's references -/
abbrev VW0 : (c : Dev nD) → (b : Ref sig .tc) → Buf (Elt F) ((c : Thread nD τ).loc b) := fun c b => W c b
/-- what rides beside the buffers: the generator register at some state, and the core owing nothing -/
abbrev Rst0 (c : Dev nD) : sProp 𝕄 := iprop((∃ r, prngReg c r) ∗ ∃ Wt, owes (c : Thread nD τ) (0 : CellTallies nD τ sig Unit) Wt)
/-- the buffers after the region: only the output array main_v1 changes, to what the write-backs leave -/
abbrev Wout0 (c : Dev nD) : Valuation τ sig (Elt F) := Function.update (W c) main_v1 ((dat0 a (VW0 W) c).arrAt 0 (cfg0 a).N)

/-- What enters the invariant: the generator register, the own cell at zero, the embedding array. -/
abbrev X0 (c : Dev nD) : sProp 𝕄 :=
  iprop((∃ r, prngReg c r) ∗ Pipeline.ownSems0 (Ix := Unit) (Name := ℕ) (U := Pipeline.UD sig nD τ) (Lvl := ℕ) (Val := Elt F) (τ := τ) osem0 c
    ∗ (bigSep H0 fun b => ((c : Thread nD τ).loc b) ↦{fullShare} VW0 W c b))
/-- What it gives back: the register, the embedding array, the table. -/
abbrev Y0 (c : Dev nD) : sProp 𝕄 :=
  iprop((∃ r, prngReg c r) ∗ (bigSep H0 fun b => ((c : Thread nD τ).loc b) ↦{fullShare} VW0 W c b)
    ∗ Pipeline.prefHeld (Ix := Unit) (Name := ℕ) (U := Pipeline.UD sig nD τ) (Lvl := ℕ) pre0 c (fun _ => fullShare) a.1)
/-- What bypasses the region: every other unscoped buffer that is no array of a window and no table. -/
abbrev Z0 (c : Dev nD) : sProp 𝕄 :=
  bigSep (Pipeline.restRefsP sig pre0 spec0 \ H0) fun b => ((c : Thread nD τ).loc b) ↦{fullShare} VW0 W c b

/-- The launch as a family of one pipeline: the form in which a core's unscoped buffers split into a pipeline's arrays and the rest. -/
abbrev pcsE0 : Unit → Pipeline.PCfg sig Λ₀ (Elt F) := fun _ => pcfg0
abbrev admE0 : (p : Unit) → (pcsE0 (F := F) p).Adm := fun _ => a
abbrev datsE0 : (p : Unit) → (c : Dev nD) → Dat τ (Elt F) Unit ℕ (Pipeline.UD sig nD τ) ℕ (Pipeline.pin (pcsE0 (F := F)) (admE0 a) p) c :=
  fun _ c => dat0 a (VW0 W) c

/-- The unscoped buffers that are no window's array, at the entry valuation: the table, the embedding array, the others. -/
theorem rest0_eq (c : Dev nD) :
    (Pipeline.unscopedRest (Ix := Unit) (Name := ℕ) (U := Pipeline.UD sig nD τ) (Lvl := ℕ) spec0 c (VW0 W c) : sProp 𝕄)
      = iprop(Pipeline.prefHeld (Ix := Unit) (Name := ℕ) (U := Pipeline.UD sig nD τ) (Lvl := ℕ) pre0 c (fun _ => fullShare) (fun k => VW0 W c (pre0.ref k))
          ∗ (bigSep H0 fun b => ((c : Thread nD τ).loc b) ↦{fullShare} VW0 W c b) ∗ Z0 W c) := by
  rw [Pipeline.unscopedRest_split preFacts0 c (VW0 W c), Pipeline.unscopedRestP_sdiff pre0 spec0 H0 H0_sub c (VW0 W c)]

set_option backward.isDefEq.respectTransparency.types false in
theorem entry0 (c : Dev nD) (ha : ∀ k, a.1 k = VW0 W c (pre0.ref k)) :
    iprop(iprop(StableHlo.held (c : Thread nD τ) (Pipeline.ucRefs τ sig) (W c) ∗ Rst0 c)
        ∗ Pipeline.ownSems0 (Ix := Unit) (Name := ℕ) (U := Pipeline.UD sig nD τ) (Lvl := ℕ) (Val := Elt F) (τ := τ) osem0 c
        ∗ levAts (fun _ => ∅) (fun _ _ => 0))
      ⊢ |={Set.univ}=> iprop((dat0 a (VW0 W) c).arrays ((dat0 a (VW0 W) c).arrAt · 0)
          ∗ Pipeline.prefHeld (Ix := Unit) (Name := ℕ) (U := Pipeline.UD sig nD τ) (Lvl := ℕ) pre0 c (fun _ => fullShare) a.1
          ∗ (dat0 a (VW0 W) c).owesAt () 0 ∗ X0 W c ∗ Z0 W c) := by
  have hsplit := Pipeline.arrays_of_unscopedBufs (p := ()) (pcsE0 (F := F)) (admE0 a) (datsE0 a W) winFacts0 arr_whole0 c
    ((dat0 a (VW0 W) c).share_full fun _ => rfl) (VW0 W c) fun _ => rfl
  rw [Pipeline.unscopedBufs_held] at hsplit
  have hpf : (fun k => VW0 W c (pre0.ref k)) = a.1 := funext fun k => (ha k).symm
  have hR := rest0_eq W c
  rw [hpf] at hR
  iintro ⟨⟨Hub, Hp, HO⟩, Hos, -⟩
  ihave H := hsplit $$ Hub
  icases H with ⟨Ha, Hrest⟩
  ihave H' := (Entails.of_eq hR) $$ Hrest
  icases H' with ⟨Ht, HH, HZ⟩
  imodintro
  isplitl [Ha]; · iexact Ha
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp Hos HH]
  · isplitl [Hp]; · iexact Hp
    isplitl [Hos]; · iexact Hos
    iexact HH
  iexact HZ

theorem in0 (c : Dev nD) :
    iprop(X0 W c ∗ Pipeline.prefHeld (Ix := Unit) (Name := ℕ) (U := Pipeline.UD sig nD τ) (Lvl := ℕ) pre0 c (fun _ => fullShare) a.1
        ∗ Pipeline.scopedRest (Ix := Unit) (Name := ℕ) (U := Pipeline.UD sig nD τ) (Lvl := ℕ) (Val := Elt F) spec0 c)
      ⊢ (dat0 a (VW0 W) c).Φ 0 := by
  rw [Phi0]; unfold Inv0; rw [Pipeline.ΦD_eq]
  iintro ⟨⟨Hp, Ho, HH⟩, Ht, Hr⟩
  isplitl [Hr Hp Ho HH]
  · isplitl [Hr]; · iexact Hr
    isplitl [Hp]; · iexact Hp
    isplitl [Ho]; · iexact Ho
    iexact HH
  iexact Ht

theorem out0 (c : Dev nD) :
    (dat0 a (VW0 W) c).Φ (Fin.last (cfg0 a).N)
      ⊢ iprop(Y0 a W c ∗ Pipeline.ownSems0 (Ix := Unit) (Name := ℕ) (U := Pipeline.UD sig nD τ) (Lvl := ℕ) (Val := Elt F) (τ := τ) osem0 c
          ∗ Pipeline.scopedRest (Ix := Unit) (Name := ℕ) (U := Pipeline.UD sig nD τ) (Lvl := ℕ) (Val := Elt F) spec0 c) := by
  rw [Phi0]; unfold Inv0; rw [Pipeline.ΦD_eq]
  iintro ⟨⟨Hr, Hp, Ho, HH⟩, Ht⟩
  isplitl [Hp HH Ht]
  · isplitl [Hp]; · iexact Hp
    isplitl [HH]; · iexact HH
    iexact Ht
  isplitl [Ho]; · iexact Ho
  iexact Hr

/-- At the exit the output array holds what the write-backs leave, and every other buffer what it held at entry. -/
theorem hF0 (c : Dev nD) (w : Fin (cfg0 a).W) :
    (dat0 a (VW0 W) c).arrAt w (cfg0 a).N = Wout0 a W c (Pipeline.arrRef spec0 w) :=
  match w with
  | ⟨0, _⟩ => (Function.update_self (f := W c) (Proc.devRef .tc main_v1) _).symm
theorem hrest0 (c : Dev nD) : ∀ b, b ∉ Finset.univ.image (Pipeline.arrRef spec0) → Wout0 a W c b = VW0 W c b :=
  fun b hb => Function.update_of_ne (fun e => hb (Finset.mem_image.mpr ⟨0, Finset.mem_univ _, (Proc.devRef_injective _ e).symm⟩)) _ _

set_option backward.isDefEq.respectTransparency.types false in
theorem exit0 (c : Dev nD) (ha : ∀ k, a.1 k = VW0 W c (pre0.ref k)) :
    iprop((dat0 a (VW0 W) c).arrays ((dat0 a (VW0 W) c).arrAt · (cfg0 a).N) ∗ (dat0 a (VW0 W) c).owesAt () (Fin.last (cfg0 a).N)
        ∗ Y0 a W c ∗ Z0 W c)
      ⊢ |={Set.univ}=> iprop(StableHlo.held (c : Thread nD τ) (Pipeline.ucRefs τ sig) (Wout0 a W c) ∗ Rst0 c) := by
  have hjoin := Pipeline.unscopedBufs_of_arrays (p := ()) (pcsE0 (F := F)) (admE0 a) (Ix := Unit) (Name := ℕ) (U := Pipeline.UD sig nD τ) (Lvl := ℕ)
    winFacts0 arr_whole0 c (datsE0 a W) ((dat0 a (VW0 W) c).share_full fun _ => rfl)
    (VW0 W c) (fun b => Wout0 a W c b) ((dat0 a (VW0 W) c).arrAt · (cfg0 a).N) (hF0 a W c) (hrest0 a W c)
  rw [Pipeline.unscopedBufs_held] at hjoin
  have hpf : (fun k => VW0 W c (pre0.ref k)) = a.1 := funext fun k => (ha k).symm
  have hR := rest0_eq W c
  rw [hpf] at hR
  iintro ⟨Ha, HO, ⟨Hp, HH, Ht⟩, HZ⟩
  ihave Hrest := (Entails.of_eq hR.symm) $$ [Ht HH HZ]
  · isplitl [Ht]; · iexact Ht
    isplitl [HH]; · iexact HH
    iexact HZ
  imodintro
  isplitl [Ha Hrest]
  · iapply hjoin; isplitl [Ha] <;> iassumption
  isplitl [Hp]; · iexact Hp
  unfold Pipeline.Dat.owesAt Pipeline.owesWithin
  icases HO with ⟨%Wt, -, HO⟩; iexists Wt; iexact HO

end Cert.Kernel.Reg
end
-- ==== Proof.K.GruA.lean ====
/-
  The first recurrent layer's launch (the second pallas_call of the program), at the contents V the
  launch finds in the buffers: what each grid point's body leaves in the output block, the proof data,
  and the body obligation at every point.

  A grid point t handles 128 of the 4096 hidden units. Its body reads the whole input row x and the whole
  previous hidden row h, the three gate slabs [3,128,4096] of both weight arrays, the three gate rows
  [3,128] of both biases and its own 128 entries of h, and stores
     (1 - z) * n + z * h_own,   r = sigma(i_r + h_r), z = sigma(i_z + h_z), n = tanh(i_n + r * h_n),
  each gate pre-activation a product of a row with a transposed slab plus a bias row.
-/
import proofs.«417261_j67628555043381_3_alg».proof.Proof.Gen.Kernel.Launch
import proofs.«417261_j67628555043381_3_alg».proof.Proof.Gen.Kernel.Skeleton
import proofs.«417261_j67628555043381_3_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered: the parameter everything here is stated at
variable (V : (c : Dev nD) → (b : Ref sig .tc) → Buf (Elt F) ((c : Thread nD τ).loc b))

/-- Window `w`'s block at grid point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-block rectangles the body reads and writes through: each starts at the origin of its block and
    has the block's extents. -/
abbrev rRow : Rect S1x4096 := Rect.unit (s := S1x4096) ![0, 0] S1x4096.size inb_S1x4096_S1x4096_0_0
abbrev rSlab : Rect S3x128x4096 := Rect.unit (s := S3x128x4096) ![0, 0, 0] S3x128x4096.size inb_S3x128x4096_S3x128x4096_0_0_0
abbrev rBias : Rect S3x128 := Rect.unit (s := S3x128) ![0, 0] S3x128.size inb_S3x128_S3x128_0_0
abbrev rTile : Rect S1x128 := Rect.unit (s := S1x128) ![0, 0] S1x128.size inb_S1x128_S1x128_0_0

/-- What the body leaves in the output block, as a function of the seven input blocks. -/
def out1_7 (x0 x1 : Vec F S1x4096 .f32) (x2 x3 : Vec F S3x128x4096 .f32) (x4 x5 : Vec F S3x128 .f32) (x6 : Vec F S1x128 .f32) : Vec F S1x128 .f32 :=
  View.canon [⟨rTile, k1_pay1 (k1_pay3 (View.ld x1 rRow)) (k1_pay5 (View.ld x3 rSlab)) (k1_pay7 (View.ld x5 rBias)) (k1_pay8 (View.ld x6 rTile))
    (k1_pay9 (View.ld x0 rRow) (View.ld x2 rSlab) (View.ld x4 rBias))
    (k1_pay10 (View.ld x0 rRow) (View.ld x2 rSlab) (View.ld x4 rBias))
    (k1_pay11 (View.ld x0 rRow) (View.ld x2 rSlab) (View.ld x4 rBias))
    (k1_pay12 (View.ld x1 rRow) (View.ld x3 rSlab) (View.ld x5 rBias))
    (k1_pay13 (View.ld x3 rSlab))⟩]

/-- The one store is of the whole output block, so it covers it. -/
theorem cover1_7 (p0 : Vec F S1x128 .f32) (y : S1x128.Idx) :
    ∃ pc ∈ ([⟨rTile, p0⟩] : List (View.Piece (Elt F) S1x128 .f32)), y ∈ pc.1.set :=
  View.cover_of_tiled [⟨rTile, p0⟩] S1x128.size (by rfl) y

/-! ## The body's triple -/

set_option maxHeartbeats 1000000 in
/-- The body on whole staging memrefs, the seven inputs' read at contents `x0 … x6` and the output's at anything:
    it runs to the continuation with the inputs' as they were and the output's at `out1_7` of them. The body
    reads the output block once before its one store; nothing it stores depends on that value. -/
theorem sound_kernel1 (c : Dev nD) (E : Set ℕ) (i : grid1.Coords)
    (arg1 : Memref sig .tc .vmem S1x4096 .f32) (harg1 : arg1.IsWhole) (arg2 : Memref sig .tc .vmem S1x4096 .f32) (harg2 : arg2.IsWhole)
    (arg3 : Memref sig .tc .vmem S3x128x4096 .f32) (harg3 : arg3.IsWhole) (arg4 : Memref sig .tc .vmem S3x128x4096 .f32) (harg4 : arg4.IsWhole)
    (arg5 : Memref sig .tc .vmem S3x128 .f32) (harg5 : arg5.IsWhole) (arg6 : Memref sig .tc .vmem S3x128 .f32) (harg6 : arg6.IsWhole)
    (arg7 : Memref sig .tc .vmem S1x128 .f32) (harg7 : arg7.IsWhole) (arg8 : Memref sig .tc .vmem S1x128 .f32) (harg8 : arg8.IsWhole)
    (x0 x1 : Vec F S1x4096 .f32) (x2 x3 : Vec F S3x128x4096 .f32) (x4 x5 : Vec F S3x128 .f32) (x6 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6
            ∗ owns (c : Thread nD τ) arg8 fullShare (out1_7 x0 x1 x2 x3 x4 x5 x6)) -∗ K ⟨⟩))
      ⊢ wp frame (wpE (defs₀ (F := F)) Variants.none c none) E
          (cc1__gru_kernel i arg1 harg1 arg2 harg2 arg3 harg3 arg4 harg4 arg5 harg5 arg6 harg6 arg7 harg7 arg8 harg8) K := by
  simp only [cc1__gru_kernel_eq_skeleton]; unfold cc1__gru_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-- The share of each input array a window holds: the previous hidden row's array is behind windows 1 and 6,
    which take the two halves of it; every other array is behind one window, which holds all of it. -/
def q1 : Fin cfg1.W → PosShare TreeShare := fun w => if w = 1 then fullShare.left else if w = 6 then fullShare.right else fullShare

/-- The proof data: arrays as found; inputs keep their blocks, the output block is `out1_7` of them; the
    previous hidden row's array is read through two windows (1 and 6), each holding half of it. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q := q1
  owed _ := 0

theorem A_eq1 (c : Dev nD) (w : Fin cfg1.W) : (dat1 V c).A w = V c (Pipeline.arrRef spec1 w) := by dsimp only [dat1]
theorem Phi1 (c : Dev nD) (n : Fin (cfg1.N + 1)) : (dat1 V c).Φ n = Pipeline.ΦA spec1 c := by dsimp only [dat1]
theorem owed1 (c : Dev nD) (n : Fin (cfg1.N + 1)) : (dat1 V c).owed n = 0 := by dsimp only [dat1]
theorem recorded1 (c : Dev nD) (n : Fin (cfg1.N + 1)) : (dat1 V c).recorded n = Set.univ := by dsimp only [dat1]
theorem q_eq1 (c : Dev nD) : (dat1 V c).q = q1 := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-! ## What the body finds in each input's buffer -/

/-- Each input's current staging buffer holds its block at every point, whether the point fetched it or an
    earlier one did: no input window is cut or idle, and the body leaves each input block as it found it. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-! ## The body obligation, at a generic point -/

/-- What the body is called with at point `t`: the invariant, nothing owed, and the eight current staging memrefs. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What it returns: the same, each memref at what the proof data say the body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the seven inputs' memrefs hold their blocks, so the body's triple applies; the
    invariant and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [Phi1, Phi1,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation at every grid point. -/
theorem body_obligation1 (c : Dev nD) : BodyObligation (dat1 (F := F) V c) (defs₀ (F := F)) Variants.none () Set.univ := fun t => by
  rw [bigSep_W1, bigSep_W1]
  exact sound_body1 V c t

end Cert.Kernel.Reg

end
-- ==== Proof.K.GruARec.lean ====
/-
  The first recurrent layer's launch seen from the host program: how the TensorCore's buffers are
  handed to the pipeline when the region is entered and taken back when it is left.

  The launch has eight windows over seven arrays: the previous hidden row is behind two windows, once whole
  (window 1) and once as the point's own 128 entries (window 6). Both only read it, so each window holds half
  of that array's share; every other array is behind one window, which holds all of it. At entry the array's
  full share is cut into the two halves; at exit, both halves still at the contents found at entry, they are
  put back together. The only array whose contents change is the output row.
-/
import proofs.«417261_j67628555043381_3_alg».proof.Proof.K.GruA
import proofs.«417261_j67628555043381_3_alg».proof.Proof.Gen.Kernel.Launch
import Idealize.ShloMosaic.Lib.Pipeline.Launch
import Idealize.ShloMosaic.Lib.Pipeline.Kit
import Idealize.ShloMosaic.Lib.Pipeline.Cells
import Idealize.ShloMosaic.Lib.Pipeline.Dat
import Idealize.ShloMosaic.Lib.Pipeline.Frame
import Idealize.ShloMosaic.Lib.Pipeline.Regions
import Idealize.ShloMosaic.Lib.StableHlo.Run
import Idealize.ShloMosaic.Rules.PointsTo
import Idealize.SL.RA.TreeShare
import Mathlib.Logic.Function.Basic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.Kernel Cert.Kernel.Gen

variable {F : FTy → Type} [FloatOps F]

local notation "𝕄" => MT nD τ sig Unit (Elt F) ℕ (Pipeline.UD sig nD τ) ℕ

-- the buffers' contents on every core when the region is entered
variable (W : Dev nD → Valuation τ sig (Elt F))

/-- The entry contents read at the TensorCore's references. -/
abbrev VW1 : (c : Dev nD) → (b : Ref sig .tc) → Buf (Elt F) ((c : Thread nD τ).loc b) := fun c b => W c b

/-- What rides beside the buffers: the generator register at some state, and the core owing nothing. -/
abbrev Rst1 (c : Dev nD) : sProp 𝕄 :=
  iprop((∃ r, prngReg c r) ∗ ∃ Wt, owes (c : Thread nD τ) (0 : CellTallies nD τ sig Unit) Wt)

/-- The buffers after the region: only the output row changes, to what the write-backs leave in it. -/
abbrev Wout1 (c : Dev nD) : Valuation τ sig (Elt F) :=
  Function.update (W c) main_v10 ((dat1 (VW1 W) c).arrAt 7 cfg1.N)

/-- What enters the invariant: the generator register at some state. -/
abbrev X1 (W : Dev nD → Valuation τ sig (Elt F)) (c : Dev nD) : sProp 𝕄 := iprop(∃ r, prngReg c r)
/-- What the invariant gives back: the same. -/
abbrev Y1 (W : Dev nD → Valuation τ sig (Elt F)) (c : Dev nD) : sProp 𝕄 := iprop(∃ r, prngReg c r)
/-- What goes around the region: the unscoped buffers behind no window, at the entry contents. -/
abbrev Z1 (c : Dev nD) : sProp 𝕄 :=
  Pipeline.unscopedRest (Ix := Unit) (Name := ℕ) (U := Pipeline.UD sig nD τ) (Lvl := ℕ) spec1 c (VW1 W c)

/-! ## The arrays' buffers and the windows' holdings -/

/-- The share window `w` holds of its array: the halves for the two windows on the previous hidden row, all of it
    for every other (the output's because it is the output). -/
theorem share1_0 (c : Dev nD) : (dat1 (VW1 W) c).share 0 = fullShare := by unfold Dat.share; rw [q_eq1]; rfl
theorem share1_1 (c : Dev nD) : (dat1 (VW1 W) c).share 1 = fullShare.left := by unfold Dat.share; rw [q_eq1]; rfl
theorem share1_2 (c : Dev nD) : (dat1 (VW1 W) c).share 2 = fullShare := by unfold Dat.share; rw [q_eq1]; rfl
theorem share1_3 (c : Dev nD) : (dat1 (VW1 W) c).share 3 = fullShare := by unfold Dat.share; rw [q_eq1]; rfl
theorem share1_4 (c : Dev nD) : (dat1 (VW1 W) c).share 4 = fullShare := by unfold Dat.share; rw [q_eq1]; rfl
theorem share1_5 (c : Dev nD) : (dat1 (VW1 W) c).share 5 = fullShare := by unfold Dat.share; rw [q_eq1]; rfl
theorem share1_6 (c : Dev nD) : (dat1 (VW1 W) c).share 6 = fullShare.right := by unfold Dat.share; rw [q_eq1]; rfl
theorem share1_7 (c : Dev nD) : (dat1 (VW1 W) c).share 7 = fullShare := by unfold Dat.share; rfl

/-- The windows' holdings, each array a whole buffer: window `w` holds the buffer behind its array at its share. -/
theorem arrays_eq1 (c : Dev nD)
    (Fn : (w : Fin cfg1.W) → Buf (Elt F) ((cfg1.win w).arr.view.loc (c : Thread nD τ))) :
    (dat1 (VW1 W) c).arrays Fn
      = bigSep Finset.univ fun w : Fin cfg1.W =>
          (((c : Thread nD τ).loc (Pipeline.arrRef spec1 w)) ↦{(dat1 (VW1 W) c).share w} Fn w : sProp 𝕄) := by
  unfold Dat.arrays
  exact bigSep_congr fun w _ => by rw [(Gen.arr_whole1 w).set_eq_univ]

/-- Before the first point every array holds the entry contents. -/
theorem arrAt0_1 (c : Dev nD) (w : Fin cfg1.W) :
    (dat1 (VW1 W) c).arrAt w 0 = VW1 W c (Pipeline.arrRef spec1 w) :=
  (show (dat1 (VW1 W) c).arrAt w 0 = (dat1 (VW1 W) c).A w from rfl).trans (A_eq1 (VW1 W) c w)

/-- An input's array is never written: after the last point it still holds the entry contents. -/
theorem arrAtN_1 (c : Dev nD) (w : Fin cfg1.W) (hin : (cfg1.win w).isOut = false) :
    (dat1 (VW1 W) c).arrAt w cfg1.N = VW1 W c (Pipeline.arrRef spec1 w) :=
  ((dat1 (VW1 W) c).arrAt_in w hin cfg1.N).trans (A_eq1 (VW1 W) c w)

/-- Window `w`'s holding before the first point, read at the buffer `b` behind its array and at the share `q` it
    holds: that buffer at the entry contents. -/
theorem hold0_1 (c : Dev nD) (w : Fin cfg1.W) (b : Ref sig .tc) (hb : Pipeline.arrRef spec1 w = b)
    (q : PosShare TreeShare) (hq : (dat1 (VW1 W) c).share w = q) :
    ((((c : Thread nD τ).loc (Pipeline.arrRef spec1 w)) ↦{(dat1 (VW1 W) c).share w} (dat1 (VW1 W) c).arrAt w 0) : sProp 𝕄)
      = (((c : Thread nD τ).loc b) ↦{q} W c b) := by
  subst hb; rw [hq, arrAt0_1]

/-- The same after the last point, for an input: its array was never written. -/
theorem holdN_1 (c : Dev nD) (w : Fin cfg1.W) (hin : (cfg1.win w).isOut = false) (b : Ref sig .tc)
    (hb : Pipeline.arrRef spec1 w = b) (q : PosShare TreeShare) (hq : (dat1 (VW1 W) c).share w = q) :
    ((((c : Thread nD τ).loc (Pipeline.arrRef spec1 w)) ↦{(dat1 (VW1 W) c).share w} (dat1 (VW1 W) c).arrAt w cfg1.N) : sProp 𝕄)
      = (((c : Thread nD τ).loc b) ↦{q} W c b) := by
  subst hb; rw [hq, arrAtN_1 W c w hin]

/-- The seven buffers behind the eight windows, one by one. -/
theorem arrBufs1_eq (c : Dev nD) (V : (b : Ref sig .tc) → Buf (Elt F) ((c : Thread nD τ).loc b)) :
    (Pipeline.arrBufs (Ix := Unit) (Name := ℕ) (U := Pipeline.UD sig nD τ) (Lvl := ℕ) spec1 c V : sProp 𝕄)
      = iprop((((c : Thread nD τ).loc main_v1) ↦{fullShare} V main_v1) ∗ (((c : Thread nD τ).loc main_v3) ↦{fullShare} V main_v3)
          ∗ (((c : Thread nD τ).loc main_v6) ↦{fullShare} V main_v6) ∗ (((c : Thread nD τ).loc main_v7) ↦{fullShare} V main_v7)
          ∗ (((c : Thread nD τ).loc main_v8) ↦{fullShare} V main_v8) ∗ (((c : Thread nD τ).loc main_v9) ↦{fullShare} V main_v9)
          ∗ (((c : Thread nD τ).loc main_v10) ↦{fullShare} V main_v10)) := by
  unfold Pipeline.arrBufs
  exact BI.bigSep_eq_bigSepL_of_eq [main_v1, main_v3, main_v6, main_v7, main_v8, main_v9, main_v10] (by decide) (by decide) _

/-- ENTRY, the arrays: the seven buffers behind the windows, each whole at the entry contents, are the eight
    windows' holdings — the previous hidden row's buffer cut into the halves windows 1 and 6 hold. -/
theorem arrays_split1 (c : Dev nD) :
    (Pipeline.arrBufs (Ix := Unit) (Name := ℕ) (U := Pipeline.UD sig nD τ) (Lvl := ℕ) spec1 c (VW1 W c) : sProp 𝕄)
      ⊢ (dat1 (VW1 W) c).arrays ((dat1 (VW1 W) c).arrAt · 0) := by
  rw [arrays_eq1, Gen.bigSep_W1, arrBufs1_eq]
  iintro ⟨H1, H3, H6, H7, H8, H9, H10⟩
  ihave H3' := (pointsTo_share (PosShare.mem_left_op_right fullShare)).1 $$ H3
  icases H3' with ⟨H3l, H3r⟩
  isplitl [H1]; · rw [hold0_1 W c 0 main_v1 rfl _ (share1_0 W c)]; iexact H1
  isplitl [H3l]; · rw [hold0_1 W c 1 main_v3 rfl _ (share1_1 W c)]; iexact H3l
  isplitl [H6]; · rw [hold0_1 W c 2 main_v6 rfl _ (share1_2 W c)]; iexact H6
  isplitl [H7]; · rw [hold0_1 W c 3 main_v7 rfl _ (share1_3 W c)]; iexact H7
  isplitl [H8]; · rw [hold0_1 W c 4 main_v8 rfl _ (share1_4 W c)]; iexact H8
  isplitl [H9]; · rw [hold0_1 W c 5 main_v9 rfl _ (share1_5 W c)]; iexact H9
  isplitl [H3r]; · rw [hold0_1 W c 6 main_v3 rfl _ (share1_6 W c)]; iexact H3r
  rw [hold0_1 W c 7 main_v10 rfl _ (share1_7 W c)]; iexact H10

/-- The two halves of the previous hidden row's buffer, both still at the entry contents, are the whole of it. -/
theorem join_hidden1 (c : Dev nD) :
    (iprop((((c : Thread nD τ).loc (Pipeline.arrRef spec1 1)) ↦{(dat1 (VW1 W) c).share 1} (dat1 (VW1 W) c).arrAt 1 cfg1.N)
        ∗ (((c : Thread nD τ).loc (Pipeline.arrRef spec1 6)) ↦{(dat1 (VW1 W) c).share 6} (dat1 (VW1 W) c).arrAt 6 cfg1.N)) : sProp 𝕄)
      ⊢ ((c : Thread nD τ).loc main_v3) ↦{fullShare} W c main_v3 := by
  rw [holdN_1 W c 1 rfl main_v3 rfl _ (share1_1 W c), holdN_1 W c 6 rfl main_v3 rfl _ (share1_6 W c)]
  exact (pointsTo_share (PosShare.mem_left_op_right fullShare)).2

/-- EXIT, the arrays: the eight windows' holdings at their final contents are the seven buffers, each whole, at
    the contents after the region — the two halves of the previous hidden row's buffer, both as found, joined. -/
theorem arrays_join1 (c : Dev nD) :
    (dat1 (VW1 W) c).arrays ((dat1 (VW1 W) c).arrAt · cfg1.N)
      ⊢ (Pipeline.arrBufs (Ix := Unit) (Name := ℕ) (U := Pipeline.UD sig nD τ) (Lvl := ℕ) spec1 c (fun b => Wout1 W c b) : sProp 𝕄) := by
  rw [arrays_eq1, Gen.bigSep_W1, arrBufs1_eq]
  -- the contents after the region at each of the seven buffers: the entry contents, but at the output row
  have h1 : Wout1 W c main_v1 = W c main_v1 := Function.update_of_ne (StableHlo.devRef_ne_of_ne (by decide)) _ _
  have h3 : Wout1 W c main_v3 = W c main_v3 := Function.update_of_ne (StableHlo.devRef_ne_of_ne (by decide)) _ _
  have h6 : Wout1 W c main_v6 = W c main_v6 := Function.update_of_ne (StableHlo.devRef_ne_of_ne (by decide)) _ _
  have h7 : Wout1 W c main_v7 = W c main_v7 := Function.update_of_ne (StableHlo.devRef_ne_of_ne (by decide)) _ _
  have h8 : Wout1 W c main_v8 = W c main_v8 := Function.update_of_ne (StableHlo.devRef_ne_of_ne (by decide)) _ _
  have h9 : Wout1 W c main_v9 = W c main_v9 := Function.update_of_ne (StableHlo.devRef_ne_of_ne (by decide)) _ _
  have h10 : Wout1 W c main_v10 = (dat1 (VW1 W) c).arrAt 7 cfg1.N := Function.update_self _ _ _
  iintro ⟨H0, H1, H2, H3, H4, H5, H6, H7⟩
  ihave H13 := join_hidden1 W c $$ [H1 H6]
  · isplitl [H1]; · iexact H1
    iexact H6
  -- each input window's holding, read at its buffer, is that buffer at the entry contents
  isplitl [H0]; · rw [holdN_1 W c 0 rfl main_v1 rfl _ (share1_0 W c), h1]; exact .rfl
  isplitl [H13]; · rw [h3]; iexact H13
  isplitl [H2]; · rw [holdN_1 W c 2 rfl main_v6 rfl _ (share1_2 W c), h6]; exact .rfl
  isplitl [H3]; · rw [holdN_1 W c 3 rfl main_v7 rfl _ (share1_3 W c), h7]; exact .rfl
  isplitl [H4]; · rw [holdN_1 W c 4 rfl main_v8 rfl _ (share1_4 W c), h8]; exact .rfl
  isplitl [H5]; · rw [holdN_1 W c 5 rfl main_v9 rfl _ (share1_5 W c), h9]; exact .rfl
  rw [share1_7, h10]; iexact H7

/-! ## The four entailments of the region's record -/

/-- ENTRY: of the unscoped buffers at the entry contents, those behind the windows become the windows' holdings and
    the others go around the region; the generator register enters the invariant; the core owes nothing. -/
theorem entry1 (c : Dev nD) :
    (iprop(iprop(StableHlo.held (c : Thread nD τ) (Pipeline.ucRefs τ sig) (W c) ∗ Rst1 c)
        ∗ Pipeline.ownSems0 (fun k : PEmpty => k.elim) c ∗ levAts (fun _ => ∅) (fun _ _ => 0)) : sProp 𝕄)
      ⊢ |={Set.univ}=> iprop((dat1 (VW1 W) c).arrays ((dat1 (VW1 W) c).arrAt · 0)
          ∗ Pipeline.prefHeld (pcfgs (F := F) 1).pre c (fun _ => fullShare) (cfg1.toPCfg_adm (Val := Elt F)).1
          ∗ (dat1 (VW1 W) c).owesAt () 0 ∗ X1 W c ∗ Z1 W c) := by
  unfold Pipeline.Dat.owesAt Pipeline.owesWithin Pipeline.Dat.bound
  rw [Pipeline.ownSems0_none, owed1, recorded1,
    ← Pipeline.unscopedBufs_held (Ix := Unit) (Name := ℕ) (U := Pipeline.UD sig nD τ) (Lvl := ℕ) c (W c),
    Pipeline.unscopedBufs_split₀ (fun _ : Unit => cfg1) () Gen.winFacts₀1.arr_unscoped c (VW1 W c)]
  iintro ⟨⟨⟨Hab, Hrest⟩, Hp, HO⟩, -, -⟩
  ihave Ha := arrays_split1 W c $$ Hab
  imodintro
  isplitl [Ha]; · iexact Ha
  isplitr; · unfold Pipeline.prefHeld; rw [show (Finset.univ : Finset (Fin 0)) = ∅ from rfl, BI.bigSep_empty]; iempintro
  isplitl [HO]
  · icases HO with ⟨%Wt, HO⟩; iexists Wt; isplitr; · ipureintro; exact fun _ _ => Or.inl trivial
    iexact HO
  isplitl [Hp]; · iexact Hp
  iexact Hrest

/-- The invariant at the first point: the generator register and the scoped buffers no window stages. -/
theorem in1 (c : Dev nD) :
    (iprop(X1 W c ∗ Pipeline.prefHeld (pcfgs (F := F) 1).pre c (fun _ => fullShare) (cfg1.toPCfg_adm (Val := Elt F)).1
        ∗ Pipeline.scopedRest spec1 c) : sProp 𝕄)
      ⊢ (dat1 (VW1 W) c).Φ 0 := by
  rw [Phi1]; unfold Pipeline.ΦA
  iintro ⟨Hp, -, Hr⟩
  isplitl [Hr]; · iexact Hr
  iexact Hp

/-- The invariant at the last point gives the same back; the kernel has no semaphore of its own. -/
theorem out1 (c : Dev nD) :
    (dat1 (VW1 W) c).Φ (Fin.last cfg1.N)
      ⊢ (iprop(Y1 W c ∗ Pipeline.ownSems0 (fun k : PEmpty => k.elim) c ∗ Pipeline.scopedRest spec1 c) : sProp 𝕄) := by
  rw [Pipeline.ownSems0_none, Phi1]; unfold Pipeline.ΦA
  iintro ⟨Hr, Hp⟩
  isplitl [Hp]; · iexact Hp
  isplitr; · iempintro
  iexact Hr

/-- EXIT: the windows' holdings at their final contents and the buffers that went around the region are the
    unscoped buffers at the contents after the region, which differ from the entry contents at the output row only. -/
theorem exit1 (c : Dev nD) :
    (iprop((dat1 (VW1 W) c).arrays ((dat1 (VW1 W) c).arrAt · cfg1.N) ∗ (dat1 (VW1 W) c).owesAt () (Fin.last cfg1.N)
        ∗ Y1 W c ∗ Z1 W c) : sProp 𝕄)
      ⊢ |={Set.univ}=> iprop(StableHlo.held (c : Thread nD τ) (Pipeline.ucRefs τ sig) (Wout1 W c) ∗ Rst1 c) := by
  -- off the windows' arrays the contents are the entry contents
  have hrest : (Z1 W c : sProp 𝕄)
      = Pipeline.unscopedRest (Ix := Unit) (Name := ℕ) (U := Pipeline.UD sig nD τ) (Lvl := ℕ) spec1 c (fun b => Wout1 W c b) := by
    unfold Pipeline.unscopedRest
    exact bigSep_congr fun b hb => by
      have hb' : b ≠ main_v10 := fun e =>
        (Finset.mem_sdiff.mp hb).2 (e ▸ Finset.mem_image.mpr ⟨(7 : Fin 8), Finset.mem_univ _, rfl⟩)
      have e : Wout1 W c b = W c b := Function.update_of_ne (StableHlo.devRef_ne_of_ne hb') _ _
      show ((((c : Thread nD τ).loc b) ↦{fullShare} W c b) : sProp 𝕄) = (((c : Thread nD τ).loc b) ↦{fullShare} Wout1 W c b)
      rw [e]
  unfold Pipeline.Dat.owesAt Pipeline.owesWithin
  rw [owed1, hrest,
    ← Pipeline.unscopedBufs_held (Ix := Unit) (Name := ℕ) (U := Pipeline.UD sig nD τ) (Lvl := ℕ) c (Wout1 W c),
    Pipeline.unscopedBufs_split₀ (fun _ : Unit => cfg1) () Gen.winFacts₀1.arr_unscoped c (fun b => Wout1 W c b)]
  iintro ⟨Ha, HO, HY, Hrest⟩
  ihave Hab := arrays_join1 W c $$ Ha
  imodintro
  isplitl [Hab Hrest]
  · isplitl [Hab]; · iexact Hab
    iexact Hrest
  isplitl [HY]; · iexact HY
  icases HO with ⟨%Wt, -, HO⟩; iexists Wt; iexact HO

end Cert.Kernel.Reg

end
-- ==== Proof.K.GruB.lean ====
/-
  The second recurrent layer's launch (the third pallas_call of the program), at the contents V the
  launch finds in the buffers: what each grid point's body leaves in the output block, the proof data,
  and the body obligation at every point.

  A grid point t handles 128 of the 4096 hidden units. Its body reads the whole input row x and the whole
  previous hidden row h, the three gate slabs [3,128,4096] of both weight arrays, the three gate rows
  [3,128] of both biases and its own 128 entries of h, and stores
     (1 - z) * n + z * h_own,   r = sigma(i_r + h_r), z = sigma(i_z + h_z), n = tanh(i_n + r * h_n),
  each gate pre-activation a product of a row with a transposed slab plus a bias row.
-/
import proofs.«417261_j67628555043381_3_alg».proof.Proof.Gen.Kernel.Launch
import proofs.«417261_j67628555043381_3_alg».proof.Proof.Gen.Kernel.Skeleton
import proofs.«417261_j67628555043381_3_alg».proof.Proof.Gen.Kernel.Points
import Idealize.ShloMosaic.Lib.Pipeline.FrameBody
import Idealize.ShloMosaic.Lib.Pipeline.Frame
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered: the parameter everything here is stated at
variable (V : (c : Dev nD) → (b : Ref sig .tc) → Buf (Elt F) ((c : Thread nD τ).loc b))

/-- Window `w`'s block at grid point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-block rectangles the body reads and writes through: each starts at the origin of its block and
    has the block's extents. -/
abbrev rRow2 : Rect S1x4096 := Rect.unit (s := S1x4096) ![0, 0] S1x4096.size inb_S1x4096_S1x4096_0_0
abbrev rSlab2 : Rect S3x128x4096 := Rect.unit (s := S3x128x4096) ![0, 0, 0] S3x128x4096.size inb_S3x128x4096_S3x128x4096_0_0_0
abbrev rBias2 : Rect S3x128 := Rect.unit (s := S3x128) ![0, 0] S3x128.size inb_S3x128_S3x128_0_0
abbrev rTile2 : Rect S1x128 := Rect.unit (s := S1x128) ![0, 0] S1x128.size inb_S1x128_S1x128_0_0

/-- What the body leaves in the output block, as a function of the seven input blocks. -/
def out2_7 (x0 x1 : Vec F S1x4096 .f32) (x2 x3 : Vec F S3x128x4096 .f32) (x4 x5 : Vec F S3x128 .f32) (x6 : Vec F S1x128 .f32) : Vec F S1x128 .f32 :=
  View.canon [⟨rTile2, k2_pay1 (k2_pay3 (View.ld x1 rRow2)) (k2_pay5 (View.ld x3 rSlab2)) (k2_pay7 (View.ld x5 rBias2)) (k2_pay8 (View.ld x6 rTile2))
    (k2_pay9 (View.ld x0 rRow2) (View.ld x2 rSlab2) (View.ld x4 rBias2))
    (k2_pay10 (View.ld x0 rRow2) (View.ld x2 rSlab2) (View.ld x4 rBias2))
    (k2_pay11 (View.ld x0 rRow2) (View.ld x2 rSlab2) (View.ld x4 rBias2))
    (k2_pay12 (View.ld x1 rRow2) (View.ld x3 rSlab2) (View.ld x5 rBias2))
    (k2_pay13 (View.ld x3 rSlab2))⟩]

/-- The one store is of the whole output block, so it covers it. -/
theorem cover2_7 (p0 : Vec F S1x128 .f32) (y : S1x128.Idx) :
    ∃ pc ∈ ([⟨rTile2, p0⟩] : List (View.Piece (Elt F) S1x128 .f32)), y ∈ pc.1.set :=
  View.cover_of_tiled [⟨rTile2, p0⟩] S1x128.size (by rfl) y

/-! ## The body's triple -/

set_option maxHeartbeats 1000000 in
/-- The body on whole staging memrefs, the seven inputs' read at contents `x0 … x6` and the output's at anything:
    it runs to the continuation with the inputs' as they were and the output's at `out2_7` of them. The body
    reads the output block once before its one store; nothing it stores depends on that value. -/
theorem sound_kernel2 (c : Dev nD) (E : Set ℕ) (i : grid2.Coords)
    (arg1 : Memref sig .tc .vmem S1x4096 .f32) (harg1 : arg1.IsWhole) (arg2 : Memref sig .tc .vmem S1x4096 .f32) (harg2 : arg2.IsWhole)
    (arg3 : Memref sig .tc .vmem S3x128x4096 .f32) (harg3 : arg3.IsWhole) (arg4 : Memref sig .tc .vmem S3x128x4096 .f32) (harg4 : arg4.IsWhole)
    (arg5 : Memref sig .tc .vmem S3x128 .f32) (harg5 : arg5.IsWhole) (arg6 : Memref sig .tc .vmem S3x128 .f32) (harg6 : arg6.IsWhole)
    (arg7 : Memref sig .tc .vmem S1x128 .f32) (harg7 : arg7.IsWhole) (arg8 : Memref sig .tc .vmem S1x128 .f32) (harg8 : arg8.IsWhole)
    (x0 x1 : Vec F S1x4096 .f32) (x2 x3 : Vec F S3x128x4096 .f32) (x4 x5 : Vec F S3x128 .f32) (x6 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6
            ∗ owns (c : Thread nD τ) arg8 fullShare (out2_7 x0 x1 x2 x3 x4 x5 x6)) -∗ K ⟨⟩))
      ⊢ wp frame (wpE (defs₀ (F := F)) Variants.none c none) E
          (cc2__gru_kernel i arg1 harg1 arg2 harg2 arg3 harg3 arg4 harg4 arg5 harg5 arg6 harg6 arg7 harg7 arg8 harg8) K := by
  simp only [cc2__gru_kernel_eq_skeleton]; unfold cc2__gru_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-- The share of each input array a window holds: the previous hidden row's array is behind windows 1 and 6,
    which take the two halves of it; every other array is behind one window, which holds all of it. -/
def q2 : Fin cfg2.W → PosShare TreeShare := fun w => if w = 1 then fullShare.left else if w = 6 then fullShare.right else fullShare

/-- The proof data: arrays as found; inputs keep their blocks, the output block is `out2_7` of them; the
    previous hidden row's array is read through two windows (1 and 6), each holding half of it. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q := q2
  owed _ := 0

theorem A_eq2 (c : Dev nD) (w : Fin cfg2.W) : (dat2 V c).A w = V c (Pipeline.arrRef spec2 w) := by dsimp only [dat2]
theorem Phi2 (c : Dev nD) (n : Fin (cfg2.N + 1)) : (dat2 V c).Φ n = Pipeline.ΦA spec2 c := by dsimp only [dat2]
theorem owed2 (c : Dev nD) (n : Fin (cfg2.N + 1)) : (dat2 V c).owed n = 0 := by dsimp only [dat2]
theorem recorded2 (c : Dev nD) (n : Fin (cfg2.N + 1)) : (dat2 V c).recorded n = Set.univ := by dsimp only [dat2]
theorem q_eq2 (c : Dev nD) : (dat2 V c).q = q2 := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) :
    (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-! ## What the body finds in each input's buffer -/

/-- Each input's current staging buffer holds its block at every point, whether the point fetched it or an
    earlier one did: no input window is cut or idle, and the body leaves each input block as it found it. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl)
    (fun t => by rw [after2_6]; unfold Dat.blockOf iblk2; rw [A_eq2]; try rfl) t d).trans
    (by unfold Dat.fetched Dat.blockOf iblk2; rw [A_eq2]; try rfl)

/-! ## The body obligation, at a generic point -/

/-- What the body is called with at point `t`: the invariant, nothing owed, and the eight current staging memrefs. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- What it returns: the same, each memref at what the proof data say the body leaves there. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the seven inputs' memrefs hold their blocks, so the body's triple applies; the
    invariant and what the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [Phi2, Phi2,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation at every grid point. -/
theorem body_obligation2 (c : Dev nD) : BodyObligation (dat2 (F := F) V c) (defs₀ (F := F)) Variants.none () Set.univ := fun t => by
  rw [bigSep_W2, bigSep_W2]
  exact sound_body2 V c t

end Cert.Kernel.Reg

end
-- ==== Proof.K.GruBRec.lean ====
/-
  The second recurrent layer's launch seen from the host program: how the TensorCore's buffers are
  handed to the pipeline when the region is entered and taken back when it is left.

  The launch has eight windows over seven arrays: the previous hidden row is behind two windows, once whole
  (window 1) and once as the point's own 128 entries (window 6). Both only read it, so each window holds half
  of that array's share; every other array is behind one window, which holds all of it. At entry the array's
  full share is cut into the two halves; at exit, both halves still at the contents found at entry, they are
  put back together. The only array whose contents change is the output row.
-/
import proofs.«417261_j67628555043381_3_alg».proof.Proof.K.GruB
import proofs.«417261_j67628555043381_3_alg».proof.Proof.Gen.Kernel.Launch
import Idealize.ShloMosaic.Lib.Pipeline.Launch
import Idealize.ShloMosaic.Lib.Pipeline.Kit
import Idealize.ShloMosaic.Lib.Pipeline.Cells
import Idealize.ShloMosaic.Lib.Pipeline.Dat
import Idealize.ShloMosaic.Lib.Pipeline.Frame
import Idealize.ShloMosaic.Lib.Pipeline.Regions
import Idealize.ShloMosaic.Lib.StableHlo.Run
import Idealize.ShloMosaic.Rules.PointsTo
import Idealize.SL.RA.TreeShare
import Mathlib.Logic.Function.Basic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.Kernel Cert.Kernel.Gen

variable {F : FTy → Type} [FloatOps F]

local notation "𝕄" => MT nD τ sig Unit (Elt F) ℕ (Pipeline.UD sig nD τ) ℕ

-- the buffers' contents on every core when the region is entered
variable (W : Dev nD → Valuation τ sig (Elt F))

/-- The entry contents read at the TensorCore's references. -/
abbrev VW2 : (c : Dev nD) → (b : Ref sig .tc) → Buf (Elt F) ((c : Thread nD τ).loc b) := fun c b => W c b

/-- What rides beside the buffers: the generator register at some state, and the core owing nothing. -/
abbrev Rst2 (c : Dev nD) : sProp 𝕄 :=
  iprop((∃ r, prngReg c r) ∗ ∃ Wt, owes (c : Thread nD τ) (0 : CellTallies nD τ sig Unit) Wt)

/-- The buffers after the region: only the output row changes, to what the write-backs leave in it. -/
abbrev Wout2 (c : Dev nD) : Valuation τ sig (Elt F) :=
  Function.update (W c) main_v15 ((dat2 (VW2 W) c).arrAt 7 cfg2.N)

/-- What enters the invariant: the generator register at some state. -/
abbrev X2 (W : Dev nD → Valuation τ sig (Elt F)) (c : Dev nD) : sProp 𝕄 := iprop(∃ r, prngReg c r)
/-- What the invariant gives back: the same. -/
abbrev Y2 (W : Dev nD → Valuation τ sig (Elt F)) (c : Dev nD) : sProp 𝕄 := iprop(∃ r, prngReg c r)
/-- What goes around the region: the unscoped buffers behind no window, at the entry contents. -/
abbrev Z2 (c : Dev nD) : sProp 𝕄 :=
  Pipeline.unscopedRest (Ix := Unit) (Name := ℕ) (U := Pipeline.UD sig nD τ) (Lvl := ℕ) spec2 c (VW2 W c)

/-! ## The arrays' buffers and the windows' holdings -/

/-- The share window `w` holds of its array: the halves for the two windows on the previous hidden row, all of it
    for every other (the output's because it is the output). -/
theorem share2_0 (c : Dev nD) : (dat2 (VW2 W) c).share 0 = fullShare := by unfold Dat.share; rw [q_eq2]; rfl
theorem share2_1 (c : Dev nD) : (dat2 (VW2 W) c).share 1 = fullShare.left := by unfold Dat.share; rw [q_eq2]; rfl
theorem share2_2 (c : Dev nD) : (dat2 (VW2 W) c).share 2 = fullShare := by unfold Dat.share; rw [q_eq2]; rfl
theorem share2_3 (c : Dev nD) : (dat2 (VW2 W) c).share 3 = fullShare := by unfold Dat.share; rw [q_eq2]; rfl
theorem share2_4 (c : Dev nD) : (dat2 (VW2 W) c).share 4 = fullShare := by unfold Dat.share; rw [q_eq2]; rfl
theorem share2_5 (c : Dev nD) : (dat2 (VW2 W) c).share 5 = fullShare := by unfold Dat.share; rw [q_eq2]; rfl
theorem share2_6 (c : Dev nD) : (dat2 (VW2 W) c).share 6 = fullShare.right := by unfold Dat.share; rw [q_eq2]; rfl
theorem share2_7 (c : Dev nD) : (dat2 (VW2 W) c).share 7 = fullShare := by unfold Dat.share; rfl

/-- The windows' holdings, each array a whole buffer: window `w` holds the buffer behind its array at its share. -/
theorem arrays_eq2 (c : Dev nD)
    (Fn : (w : Fin cfg2.W) → Buf (Elt F) ((cfg2.win w).arr.view.loc (c : Thread nD τ))) :
    (dat2 (VW2 W) c).arrays Fn
      = bigSep Finset.univ fun w : Fin cfg2.W =>
          (((c : Thread nD τ).loc (Pipeline.arrRef spec2 w)) ↦{(dat2 (VW2 W) c).share w} Fn w : sProp 𝕄) := by
  unfold Dat.arrays
  exact bigSep_congr fun w _ => by rw [(Gen.arr_whole2 w).set_eq_univ]

/-- Before the first point every array holds the entry contents. -/
theorem arrAt0_12 (c : Dev nD) (w : Fin cfg2.W) :
    (dat2 (VW2 W) c).arrAt w 0 = VW2 W c (Pipeline.arrRef spec2 w) :=
  (show (dat2 (VW2 W) c).arrAt w 0 = (dat2 (VW2 W) c).A w from rfl).trans (A_eq2 (VW2 W) c w)

/-- An input's array is never written: after the last point it still holds the entry contents. -/
theorem arrAtN_12 (c : Dev nD) (w : Fin cfg2.W) (hin : (cfg2.win w).isOut = false) :
    (dat2 (VW2 W) c).arrAt w cfg2.N = VW2 W c (Pipeline.arrRef spec2 w) :=
  ((dat2 (VW2 W) c).arrAt_in w hin cfg2.N).trans (A_eq2 (VW2 W) c w)

/-- Window `w`'s holding before the first point, read at the buffer `b` behind its array and at the share `q` it
    holds: that buffer at the entry contents. -/
theorem hold0_12 (c : Dev nD) (w : Fin cfg2.W) (b : Ref sig .tc) (hb : Pipeline.arrRef spec2 w = b)
    (q : PosShare TreeShare) (hq : (dat2 (VW2 W) c).share w = q) :
    ((((c : Thread nD τ).loc (Pipeline.arrRef spec2 w)) ↦{(dat2 (VW2 W) c).share w} (dat2 (VW2 W) c).arrAt w 0) : sProp 𝕄)
      = (((c : Thread nD τ).loc b) ↦{q} W c b) := by
  subst hb; rw [hq, arrAt0_12]

/-- The same after the last point, for an input: its array was never written. -/
theorem holdN_12 (c : Dev nD) (w : Fin cfg2.W) (hin : (cfg2.win w).isOut = false) (b : Ref sig .tc)
    (hb : Pipeline.arrRef spec2 w = b) (q : PosShare TreeShare) (hq : (dat2 (VW2 W) c).share w = q) :
    ((((c : Thread nD τ).loc (Pipeline.arrRef spec2 w)) ↦{(dat2 (VW2 W) c).share w} (dat2 (VW2 W) c).arrAt w cfg2.N) : sProp 𝕄)
      = (((c : Thread nD τ).loc b) ↦{q} W c b) := by
  subst hb; rw [hq, arrAtN_12 W c w hin]

/-- The seven buffers behind the eight windows, one by one. -/
theorem arrBufs1_eq2 (c : Dev nD) (V : (b : Ref sig .tc) → Buf (Elt F) ((c : Thread nD τ).loc b)) :
    (Pipeline.arrBufs (Ix := Unit) (Name := ℕ) (U := Pipeline.UD sig nD τ) (Lvl := ℕ) spec2 c V : sProp 𝕄)
      = iprop((((c : Thread nD τ).loc main_v10) ↦{fullShare} V main_v10) ∗ (((c : Thread nD τ).loc main_v5) ↦{fullShare} V main_v5)
          ∗ (((c : Thread nD τ).loc main_v11) ↦{fullShare} V main_v11) ∗ (((c : Thread nD τ).loc main_v12) ↦{fullShare} V main_v12)
          ∗ (((c : Thread nD τ).loc main_v13) ↦{fullShare} V main_v13) ∗ (((c : Thread nD τ).loc main_v14) ↦{fullShare} V main_v14)
          ∗ (((c : Thread nD τ).loc main_v15) ↦{fullShare} V main_v15)) := by
  unfold Pipeline.arrBufs
  exact BI.bigSep_eq_bigSepL_of_eq [main_v10, main_v5, main_v11, main_v12, main_v13, main_v14, main_v15] (by decide) (by decide) _

/-- ENTRY, the arrays: the seven buffers behind the windows, each whole at the entry contents, are the eight
    windows' holdings — the previous hidden row's buffer cut into the halves windows 1 and 6 hold. -/
theorem arrays_split2 (c : Dev nD) :
    (Pipeline.arrBufs (Ix := Unit) (Name := ℕ) (U := Pipeline.UD sig nD τ) (Lvl := ℕ) spec2 c (VW2 W c) : sProp 𝕄)
      ⊢ (dat2 (VW2 W) c).arrays ((dat2 (VW2 W) c).arrAt · 0) := by
  rw [arrays_eq2, Gen.bigSep_W2, arrBufs1_eq2]
  iintro ⟨H1, H3, H6, H7, H8, H9, H10⟩
  ihave H3' := (pointsTo_share (PosShare.mem_left_op_right fullShare)).1 $$ H3
  icases H3' with ⟨H3l, H3r⟩
  isplitl [H1]; · rw [hold0_12 W c 0 main_v10 rfl _ (share2_0 W c)]; iexact H1
  isplitl [H3l]; · rw [hold0_12 W c 1 main_v5 rfl _ (share2_1 W c)]; iexact H3l
  isplitl [H6]; · rw [hold0_12 W c 2 main_v11 rfl _ (share2_2 W c)]; iexact H6
  isplitl [H7]; · rw [hold0_12 W c 3 main_v12 rfl _ (share2_3 W c)]; iexact H7
  isplitl [H8]; · rw [hold0_12 W c 4 main_v13 rfl _ (share2_4 W c)]; iexact H8
  isplitl [H9]; · rw [hold0_12 W c 5 main_v14 rfl _ (share2_5 W c)]; iexact H9
  isplitl [H3r]; · rw [hold0_12 W c 6 main_v5 rfl _ (share2_6 W c)]; iexact H3r
  rw [hold0_12 W c 7 main_v15 rfl _ (share2_7 W c)]; iexact H10

/-- The two halves of the previous hidden row's buffer, both still at the entry contents, are the whole of it. -/
theorem join_hidden2 (c : Dev nD) :
    (iprop((((c : Thread nD τ).loc (Pipeline.arrRef spec2 1)) ↦{(dat2 (VW2 W) c).share 1} (dat2 (VW2 W) c).arrAt 1 cfg2.N)
        ∗ (((c : Thread nD τ).loc (Pipeline.arrRef spec2 6)) ↦{(dat2 (VW2 W) c).share 6} (dat2 (VW2 W) c).arrAt 6 cfg2.N)) : sProp 𝕄)
      ⊢ ((c : Thread nD τ).loc main_v5) ↦{fullShare} W c main_v5 := by
  rw [holdN_12 W c 1 rfl main_v5 rfl _ (share2_1 W c), holdN_12 W c 6 rfl main_v5 rfl _ (share2_6 W c)]
  exact (pointsTo_share (PosShare.mem_left_op_right fullShare)).2

/-- EXIT, the arrays: the eight windows' holdings at their final contents are the seven buffers, each whole, at
    the contents after the region — the two halves of the previous hidden row's buffer, both as found, joined. -/
theorem arrays_join2 (c : Dev nD) :
    (dat2 (VW2 W) c).arrays ((dat2 (VW2 W) c).arrAt · cfg2.N)
      ⊢ (Pipeline.arrBufs (Ix := Unit) (Name := ℕ) (U := Pipeline.UD sig nD τ) (Lvl := ℕ) spec2 c (fun b => Wout2 W c b) : sProp 𝕄) := by
  rw [arrays_eq2, Gen.bigSep_W2, arrBufs1_eq2]
  -- the contents after the region at each of the seven buffers: the entry contents, but at the output row
  have h1 : Wout2 W c main_v10 = W c main_v10 := Function.update_of_ne (StableHlo.devRef_ne_of_ne (by decide)) _ _
  have h3 : Wout2 W c main_v5 = W c main_v5 := Function.update_of_ne (StableHlo.devRef_ne_of_ne (by decide)) _ _
  have h6 : Wout2 W c main_v11 = W c main_v11 := Function.update_of_ne (StableHlo.devRef_ne_of_ne (by decide)) _ _
  have h7 : Wout2 W c main_v12 = W c main_v12 := Function.update_of_ne (StableHlo.devRef_ne_of_ne (by decide)) _ _
  have h8 : Wout2 W c main_v13 = W c main_v13 := Function.update_of_ne (StableHlo.devRef_ne_of_ne (by decide)) _ _
  have h9 : Wout2 W c main_v14 = W c main_v14 := Function.update_of_ne (StableHlo.devRef_ne_of_ne (by decide)) _ _
  have h10 : Wout2 W c main_v15 = (dat2 (VW2 W) c).arrAt 7 cfg2.N := Function.update_self _ _ _
  iintro ⟨H0, H1, H2, H3, H4, H5, H6, H7⟩
  ihave H13 := join_hidden2 W c $$ [H1 H6]
  · isplitl [H1]; · iexact H1
    iexact H6
  -- each input window's holding, read at its buffer, is that buffer at the entry contents
  isplitl [H0]; · rw [holdN_12 W c 0 rfl main_v10 rfl _ (share2_0 W c), h1]; exact .rfl
  isplitl [H13]; · rw [h3]; iexact H13
  isplitl [H2]; · rw [holdN_12 W c 2 rfl main_v11 rfl _ (share2_2 W c), h6]; exact .rfl
  isplitl [H3]; · rw [holdN_12 W c 3 rfl main_v12 rfl _ (share2_3 W c), h7]; exact .rfl
  isplitl [H4]; · rw [holdN_12 W c 4 rfl main_v13 rfl _ (share2_4 W c), h8]; exact .rfl
  isplitl [H5]; · rw [holdN_12 W c 5 rfl main_v14 rfl _ (share2_5 W c), h9]; exact .rfl
  rw [share2_7, h10]; iexact H7

/-! ## The four entailments of the region's record -/

/-- ENTRY: of the unscoped buffers at the entry contents, those behind the windows become the windows' holdings and
    the others go around the region; the generator register enters the invariant; the core owes nothing. -/
theorem entry2 (c : Dev nD) :
    (iprop(iprop(StableHlo.held (c : Thread nD τ) (Pipeline.ucRefs τ sig) (W c) ∗ Rst2 c)
        ∗ Pipeline.ownSems0 (fun k : PEmpty => k.elim) c ∗ levAts (fun _ => ∅) (fun _ _ => 0)) : sProp 𝕄)
      ⊢ |={Set.univ}=> iprop((dat2 (VW2 W) c).arrays ((dat2 (VW2 W) c).arrAt · 0)
          ∗ Pipeline.prefHeld (pcfgs (F := F) 2).pre c (fun _ => fullShare) (cfg2.toPCfg_adm (Val := Elt F)).1
          ∗ (dat2 (VW2 W) c).owesAt () 0 ∗ X2 W c ∗ Z2 W c) := by
  unfold Pipeline.Dat.owesAt Pipeline.owesWithin Pipeline.Dat.bound
  rw [Pipeline.ownSems0_none, owed2, recorded2,
    ← Pipeline.unscopedBufs_held (Ix := Unit) (Name := ℕ) (U := Pipeline.UD sig nD τ) (Lvl := ℕ) c (W c),
    Pipeline.unscopedBufs_split₀ (fun _ : Unit => cfg2) () Gen.winFacts₀2.arr_unscoped c (VW2 W c)]
  iintro ⟨⟨⟨Hab, Hrest⟩, Hp, HO⟩, -, -⟩
  ihave Ha := arrays_split2 W c $$ Hab
  imodintro
  isplitl [Ha]; · iexact Ha
  isplitr; · unfold Pipeline.prefHeld; rw [show (Finset.univ : Finset (Fin 0)) = ∅ from rfl, BI.bigSep_empty]; iempintro
  isplitl [HO]
  · icases HO with ⟨%Wt, HO⟩; iexists Wt; isplitr; · ipureintro; exact fun _ _ => Or.inl trivial
    iexact HO
  isplitl [Hp]; · iexact Hp
  iexact Hrest

/-- The invariant at the first point: the generator register and the scoped buffers no window stages. -/
theorem in2 (c : Dev nD) :
    (iprop(X2 W c ∗ Pipeline.prefHeld (pcfgs (F := F) 2).pre c (fun _ => fullShare) (cfg2.toPCfg_adm (Val := Elt F)).1
        ∗ Pipeline.scopedRest spec2 c) : sProp 𝕄)
      ⊢ (dat2 (VW2 W) c).Φ 0 := by
  rw [Phi2]; unfold Pipeline.ΦA
  iintro ⟨Hp, -, Hr⟩
  isplitl [Hr]; · iexact Hr
  iexact Hp

/-- The invariant at the last point gives the same back; the kernel has no semaphore of its own. -/
theorem out2 (c : Dev nD) :
    (dat2 (VW2 W) c).Φ (Fin.last cfg2.N)
      ⊢ (iprop(Y2 W c ∗ Pipeline.ownSems0 (fun k : PEmpty => k.elim) c ∗ Pipeline.scopedRest spec2 c) : sProp 𝕄) := by
  rw [Pipeline.ownSems0_none, Phi2]; unfold Pipeline.ΦA
  iintro ⟨Hr, Hp⟩
  isplitl [Hp]; · iexact Hp
  isplitr; · iempintro
  iexact Hr

/-- EXIT: the windows' holdings at their final contents and the buffers that went around the region are the
    unscoped buffers at the contents after the region, which differ from the entry contents at the output row only. -/
theorem exit2 (c : Dev nD) :
    (iprop((dat2 (VW2 W) c).arrays ((dat2 (VW2 W) c).arrAt · cfg2.N) ∗ (dat2 (VW2 W) c).owesAt () (Fin.last cfg2.N)
        ∗ Y2 W c ∗ Z2 W c) : sProp 𝕄)
      ⊢ |={Set.univ}=> iprop(StableHlo.held (c : Thread nD τ) (Pipeline.ucRefs τ sig) (Wout2 W c) ∗ Rst2 c) := by
  -- off the windows' arrays the contents are the entry contents
  have hrest : (Z2 W c : sProp 𝕄)
      = Pipeline.unscopedRest (Ix := Unit) (Name := ℕ) (U := Pipeline.UD sig nD τ) (Lvl := ℕ) spec2 c (fun b => Wout2 W c b) := by
    unfold Pipeline.unscopedRest
    exact bigSep_congr fun b hb => by
      have hb' : b ≠ main_v15 := fun e =>
        (Finset.mem_sdiff.mp hb).2 (e ▸ Finset.mem_image.mpr ⟨(7 : Fin 8), Finset.mem_univ _, rfl⟩)
      have e : Wout2 W c b = W c b := Function.update_of_ne (StableHlo.devRef_ne_of_ne hb') _ _
      show ((((c : Thread nD τ).loc b) ↦{fullShare} W c b) : sProp 𝕄) = (((c : Thread nD τ).loc b) ↦{fullShare} Wout2 W c b)
      rw [e]
  unfold Pipeline.Dat.owesAt Pipeline.owesWithin
  rw [owed2, hrest,
    ← Pipeline.unscopedBufs_held (Ix := Unit) (Name := ℕ) (U := Pipeline.UD sig nD τ) (Lvl := ℕ) c (Wout2 W c),
    Pipeline.unscopedBufs_split₀ (fun _ : Unit => cfg2) () Gen.winFacts₀2.arr_unscoped c (fun b => Wout2 W c b)]
  iintro ⟨Ha, HO, HY, Hrest⟩
  ihave Hab := arrays_join2 W c $$ Ha
  imodintro
  isplitl [Hab Hrest]
  · isplitl [Hab]; · iexact Hab
    iexact Hrest
  isplitl [HY]; · iexact HY
  icases HO with ⟨%Wt, -, HO⟩; iexists Wt; iexact HO

end Cert.Kernel.Reg

end
-- ==== Proof.K.Dec.lean ====
/-
  The decoder's launch (the fourth pallas_call of the program), at the contents V the launch finds in the
  buffers: what each grid point's body leaves in the output tile, the proof data, the body obligation at
  every point, and the four entailments that carry the thread state into the launch and out of it.

  A grid point t handles 128 of the 256 vocabulary entries. Its body reads the whole hidden row x [1,4096],
  its own block of 128 rows of the decoder matrix [128,4096] and its own tile of 128 bias entries [1,128],
  rounds x and the matrix block to bf16, and stores the tile
     x * (block)^T + bias      (a row times a transposed block, accumulated in f32 from zero, plus the bias tile)
  over the whole output tile [1,128]; the value it loads from the output tile beforehand is not used.
-/
import proofs.«417261_j67628555043381_3_alg».proof.Proof.Gen.Kernel.Launch
import proofs.«417261_j67628555043381_3_alg».proof.Proof.Gen.Kernel.Skeleton
import proofs.«417261_j67628555043381_3_alg».proof.Proof.Gen.Kernel.Points
import Idealize.ShloMosaic.Lib.Pipeline.FrameBody
import Idealize.ShloMosaic.Lib.Pipeline.Frame
import Idealize.ShloMosaic.Lib.Pipeline.Regions
import Idealize.ShloMosaic.Lib.Pipeline.RegionsLoop
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Body
-- the TensorCore's buffer contents when the region is entered: the parameter everything here is stated at
variable (V : (c : Dev nD) → (b : Ref sig .tc) → Buf (Elt F) ((c : Thread nD τ).loc b))

/-! ## The windows' blocks -/

/-- Window `w`'s block at grid point `t`, read off its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: each of the four buffers is read or written whole -/

/-- the hidden row, whole -/
abbrev rX3 : Rect S1x4096 := Rect.unit (s := S1x4096) ![0, 0] S1x4096.size inb_S1x4096_S1x4096_0_0
/-- the matrix block, whole -/
abbrev rM3 : Rect S128x4096 := Rect.unit (s := S128x4096) ![0, 0] S128x4096.size inb_S128x4096_S128x4096_0_0
/-- a tile of 128 entries (the bias tile and the output tile), whole -/
abbrev rT3 : Rect S1x128 := Rect.unit (s := S1x128) ![0, 0] S1x128.size inb_S1x128_S1x128_0_0

/-! ## What the body leaves in the output tile -/

/-- The output tile after the body, from the three input blocks: its one store, over the whole tile, of the
    row-times-transposed-block product plus the bias tile, computed from what the three loads read. -/
def out3_3 (x0 : Vec F S1x4096 .f32) (x1 : Vec F S128x4096 .f32) (x2 : Vec F S1x128 .f32) : Vec F S1x128 .f32 :=
  View.canon [⟨rT3, k3_pay1 (View.ld x0 rX3) (View.ld x1 rM3) (View.ld x2 rT3)⟩]

/-- The one store covers the tile: its rectangle is the whole tile. -/
theorem cover3_3 (p : Vec F S1x128 .f32) (y : S1x128.Idx) :
    ∃ pc ∈ ([⟨rT3, p⟩] : List (View.Piece (Elt F) S1x128 .f32)), y ∈ pc.1.set :=
  View.cover_of_tiled [⟨rT3, p⟩] S1x128.size (by rfl) y

/-! ## The body's triple -/

set_option maxHeartbeats 1000000 in
/-- The body on whole staging memrefs — the three inputs' at contents reading `x0`, `x1`, `x2`, the output's at
    anything — runs to the continuation holding the inputs' as they were and the output's at `out3_3` of them.
    The value the body loads from the output tile before its store is whatever was there; nothing is computed
    from it, and the store, covering the tile, leaves no trace of it. -/
theorem sound_kernel3 (c : Dev nD) (E : Set ℕ) (i : grid3.Coords)
    (arg1 : Memref sig .tc .vmem S1x4096 .f32) (harg1 : arg1.IsWhole) (arg2 : Memref sig .tc .vmem S128x4096 .f32) (harg2 : arg2.IsWhole)
    (arg3 : Memref sig .tc .vmem S1x128 .f32) (harg3 : arg3.IsWhole) (arg4 : Memref sig .tc .vmem S1x128 .f32) (harg4 : arg4.IsWhole)
    (x0 : Vec F S1x4096 .f32) (x1 : Vec F S128x4096 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__decode_kernel i arg1 harg1 arg2 harg2 arg3 harg3 arg4 harg4) K := by
  simp only [cc3__decode_kernel_eq_skeleton]; unfold cc3__decode_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The launch's proof data -/

/-- The proof data on core `c`: the arrays as the launch finds them; after the body at point `t` each input's
    buffer at its block and the output's at `out3_3` of the three input blocks; the invariant the scoped rest and
    the generator register, untouched; nothing owed; every array held in full. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem Phi3 (c : Dev nD) (n : Fin (cfg3.N + 1)) : (dat3 V c).Φ n = Pipeline.ΦA spec3 c := by
  dsimp only [dat3]
theorem owed3 (c : Dev nD) (n : Fin (cfg3.N + 1)) : (dat3 V c).owed n = 0 := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-! ## What the body finds in the inputs' buffers

An input's current staging buffer holds the window's block at every point, whether a copy brought it there at
this point or at an earlier one with the block index unmoved since (the hidden row comes in once, at the first
point; the matrix block and the bias tile at both): the windows are uncut and never idle, and the body leaves
an input's buffer as it was. -/

theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
      (fun t => by rw [after3_2]; unfold Dat.blockOf iblk3; rw [A_eq3]; try rfl) t d).trans
    (by unfold Dat.fetched Dat.blockOf iblk3; rw [A_eq3]; try rfl)

/-! ## The body obligation, at a generic point -/

/-- What the body is called with at point `t`: the invariant, the core's debts, and the four current staging
    buffers, each at what the pipeline left in it, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns: the same, the buffers at what the proof data say the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every grid point. -/
theorem body_obligation3 (c : Dev nD) : BodyObligation (dat3 (F := F) V c) (defs₀ (F := F)) Variants.none () Set.univ := fun t => by
  rw [bigSep_W3, bigSep_W3]
  exact sound_body3 V c t

end Body

section Region

/-! # The launch between two thread states

Before the launch the thread holds every unscoped buffer at a valuation `W c`, beside the generator register
and the core owing nothing; after it the same, with the output array alone changed, to what the write-backs
of the two grid points leave in it. -/

/-- the valuation read at the TensorCore's references -/
abbrev VW3 (W : Dev nD → Valuation τ sig (Elt F)) : (c : Dev nD) → (b : Ref sig .tc) → Buf (Elt F) ((c : Thread nD τ).loc b) := fun c b => W c b
/-- what rides beside the buffers: the generator register at some state, and the core owing nothing -/
abbrev Rst3 (c : Dev nD) : sProp 𝕄 := iprop((∃ r, prngReg c r) ∗ ∃ Wt, owes (c : Thread nD τ) (0 : CellTallies nD τ sig Unit) Wt)
/-- the buffers after the region: only the output array main_v17 changes, to what the write-backs leave -/
abbrev Wout3 (W : Dev nD → Valuation τ sig (Elt F)) (c : Dev nD) : Valuation τ sig (Elt F) :=
  Function.update (W c) main_v17 ((dat3 (VW3 W) c).arrAt 3 cfg3.N)
/-- what enters the invariant: the generator register at some state -/
abbrev X3 (W : Dev nD → Valuation τ sig (Elt F)) (c : Dev nD) : sProp 𝕄 := iprop(∃ r, prngReg c r)
/-- what the invariant gives back: the same -/
abbrev Y3 (W : Dev nD → Valuation τ sig (Elt F)) (c : Dev nD) : sProp 𝕄 := iprop(∃ r, prngReg c r)
/-- what bypasses the launch: every unscoped buffer that is none of its four arrays, as entered -/
abbrev Z3 (W : Dev nD → Valuation τ sig (Elt F)) (c : Dev nD) : sProp 𝕄 :=
  Pipeline.unscopedRest (Ix := Unit) (Name := ℕ) (U := Pipeline.UD sig nD τ) (Lvl := ℕ) spec3 c (VW3 W c)

/-- The launch alone as a one-member family of pipelines: the form the library's array lemmas are stated in. -/
abbrev pcs3 : Unit → Pipeline.PCfg sig Λ₀ (Elt F) := fun _ => cfg3.toPCfg
abbrev adm3 : (p : Unit) → (pcs3 (F := F) p).Adm := fun _ => cfg3.toPCfg_adm
abbrev fam3 (W : Dev nD → Valuation τ sig (Elt F)) :
    (p : Unit) → (c : Dev nD) → Dat τ (Elt F) Unit ℕ (Pipeline.UD sig nD τ) ℕ (Pipeline.pin (pcs3 (F := F)) adm3 p) c :=
  fun _ c => dat3 (VW3 W) c

variable (W : Dev nD → Valuation τ sig (Elt F))

/-- After the two grid points each array holds what the changed valuation says: an input's array is as it was
    entered (nothing is written back to it), and none of the three is the output array; the output array is the
    one the valuation was changed at. -/
theorem hF3 (c : Dev nD) (w : Fin cfg3.W) : (dat3 (VW3 W) c).arrAt w cfg3.N = Wout3 W c (Pipeline.arrRef spec3 w) :=
  match w with
  | ⟨0, _⟩ => ((dat3 (VW3 W) c).arrAt_in 0 rfl _).trans ((A_eq3 (VW3 W) c 0).trans
      (Function.update_of_ne (StableHlo.devRef_ne_of_ne (by decide)) _ _).symm)
  | ⟨1, _⟩ => ((dat3 (VW3 W) c).arrAt_in 1 rfl _).trans ((A_eq3 (VW3 W) c 1).trans
      (Function.update_of_ne (StableHlo.devRef_ne_of_ne (by decide)) _ _).symm)
  | ⟨2, _⟩ => ((dat3 (VW3 W) c).arrAt_in 2 rfl _).trans ((A_eq3 (VW3 W) c 2).trans
      (Function.update_of_ne (StableHlo.devRef_ne_of_ne (by decide)) _ _).symm)
  | ⟨3, _⟩ => (Function.update_self _ _ (W c)).symm

/-- Every buffer that is none of the four arrays is, in particular, not the output array: unchanged. -/
theorem hrest3 (c : Dev nD) : ∀ b, b ∉ Finset.univ.image (Pipeline.arrRef spec3) → (fun b : Ref sig .tc => Wout3 W c b) b = VW3 W c b :=
  fun b hb => Function.update_of_ne (StableHlo.devRef_ne_of_ne fun e =>
    hb (Finset.mem_image.mpr ⟨3, Finset.mem_univ _, e.symm⟩)) _ _

set_option backward.isDefEq.respectTransparency.types false in
/-- ENTRY: the four arrays split out of the unscoped buffers at the contents the proof data start from; no table is
    prefetched; the core owes nothing; the generator register and the other buffers go their ways. -/
theorem entry3 (c : Dev nD) :
    iprop(iprop(StableHlo.held (c : Thread nD τ) (Pipeline.ucRefs τ sig) (W c) ∗ Rst3 (F := F) c)
        ∗ Pipeline.ownSems0 (Ix := Unit) (Name := ℕ) (U := Pipeline.UD sig nD τ) (Lvl := ℕ) (Val := Elt F) (τ := τ) (fun k : PEmpty => k.elim) c
        ∗ levAts (fun _ => ∅) (fun _ _ => 0))
      ⊢ |={Set.univ}=> iprop((dat3 (VW3 W) c).arrays ((dat3 (VW3 W) c).arrAt · 0)
        ∗ Pipeline.prefHeld (Ix := Unit) (Name := ℕ) (U := Pipeline.UD sig nD τ) (Lvl := ℕ) (pcfgs (F := F) 3).pre c (fun _ => fullShare) (cfg3.toPCfg_adm (Val := Elt F)).1
        ∗ (dat3 (VW3 W) c).owesAt () 0 ∗ X3 W c ∗ Z3 W c) := by
  rw [Pipeline.ownSems0_none]
  have hsplit := Pipeline.arrays_of_unscopedBufs (p := ()) (pcs3 (F := F)) adm3 (fam3 W) winFacts3 arr_whole3 c
    ((dat3 (VW3 W) c).share_full fun _ => rfl) (VW3 W c) fun _ => rfl
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The invariant at the first point: the scoped buffers no window stages, and the generator register. -/
theorem in3 (c : Dev nD) :
    iprop(X3 W c ∗ Pipeline.prefHeld (Ix := Unit) (Name := ℕ) (U := Pipeline.UD sig nD τ) (Lvl := ℕ) (pcfgs (F := F) 3).pre c (fun _ => fullShare) (cfg3.toPCfg_adm (Val := Elt F)).1
        ∗ Pipeline.scopedRest (Ix := Unit) (Name := ℕ) (U := Pipeline.UD sig nD τ) (Lvl := ℕ) (Val := Elt F) (τ := τ) spec3 c)
      ⊢ (dat3 (VW3 W) c).Φ 0 := by
  rw [Phi3]; unfold Pipeline.ΦA
  iintro ⟨Hp, -, Hr⟩
  isplitl [Hr]; · iexact Hr
  iexact Hp

/-- The invariant at the last point gives both back; the kernel has no semaphore of its own. -/
theorem out3 (c : Dev nD) :
    (dat3 (VW3 W) c).Φ (Fin.last cfg3.N)
      ⊢ iprop(Y3 W c ∗ Pipeline.ownSems0 (Ix := Unit) (Name := ℕ) (U := Pipeline.UD sig nD τ) (Lvl := ℕ) (Val := Elt F) (τ := τ) (fun k : PEmpty => k.elim) c
        ∗ Pipeline.scopedRest (Ix := Unit) (Name := ℕ) (U := Pipeline.UD sig nD τ) (Lvl := ℕ) (Val := Elt F) (τ := τ) spec3 c) := by
  rw [Pipeline.ownSems0_none, Phi3]; unfold Pipeline.ΦA
  iintro ⟨Hr, Hp⟩
  isplitl [Hp]; · iexact Hp
  isplitr; · iempintro
  iexact Hr

set_option backward.isDefEq.respectTransparency.types false in
/-- EXIT: the four arrays at their final contents and the other buffers as entered are the unscoped buffers at the
    changed valuation; the generator register and the core's empty debts ride along. -/
theorem exit3 (c : Dev nD) :
    iprop((dat3 (VW3 W) c).arrays ((dat3 (VW3 W) c).arrAt · cfg3.N) ∗ (dat3 (VW3 W) c).owesAt () (Fin.last cfg3.N) ∗ Y3 W c ∗ Z3 W c)
      ⊢ |={Set.univ}=> iprop(StableHlo.held (c : Thread nD τ) (Pipeline.ucRefs τ sig) (Wout3 W c) ∗ Rst3 (F := F) c) := by
  have hjoin := Pipeline.unscopedBufs_of_arrays (p := ()) (pcs3 (F := F)) adm3 (Ix := Unit) (Name := ℕ) (U := Pipeline.UD sig nD τ) (Lvl := ℕ)
    winFacts3 arr_whole3 c (fam3 W) ((dat3 (VW3 W) c).share_full fun _ => rfl)
    (VW3 W c) (fun b => Wout3 W c b) ((dat3 (VW3 W) c).arrAt · cfg3.N) (hF3 W c) (hrest3 W c)
  rw [Pipeline.unscopedBufs_held] at hjoin
  iintro ⟨Ha, HO, HY, Hrest⟩
  imodintro
  isplitl [Ha Hrest]
  · iapply hjoin; isplitl [Ha] <;> iassumption
  isplitl [HY]; · iexact HY
  unfold Pipeline.Dat.owesAt Pipeline.owesWithin
  icases HO with ⟨%Wt, -, HO⟩; iexists Wt; iexact HO

end Region

end Cert.Kernel.Reg

end
-- ==== Proof.InpRange.lean ====
/-
  The one integer input, read out of the precondition, and what clamping or wrapping does to it.

  The input is a single signed 32-bit word x. The precondition ends in two conjuncts over that word:
  0 ≤ x and x < 256, each a signed comparison against a broadcast constant, reduced by `and` over the
  one entry. Splitting the outer two `and`s isolates these two conjuncts; the conjuncts before them
  (reductions over the float arrays) are carried as one opaque word and never opened.

  For a word in [0, 256): clamping it to [0, 255] (max with 0, then min with 255) leaves it unchanged,
  and so does wrapping a negative index by adding 256. For every word, the clamped word is at most 255.
-/
import proofs.«417261_j67628555043381_3_alg».proof.Pre_finite_inputs
import Idealize.ShloMosaic.Lib.Affine
import Idealize.ShloMosaic.Lib.ReduceAll
import Idealize.ShloMosaic.Lib.StableHlo.Predicate
import Idealize.ShloMosaic.Lib.ValueIdx

namespace Cert.InpRange

open Idealize.ShloMosaic
open Cert.Pre_finite_inputs

/-! ## Words -/

/-- The signed reading of a 32-bit word: its value below 2³¹, its value less 2³² from there on. -/
theorem toInt_split (x : BitVec 32) :
    (x.toNat < 2 ^ 31 ∧ x.toInt = (x.toNat : Int)) ∨ (2 ^ 31 ≤ x.toNat ∧ x.toInt = (x.toNat : Int) - 2 ^ 32) := by
  rw [BitVec.toInt_eq_toNat_cond]
  by_cases h : 2 * x.toNat < 2 ^ 32
  · left; rw [if_pos h]; exact ⟨by omega, rfl⟩
  · right; rw [if_neg h]; exact ⟨by omega, by omega⟩

theorem toInt_zero32 : (0#32 : BitVec 32).toInt = 0 := by decide
theorem toInt_255 : (255#32 : BitVec 32).toInt = 255 := by decide
theorem toInt_256 : (256#32 : BitVec 32).toInt = 256 := by decide

/-- x <ₛ 0 is false exactly when the signed reading is nonnegative. -/
theorem slt_zero_eq_false (x : BitVec 32) : x.slt 0#32 = false ↔ 0 ≤ x.toInt := by
  rw [Bool.eq_false_iff, Ne, BitVec.slt_iff_toInt_lt, toInt_zero32]; omega

/-- x <ₛ 256 says the signed reading is below 256. -/
theorem slt_256_eq_true (x : BitVec 32) : x.slt 256#32 = true ↔ x.toInt < 256 := by
  rw [BitVec.slt_iff_toInt_lt, toInt_256]

/-- A word in [0, 256) signed is below 256 unsigned. -/
theorem toNat_lt_256 (x : BitVec 32) (h0 : x.slt 0#32 = false) (h1 : x.slt 256#32 = true) : x.toNat < 256 := by
  rw [slt_zero_eq_false] at h0
  rw [slt_256_eq_true] at h1
  rcases toInt_split x with ⟨_, e⟩ | ⟨_, e⟩ <;> omega

/-- max(0, x), signed. -/
theorem maxsi_zero (x : BitVec 32) : IntOp.maxsi 0#32 x = if 0 ≤ x.toInt then x else 0#32 := by
  unfold IntOp.maxsi
  by_cases h : x.slt 0#32 = true
  · rw [if_pos h, if_neg]
    rw [BitVec.slt_iff_toInt_lt, toInt_zero32] at h; omega
  · rw [if_neg h, if_pos]
    rw [BitVec.slt_iff_toInt_lt, toInt_zero32] at h; omega

/-- min(255, y), signed. -/
theorem minsi_255 (y : BitVec 32) : IntOp.minsi 255#32 y = if y.toInt ≤ 255 then y else 255#32 := by
  unfold IntOp.minsi
  by_cases h : (255#32 : BitVec 32).slt y = true
  · rw [if_pos h, if_neg]
    rw [BitVec.slt_iff_toInt_lt, toInt_255] at h; omega
  · rw [if_neg h, if_pos]
    rw [BitVec.slt_iff_toInt_lt, toInt_255] at h; omega

/-- For every word, the word clamped to [0, 255] is at most 255: it names a row of a 256-row table. -/
theorem clamp_le (x : BitVec 32) : (IntOp.minsi 255#32 (IntOp.maxsi 0#32 x)).toNat ≤ 255 := by
  rw [maxsi_zero]
  by_cases h0 : 0 ≤ x.toInt
  · rw [if_pos h0, minsi_255]
    by_cases h1 : x.toInt ≤ 255
    · rw [if_pos h1]
      rcases toInt_split x with ⟨_, e⟩ | ⟨_, e⟩ <;> omega
    · rw [if_neg h1]; decide
  · rw [if_neg h0, minsi_255, if_pos (by rw [toInt_zero32]; omega)]; decide

/-- A word in [0, 256) is its own clamp to [0, 255]. -/
theorem clamp_id (x : BitVec 32) (h0 : x.slt 0#32 = false) (h1 : x.slt 256#32 = true) :
    IntOp.minsi 255#32 (IntOp.maxsi 0#32 x) = x := by
  rw [slt_zero_eq_false] at h0
  rw [slt_256_eq_true] at h1
  rw [maxsi_zero, if_pos h0, minsi_255, if_pos (by omega)]

/-- A nonnegative word is not wrapped. -/
theorem wrap_id (x : BitVec 32) (h0 : x.slt 0#32 = false) : (if x.slt 0#32 then x + 256#32 else x) = x := by
  rw [h0]; rfl

/-- The same, in the operations a `select` of a signed compare and an add are at one entry. -/
theorem wrap_id_select (x : BitVec 32) (h0 : x.slt 0#32 = false) :
    Scalar.select (IntOp.cmpi .slt x 0#32) (IntOp.addi x 256#32) x = x := by
  have hc : IntOp.cmpi .slt x 0#32 = 0#1 := by
    show BitVec.ofBool (x.slt 0#32) = 0#1
    rw [h0]; rfl
  unfold Scalar.select
  rw [hc, if_neg (by decide)]

/-! ## The precondition, read at the input word -/

/-- A rank-0 shape has one index. -/
instance : Subsingleton S_.Idx := ⟨fun a b => funext fun d => d.elim0⟩

/-- The last two conjuncts of the precondition's third part, at the one entry of the input: 0 ≤ x and x < 256 as the
    compare operations give them. The conjuncts before them stay inside `v48` and the two float reductions, unopened. -/
theorem part3_tail {F : FTy → Type} [FloatOps F] [Facts] (a0 : IVec S1 32) (a12 : FVec F S256 .f32) (v48 : IVec S_ 1)
    (v49 v50 : FVec F S256x4096 .f32) (h : fn_part3 (F := F) a0 a12 v48 v49 v50 ValueIdx.ix0 = 1#1) :
    IntOp.cmpi .sge (a0 (ValueIdx.ix1 0)) 0#32 = 1#1 ∧ IntOp.cmpi .slt (a0 (ValueIdx.ix1 0)) 256#32 = 1#1 := by
  unfold fn_part3 at h
  dsimp only at h
  -- the value is ((earlier ∧ ge) ∧ lt), each side read at the one rank-0 index
  obtain ⟨h1, hlt⟩ := IntOp.andi_eq_one.1 (show IntOp.andi _ _ = 1#1 from h)
  obtain ⟨-, hge⟩ := IntOp.andi_eq_one.1 (show IntOp.andi _ _ = 1#1 from h1)
  -- an `and`-reduction that is 1 met a 1 at every entry; the broadcast constant reads the same everywhere
  exact ⟨Host.reduce_andi_all _ _ _ _ ValueIdx.ix0 hge (ValueIdx.ix1 0),
    Host.reduce_andi_all _ _ _ _ ValueIdx.ix0 hlt (ValueIdx.ix1 0)⟩

theorem range_of_pre {F : FTy → Type} [FloatOps F] [Facts] (a0 : IVec S1 32) (a1 : FVec F S2x1x4096 .f32)
    (a2 : FVec F S256x4096 .f32) (a3 a4 : FVec F S12288x4096 .f32) (a5 a6 : FVec F S12288 .f32)
    (a7 a8 : FVec F S12288x4096 .f32) (a9 a10 : FVec F S12288 .f32) (a11 : FVec F S256x4096 .f32) (a12 : FVec F S256 .f32)
    (h : fn (F := F) a0 a1 a2 a3 a4 a5 a6 a7 a8 a9 a10 a11 a12 = fun _ => 1#1) :
    (a0 (ValueIdx.ix1 0)).slt 0#32 = false ∧ (a0 (ValueIdx.ix1 0)).slt 256#32 = true := by
  have e := congrFun h ValueIdx.ix0
  -- the three parts are one chain: the whole is the third part at the names the first two compute
  unfold fn fn_part1 fn_part2 at e
  dsimp only at e
  obtain ⟨hge, hlt⟩ := part3_tail _ _ _ _ _ e
  refine ⟨?_, ?_⟩
  · rw [slt_zero_eq_false]
    have := IntOp.cmpi_sge.1 hge
    rwa [toInt_zero32] at this
  · exact BitVec.slt_iff_toInt_lt.2 (IntOp.cmpi_slt.1 hlt)

/-! ## The same facts on the one-entry vector -/

/-- A one-entry vector has one index. -/
theorem S1_idx (i : S1.Idx) : i = ValueIdx.ix1 0 :=
  (ValueIdx.eq_ix1 i).trans (congrArg ValueIdx.ix1 (Subsingleton.elim (α := Fin 1) _ _))

/-- A scalar broadcast to the one-entry vector reads the scalar's one entry. -/
theorem bcast_read (hb : S_.BroadcastsInDim S1 (![] : Fin 0 → Fin S1.rank)) (v : IVec S_ 32) (j : S1.Idx) :
    broadcastInDim S1 ![] hb v j = v ValueIdx.ix0 :=
  show v _ = v _ from congrArg v (ValueIdx.eq_ix0 _)

/-- The clamp to [0, 255], entrywise, of an input in [0, 256) is the input; the bounds are any scalars holding 0 and 255. -/
theorem clamp_vec_id_of (hb hb' : S_.BroadcastsInDim S1 (![] : Fin 0 → Fin S1.rank)) (lo hi : IVec S_ 32)
    (elo : lo ValueIdx.ix0 = 0#32) (ehi : hi ValueIdx.ix0 = 255#32) (a0 : IVec S1 32)
    (h0 : (a0 (ValueIdx.ix1 0)).slt 0#32 = false) (h1 : (a0 (ValueIdx.ix1 0)).slt 256#32 = true) :
    minsi (broadcastInDim S1 ![] hb hi) (maxsi (broadcastInDim S1 ![] hb' lo) a0) = a0 := by
  funext i
  have hi' := S1_idx i
  subst hi'
  show IntOp.minsi (broadcastInDim S1 ![] hb hi _) (IntOp.maxsi (broadcastInDim S1 ![] hb' lo _) (a0 _)) = a0 _
  rw [bcast_read, bcast_read, elo, ehi]
  exact clamp_id _ h0 h1

/-- For every input, the clamped entry is at most 255. -/
theorem clamp_vec_le_of (hb hb' : S_.BroadcastsInDim S1 (![] : Fin 0 → Fin S1.rank)) (lo hi : IVec S_ 32)
    (elo : lo ValueIdx.ix0 = 0#32) (ehi : hi ValueIdx.ix0 = 255#32) (a0 : IVec S1 32) :
    ((minsi (broadcastInDim S1 ![] hb hi) (maxsi (broadcastInDim S1 ![] hb' lo) a0)) (ValueIdx.ix1 0)).toNat ≤ 255 := by
  show (IntOp.minsi (broadcastInDim S1 ![] hb hi _) (IntOp.maxsi (broadcastInDim S1 ![] hb' lo _) (a0 _))).toNat ≤ 255
  rw [bcast_read, bcast_read, elo, ehi]
  exact clamp_le _

/-- Wrapping a negative index by 256, entrywise, leaves a nonnegative input unchanged; the constants are any scalars
    holding 0 and 256. -/
theorem wrap_vec_id_of (hb hb' : S_.BroadcastsInDim S1 (![] : Fin 0 → Fin S1.rank)) (z n : IVec S_ 32)
    (ez : z ValueIdx.ix0 = 0#32) (en : n ValueIdx.ix0 = 256#32) (a0 : IVec S1 32)
    (h0 : (a0 (ValueIdx.ix1 0)).slt 0#32 = false) :
    select (cmpi .slt a0 (broadcastInDim S1 ![] hb z)) (addi a0 (broadcastInDim S1 ![] hb' n)) a0 = a0 := by
  funext i
  have hi' := S1_idx i
  subst hi'
  show Scalar.select (IntOp.cmpi .slt (a0 _) (broadcastInDim S1 ![] hb z _)) (IntOp.addi (a0 _) (broadcastInDim S1 ![] hb' n _)) (a0 _) = a0 _
  rw [bcast_read, bcast_read, ez, en]
  exact wrap_id_select _ h0

/-- The three, at the literal constants. -/
theorem clamp_vec_id (hb hb' : S_.BroadcastsInDim S1 (![] : Fin 0 → Fin S1.rank)) (a0 : IVec S1 32)
    (h0 : (a0 (ValueIdx.ix1 0)).slt 0#32 = false) (h1 : (a0 (ValueIdx.ix1 0)).slt 256#32 = true) :
    minsi (broadcastInDim S1 ![] hb (constantI S_ 32 255#32)) (maxsi (broadcastInDim S1 ![] hb' (constantI S_ 32 0#32)) a0) = a0 :=
  clamp_vec_id_of hb hb' _ _ rfl rfl a0 h0 h1

theorem clamp_vec_le (hb hb' : S_.BroadcastsInDim S1 (![] : Fin 0 → Fin S1.rank)) (a0 : IVec S1 32) :
    ((minsi (broadcastInDim S1 ![] hb (constantI S_ 32 255#32)) (maxsi (broadcastInDim S1 ![] hb' (constantI S_ 32 0#32)) a0))
      (ValueIdx.ix1 0)).toNat ≤ 255 :=
  clamp_vec_le_of hb hb' _ _ rfl rfl a0

theorem wrap_vec_id (hb hb' : S_.BroadcastsInDim S1 (![] : Fin 0 → Fin S1.rank)) (a0 : IVec S1 32)
    (h0 : (a0 (ValueIdx.ix1 0)).slt 0#32 = false) :
    select (cmpi .slt a0 (broadcastInDim S1 ![] hb (constantI S_ 32 0#32))) (addi a0 (broadcastInDim S1 ![] hb' (constantI S_ 32 256#32))) a0 = a0 :=
  wrap_vec_id_of hb hb' _ _ rfl rfl a0 h0

/-- info: 'Cert.InpRange.range_of_pre' depends on axioms: [propext, Classical.choice, Quot.sound] -/
#guard_msgs (whitespace := lax) in #print axioms range_of_pre

end Cert.InpRange
-- ==== Proof.K.TableWord.lean ====
/-
  The prefetched table of the first launch: the one-entry integer buffer the host code fills before it.

  Two host stretches run before that launch. The first writes the scalars 0 and 255. The second, the outlined
  clip, copies each scalar, broadcasts it to one entry, takes the entrywise signed maximum of the 0-vector with
  the input, and the entrywise signed minimum of the 255-vector with that maximum; the minimum is the table.
  So at every launch memory the table is the input clamped to [0, 255]: its word names a row of the 256-row
  embedding matrix, which is the side condition the body assumes of it, and the row copied is the word's value.
  When the input already lies in [0, 256) the table is the input itself.
-/
import proofs.«417261_j67628555043381_3_alg».proof.Proof.Gen.Kernel.Regions
import proofs.«417261_j67628555043381_3_alg».proof.Proof.InpRange
import Idealize.ShloMosaic.Lib.StableHlo.Run
import Idealize.ShloMosaic.Lib.ValueIdx

noncomputable section

namespace Cert.Kernel.Reg

open Idealize.ShloMosaic Idealize.ShloMosaic.TcCoe
open Idealize.ShloMosaic.StableHlo
open Cert.Kernel Cert.Kernel.Gen

variable {F : FTy → Type} [FloatOps F] (m : (ℓ : Loc nD τ sig) → Buf (Elt F) ℓ)

/-- The table before the first launch is the input clamped to [0, 255], entrywise: min(255, max(0, input)). -/
theorem tbl_eq (c : Dev nD) :
    (Gen.V2 m c main_v0 : IVec S1 32)
      = minsi (broadcastInDim S1 ![] bcast_S_S1 (constantI S_ 32 255#32))
          (maxsi (broadcastInDim S1 ![] bcast_S_S1 (constantI S_ 32 0#32)) (m ((c : Thread nD τ).loc main_arg0))) := by
  dsimp only [Gen.V2, Gen.V1, Gen.V0, Gen.hostOps0, Gen.hostOps0_1]
  after_results
  rfl

/-- At every launch memory the table's word, as a row offset, leaves one row of the matrix inside it. -/
theorem tbl_chk (c : Dev nD) : k0_chk1 ((Gen.V2 m c main_v0 : IVec S1 32) (ValueIdx.ix1 0)) := by
  rw [tbl_eq]
  -- the clamped word is at most 255, so row + 1 ≤ 256; the column offset is 0 and the row is 4096 wide
  have hle := Cert.InpRange.clamp_vec_le bcast_S_S1 bcast_S_S1 (m ((c : Thread nD τ).loc main_arg0))
  intro a
  match a with
  | ⟨0, _⟩ => exact Nat.succ_le_succ hle
  | ⟨1, _⟩ => exact Nat.le_refl 4096

/-- The offsets read off the table's word: the row is the word's value, the column 0. -/
theorem tbl_row (c : Dev nD) :
    k0_off1 ((Gen.V2 m c main_v0 : IVec S1 32) (ValueIdx.ix1 0))
      = ![((Gen.V2 m c main_v0 : IVec S1 32) (ValueIdx.ix1 0)).toNat, 0] := rfl

/-- When the input lies in [0, 256) the table holds the input itself. -/
theorem tbl_id (c : Dev nD)
    (h0 : ((m ((c : Thread nD τ).loc main_arg0) : IVec S1 32) (ValueIdx.ix1 0)).slt 0#32 = false)
    (h1 : ((m ((c : Thread nD τ).loc main_arg0) : IVec S1 32) (ValueIdx.ix1 0)).slt 256#32 = true) :
    (Gen.V2 m c main_v0 : IVec S1 32) = m ((c : Thread nD τ).loc main_arg0) := by
  rw [tbl_eq]
  exact Cert.InpRange.clamp_vec_id bcast_S_S1 bcast_S_S1 _ h0 h1

end Cert.Kernel.Reg

end
-- ==== Proof.K.Contents.lean ====
/-
  The buffers between the program's items, and each launch's proof data at the contents it finds.

  Before the first launch the host has clamped the looked-up index into the table's 256 rows and left it in the
  prefetched table; from there the valuations chain: each launch replaces exactly its output array by what its
  write-backs leave, each host stretch applies its operations. The four launches' proof data are taken at these
  valuations: the embedding copy at the valuation after the clamp (its table contents are that valuation's),
  the first recurrent layer at the valuation after the reshapes that follow it, and so on.
-/
import proofs.«417261_j67628555043381_3_alg».proof.Proof.K.Emb
import proofs.«417261_j67628555043381_3_alg».proof.Proof.K.GruARec
import proofs.«417261_j67628555043381_3_alg».proof.Proof.K.GruBRec
import proofs.«417261_j67628555043381_3_alg».proof.Proof.K.Dec
import proofs.«417261_j67628555043381_3_alg».proof.Proof.K.TableWord
import proofs.«417261_j67628555043381_3_alg».proof.Proof.K.RunAll

set_option maxRecDepth 16384

noncomputable section

namespace Cert.Kernel.Reg

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.Kernel Cert.Kernel.Gen

variable {F : FTy → Type} [FloatOps F]
variable (m : (ℓ : Loc nD τ sig) → Buf (Elt F) ℓ)

/-! ## The table the first launch prefetches -/

/-- The program runs on one device. -/
abbrev dev0 : Dev nD := (0 : Fin 1)
theorem dev_eq (c : Dev nD) : c = dev0 := Subsingleton.elim _ _

/-- The pipeline's one table is the buffer the clamp's result is left in. -/
theorem pre0_ref0 : pre0.ref (0 : Fin pre0.K) = main_v0 := rfl
/-- A dependent function at two equal arguments. -/
theorem dep_congr {α : Type} {β : α → Type} (f : ∀ a, β a) {a b : α} (h : a = b) : HEq (f a) (f b) := by subst h; rfl

/-- The clamp's result as the first launch finds it, under a name of its own: nothing below looks inside it. -/
def tblBuf : Buf (Elt F) ((dev0 : Thread nD τ).loc main_v0) := Gen.V2 m dev0 main_v0
theorem tblBuf_eq : tblBuf m = Gen.V2 m dev0 main_v0 := rfl
attribute [irreducible] tblBuf

/-- The table's contents when the first launch is entered: what the host's clamp left. -/
def tbl : pre0.Contents (Elt F) := fun
  | ⟨0, _⟩ => tblBuf m
/-- Every contents is admissible for this pipeline (its one window's index map reads no table). -/
def a0 : (pcfg0 (F := F)).Adm := ⟨tbl m, trivial⟩
theorem a0_val (c : Dev nD) (k : Fin pre0.K) : (a0 m).1 k = VW0 (Gen.V2 m) c (pre0.ref k) := by
  have hc := dev_eq c
  subst hc
  have hk : k = (0 : Fin pre0.K) := Subsingleton.elim _ _
  subst hk
  exact eq_of_heq ((heq_of_eq (tblBuf_eq m)).trans (dep_congr (fun b : Ref sig .tc => VW0 (Gen.V2 m) dev0 b) pre0_ref0.symm))

/-- The word the embedding copy reads off the table is the clamp's result, which satisfies the copy's side
    condition for every input. -/
theorem word0_chk : k0_chk1 (word0 (a0 m).1) := by
  rw [word0_eq]
  have h := tbl_chk m dev0
  rw [← tblBuf_eq m] at h
  exact h

/-- The admissible contents of every pipeline's tables: only the first has one. -/
def adm : (p : Fin 4) → (pcfgs (F := F) p).Adm
  | ⟨0, _⟩ => a0 m
  | ⟨1, _⟩ => cfg1.toPCfg_adm
  | ⟨2, _⟩ => cfg2.toPCfg_adm
  | ⟨3, _⟩ => cfg3.toPCfg_adm
  | ⟨_ + 4, h⟩ => absurd h (Nat.not_lt.2 (Nat.le_add_left _ _))

/-! ## The valuations between the items -/

/-- Before the embedding copy: the launch memory after the two constants and the clamp. -/
abbrev U2 (c : Dev nD) : Valuation τ sig (Elt F) := Gen.V2 m c
/-- After it: the looked-up row's array replaced. -/
abbrev U3 (c : Dev nD) : Valuation τ sig (Elt F) := Wout0 (a0 m) (U2 m) c
/-- After the slices and reshapes that feed the first layer. -/
abbrev U4 (c : Dev nD) : Valuation τ sig (Elt F) := StableHlo.after hostOps1 (U3 m c)
/-- After the first layer: its new hidden row's array replaced. -/
abbrev U5 (c : Dev nD) : Valuation τ sig (Elt F) := Wout1 (U4 m) c
/-- After the reshapes that feed the second layer. -/
abbrev U6 (c : Dev nD) : Valuation τ sig (Elt F) := StableHlo.after hostOps2 (U5 m c)
/-- After the second layer. -/
abbrev U7 (c : Dev nD) : Valuation τ sig (Elt F) := Wout2 (U6 m) c
/-- After the decoder bias's reshape. -/
abbrev U8 (c : Dev nD) : Valuation τ sig (Elt F) := StableHlo.after hostOps3 (U7 m c)
/-- After the decoder: the logits' array replaced. -/
abbrev U9 (c : Dev nD) : Valuation τ sig (Elt F) := Wout3 (U8 m) c
/-- At the end: the two new hidden rows stacked. -/
abbrev U10 (c : Dev nD) : Valuation τ sig (Elt F) := StableHlo.after hostOps4 (U9 m c)

/-- What each launch leaves in its output array, in the form the generated valuations take it. -/
def outs : Gen.Outs (F := F) := fun J r c =>
  match J with
  | 3 => U3 m c r
  | 5 => U5 m c r
  | 7 => U7 m c r
  | 9 => U9 m c r
  | _ => U2 m c r

/-- Replacing an entry by what the replaced function holds there changes nothing more. -/
theorem upd_idem {α : Type} [DecidableEq α] {β : α → Type} (W : ∀ a, β a) (a : α) (X : β a) :
    Function.update W a (Function.update W a X a) = Function.update W a X := by rw [Function.update_self]

theorem V3_eq (c : Dev nD) : Gen.V3 m (outs m) c = U3 m c :=
  upd_idem (Gen.V2 m c) _ _
theorem V4_eq (c : Dev nD) : Gen.V4 m (outs m) c = U4 m c := congrArg (StableHlo.after hostOps1) (V3_eq m c)
theorem V5_eq (c : Dev nD) : Gen.V5 m (outs m) c = U5 m c := by
  show Function.update (Gen.V4 m (outs m) c) main_v10 (U5 m c main_v10) = U5 m c
  rw [V4_eq]; exact upd_idem (U4 m c) _ _
theorem V6_eq (c : Dev nD) : Gen.V6 m (outs m) c = U6 m c := congrArg (StableHlo.after hostOps2) (V5_eq m c)
theorem V7_eq (c : Dev nD) : Gen.V7 m (outs m) c = U7 m c := by
  show Function.update (Gen.V6 m (outs m) c) main_v15 (U7 m c main_v15) = U7 m c
  rw [V6_eq]; exact upd_idem (U6 m c) _ _
theorem V8_eq (c : Dev nD) : Gen.V8 m (outs m) c = U8 m c := congrArg (StableHlo.after hostOps3) (V7_eq m c)
theorem V9_eq (c : Dev nD) : Gen.V9 m (outs m) c = U9 m c := by
  show Function.update (Gen.V8 m (outs m) c) main_v17 (U9 m c main_v17) = U9 m c
  rw [V8_eq]; exact upd_idem (U8 m c) _ _
theorem V10_eq (c : Dev nD) : Gen.V10 m (outs m) c = U10 m c := congrArg (StableHlo.after hostOps4) (V9_eq m c)

/-! ## The proof data family -/

/-- Every pipeline's proof data, each at the valuation its launch is entered from: a literal match, so that the
    pipeline pinned at a numeral reduces to the printed configuration. -/
def pdats : (p : Fin 4) → (c : Dev nD) → Dat τ (Elt F) Unit ℕ (Pipeline.UD sig nD τ) ℕ (Pipeline.pin (pcfgs (F := F)) (adm m) p) c
  | ⟨0, _⟩ => fun c => dat0 (a0 m) (VW0 (U2 m)) c
  | ⟨1, _⟩ => fun c => dat1 (VW1 (U4 m)) c
  | ⟨2, _⟩ => fun c => dat2 (VW2 (U6 m)) c
  | ⟨3, _⟩ => fun c => dat3 (VW3 (U8 m)) c
  | ⟨_ + 4, h⟩ => absurd h (Nat.not_lt.2 (Nat.le_add_left _ _))

end Cert.Kernel.Reg

end
-- ==== Proof.K.Segs.lean ====
/-
  The four launches as records over the run's thread states.

  Between two items a core holds every unscoped buffer at the valuation of Contents.lean, beside its generator
  register at some state and the fact that it owes nothing. Each launch's record is entered from the valuation
  before it and left at the valuation after it; its four entailments are the launch's own (its module proves them
  at an arbitrary entry valuation), instantiated here.
-/
import proofs.«417261_j67628555043381_3_alg».proof.Proof.K.Contents

set_option maxRecDepth 16384

noncomputable section

namespace Cert.Kernel.Reg

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RegionSeg)
open Cert.Kernel Cert.Kernel.Gen

variable {F : FTy → Type} [FloatOps F]
variable (m : (ℓ : Loc nD τ sig) → Buf (Elt F) ℓ)

local notation "𝕄" => MT nD τ sig Unit (Elt F) ℕ (Pipeline.UD sig nD τ) ℕ

/-- No level is assigned: no core owes another anything. -/
abbrev L0 : GSem nD τ sig → Finset Unit := fun _ => ∅
abbrev lv0 : GSem nD τ sig → Unit → ℕ := fun _ _ => 0

/-- What rides beside the buffers through every item: the generator register at some state, nothing owed. -/
abbrev Rst (c : Dev nD) : sProp 𝕄 := iprop((∃ r, prngReg c r) ∗ ∃ Wt, owes (c : Thread nD τ) (0 : CellTallies nD τ sig Unit) Wt)
/-- The same at every boundary. -/
abbrev Erest : Fin 5 → Dev nD → sProp 𝕄 := fun _ c => Rst (F := F) c

set_option backward.isDefEq.respectTransparency.types false in
/-- The embedding copy: one cell of its own, the table at the clamp's result (which satisfies the body's side
    condition whatever the input), the embedding array left where it is. -/
def reg0 : RegionSeg (pcfgs (F := F)) (adm m) (pdats m) () defs₀ Variants.none L0 lv0 0 where
  win := winFacts0.to₀
  block_pos := block_pos0
  stage_whole := stage_whole0
  K := Fin 1
  osem := osem0
  ho := ownSemFacts0
  hbody c := (body_obligation0 (a0 m) (VW0 (U2 m)) c (word0_chk m)).loose
  hwaits := Pipeline.hwaits_of_owed_zero _ _ _ _ L0 lv0 0 fun _ _ => rfl
  pre c := iprop(StableHlo.held (c : Thread nD τ) (Pipeline.ucRefs τ sig) (U2 m c) ∗ Rst c)
  post c := iprop(StableHlo.held (c : Thread nD τ) (Pipeline.ucRefs τ sig) (U3 m c) ∗ Rst c)
  X c := X0 (U2 m) c
  Y c := Y0 (a0 m) (U2 m) c
  Z c := Z0 (U2 m) c
  hentry c := entry0 (a0 m) (U2 m) c (a0_val m c)
  hin c := in0 (a0 m) (U2 m) c
  hout c := out0 (a0 m) (U2 m) c
  hexit c := exit0 (a0 m) (U2 m) c (a0_val m c)

set_option backward.isDefEq.respectTransparency.types false in
/-- The first recurrent layer. -/
def reg1 : RegionSeg (pcfgs (F := F)) (adm m) (pdats m) () defs₀ Variants.none L0 lv0 1 where
  win := winFacts₀1
  block_pos := block_pos1
  stage_whole := stage_whole1
  K := PEmpty
  osem k := k.elim
  ho := Pipeline.OwnSemFacts.none _
  hbody c := (body_obligation1 (VW1 (U4 m)) c).loose
  hwaits := Pipeline.hwaits_of_owed_zero _ _ _ _ L0 lv0 1 fun _ _ => rfl
  pre c := iprop(StableHlo.held (c : Thread nD τ) (Pipeline.ucRefs τ sig) (U4 m c) ∗ Rst c)
  post c := iprop(StableHlo.held (c : Thread nD τ) (Pipeline.ucRefs τ sig) (U5 m c) ∗ Rst c)
  X c := X1 (U4 m) c
  Y c := Y1 (U4 m) c
  Z c := Z1 (U4 m) c
  hentry c := entry1 (U4 m) c
  hin c := in1 (U4 m) c
  hout c := out1 (U4 m) c
  hexit c := exit1 (U4 m) c

set_option backward.isDefEq.respectTransparency.types false in
/-- The second recurrent layer. -/
def reg2 : RegionSeg (pcfgs (F := F)) (adm m) (pdats m) () defs₀ Variants.none L0 lv0 2 where
  win := winFacts₀2
  block_pos := block_pos2
  stage_whole := stage_whole2
  K := PEmpty
  osem k := k.elim
  ho := Pipeline.OwnSemFacts.none _
  hbody c := (body_obligation2 (VW2 (U6 m)) c).loose
  hwaits := Pipeline.hwaits_of_owed_zero _ _ _ _ L0 lv0 2 fun _ _ => rfl
  pre c := iprop(StableHlo.held (c : Thread nD τ) (Pipeline.ucRefs τ sig) (U6 m c) ∗ Rst c)
  post c := iprop(StableHlo.held (c : Thread nD τ) (Pipeline.ucRefs τ sig) (U7 m c) ∗ Rst c)
  X c := X2 (U6 m) c
  Y c := Y2 (U6 m) c
  Z c := Z2 (U6 m) c
  hentry c := entry2 (U6 m) c
  hin c := in2 (U6 m) c
  hout c := out2 (U6 m) c
  hexit c := exit2 (U6 m) c

set_option backward.isDefEq.respectTransparency.types false in
/-- The decoder. -/
def reg3 : RegionSeg (pcfgs (F := F)) (adm m) (pdats m) () defs₀ Variants.none L0 lv0 3 where
  win := winFacts3.to₀
  block_pos := block_pos3
  stage_whole := stage_whole3
  K := PEmpty
  osem k := k.elim
  ho := Pipeline.OwnSemFacts.none _
  hbody c := (body_obligation3 (VW3 (U8 m)) c).loose
  hwaits := Pipeline.hwaits_of_owed_zero _ _ _ _ L0 lv0 3 fun _ _ => rfl
  pre c := iprop(StableHlo.held (c : Thread nD τ) (Pipeline.ucRefs τ sig) (U8 m c) ∗ Rst c)
  post c := iprop(StableHlo.held (c : Thread nD τ) (Pipeline.ucRefs τ sig) (U9 m c) ∗ Rst c)
  X c := X3 (U8 m) c
  Y c := Y3 (U8 m) c
  Z c := Z3 (U8 m) c
  hentry c := entry3 (U8 m) c
  hin c := in3 (U8 m) c
  hout c := out3 (U8 m) c
  hexit c := exit3 (U8 m) c

/-! ## Entered from, and left at, the run's valuations -/

theorem hpre0 (c : Dev nD) : iprop(StableHlo.held (c : Thread nD τ) (Pipeline.ucRefs τ sig) (Gen.V2 m c) ∗ Erest (F := F) 0 c) ⊢ (reg0 m).pre c := .rfl
theorem hpost0 (c : Dev nD) : (reg0 m).post c ⊢ iprop(StableHlo.held (c : Thread nD τ) (Pipeline.ucRefs τ sig) (Gen.V3 m (outs m) c) ∗ Erest (F := F) 1 c) := by
  rw [V3_eq]; exact .rfl
theorem hpre1 (c : Dev nD) : iprop(StableHlo.held (c : Thread nD τ) (Pipeline.ucRefs τ sig) (Gen.V4 m (outs m) c) ∗ Erest (F := F) 1 c) ⊢ (reg1 m).pre c := by
  rw [V4_eq]; exact .rfl
theorem hpost1 (c : Dev nD) : (reg1 m).post c ⊢ iprop(StableHlo.held (c : Thread nD τ) (Pipeline.ucRefs τ sig) (Gen.V5 m (outs m) c) ∗ Erest (F := F) 2 c) := by
  rw [V5_eq]; exact .rfl
theorem hpre2 (c : Dev nD) : iprop(StableHlo.held (c : Thread nD τ) (Pipeline.ucRefs τ sig) (Gen.V6 m (outs m) c) ∗ Erest (F := F) 2 c) ⊢ (reg2 m).pre c := by
  rw [V6_eq]; exact .rfl
theorem hpost2 (c : Dev nD) : (reg2 m).post c ⊢ iprop(StableHlo.held (c : Thread nD τ) (Pipeline.ucRefs τ sig) (Gen.V7 m (outs m) c) ∗ Erest (F := F) 3 c) := by
  rw [V7_eq]; exact .rfl
theorem hpre3 (c : Dev nD) : iprop(StableHlo.held (c : Thread nD τ) (Pipeline.ucRefs τ sig) (Gen.V8 m (outs m) c) ∗ Erest (F := F) 3 c) ⊢ (reg3 m).pre c := by
  rw [V8_eq]; exact .rfl
theorem hpost3 (c : Dev nD) : (reg3 m).post c ⊢ iprop(StableHlo.held (c : Thread nD τ) (Pipeline.ucRefs τ sig) (Gen.V9 m (outs m) c) ∗ Erest (F := F) 4 c) := by
  rw [V9_eq]; exact .rfl

end Cert.Kernel.Reg

end
-- ==== Proof.K.Run.lean ====
/-
  The program's run: it ends, nothing faults, every argument array ends as launched, and the two results end at
  the last valuation's contents.
-/
import proofs.«417261_j67628555043381_3_alg».proof.Proof.K.Segs

set_option maxRecDepth 16384

noncomputable section

namespace Cert.Kernel.Reg

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RegionSeg)
open Cert.Kernel Cert.Kernel.Gen

variable {F : FTy → Type} [FloatOps F]
variable (m : (ℓ : Loc nD τ sig) → Buf (Elt F) ℓ)

local notation "𝕄" => MT nD τ sig Unit (Elt F) ℕ (Pipeline.UD sig nD τ) ℕ

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution from memory `m` terminates, and the final memory holds every unscoped buffer at
    the last valuation. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = Gen.V10 m (outs m) c b) :=
  run_cond m embL () Variants.none L0 lv0 (fun _ _ => rfl) ρ (outs m) (adm m) (pdats m)
    (O₀ := 0) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (E := Erest)
    (hE0 := by
      refine Pipeline.initEach L0 lv0 fun c => ?_
      iintro ⟨⟨-, HO, -, Hp, -⟩, -⟩
      imodintro
      isplitl [Hp]; · iexists _; iexact Hp
      iexists ∅; iexact HO)
    (hE4 := fun c => by iintro ⟨-, H⟩; iexact H)
    (reg0 m) (hpre0 m) (hpost0 m) (reg1 m) (hpre1 m) (hpost1 m) (reg2 m) (hpre2 m) (hpost2 m) (reg3 m) (hpre3 m) (hpost3 m)

/-- The frame: every argument array ends holding its launch contents (no item writes one). -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (Gen.V10_main_arg0 m (outs m) c),
     (h c _ (mem_uc main_arg1 (by decide))).trans (Gen.V10_main_arg1 m (outs m) c),
     (h c _ (mem_uc main_arg2 (by decide))).trans (Gen.V10_main_arg2 m (outs m) c),
     (h c _ (mem_uc main_arg3 (by decide))).trans (Gen.V10_main_arg3 m (outs m) c),
     (h c _ (mem_uc main_arg4 (by decide))).trans (Gen.V10_main_arg4 m (outs m) c),
     (h c _ (mem_uc main_arg5 (by decide))).trans (Gen.V10_main_arg5 m (outs m) c),
     (h c _ (mem_uc main_arg6 (by decide))).trans (Gen.V10_main_arg6 m (outs m) c),
     (h c _ (mem_uc main_arg7 (by decide))).trans (Gen.V10_main_arg7 m (outs m) c),
     (h c _ (mem_uc main_arg8 (by decide))).trans (Gen.V10_main_arg8 m (outs m) c),
     (h c _ (mem_uc main_arg9 (by decide))).trans (Gen.V10_main_arg9 m (outs m) c),
     (h c _ (mem_uc main_arg10 (by decide))).trans (Gen.V10_main_arg10 m (outs m) c),
     (h c _ (mem_uc main_arg11 (by decide))).trans (Gen.V10_main_arg11 m (outs m) c),
     (h c _ (mem_uc main_arg12 (by decide))).trans (Gen.V10_main_arg12 m (outs m) c)⟩) (run_all m ρ)

/-- The results: the logits' array and the stacked hidden rows end at the last valuation's contents, beside the frame. -/
theorem run_vals (ρ : Dev nD → PrngReg) :
    θ_run defs (onTc (τ := τ) (main (F := F))) ⟨m, fun _ => 0, ρ⟩ (fun r => ∀ c : Dev nD,
      r.2.mem ((c.tc : Thread nD τ).loc main_v17) = U10 m c main_v17
      ∧ r.2.mem ((c.tc : Thread nD τ).loc main_v20) = U10 m c main_v20
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v17 (by decide))).trans (congrFun (V10_eq m c) _),
     (h c _ (mem_uc main_v20 (by decide))).trans (congrFun (V10_eq m c) _),
     (h c _ (mem_uc main_arg0 (by decide))).trans (Gen.V10_main_arg0 m (outs m) c),
     (h c _ (mem_uc main_arg1 (by decide))).trans (Gen.V10_main_arg1 m (outs m) c),
     (h c _ (mem_uc main_arg2 (by decide))).trans (Gen.V10_main_arg2 m (outs m) c),
     (h c _ (mem_uc main_arg3 (by decide))).trans (Gen.V10_main_arg3 m (outs m) c),
     (h c _ (mem_uc main_arg4 (by decide))).trans (Gen.V10_main_arg4 m (outs m) c),
     (h c _ (mem_uc main_arg5 (by decide))).trans (Gen.V10_main_arg5 m (outs m) c),
     (h c _ (mem_uc main_arg6 (by decide))).trans (Gen.V10_main_arg6 m (outs m) c),
     (h c _ (mem_uc main_arg7 (by decide))).trans (Gen.V10_main_arg7 m (outs m) c),
     (h c _ (mem_uc main_arg8 (by decide))).trans (Gen.V10_main_arg8 m (outs m) c),
     (h c _ (mem_uc main_arg9 (by decide))).trans (Gen.V10_main_arg9 m (outs m) c),
     (h c _ (mem_uc main_arg10 (by decide))).trans (Gen.V10_main_arg10 m (outs m) c),
     (h c _ (mem_uc main_arg11 (by decide))).trans (Gen.V10_main_arg11 m (outs m) c),
     (h c _ (mem_uc main_arg12 (by decide))).trans (Gen.V10_main_arg12 m (outs m) c)⟩) (run_all m ρ)

end Cert.Kernel.Reg

end
-- ==== Proof.KI.Emb.lean ====
/-
  The embedding lookup's launch (the first pallas_call of the program), at the contents V the launch finds in
  the buffers and at admissible contents a of its one prefetched table.

  The grid has one point and one window, the output block [1,4096]. The body reads the table's one word w,
  takes row w of the [256,4096] embedding array, which stays in HBM, by a copy of its own onto its own DMA
  cell, straight into the output block's staging buffer, and waits for the copy before it returns. The row
  must lie inside the array: that is the side condition on w the body's run is stated under. The output
  block ends as row min(w,255) of the array, which under the side condition is row w.
-/
import proofs.«417261_j67628555043381_3_alg».proof.Proof.Gen.KernelIdeal.Launch
import proofs.«417261_j67628555043381_3_alg».proof.Proof.Gen.KernelIdeal.Skeleton
import Idealize.ShloMosaic.Lib.Pipeline.Launch
import Idealize.ShloMosaic.Lib.Exec.Geometry
import Idealize.ShloMosaic.Lib.Pipeline.Frame
import Idealize.ShloMosaic.Lib.Pipeline.Regions
import Idealize.ShloMosaic.Lib.Pipeline.RegionsLoop
import Idealize.ShloMosaic.Lib.Pipeline.Kit
import Idealize.ShloMosaic.Lib.ValueIdx
import Idealize.ShloMosaic.Lib.Pipeline.Value
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (a : (pcfg0 (F := F)).Adm)
-- the TensorCore's buffer contents when the region is entered: the parameter everything here is stated at
variable (V : (c : Dev nD) → (b : Ref sig .tc) → Buf (Elt F) ((c : Thread nD τ).loc b))

/-! ## The operands the pipeline does not stage -/

/-- The table, whole, as the body is handed it. -/
abbrev tabM0 : Memref sig .tc .smem S1 .i32 := Memref.whole main_v0
/-- The embedding array, whole, left in HBM. -/
abbrev hbM0 : Memref sig .tc .hbm S256x4096 .f32 := Memref.whole main_arg2
/-- The contents type of a memref's buffer on core `c`, and the buffer held whole at `f`. -/
abbrev MBuf0 (c : Dev nD) {sp : Space} {S : Shape} {e : EltTy} (M : Memref sig .tc sp S e) : Type := Buf (Elt F) (M.view.loc (c : Thread nD τ))
abbrev mPt0 (c : Dev nD) {sp : Space} {S : Shape} {e : EltTy} (M : Memref sig .tc sp S e) (f : MBuf0 (F := F) c M) : sProp 𝕄 :=
  M.view.loc (c : Thread nD τ) ↦{fullShare} f

/-- The table's one word, as a load of it through the table's memref reads it. -/
def word0 (pf : pre0.Contents (Elt F)) : BitVec 32 :=
  tabM0.view.readAt (Elt F) (Rect.unit (s := S1) ![0] S1.size inb_S1_S1_0).toLoadRect (pf 0) (Shape.Idx.first (numel1_S1.symm ▸ Nat.one_pos))

/-- A load of the table's one word reads the buffer's one entry, -/
theorem tabRead0 (f : (tabM0 : Memref sig .tc .smem S1 .i32).view.ty.Contents (Elt F)) :
    tabM0.view.readAt (Elt F) (Rect.unit (s := S1) ![0] S1.size inb_S1_S1_0).toLoadRect f (Shape.Idx.first (numel1_S1.symm ▸ Nat.one_pos))
      = (f : IVec S1 32) (ValueIdx.ix1 0) := by
  rw [View.readAt_apply, View.read_apply]
  have hi : tabM0.view.emb ((Rect.unit (s := S1) ![0] S1.size inb_S1_S1_0).toLoadRect.idx (Shape.Idx.first (numel1_S1.symm ▸ Nat.one_pos)))
      = ValueIdx.ix1 0 := by
    funext d
    match d with
    | ⟨0, _⟩ => rfl
  rw [hi]; rfl
/-- so that word is the table's entry. -/
theorem word0_eq (pf : pre0.Contents (Elt F)) : word0 pf = (pf 0 : IVec S1 32) (ValueIdx.ix1 0) := tabRead0 (pf 0)

/-- The row offsets at word `w`, cut to the array: row min(w,255), column 0. -/
def off0 (w : BitVec 32) : Fin 2 → Nat := ![min w.toNat 255, 0]
theorem off0_inb (w : BitVec 32) : ∀ ax, off0 w ax + S1x4096.size ax ≤ S256x4096.size ax := fun ax =>
  match ax with
  | ⟨0, _⟩ => by show min w.toNat 255 + 1 ≤ 256; omega
  | ⟨1, _⟩ => by show 0 + 4096 ≤ 4096; omega
/-- Under the side condition they are the offsets the body computes. -/
theorem off0_eq (w : BitVec 32) (h : k0_chk1 w) : k0_off1 w = off0 w := by
  have h0 : w.toNat + 1 ≤ 256 := h 0
  unfold k0_off1 off0
  rw [Nat.min_eq_left (by omega)]

/-- Row min(w,255) of the embedding array, as a memref. -/
abbrev rowM0 (w : BitVec 32) : Memref sig .tc .hbm S1x4096 .f32 :=
  hbM0.slice (Rect.unit (s := S256x4096) (off0 w) S1x4096.size (off0_inb w)) (fun _ => rfl)

/-- What the copy delivers: that row of the array's entry contents. -/
def row0 (c : Dev nD) : Vec F S1x4096 .f32 := (rowM0 (word0 a.1)).view.read (Elt F) (V c main_arg2)

/-! ## The kernel's own cell and the operand it copies from -/

/-- The body's own DMA cell. -/
abbrev osem0 : Fin 1 → SemLoc sig := fun j => (![SemLoc.dma 1] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 1) 0) := by
  rw [Pipeline.ownSems0_eq_of_list c osem0 [0] (by decide) (by decide)]; rfl

/-- The operand left in HBM that the body copies from: unscoped, no window's array, no table. -/
def H0 : Finset (Ref sig .tc) := {main_arg2}
theorem H0_sub : H0 ⊆ Pipeline.restRefsP sig pre0 spec0 := by decide
theorem hbmPts0_eq (c : Dev nD) :
    (bigSep H0 (fun b => ((c : Thread nD τ).loc b) ↦{fullShare} V c b) : sProp 𝕄) = iprop(mPt0 c hbM0 (V c main_arg2)) := by
  rw [BI.bigSep_eq_bigSepL_of_eq [main_arg2] (by decide) (by decide)]; rfl
/-- The table held whole is its one buffer's points-to. -/
theorem prefHeld0_eq (c : Dev nD) (pf : pre0.Contents (Elt F)) :
    (Pipeline.prefHeld (Ix := Unit) (Name := ℕ) (U := Pipeline.UD sig nD τ) (Lvl := ℕ) pre0 c (fun _ => fullShare) pf : sProp 𝕄)
      = iprop(mPt0 c tabM0 (pf 0)) := by
  unfold Pipeline.prefHeld; rw [bigSep_W0]; rfl

/-- The invariant: the scoped rest, the generator register, the own cell at zero, the embedding array whole at its
    entry contents, and the table whole at `a`'s contents. -/
def Inv0 (c : Dev nD) : sProp 𝕄 :=
  iprop(Pipeline.ΦD osem0 spec0 H0 V c ∗ Pipeline.prefHeld (Ix := Unit) (Name := ℕ) (U := Pipeline.UD sig nD τ) (Lvl := ℕ) pre0 c (fun _ => fullShare) a.1)

theorem Inv0_eq (c : Dev nD) :
    (Inv0 a V c : sProp 𝕄)
      = iprop(iprop(Pipeline.scopedRest (Ix := Unit) (Name := ℕ) (U := Pipeline.UD sig nD τ) (Lvl := ℕ) (Val := Elt F) spec0 c ∗ (∃ r, prngReg c r)
          ∗ iprop(semVal ((c : Thread nD τ), SemLoc.dma 1) 0) ∗ iprop(mPt0 c hbM0 (V c main_arg2))) ∗ iprop(mPt0 c tabM0 (a.1 0))) := by
  unfold Inv0; rw [Pipeline.ΦD_eq, ownSems00_eq, hbmPts0_eq, prefHeld0_eq]

/-! ## The proof data -/

def dat0 (c : Dev nD) : Dat τ (Elt F) Unit ℕ (Pipeline.UD sig nD τ) ℕ (cfg0 a) c where
  A w := V c (Pipeline.arrRef spec0 w)
  after w t := match w with
    | ⟨0, _⟩ => row0 a V c
  Φ _ := Inv0 a V c
  q _ := fullShare
  owed _ := 0

theorem A_eq0 (c : Dev nD) (w : Fin (cfg0 a).W) : (dat0 a V c).A w = V c (Pipeline.arrRef spec0 w) := by dsimp only [dat0]
theorem Phi0 (c : Dev nD) (n : Fin ((cfg0 a).N + 1)) : (dat0 a V c).Φ n = Inv0 a V c := by dsimp only [dat0]
theorem owed0 (c : Dev nD) (n : Fin ((cfg0 a).N + 1)) : (dat0 a V c).owed n = 0 := by dsimp only [dat0]
theorem after0_0 (c : Dev nD) (t : Fin (cfg0 a).N) : (dat0 a V c).after 0 t = row0 a V c := by dsimp only [dat0]; rfl

/-! ## The body's run -/

/-- A row read at two spellings of one offset. -/
theorem rowRead0_congr {off off' : Fin 2 → Nat} (e : off = off') (h : ∀ ax, off ax + S1x4096.size ax ≤ S256x4096.size ax)
    (c : Dev nD) (f : MBuf0 (F := F) c hbM0) :
    (hbM0.slice (Rect.unit (s := S256x4096) off S1x4096.size h) (fun _ => rfl)).view.read (Elt F) f
      = (hbM0.slice (Rect.unit (s := S256x4096) off' S1x4096.size (e ▸ h)) (fun _ => rfl)).view.read (Elt F) f := by
  subst e; rfl

/-- The body on any whole staging memref `arg3` of the output block: from the table at `a`'s contents, the staging
    buffer at anything, the own cell at zero, the embedding array at its entry contents and the core owing nothing,
    under the side condition on the table's word, it runs to the continuation holding the table, the cell and the
    array as they were and the staging buffer at the copied row. -/
theorem run0 (c : Dev nD) (i : grid0.Coords) (arg3 : Memref sig .tc .vmem S1x4096 .f32) (harg3 : arg3.IsWhole)
    (hchk : k0_chk1 (word0 a.1)) (W : Waits sig Unit) (K : PUnit → sProp 𝕄) :
    iprop(mPt0 c tabM0 (a.1 0) ∗ (∃ d, owns (c : Thread nD τ) arg3 fullShare d)
        ∗ semVal ((c : Thread nD τ), SemLoc.dma 1) 0 ∗ mPt0 c hbM0 (V c main_arg2) ∗ owes (c : Thread nD τ) 0 W
        ∗ (iprop(mPt0 c tabM0 (a.1 0) ∗ owns (c : Thread nD τ) arg3 fullShare (row0 a V c)
            ∗ semVal ((c : Thread nD τ), SemLoc.dma 1) 0 ∗ mPt0 c hbM0 (V c main_arg2) ∗ (∃ W', owes (c : Thread nD τ) 0 W')) -∗ K ⟨⟩))
      ⊢ wp frame (wpE (defs₀ (F := F)) Variants.none c none) Set.univ
          (cc0__emb_kernel i tabM0 (Memref.isWhole_whole _) hbM0 (Memref.isWhole_whole _) arg3 harg3 cc0_scratch0) K := by
  simp only [cc0__emb_kernel_eq_skeleton]; unfold cc0__emb_kernel_skel
  unfold owns
  unfold word0 at hchk
  iintro ⟨Ht, ⟨%d1, %f1, -, H1⟩, Hq0, Hh0, HW, Hk⟩
  sl_exec (disch := exact hchk)
  sl_step
  iapply Hk
  isplitl [Ht]; · iexact Ht
  isplitl [H1]
  · iexists _; isplitr; swap; · iexact H1
    ipureintro
    rw [View.read_writes_whole]
    exact rowRead0_congr (off0_eq _ hchk) _ c (V c main_arg2)
  isplitl [Hq0]; · iexact Hq0
  isplitl [Hh0]; · iexact Hh0
  iexists _; iexact HW

/-! ## The body obligation -/

/-- The staging buffer the output block is on at point `t`, and that it is a whole buffer. -/
abbrev ms0_0 (t : Fin (cfg0 a).N) : Memref sig .tc .vmem S1x4096 .f32 := spec0_0.stage ((cfg0 a).slots t 0)
abbrev hs0_0 (t : Fin (cfg0 a).N) : (ms0_0 a t).IsWhole := hstage0_0 (((cfg0 a).slots t 0).cast nbuf0_0)
/-- The body's call at point `t`: the table, the embedding array, the output block's current staging buffer, the own cell. -/
abbrev bodyAt0 (t : Fin (cfg0 a).N) : Prog (TpuEff nD τ sig (Elt F) Λ₀ .tc) PUnit :=
  cc0__emb_kernel (grid0.coords t) tabM0 (Memref.isWhole_whole _) hbM0 (Memref.isWhole_whole _) (ms0_0 a t) (hs0_0 a t) cc0_scratch0

/-- The obligation's precondition at point `t`: the invariant, what the core owes, the output block's staging buffer at anything. -/
def bodyPre0 (c : Dev nD) (t : Fin (cfg0 a).N) : sProp 𝕄 :=
  iprop((dat0 a V c).Φ t.castSucc ∗ (dat0 a V c).owesAt () t.castSucc
    ∗ (∃ d, owns (c : Thread nD τ) (ms0_0 a t) fullShare ((dat0 a V c).before 0 t d)))
/-- Its postcondition: the invariant and the debt unchanged, the staging buffer at the copied row. -/
def bodyPost0 (c : Dev nD) (t : Fin (cfg0 a).N) : sProp 𝕄 :=
  iprop((dat0 a V c).Φ t.succ ∗ (dat0 a V c).owesAt () t.succ
    ∗ owns (c : Thread nD τ) (ms0_0 a t) fullShare ((dat0 a V c).after 0 t))

/-- The body at the point: the invariant hands the run the table, the cell at zero and the embedding array, and takes
    them back as they were; the output block's staging buffer, at anything before, ends at the copied row. -/
theorem sound_body0 (c : Dev nD) (hchk : k0_chk1 (word0 a.1)) (t : Fin (cfg0 a).N) :
    bodyPre0 a V c t ⊢ wp frame (wpE (defs₀ (F := F)) Variants.none c none) Set.univ (bodyAt0 a t) (fun _ => bodyPost0 a V c t) := by
  unfold bodyPre0 bodyPost0 bodyAt0
  rw [Phi0, Phi0, after0_0, Inv0_eq]
  unfold Dat.owesAt Pipeline.owesWithin
  rw [owed0, owed0]
  iintro ⟨⟨⟨HR, Hg, Hq0, Hh0⟩, Ht⟩, ⟨%W, -, HW⟩, ⟨%d0, H0⟩⟩
  iapply (run0 a V c (grid0.coords t) _ _ hchk W _)
  isplitl [Ht]; · iexact Ht
  isplitl [H0]; · iexists _; iexact H0
  isplitl [Hq0]; · iexact Hq0
  isplitl [Hh0]; · iexact Hh0
  isplitl [HW]; · iexact HW
  iintro ⟨Ht, H0, Hq0, Hh0, ⟨%W', HW'⟩⟩
  isplitl [HR Hg Hq0 Hh0 Ht]
  · isplitl [HR Hg Hq0 Hh0]
    · isplitl [HR]; · iexact HR
      isplitl [Hg]; · iexact Hg
      isplitl [Hq0]; · iexact Hq0
      iexact Hh0
    iexact Ht
  isplitl [HW']
  · iexists W'; isplitr; · ipureintro; exact fun _ _ => Or.inl trivial
    iexact HW'
  iexact H0

/-- The body obligation at the grid's one point, under the side condition on the table's word. -/
theorem body_obligation0 (c : Dev nD) (hchk : k0_chk1 (word0 a.1)) :
    BodyObligation (dat0 (F := F) a V c) (defs₀ (F := F)) Variants.none () Set.univ := fun t => by
  rw [bigSep_W0, bigSep_W0]
  exact sound_body0 a V c hchk t

/-! ## What the output block holds, entry by entry -/

/-- The output block at column `j` is the embedding array's entry contents at row min(w,255), column `j`: stated at
    any index `y` of the array with those two coordinates. -/
theorem after0_0_apply (c : Dev nD) (t : Fin (cfg0 a).N) (j : S1x4096.Idx) (y : S256x4096.Idx)
    (hy0 : (y 0).val = min (word0 a.1).toNat 255) (hy1 : (y 1).val = (j 1).val) :
    (dat0 a V c).after 0 t j = V c main_arg2 y := by
  rw [after0_0]; unfold row0
  have hy : (Rect.unit (s := S256x4096) (off0 (word0 a.1)) S1x4096.size (off0_inb _)).emb j = y := by
    funext ax; apply Fin.ext; rw [Rect.emb_apply]
    match ax with
    | ⟨0, _⟩ =>
      have h0 : (j 0).val < 1 := (j 0).isLt
      show min (word0 a.1).toNat 255 + 1 * (j 0).val = (y 0).val
      omega
    | ⟨1, _⟩ =>
      show 0 + 1 * (j 1).val = (y 1).val
      omega
  rw [← hy]; rfl

/-! ## What the output array holds after the launch -/

/-- The output block is written back at the grid's one point. -/
theorem flush0_0 : ∀ t : Fin (cfg0 a).N, ((cfg0 a).win 0).flush t = true :=
  (by decide +kernel : ∀ t : Fin grid0.N, Pipeline.Window.flushOf grid0 true cc0_transform_1 t = true)

/-- The one block is the whole array: an element of the block sits in the array at its own index. -/
theorem blkEmb0 (j : S1x4096.Idx) : (((cfg0 a).win 0).blk t0_0).view.emb j = j := by
  funext ax; apply Fin.ext
  exact Pipeline.Window.rect_emb_val_of_index_zero ((cfg0 a).win 0) t0_0 ax
    (match ax with | ⟨0, _⟩ => rfl | ⟨1, _⟩ => rfl) j

/-- So after the launch the output array at column `j` is the embedding array's entry contents at row min(w,255),
    column `j`. -/
theorem embArr_apply (c : Dev nD) (j : S1x4096.Idx) (y : S256x4096.Idx)
    (hy0 : (y 0).val = min (word0 a.1).toNat 255) (hy1 : (y 1).val = (j 1).val) :
    (dat0 a V c).arrAt 0 (cfg0 a).N j = V c main_arg2 y := by
  have hdisj : ∀ t t' : Fin (cfg0 a).N, ((cfg0 a).win 0).flush t = true → ((cfg0 a).win 0).flush t' = true → t ≠ t' →
      Disjoint (((cfg0 a).win 0).blk t).view.set (((cfg0 a).win 0).blk t').view.set :=
    fun t t' _ _ hne => absurd ((fin_N0 t).trans (fin_N0 t').symm) hne
  have h := (dat0 a V c).arrAt_emb_eq_flushed 0 hdisj t0_0 (flush0_0 a t0_0) j
  rw [blkEmb0 a j] at h
  exact h.trans (after0_0_apply a V c t0_0 j y hy0 hy1)

/-! ## The region's four entailments, at an entry valuation `W` -/

variable (W : Dev nD → Valuation τ sig (Elt F))
/-- the valuation read at the TensorCore's references -/
abbrev VW0 : (c : Dev nD) → (b : Ref sig .tc) → Buf (Elt F) ((c : Thread nD τ).loc b) := fun c b => W c b
/-- what rides beside the buffers: the generator register at some state, and the core owing nothing -/
abbrev Rst0 (c : Dev nD) : sProp 𝕄 := iprop((∃ r, prngReg c r) ∗ ∃ Wt, owes (c : Thread nD τ) (0 : CellTallies nD τ sig Unit) Wt)
/-- the buffers after the region: only the output array main_v1 changes, to what the write-backs leave -/
abbrev Wout0 (c : Dev nD) : Valuation τ sig (Elt F) := Function.update (W c) main_v1 ((dat0 a (VW0 W) c).arrAt 0 (cfg0 a).N)

/-- What enters the invariant: the generator register, the own cell at zero, the embedding array. -/
abbrev X0 (c : Dev nD) : sProp 𝕄 :=
  iprop((∃ r, prngReg c r) ∗ Pipeline.ownSems0 (Ix := Unit) (Name := ℕ) (U := Pipeline.UD sig nD τ) (Lvl := ℕ) (Val := Elt F) (τ := τ) osem0 c
    ∗ (bigSep H0 fun b => ((c : Thread nD τ).loc b) ↦{fullShare} VW0 W c b))
/-- What it gives back: the register, the embedding array, the table. -/
abbrev Y0 (c : Dev nD) : sProp 𝕄 :=
  iprop((∃ r, prngReg c r) ∗ (bigSep H0 fun b => ((c : Thread nD τ).loc b) ↦{fullShare} VW0 W c b)
    ∗ Pipeline.prefHeld (Ix := Unit) (Name := ℕ) (U := Pipeline.UD sig nD τ) (Lvl := ℕ) pre0 c (fun _ => fullShare) a.1)
/-- What bypasses the region: every other unscoped buffer that is no array of a window and no table. -/
abbrev Z0 (c : Dev nD) : sProp 𝕄 :=
  bigSep (Pipeline.restRefsP sig pre0 spec0 \ H0) fun b => ((c : Thread nD τ).loc b) ↦{fullShare} VW0 W c b

/-- The launch as a family of one pipeline: the form in which a core's unscoped buffers split into a pipeline's arrays and the rest. -/
abbrev pcsE0 : Unit → Pipeline.PCfg sig Λ₀ (Elt F) := fun _ => pcfg0
abbrev admE0 : (p : Unit) → (pcsE0 (F := F) p).Adm := fun _ => a
abbrev datsE0 : (p : Unit) → (c : Dev nD) → Dat τ (Elt F) Unit ℕ (Pipeline.UD sig nD τ) ℕ (Pipeline.pin (pcsE0 (F := F)) (admE0 a) p) c :=
  fun _ c => dat0 a (VW0 W) c

/-- The unscoped buffers that are no window's array, at the entry valuation: the table, the embedding array, the others. -/
theorem rest0_eq (c : Dev nD) :
    (Pipeline.unscopedRest (Ix := Unit) (Name := ℕ) (U := Pipeline.UD sig nD τ) (Lvl := ℕ) spec0 c (VW0 W c) : sProp 𝕄)
      = iprop(Pipeline.prefHeld (Ix := Unit) (Name := ℕ) (U := Pipeline.UD sig nD τ) (Lvl := ℕ) pre0 c (fun _ => fullShare) (fun k => VW0 W c (pre0.ref k))
          ∗ (bigSep H0 fun b => ((c : Thread nD τ).loc b) ↦{fullShare} VW0 W c b) ∗ Z0 W c) := by
  rw [Pipeline.unscopedRest_split preFacts0 c (VW0 W c), Pipeline.unscopedRestP_sdiff pre0 spec0 H0 H0_sub c (VW0 W c)]

set_option backward.isDefEq.respectTransparency.types false in
theorem entry0 (c : Dev nD) (ha : ∀ k, a.1 k = VW0 W c (pre0.ref k)) :
    iprop(iprop(StableHlo.held (c : Thread nD τ) (Pipeline.ucRefs τ sig) (W c) ∗ Rst0 c)
        ∗ Pipeline.ownSems0 (Ix := Unit) (Name := ℕ) (U := Pipeline.UD sig nD τ) (Lvl := ℕ) (Val := Elt F) (τ := τ) osem0 c
        ∗ levAts (fun _ => ∅) (fun _ _ => 0))
      ⊢ |={Set.univ}=> iprop((dat0 a (VW0 W) c).arrays ((dat0 a (VW0 W) c).arrAt · 0)
          ∗ Pipeline.prefHeld (Ix := Unit) (Name := ℕ) (U := Pipeline.UD sig nD τ) (Lvl := ℕ) pre0 c (fun _ => fullShare) a.1
          ∗ (dat0 a (VW0 W) c).owesAt () 0 ∗ X0 W c ∗ Z0 W c) := by
  have hsplit := Pipeline.arrays_of_unscopedBufs (p := ()) (pcsE0 (F := F)) (admE0 a) (datsE0 a W) winFacts0 arr_whole0 c
    ((dat0 a (VW0 W) c).share_full fun _ => rfl) (VW0 W c) fun _ => rfl
  rw [Pipeline.unscopedBufs_held] at hsplit
  have hpf : (fun k => VW0 W c (pre0.ref k)) = a.1 := funext fun k => (ha k).symm
  have hR := rest0_eq W c
  rw [hpf] at hR
  iintro ⟨⟨Hub, Hp, HO⟩, Hos, -⟩
  ihave H := hsplit $$ Hub
  icases H with ⟨Ha, Hrest⟩
  ihave H' := (Entails.of_eq hR) $$ Hrest
  icases H' with ⟨Ht, HH, HZ⟩
  imodintro
  isplitl [Ha]; · iexact Ha
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp Hos HH]
  · isplitl [Hp]; · iexact Hp
    isplitl [Hos]; · iexact Hos
    iexact HH
  iexact HZ

theorem in0 (c : Dev nD) :
    iprop(X0 W c ∗ Pipeline.prefHeld (Ix := Unit) (Name := ℕ) (U := Pipeline.UD sig nD τ) (Lvl := ℕ) pre0 c (fun _ => fullShare) a.1
        ∗ Pipeline.scopedRest (Ix := Unit) (Name := ℕ) (U := Pipeline.UD sig nD τ) (Lvl := ℕ) (Val := Elt F) spec0 c)
      ⊢ (dat0 a (VW0 W) c).Φ 0 := by
  rw [Phi0]; unfold Inv0; rw [Pipeline.ΦD_eq]
  iintro ⟨⟨Hp, Ho, HH⟩, Ht, Hr⟩
  isplitl [Hr Hp Ho HH]
  · isplitl [Hr]; · iexact Hr
    isplitl [Hp]; · iexact Hp
    isplitl [Ho]; · iexact Ho
    iexact HH
  iexact Ht

theorem out0 (c : Dev nD) :
    (dat0 a (VW0 W) c).Φ (Fin.last (cfg0 a).N)
      ⊢ iprop(Y0 a W c ∗ Pipeline.ownSems0 (Ix := Unit) (Name := ℕ) (U := Pipeline.UD sig nD τ) (Lvl := ℕ) (Val := Elt F) (τ := τ) osem0 c
          ∗ Pipeline.scopedRest (Ix := Unit) (Name := ℕ) (U := Pipeline.UD sig nD τ) (Lvl := ℕ) (Val := Elt F) spec0 c) := by
  rw [Phi0]; unfold Inv0; rw [Pipeline.ΦD_eq]
  iintro ⟨⟨Hr, Hp, Ho, HH⟩, Ht⟩
  isplitl [Hp HH Ht]
  · isplitl [Hp]; · iexact Hp
    isplitl [HH]; · iexact HH
    iexact Ht
  isplitl [Ho]; · iexact Ho
  iexact Hr

/-- At the exit the output array holds what the write-backs leave, and every other buffer what it held at entry. -/
theorem hF0 (c : Dev nD) (w : Fin (cfg0 a).W) :
    (dat0 a (VW0 W) c).arrAt w (cfg0 a).N = Wout0 a W c (Pipeline.arrRef spec0 w) :=
  match w with
  | ⟨0, _⟩ => (Function.update_self (f := W c) (Proc.devRef .tc main_v1) _).symm
theorem hrest0 (c : Dev nD) : ∀ b, b ∉ Finset.univ.image (Pipeline.arrRef spec0) → Wout0 a W c b = VW0 W c b :=
  fun b hb => Function.update_of_ne (fun e => hb (Finset.mem_image.mpr ⟨0, Finset.mem_univ _, (Proc.devRef_injective _ e).symm⟩)) _ _

set_option backward.isDefEq.respectTransparency.types false in
theorem exit0 (c : Dev nD) (ha : ∀ k, a.1 k = VW0 W c (pre0.ref k)) :
    iprop((dat0 a (VW0 W) c).arrays ((dat0 a (VW0 W) c).arrAt · (cfg0 a).N) ∗ (dat0 a (VW0 W) c).owesAt () (Fin.last (cfg0 a).N)
        ∗ Y0 a W c ∗ Z0 W c)
      ⊢ |={Set.univ}=> iprop(StableHlo.held (c : Thread nD τ) (Pipeline.ucRefs τ sig) (Wout0 a W c) ∗ Rst0 c) := by
  have hjoin := Pipeline.unscopedBufs_of_arrays (p := ()) (pcsE0 (F := F)) (admE0 a) (Ix := Unit) (Name := ℕ) (U := Pipeline.UD sig nD τ) (Lvl := ℕ)
    winFacts0 arr_whole0 c (datsE0 a W) ((dat0 a (VW0 W) c).share_full fun _ => rfl)
    (VW0 W c) (fun b => Wout0 a W c b) ((dat0 a (VW0 W) c).arrAt · (cfg0 a).N) (hF0 a W c) (hrest0 a W c)
  rw [Pipeline.unscopedBufs_held] at hjoin
  have hpf : (fun k => VW0 W c (pre0.ref k)) = a.1 := funext fun k => (ha k).symm
  have hR := rest0_eq W c
  rw [hpf] at hR
  iintro ⟨Ha, HO, ⟨Hp, HH, Ht⟩, HZ⟩
  ihave Hrest := (Entails.of_eq hR.symm) $$ [Ht HH HZ]
  · isplitl [Ht]; · iexact Ht
    isplitl [HH]; · iexact HH
    iexact HZ
  imodintro
  isplitl [Ha Hrest]
  · iapply hjoin; isplitl [Ha] <;> iassumption
  isplitl [Hp]; · iexact Hp
  unfold Pipeline.Dat.owesAt Pipeline.owesWithin
  icases HO with ⟨%Wt, -, HO⟩; iexists Wt; iexact HO

end Cert.KernelIdeal.Reg
end
-- ==== Proof.KI.GruA.lean ====
/-
  The first recurrent layer's launch (the second pallas_call of the program), at the contents V the
  launch finds in the buffers: what each grid point's body leaves in the output block, the proof data,
  and the body obligation at every point.

  A grid point t handles 128 of the 4096 hidden units. Its body reads the whole input row x and the whole
  previous hidden row h, the three gate slabs [3,128,4096] of both weight arrays, the three gate rows
  [3,128] of both biases and its own 128 entries of h, and stores
     (1 - z) * n + z * h_own,   r = sigma(i_r + h_r), z = sigma(i_z + h_z), n = tanh(i_n + r * h_n),
  each gate pre-activation a product of a row with a transposed slab plus a bias row.
-/
import proofs.«417261_j67628555043381_3_alg».proof.Proof.Gen.KernelIdeal.Launch
import proofs.«417261_j67628555043381_3_alg».proof.Proof.Gen.KernelIdeal.Skeleton
import proofs.«417261_j67628555043381_3_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the TensorCore's buffer contents when the region is entered: the parameter everything here is stated at
variable (V : (c : Dev nD) → (b : Ref sig .tc) → Buf (Elt F) ((c : Thread nD τ).loc b))

/-- Window `w`'s block at grid point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-block rectangles the body reads and writes through: each starts at the origin of its block and
    has the block's extents. -/
abbrev rRow : Rect S1x4096 := Rect.unit (s := S1x4096) ![0, 0] S1x4096.size inb_S1x4096_S1x4096_0_0
abbrev rSlab : Rect S3x128x4096 := Rect.unit (s := S3x128x4096) ![0, 0, 0] S3x128x4096.size inb_S3x128x4096_S3x128x4096_0_0_0
abbrev rBias : Rect S3x128 := Rect.unit (s := S3x128) ![0, 0] S3x128.size inb_S3x128_S3x128_0_0
abbrev rTile : Rect S1x128 := Rect.unit (s := S1x128) ![0, 0] S1x128.size inb_S1x128_S1x128_0_0

/-- What the body leaves in the output block, as a function of the seven input blocks. -/
def out1_7 (x0 x1 : Vec F S1x4096 .f32) (x2 x3 : Vec F S3x128x4096 .f32) (x4 x5 : Vec F S3x128 .f32) (x6 : Vec F S1x128 .f32) : Vec F S1x128 .f32 :=
  View.canon [⟨rTile, k1_pay1 (k1_pay3 (View.ld x1 rRow)) (k1_pay5 (View.ld x3 rSlab)) (k1_pay7 (View.ld x5 rBias)) (k1_pay8 (View.ld x6 rTile))
    (k1_pay9 (View.ld x0 rRow) (View.ld x2 rSlab) (View.ld x4 rBias))
    (k1_pay10 (View.ld x0 rRow) (View.ld x2 rSlab) (View.ld x4 rBias))
    (k1_pay11 (View.ld x0 rRow) (View.ld x2 rSlab) (View.ld x4 rBias))
    (k1_pay12 (View.ld x1 rRow) (View.ld x3 rSlab) (View.ld x5 rBias))
    (k1_pay13 (View.ld x3 rSlab))⟩]

/-- The one store is of the whole output block, so it covers it. -/
theorem cover1_7 (p0 : Vec F S1x128 .f32) (y : S1x128.Idx) :
    ∃ pc ∈ ([⟨rTile, p0⟩] : List (View.Piece (Elt F) S1x128 .f32)), y ∈ pc.1.set :=
  View.cover_of_tiled [⟨rTile, p0⟩] S1x128.size (by rfl) y

/-! ## The body's triple -/

set_option maxHeartbeats 1000000 in
/-- The body on whole staging memrefs, the seven inputs' read at contents `x0 … x6` and the output's at anything:
    it runs to the continuation with the inputs' as they were and the output's at `out1_7` of them. The body
    reads the output block once before its one store; nothing it stores depends on that value. -/
theorem sound_kernel1 (c : Dev nD) (E : Set ℕ) (i : grid1.Coords)
    (arg1 : Memref sig .tc .vmem S1x4096 .f32) (harg1 : arg1.IsWhole) (arg2 : Memref sig .tc .vmem S1x4096 .f32) (harg2 : arg2.IsWhole)
    (arg3 : Memref sig .tc .vmem S3x128x4096 .f32) (harg3 : arg3.IsWhole) (arg4 : Memref sig .tc .vmem S3x128x4096 .f32) (harg4 : arg4.IsWhole)
    (arg5 : Memref sig .tc .vmem S3x128 .f32) (harg5 : arg5.IsWhole) (arg6 : Memref sig .tc .vmem S3x128 .f32) (harg6 : arg6.IsWhole)
    (arg7 : Memref sig .tc .vmem S1x128 .f32) (harg7 : arg7.IsWhole) (arg8 : Memref sig .tc .vmem S1x128 .f32) (harg8 : arg8.IsWhole)
    (x0 x1 : Vec F S1x4096 .f32) (x2 x3 : Vec F S3x128x4096 .f32) (x4 x5 : Vec F S3x128 .f32) (x6 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6
            ∗ owns (c : Thread nD τ) arg8 fullShare (out1_7 x0 x1 x2 x3 x4 x5 x6)) -∗ K ⟨⟩))
      ⊢ wp frame (wpE (defs₀ (F := F)) Variants.none c none) E
          (cc1__gru_kernel i arg1 harg1 arg2 harg2 arg3 harg3 arg4 harg4 arg5 harg5 arg6 harg6 arg7 harg7 arg8 harg8) K := by
  simp only [cc1__gru_kernel_eq_skeleton]; unfold cc1__gru_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-- The share of each input array a window holds: the previous hidden row's array is behind windows 1 and 6,
    which take the two halves of it; every other array is behind one window, which holds all of it. -/
def q1 : Fin cfg1.W → PosShare TreeShare := fun w => if w = 1 then fullShare.left else if w = 6 then fullShare.right else fullShare

/-- The proof data: arrays as found; inputs keep their blocks, the output block is `out1_7` of them; the
    previous hidden row's array is read through two windows (1 and 6), each holding half of it. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q := q1
  owed _ := 0

theorem A_eq1 (c : Dev nD) (w : Fin cfg1.W) : (dat1 V c).A w = V c (Pipeline.arrRef spec1 w) := by dsimp only [dat1]
theorem Phi1 (c : Dev nD) (n : Fin (cfg1.N + 1)) : (dat1 V c).Φ n = Pipeline.ΦA spec1 c := by dsimp only [dat1]
theorem owed1 (c : Dev nD) (n : Fin (cfg1.N + 1)) : (dat1 V c).owed n = 0 := by dsimp only [dat1]
theorem recorded1 (c : Dev nD) (n : Fin (cfg1.N + 1)) : (dat1 V c).recorded n = Set.univ := by dsimp only [dat1]
theorem q_eq1 (c : Dev nD) : (dat1 V c).q = q1 := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) :
    (dat1 V c).after 7 t = out1_7 (iblk1 V c 0 t) (iblk1 V c 1 t) (iblk1 V c 2 t) (iblk1 V c 3 t) (iblk1 V c 4 t) (iblk1 V c 5 t) (iblk1 V c 6 t) := by dsimp only [dat1]

/-! ## What the body finds in each input's buffer -/

/-- Each input's current staging buffer holds its block at every point, whether the point fetched it or an
    earlier one did: no input window is cut or idle, and the body leaves each input block as it found it. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-! ## The body obligation, at a generic point -/

/-- What the body is called with at point `t`: the invariant, nothing owed, and the eight current staging memrefs. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What it returns: the same, each memref at what the proof data say the body leaves there. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the seven inputs' memrefs hold their blocks, so the body's triple applies; the
    invariant and what the core owes pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [Phi1, Phi1,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Reg

end
-- ==== Proof.KI.GruARec.lean ====
/-
  The first recurrent layer's launch seen from the host program: how the TensorCore's buffers are
  handed to the pipeline when the region is entered and taken back when it is left.

  The launch has eight windows over seven arrays: the previous hidden row is behind two windows, once whole
  (window 1) and once as the point's own 128 entries (window 6). Both only read it, so each window holds half
  of that array's share; every other array is behind one window, which holds all of it. At entry the array's
  full share is cut into the two halves; at exit, both halves still at the contents found at entry, they are
  put back together. The only array whose contents change is the output row.
-/
import proofs.«417261_j67628555043381_3_alg».proof.Proof.KI.GruA
import proofs.«417261_j67628555043381_3_alg».proof.Proof.Gen.KernelIdeal.Launch
import Idealize.ShloMosaic.Lib.Pipeline.Launch
import Idealize.ShloMosaic.Lib.Pipeline.Kit
import Idealize.ShloMosaic.Lib.Pipeline.Cells
import Idealize.ShloMosaic.Lib.Pipeline.Dat
import Idealize.ShloMosaic.Lib.Pipeline.Frame
import Idealize.ShloMosaic.Lib.Pipeline.Regions
import Idealize.ShloMosaic.Lib.StableHlo.Run
import Idealize.ShloMosaic.Rules.PointsTo
import Idealize.SL.RA.TreeShare
import Mathlib.Logic.Function.Basic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.KernelIdeal Cert.KernelIdeal.Gen

variable {F : FTy → Type} [FloatOps F]

local notation "𝕄" => MT nD τ sig Unit (Elt F) ℕ (Pipeline.UD sig nD τ) ℕ

-- the buffers' contents on every core when the region is entered
variable (W : Dev nD → Valuation τ sig (Elt F))

/-- The entry contents read at the TensorCore's references. -/
abbrev VW1 : (c : Dev nD) → (b : Ref sig .tc) → Buf (Elt F) ((c : Thread nD τ).loc b) := fun c b => W c b

/-- What rides beside the buffers: the generator register at some state, and the core owing nothing. -/
abbrev Rst1 (c : Dev nD) : sProp 𝕄 :=
  iprop((∃ r, prngReg c r) ∗ ∃ Wt, owes (c : Thread nD τ) (0 : CellTallies nD τ sig Unit) Wt)

/-- The buffers after the region: only the output row changes, to what the write-backs leave in it. -/
abbrev Wout1 (c : Dev nD) : Valuation τ sig (Elt F) :=
  Function.update (W c) main_v10 ((dat1 (VW1 W) c).arrAt 7 cfg1.N)

/-- What enters the invariant: the generator register at some state. -/
abbrev X1 (W : Dev nD → Valuation τ sig (Elt F)) (c : Dev nD) : sProp 𝕄 := iprop(∃ r, prngReg c r)
/-- What the invariant gives back: the same. -/
abbrev Y1 (W : Dev nD → Valuation τ sig (Elt F)) (c : Dev nD) : sProp 𝕄 := iprop(∃ r, prngReg c r)
/-- What goes around the region: the unscoped buffers behind no window, at the entry contents. -/
abbrev Z1 (c : Dev nD) : sProp 𝕄 :=
  Pipeline.unscopedRest (Ix := Unit) (Name := ℕ) (U := Pipeline.UD sig nD τ) (Lvl := ℕ) spec1 c (VW1 W c)

/-! ## The arrays' buffers and the windows' holdings -/

/-- The share window `w` holds of its array: the halves for the two windows on the previous hidden row, all of it
    for every other (the output's because it is the output). -/
theorem share1_0 (c : Dev nD) : (dat1 (VW1 W) c).share 0 = fullShare := by unfold Dat.share; rw [q_eq1]; rfl
theorem share1_1 (c : Dev nD) : (dat1 (VW1 W) c).share 1 = fullShare.left := by unfold Dat.share; rw [q_eq1]; rfl
theorem share1_2 (c : Dev nD) : (dat1 (VW1 W) c).share 2 = fullShare := by unfold Dat.share; rw [q_eq1]; rfl
theorem share1_3 (c : Dev nD) : (dat1 (VW1 W) c).share 3 = fullShare := by unfold Dat.share; rw [q_eq1]; rfl
theorem share1_4 (c : Dev nD) : (dat1 (VW1 W) c).share 4 = fullShare := by unfold Dat.share; rw [q_eq1]; rfl
theorem share1_5 (c : Dev nD) : (dat1 (VW1 W) c).share 5 = fullShare := by unfold Dat.share; rw [q_eq1]; rfl
theorem share1_6 (c : Dev nD) : (dat1 (VW1 W) c).share 6 = fullShare.right := by unfold Dat.share; rw [q_eq1]; rfl
theorem share1_7 (c : Dev nD) : (dat1 (VW1 W) c).share 7 = fullShare := by unfold Dat.share; rfl

/-- The windows' holdings, each array a whole buffer: window `w` holds the buffer behind its array at its share. -/
theorem arrays_eq1 (c : Dev nD)
    (Fn : (w : Fin cfg1.W) → Buf (Elt F) ((cfg1.win w).arr.view.loc (c : Thread nD τ))) :
    (dat1 (VW1 W) c).arrays Fn
      = bigSep Finset.univ fun w : Fin cfg1.W =>
          (((c : Thread nD τ).loc (Pipeline.arrRef spec1 w)) ↦{(dat1 (VW1 W) c).share w} Fn w : sProp 𝕄) := by
  unfold Dat.arrays
  exact bigSep_congr fun w _ => by rw [(Gen.arr_whole1 w).set_eq_univ]

/-- Before the first point every array holds the entry contents. -/
theorem arrAt0_1 (c : Dev nD) (w : Fin cfg1.W) :
    (dat1 (VW1 W) c).arrAt w 0 = VW1 W c (Pipeline.arrRef spec1 w) :=
  (show (dat1 (VW1 W) c).arrAt w 0 = (dat1 (VW1 W) c).A w from rfl).trans (A_eq1 (VW1 W) c w)

/-- An input's array is never written: after the last point it still holds the entry contents. -/
theorem arrAtN_1 (c : Dev nD) (w : Fin cfg1.W) (hin : (cfg1.win w).isOut = false) :
    (dat1 (VW1 W) c).arrAt w cfg1.N = VW1 W c (Pipeline.arrRef spec1 w) :=
  ((dat1 (VW1 W) c).arrAt_in w hin cfg1.N).trans (A_eq1 (VW1 W) c w)

/-- Window `w`'s holding before the first point, read at the buffer `b` behind its array and at the share `q` it
    holds: that buffer at the entry contents. -/
theorem hold0_1 (c : Dev nD) (w : Fin cfg1.W) (b : Ref sig .tc) (hb : Pipeline.arrRef spec1 w = b)
    (q : PosShare TreeShare) (hq : (dat1 (VW1 W) c).share w = q) :
    ((((c : Thread nD τ).loc (Pipeline.arrRef spec1 w)) ↦{(dat1 (VW1 W) c).share w} (dat1 (VW1 W) c).arrAt w 0) : sProp 𝕄)
      = (((c : Thread nD τ).loc b) ↦{q} W c b) := by
  subst hb; rw [hq, arrAt0_1]

/-- The same after the last point, for an input: its array was never written. -/
theorem holdN_1 (c : Dev nD) (w : Fin cfg1.W) (hin : (cfg1.win w).isOut = false) (b : Ref sig .tc)
    (hb : Pipeline.arrRef spec1 w = b) (q : PosShare TreeShare) (hq : (dat1 (VW1 W) c).share w = q) :
    ((((c : Thread nD τ).loc (Pipeline.arrRef spec1 w)) ↦{(dat1 (VW1 W) c).share w} (dat1 (VW1 W) c).arrAt w cfg1.N) : sProp 𝕄)
      = (((c : Thread nD τ).loc b) ↦{q} W c b) := by
  subst hb; rw [hq, arrAtN_1 W c w hin]

/-- The seven buffers behind the eight windows, one by one. -/
theorem arrBufs1_eq (c : Dev nD) (V : (b : Ref sig .tc) → Buf (Elt F) ((c : Thread nD τ).loc b)) :
    (Pipeline.arrBufs (Ix := Unit) (Name := ℕ) (U := Pipeline.UD sig nD τ) (Lvl := ℕ) spec1 c V : sProp 𝕄)
      = iprop((((c : Thread nD τ).loc main_v1) ↦{fullShare} V main_v1) ∗ (((c : Thread nD τ).loc main_v3) ↦{fullShare} V main_v3)
          ∗ (((c : Thread nD τ).loc main_v6) ↦{fullShare} V main_v6) ∗ (((c : Thread nD τ).loc main_v7) ↦{fullShare} V main_v7)
          ∗ (((c : Thread nD τ).loc main_v8) ↦{fullShare} V main_v8) ∗ (((c : Thread nD τ).loc main_v9) ↦{fullShare} V main_v9)
          ∗ (((c : Thread nD τ).loc main_v10) ↦{fullShare} V main_v10)) := by
  unfold Pipeline.arrBufs
  exact BI.bigSep_eq_bigSepL_of_eq [main_v1, main_v3, main_v6, main_v7, main_v8, main_v9, main_v10] (by decide) (by decide) _

/-- ENTRY, the arrays: the seven buffers behind the windows, each whole at the entry contents, are the eight
    windows' holdings — the previous hidden row's buffer cut into the halves windows 1 and 6 hold. -/
theorem arrays_split1 (c : Dev nD) :
    (Pipeline.arrBufs (Ix := Unit) (Name := ℕ) (U := Pipeline.UD sig nD τ) (Lvl := ℕ) spec1 c (VW1 W c) : sProp 𝕄)
      ⊢ (dat1 (VW1 W) c).arrays ((dat1 (VW1 W) c).arrAt · 0) := by
  rw [arrays_eq1, Gen.bigSep_W1, arrBufs1_eq]
  iintro ⟨H1, H3, H6, H7, H8, H9, H10⟩
  ihave H3' := (pointsTo_share (PosShare.mem_left_op_right fullShare)).1 $$ H3
  icases H3' with ⟨H3l, H3r⟩
  isplitl [H1]; · rw [hold0_1 W c 0 main_v1 rfl _ (share1_0 W c)]; iexact H1
  isplitl [H3l]; · rw [hold0_1 W c 1 main_v3 rfl _ (share1_1 W c)]; iexact H3l
  isplitl [H6]; · rw [hold0_1 W c 2 main_v6 rfl _ (share1_2 W c)]; iexact H6
  isplitl [H7]; · rw [hold0_1 W c 3 main_v7 rfl _ (share1_3 W c)]; iexact H7
  isplitl [H8]; · rw [hold0_1 W c 4 main_v8 rfl _ (share1_4 W c)]; iexact H8
  isplitl [H9]; · rw [hold0_1 W c 5 main_v9 rfl _ (share1_5 W c)]; iexact H9
  isplitl [H3r]; · rw [hold0_1 W c 6 main_v3 rfl _ (share1_6 W c)]; iexact H3r
  rw [hold0_1 W c 7 main_v10 rfl _ (share1_7 W c)]; iexact H10

/-- The two halves of the previous hidden row's buffer, both still at the entry contents, are the whole of it. -/
theorem join_hidden1 (c : Dev nD) :
    (iprop((((c : Thread nD τ).loc (Pipeline.arrRef spec1 1)) ↦{(dat1 (VW1 W) c).share 1} (dat1 (VW1 W) c).arrAt 1 cfg1.N)
        ∗ (((c : Thread nD τ).loc (Pipeline.arrRef spec1 6)) ↦{(dat1 (VW1 W) c).share 6} (dat1 (VW1 W) c).arrAt 6 cfg1.N)) : sProp 𝕄)
      ⊢ ((c : Thread nD τ).loc main_v3) ↦{fullShare} W c main_v3 := by
  rw [holdN_1 W c 1 rfl main_v3 rfl _ (share1_1 W c), holdN_1 W c 6 rfl main_v3 rfl _ (share1_6 W c)]
  exact (pointsTo_share (PosShare.mem_left_op_right fullShare)).2

/-- EXIT, the arrays: the eight windows' holdings at their final contents are the seven buffers, each whole, at
    the contents after the region — the two halves of the previous hidden row's buffer, both as found, joined. -/
theorem arrays_join1 (c : Dev nD) :
    (dat1 (VW1 W) c).arrays ((dat1 (VW1 W) c).arrAt · cfg1.N)
      ⊢ (Pipeline.arrBufs (Ix := Unit) (Name := ℕ) (U := Pipeline.UD sig nD τ) (Lvl := ℕ) spec1 c (fun b => Wout1 W c b) : sProp 𝕄) := by
  rw [arrays_eq1, Gen.bigSep_W1, arrBufs1_eq]
  -- the contents after the region at each of the seven buffers: the entry contents, but at the output row
  have h1 : Wout1 W c main_v1 = W c main_v1 := Function.update_of_ne (StableHlo.devRef_ne_of_ne (by decide)) _ _
  have h3 : Wout1 W c main_v3 = W c main_v3 := Function.update_of_ne (StableHlo.devRef_ne_of_ne (by decide)) _ _
  have h6 : Wout1 W c main_v6 = W c main_v6 := Function.update_of_ne (StableHlo.devRef_ne_of_ne (by decide)) _ _
  have h7 : Wout1 W c main_v7 = W c main_v7 := Function.update_of_ne (StableHlo.devRef_ne_of_ne (by decide)) _ _
  have h8 : Wout1 W c main_v8 = W c main_v8 := Function.update_of_ne (StableHlo.devRef_ne_of_ne (by decide)) _ _
  have h9 : Wout1 W c main_v9 = W c main_v9 := Function.update_of_ne (StableHlo.devRef_ne_of_ne (by decide)) _ _
  have h10 : Wout1 W c main_v10 = (dat1 (VW1 W) c).arrAt 7 cfg1.N := Function.update_self _ _ _
  iintro ⟨H0, H1, H2, H3, H4, H5, H6, H7⟩
  ihave H13 := join_hidden1 W c $$ [H1 H6]
  · isplitl [H1]; · iexact H1
    iexact H6
  -- each input window's holding, read at its buffer, is that buffer at the entry contents
  isplitl [H0]; · rw [holdN_1 W c 0 rfl main_v1 rfl _ (share1_0 W c), h1]; exact .rfl
  isplitl [H13]; · rw [h3]; iexact H13
  isplitl [H2]; · rw [holdN_1 W c 2 rfl main_v6 rfl _ (share1_2 W c), h6]; exact .rfl
  isplitl [H3]; · rw [holdN_1 W c 3 rfl main_v7 rfl _ (share1_3 W c), h7]; exact .rfl
  isplitl [H4]; · rw [holdN_1 W c 4 rfl main_v8 rfl _ (share1_4 W c), h8]; exact .rfl
  isplitl [H5]; · rw [holdN_1 W c 5 rfl main_v9 rfl _ (share1_5 W c), h9]; exact .rfl
  rw [share1_7, h10]; iexact H7

/-! ## The four entailments of the region's record -/

/-- ENTRY: of the unscoped buffers at the entry contents, those behind the windows become the windows' holdings and
    the others go around the region; the generator register enters the invariant; the core owes nothing. -/
theorem entry1 (c : Dev nD) :
    (iprop(iprop(StableHlo.held (c : Thread nD τ) (Pipeline.ucRefs τ sig) (W c) ∗ Rst1 c)
        ∗ Pipeline.ownSems0 (fun k : PEmpty => k.elim) c ∗ levAts (fun _ => ∅) (fun _ _ => 0)) : sProp 𝕄)
      ⊢ |={Set.univ}=> iprop((dat1 (VW1 W) c).arrays ((dat1 (VW1 W) c).arrAt · 0)
          ∗ Pipeline.prefHeld (pcfgs (F := F) 1).pre c (fun _ => fullShare) (cfg1.toPCfg_adm (Val := Elt F)).1
          ∗ (dat1 (VW1 W) c).owesAt () 0 ∗ X1 W c ∗ Z1 W c) := by
  unfold Pipeline.Dat.owesAt Pipeline.owesWithin Pipeline.Dat.bound
  rw [Pipeline.ownSems0_none, owed1, recorded1,
    ← Pipeline.unscopedBufs_held (Ix := Unit) (Name := ℕ) (U := Pipeline.UD sig nD τ) (Lvl := ℕ) c (W c),
    Pipeline.unscopedBufs_split₀ (fun _ : Unit => cfg1) () Gen.winFacts₀1.arr_unscoped c (VW1 W c)]
  iintro ⟨⟨⟨Hab, Hrest⟩, Hp, HO⟩, -, -⟩
  ihave Ha := arrays_split1 W c $$ Hab
  imodintro
  isplitl [Ha]; · iexact Ha
  isplitr; · unfold Pipeline.prefHeld; rw [show (Finset.univ : Finset (Fin 0)) = ∅ from rfl, BI.bigSep_empty]; iempintro
  isplitl [HO]
  · icases HO with ⟨%Wt, HO⟩; iexists Wt; isplitr; · ipureintro; exact fun _ _ => Or.inl trivial
    iexact HO
  isplitl [Hp]; · iexact Hp
  iexact Hrest

/-- The invariant at the first point: the generator register and the scoped buffers no window stages. -/
theorem in1 (c : Dev nD) :
    (iprop(X1 W c ∗ Pipeline.prefHeld (pcfgs (F := F) 1).pre c (fun _ => fullShare) (cfg1.toPCfg_adm (Val := Elt F)).1
        ∗ Pipeline.scopedRest spec1 c) : sProp 𝕄)
      ⊢ (dat1 (VW1 W) c).Φ 0 := by
  rw [Phi1]; unfold Pipeline.ΦA
  iintro ⟨Hp, -, Hr⟩
  isplitl [Hr]; · iexact Hr
  iexact Hp

/-- The invariant at the last point gives the same back; the kernel has no semaphore of its own. -/
theorem out1 (c : Dev nD) :
    (dat1 (VW1 W) c).Φ (Fin.last cfg1.N)
      ⊢ (iprop(Y1 W c ∗ Pipeline.ownSems0 (fun k : PEmpty => k.elim) c ∗ Pipeline.scopedRest spec1 c) : sProp 𝕄) := by
  rw [Pipeline.ownSems0_none, Phi1]; unfold Pipeline.ΦA
  iintro ⟨Hr, Hp⟩
  isplitl [Hp]; · iexact Hp
  isplitr; · iempintro
  iexact Hr

/-- EXIT: the windows' holdings at their final contents and the buffers that went around the region are the
    unscoped buffers at the contents after the region, which differ from the entry contents at the output row only. -/
theorem exit1 (c : Dev nD) :
    (iprop((dat1 (VW1 W) c).arrays ((dat1 (VW1 W) c).arrAt · cfg1.N) ∗ (dat1 (VW1 W) c).owesAt () (Fin.last cfg1.N)
        ∗ Y1 W c ∗ Z1 W c) : sProp 𝕄)
      ⊢ |={Set.univ}=> iprop(StableHlo.held (c : Thread nD τ) (Pipeline.ucRefs τ sig) (Wout1 W c) ∗ Rst1 c) := by
  -- off the windows' arrays the contents are the entry contents
  have hrest : (Z1 W c : sProp 𝕄)
      = Pipeline.unscopedRest (Ix := Unit) (Name := ℕ) (U := Pipeline.UD sig nD τ) (Lvl := ℕ) spec1 c (fun b => Wout1 W c b) := by
    unfold Pipeline.unscopedRest
    exact bigSep_congr fun b hb => by
      have hb' : b ≠ main_v10 := fun e =>
        (Finset.mem_sdiff.mp hb).2 (e ▸ Finset.mem_image.mpr ⟨(7 : Fin 8), Finset.mem_univ _, rfl⟩)
      have e : Wout1 W c b = W c b := Function.update_of_ne (StableHlo.devRef_ne_of_ne hb') _ _
      show ((((c : Thread nD τ).loc b) ↦{fullShare} W c b) : sProp 𝕄) = (((c : Thread nD τ).loc b) ↦{fullShare} Wout1 W c b)
      rw [e]
  unfold Pipeline.Dat.owesAt Pipeline.owesWithin
  rw [owed1, hrest,
    ← Pipeline.unscopedBufs_held (Ix := Unit) (Name := ℕ) (U := Pipeline.UD sig nD τ) (Lvl := ℕ) c (Wout1 W c),
    Pipeline.unscopedBufs_split₀ (fun _ : Unit => cfg1) () Gen.winFacts₀1.arr_unscoped c (fun b => Wout1 W c b)]
  iintro ⟨Ha, HO, HY, Hrest⟩
  ihave Hab := arrays_join1 W c $$ Ha
  imodintro
  isplitl [Hab Hrest]
  · isplitl [Hab]; · iexact Hab
    iexact Hrest
  isplitl [HY]; · iexact HY
  icases HO with ⟨%Wt, -, HO⟩; iexists Wt; iexact HO

end Cert.KernelIdeal.Reg

end
-- ==== Proof.KI.GruB.lean ====
/-
  The second recurrent layer's launch (the third pallas_call of the program), at the contents V the
  launch finds in the buffers: what each grid point's body leaves in the output block, the proof data,
  and the body obligation at every point.

  A grid point t handles 128 of the 4096 hidden units. Its body reads the whole input row x and the whole
  previous hidden row h, the three gate slabs [3,128,4096] of both weight arrays, the three gate rows
  [3,128] of both biases and its own 128 entries of h, and stores
     (1 - z) * n + z * h_own,   r = sigma(i_r + h_r), z = sigma(i_z + h_z), n = tanh(i_n + r * h_n),
  each gate pre-activation a product of a row with a transposed slab plus a bias row.
-/
import proofs.«417261_j67628555043381_3_alg».proof.Proof.Gen.KernelIdeal.Launch
import proofs.«417261_j67628555043381_3_alg».proof.Proof.Gen.KernelIdeal.Skeleton
import proofs.«417261_j67628555043381_3_alg».proof.Proof.Gen.KernelIdeal.Points
import Idealize.ShloMosaic.Lib.Pipeline.FrameBody
import Idealize.ShloMosaic.Lib.Pipeline.Frame
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the TensorCore's buffer contents when the region is entered: the parameter everything here is stated at
variable (V : (c : Dev nD) → (b : Ref sig .tc) → Buf (Elt F) ((c : Thread nD τ).loc b))

/-- Window `w`'s block at grid point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-block rectangles the body reads and writes through: each starts at the origin of its block and
    has the block's extents. -/
abbrev rRow2 : Rect S1x4096 := Rect.unit (s := S1x4096) ![0, 0] S1x4096.size inb_S1x4096_S1x4096_0_0
abbrev rSlab2 : Rect S3x128x4096 := Rect.unit (s := S3x128x4096) ![0, 0, 0] S3x128x4096.size inb_S3x128x4096_S3x128x4096_0_0_0
abbrev rBias2 : Rect S3x128 := Rect.unit (s := S3x128) ![0, 0] S3x128.size inb_S3x128_S3x128_0_0
abbrev rTile2 : Rect S1x128 := Rect.unit (s := S1x128) ![0, 0] S1x128.size inb_S1x128_S1x128_0_0

/-- What the body leaves in the output block, as a function of the seven input blocks. -/
def out2_7 (x0 x1 : Vec F S1x4096 .f32) (x2 x3 : Vec F S3x128x4096 .f32) (x4 x5 : Vec F S3x128 .f32) (x6 : Vec F S1x128 .f32) : Vec F S1x128 .f32 :=
  View.canon [⟨rTile2, k2_pay1 (k2_pay3 (View.ld x1 rRow2)) (k2_pay5 (View.ld x3 rSlab2)) (k2_pay7 (View.ld x5 rBias2)) (k2_pay8 (View.ld x6 rTile2))
    (k2_pay9 (View.ld x0 rRow2) (View.ld x2 rSlab2) (View.ld x4 rBias2))
    (k2_pay10 (View.ld x0 rRow2) (View.ld x2 rSlab2) (View.ld x4 rBias2))
    (k2_pay11 (View.ld x0 rRow2) (View.ld x2 rSlab2) (View.ld x4 rBias2))
    (k2_pay12 (View.ld x1 rRow2) (View.ld x3 rSlab2) (View.ld x5 rBias2))
    (k2_pay13 (View.ld x3 rSlab2))⟩]

/-- The one store is of the whole output block, so it covers it. -/
theorem cover2_7 (p0 : Vec F S1x128 .f32) (y : S1x128.Idx) :
    ∃ pc ∈ ([⟨rTile2, p0⟩] : List (View.Piece (Elt F) S1x128 .f32)), y ∈ pc.1.set :=
  View.cover_of_tiled [⟨rTile2, p0⟩] S1x128.size (by rfl) y

/-! ## The body's triple -/

set_option maxHeartbeats 1000000 in
/-- The body on whole staging memrefs, the seven inputs' read at contents `x0 … x6` and the output's at anything:
    it runs to the continuation with the inputs' as they were and the output's at `out2_7` of them. The body
    reads the output block once before its one store; nothing it stores depends on that value. -/
theorem sound_kernel2 (c : Dev nD) (E : Set ℕ) (i : grid2.Coords)
    (arg1 : Memref sig .tc .vmem S1x4096 .f32) (harg1 : arg1.IsWhole) (arg2 : Memref sig .tc .vmem S1x4096 .f32) (harg2 : arg2.IsWhole)
    (arg3 : Memref sig .tc .vmem S3x128x4096 .f32) (harg3 : arg3.IsWhole) (arg4 : Memref sig .tc .vmem S3x128x4096 .f32) (harg4 : arg4.IsWhole)
    (arg5 : Memref sig .tc .vmem S3x128 .f32) (harg5 : arg5.IsWhole) (arg6 : Memref sig .tc .vmem S3x128 .f32) (harg6 : arg6.IsWhole)
    (arg7 : Memref sig .tc .vmem S1x128 .f32) (harg7 : arg7.IsWhole) (arg8 : Memref sig .tc .vmem S1x128 .f32) (harg8 : arg8.IsWhole)
    (x0 x1 : Vec F S1x4096 .f32) (x2 x3 : Vec F S3x128x4096 .f32) (x4 x5 : Vec F S3x128 .f32) (x6 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6
            ∗ owns (c : Thread nD τ) arg8 fullShare (out2_7 x0 x1 x2 x3 x4 x5 x6)) -∗ K ⟨⟩))
      ⊢ wp frame (wpE (defs₀ (F := F)) Variants.none c none) E
          (cc2__gru_kernel i arg1 harg1 arg2 harg2 arg3 harg3 arg4 harg4 arg5 harg5 arg6 harg6 arg7 harg7 arg8 harg8) K := by
  simp only [cc2__gru_kernel_eq_skeleton]; unfold cc2__gru_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-- The share of each input array a window holds: the previous hidden row's array is behind windows 1 and 6,
    which take the two halves of it; every other array is behind one window, which holds all of it. -/
def q2 : Fin cfg2.W → PosShare TreeShare := fun w => if w = 1 then fullShare.left else if w = 6 then fullShare.right else fullShare

/-- The proof data: arrays as found; inputs keep their blocks, the output block is `out2_7` of them; the
    previous hidden row's array is read through two windows (1 and 6), each holding half of it. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q := q2
  owed _ := 0

theorem A_eq2 (c : Dev nD) (w : Fin cfg2.W) : (dat2 V c).A w = V c (Pipeline.arrRef spec2 w) := by dsimp only [dat2]
theorem Phi2 (c : Dev nD) (n : Fin (cfg2.N + 1)) : (dat2 V c).Φ n = Pipeline.ΦA spec2 c := by dsimp only [dat2]
theorem owed2 (c : Dev nD) (n : Fin (cfg2.N + 1)) : (dat2 V c).owed n = 0 := by dsimp only [dat2]
theorem recorded2 (c : Dev nD) (n : Fin (cfg2.N + 1)) : (dat2 V c).recorded n = Set.univ := by dsimp only [dat2]
theorem q_eq2 (c : Dev nD) : (dat2 V c).q = q2 := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) :
    (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-! ## What the body finds in each input's buffer -/

/-- Each input's current staging buffer holds its block at every point, whether the point fetched it or an
    earlier one did: no input window is cut or idle, and the body leaves each input block as it found it. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl)
    (fun t => by rw [after2_6]; unfold Dat.blockOf iblk2; rw [A_eq2]; try rfl) t d).trans
    (by unfold Dat.fetched Dat.blockOf iblk2; rw [A_eq2]; try rfl)

/-! ## The body obligation, at a generic point -/

/-- What the body is called with at point `t`: the invariant, nothing owed, and the eight current staging memrefs. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- What it returns: the same, each memref at what the proof data say the body leaves there. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the seven inputs' memrefs hold their blocks, so the body's triple applies; the
    invariant and what the core owes pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [Phi2, Phi2,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Reg

end
-- ==== Proof.KI.GruBRec.lean ====
/-
  The second recurrent layer's launch seen from the host program: how the TensorCore's buffers are
  handed to the pipeline when the region is entered and taken back when it is left.

  The launch has eight windows over seven arrays: the previous hidden row is behind two windows, once whole
  (window 1) and once as the point's own 128 entries (window 6). Both only read it, so each window holds half
  of that array's share; every other array is behind one window, which holds all of it. At entry the array's
  full share is cut into the two halves; at exit, both halves still at the contents found at entry, they are
  put back together. The only array whose contents change is the output row.
-/
import proofs.«417261_j67628555043381_3_alg».proof.Proof.KI.GruB
import proofs.«417261_j67628555043381_3_alg».proof.Proof.Gen.KernelIdeal.Launch
import Idealize.ShloMosaic.Lib.Pipeline.Launch
import Idealize.ShloMosaic.Lib.Pipeline.Kit
import Idealize.ShloMosaic.Lib.Pipeline.Cells
import Idealize.ShloMosaic.Lib.Pipeline.Dat
import Idealize.ShloMosaic.Lib.Pipeline.Frame
import Idealize.ShloMosaic.Lib.Pipeline.Regions
import Idealize.ShloMosaic.Lib.StableHlo.Run
import Idealize.ShloMosaic.Rules.PointsTo
import Idealize.SL.RA.TreeShare
import Mathlib.Logic.Function.Basic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.KernelIdeal Cert.KernelIdeal.Gen

variable {F : FTy → Type} [FloatOps F]

local notation "𝕄" => MT nD τ sig Unit (Elt F) ℕ (Pipeline.UD sig nD τ) ℕ

-- the buffers' contents on every core when the region is entered
variable (W : Dev nD → Valuation τ sig (Elt F))

/-- The entry contents read at the TensorCore's references. -/
abbrev VW2 : (c : Dev nD) → (b : Ref sig .tc) → Buf (Elt F) ((c : Thread nD τ).loc b) := fun c b => W c b

/-- What rides beside the buffers: the generator register at some state, and the core owing nothing. -/
abbrev Rst2 (c : Dev nD) : sProp 𝕄 :=
  iprop((∃ r, prngReg c r) ∗ ∃ Wt, owes (c : Thread nD τ) (0 : CellTallies nD τ sig Unit) Wt)

/-- The buffers after the region: only the output row changes, to what the write-backs leave in it. -/
abbrev Wout2 (c : Dev nD) : Valuation τ sig (Elt F) :=
  Function.update (W c) main_v15 ((dat2 (VW2 W) c).arrAt 7 cfg2.N)

/-- What enters the invariant: the generator register at some state. -/
abbrev X2 (W : Dev nD → Valuation τ sig (Elt F)) (c : Dev nD) : sProp 𝕄 := iprop(∃ r, prngReg c r)
/-- What the invariant gives back: the same. -/
abbrev Y2 (W : Dev nD → Valuation τ sig (Elt F)) (c : Dev nD) : sProp 𝕄 := iprop(∃ r, prngReg c r)
/-- What goes around the region: the unscoped buffers behind no window, at the entry contents. -/
abbrev Z2 (c : Dev nD) : sProp 𝕄 :=
  Pipeline.unscopedRest (Ix := Unit) (Name := ℕ) (U := Pipeline.UD sig nD τ) (Lvl := ℕ) spec2 c (VW2 W c)

/-! ## The arrays' buffers and the windows' holdings -/

/-- The share window `w` holds of its array: the halves for the two windows on the previous hidden row, all of it
    for every other (the output's because it is the output). -/
theorem share2_0 (c : Dev nD) : (dat2 (VW2 W) c).share 0 = fullShare := by unfold Dat.share; rw [q_eq2]; rfl
theorem share2_1 (c : Dev nD) : (dat2 (VW2 W) c).share 1 = fullShare.left := by unfold Dat.share; rw [q_eq2]; rfl
theorem share2_2 (c : Dev nD) : (dat2 (VW2 W) c).share 2 = fullShare := by unfold Dat.share; rw [q_eq2]; rfl
theorem share2_3 (c : Dev nD) : (dat2 (VW2 W) c).share 3 = fullShare := by unfold Dat.share; rw [q_eq2]; rfl
theorem share2_4 (c : Dev nD) : (dat2 (VW2 W) c).share 4 = fullShare := by unfold Dat.share; rw [q_eq2]; rfl
theorem share2_5 (c : Dev nD) : (dat2 (VW2 W) c).share 5 = fullShare := by unfold Dat.share; rw [q_eq2]; rfl
theorem share2_6 (c : Dev nD) : (dat2 (VW2 W) c).share 6 = fullShare.right := by unfold Dat.share; rw [q_eq2]; rfl
theorem share2_7 (c : Dev nD) : (dat2 (VW2 W) c).share 7 = fullShare := by unfold Dat.share; rfl

/-- The windows' holdings, each array a whole buffer: window `w` holds the buffer behind its array at its share. -/
theorem arrays_eq2 (c : Dev nD)
    (Fn : (w : Fin cfg2.W) → Buf (Elt F) ((cfg2.win w).arr.view.loc (c : Thread nD τ))) :
    (dat2 (VW2 W) c).arrays Fn
      = bigSep Finset.univ fun w : Fin cfg2.W =>
          (((c : Thread nD τ).loc (Pipeline.arrRef spec2 w)) ↦{(dat2 (VW2 W) c).share w} Fn w : sProp 𝕄) := by
  unfold Dat.arrays
  exact bigSep_congr fun w _ => by rw [(Gen.arr_whole2 w).set_eq_univ]

/-- Before the first point every array holds the entry contents. -/
theorem arrAt0_12 (c : Dev nD) (w : Fin cfg2.W) :
    (dat2 (VW2 W) c).arrAt w 0 = VW2 W c (Pipeline.arrRef spec2 w) :=
  (show (dat2 (VW2 W) c).arrAt w 0 = (dat2 (VW2 W) c).A w from rfl).trans (A_eq2 (VW2 W) c w)

/-- An input's array is never written: after the last point it still holds the entry contents. -/
theorem arrAtN_12 (c : Dev nD) (w : Fin cfg2.W) (hin : (cfg2.win w).isOut = false) :
    (dat2 (VW2 W) c).arrAt w cfg2.N = VW2 W c (Pipeline.arrRef spec2 w) :=
  ((dat2 (VW2 W) c).arrAt_in w hin cfg2.N).trans (A_eq2 (VW2 W) c w)

/-- Window `w`'s holding before the first point, read at the buffer `b` behind its array and at the share `q` it
    holds: that buffer at the entry contents. -/
theorem hold0_12 (c : Dev nD) (w : Fin cfg2.W) (b : Ref sig .tc) (hb : Pipeline.arrRef spec2 w = b)
    (q : PosShare TreeShare) (hq : (dat2 (VW2 W) c).share w = q) :
    ((((c : Thread nD τ).loc (Pipeline.arrRef spec2 w)) ↦{(dat2 (VW2 W) c).share w} (dat2 (VW2 W) c).arrAt w 0) : sProp 𝕄)
      = (((c : Thread nD τ).loc b) ↦{q} W c b) := by
  subst hb; rw [hq, arrAt0_12]

/-- The same after the last point, for an input: its array was never written. -/
theorem holdN_12 (c : Dev nD) (w : Fin cfg2.W) (hin : (cfg2.win w).isOut = false) (b : Ref sig .tc)
    (hb : Pipeline.arrRef spec2 w = b) (q : PosShare TreeShare) (hq : (dat2 (VW2 W) c).share w = q) :
    ((((c : Thread nD τ).loc (Pipeline.arrRef spec2 w)) ↦{(dat2 (VW2 W) c).share w} (dat2 (VW2 W) c).arrAt w cfg2.N) : sProp 𝕄)
      = (((c : Thread nD τ).loc b) ↦{q} W c b) := by
  subst hb; rw [hq, arrAtN_12 W c w hin]

/-- The seven buffers behind the eight windows, one by one. -/
theorem arrBufs1_eq2 (c : Dev nD) (V : (b : Ref sig .tc) → Buf (Elt F) ((c : Thread nD τ).loc b)) :
    (Pipeline.arrBufs (Ix := Unit) (Name := ℕ) (U := Pipeline.UD sig nD τ) (Lvl := ℕ) spec2 c V : sProp 𝕄)
      = iprop((((c : Thread nD τ).loc main_v10) ↦{fullShare} V main_v10) ∗ (((c : Thread nD τ).loc main_v5) ↦{fullShare} V main_v5)
          ∗ (((c : Thread nD τ).loc main_v11) ↦{fullShare} V main_v11) ∗ (((c : Thread nD τ).loc main_v12) ↦{fullShare} V main_v12)
          ∗ (((c : Thread nD τ).loc main_v13) ↦{fullShare} V main_v13) ∗ (((c : Thread nD τ).loc main_v14) ↦{fullShare} V main_v14)
          ∗ (((c : Thread nD τ).loc main_v15) ↦{fullShare} V main_v15)) := by
  unfold Pipeline.arrBufs
  exact BI.bigSep_eq_bigSepL_of_eq [main_v10, main_v5, main_v11, main_v12, main_v13, main_v14, main_v15] (by decide) (by decide) _

/-- ENTRY, the arrays: the seven buffers behind the windows, each whole at the entry contents, are the eight
    windows' holdings — the previous hidden row's buffer cut into the halves windows 1 and 6 hold. -/
theorem arrays_split2 (c : Dev nD) :
    (Pipeline.arrBufs (Ix := Unit) (Name := ℕ) (U := Pipeline.UD sig nD τ) (Lvl := ℕ) spec2 c (VW2 W c) : sProp 𝕄)
      ⊢ (dat2 (VW2 W) c).arrays ((dat2 (VW2 W) c).arrAt · 0) := by
  rw [arrays_eq2, Gen.bigSep_W2, arrBufs1_eq2]
  iintro ⟨H1, H3, H6, H7, H8, H9, H10⟩
  ihave H3' := (pointsTo_share (PosShare.mem_left_op_right fullShare)).1 $$ H3
  icases H3' with ⟨H3l, H3r⟩
  isplitl [H1]; · rw [hold0_12 W c 0 main_v10 rfl _ (share2_0 W c)]; iexact H1
  isplitl [H3l]; · rw [hold0_12 W c 1 main_v5 rfl _ (share2_1 W c)]; iexact H3l
  isplitl [H6]; · rw [hold0_12 W c 2 main_v11 rfl _ (share2_2 W c)]; iexact H6
  isplitl [H7]; · rw [hold0_12 W c 3 main_v12 rfl _ (share2_3 W c)]; iexact H7
  isplitl [H8]; · rw [hold0_12 W c 4 main_v13 rfl _ (share2_4 W c)]; iexact H8
  isplitl [H9]; · rw [hold0_12 W c 5 main_v14 rfl _ (share2_5 W c)]; iexact H9
  isplitl [H3r]; · rw [hold0_12 W c 6 main_v5 rfl _ (share2_6 W c)]; iexact H3r
  rw [hold0_12 W c 7 main_v15 rfl _ (share2_7 W c)]; iexact H10

/-- The two halves of the previous hidden row's buffer, both still at the entry contents, are the whole of it. -/
theorem join_hidden2 (c : Dev nD) :
    (iprop((((c : Thread nD τ).loc (Pipeline.arrRef spec2 1)) ↦{(dat2 (VW2 W) c).share 1} (dat2 (VW2 W) c).arrAt 1 cfg2.N)
        ∗ (((c : Thread nD τ).loc (Pipeline.arrRef spec2 6)) ↦{(dat2 (VW2 W) c).share 6} (dat2 (VW2 W) c).arrAt 6 cfg2.N)) : sProp 𝕄)
      ⊢ ((c : Thread nD τ).loc main_v5) ↦{fullShare} W c main_v5 := by
  rw [holdN_12 W c 1 rfl main_v5 rfl _ (share2_1 W c), holdN_12 W c 6 rfl main_v5 rfl _ (share2_6 W c)]
  exact (pointsTo_share (PosShare.mem_left_op_right fullShare)).2

/-- EXIT, the arrays: the eight windows' holdings at their final contents are the seven buffers, each whole, at
    the contents after the region — the two halves of the previous hidden row's buffer, both as found, joined. -/
theorem arrays_join2 (c : Dev nD) :
    (dat2 (VW2 W) c).arrays ((dat2 (VW2 W) c).arrAt · cfg2.N)
      ⊢ (Pipeline.arrBufs (Ix := Unit) (Name := ℕ) (U := Pipeline.UD sig nD τ) (Lvl := ℕ) spec2 c (fun b => Wout2 W c b) : sProp 𝕄) := by
  rw [arrays_eq2, Gen.bigSep_W2, arrBufs1_eq2]
  -- the contents after the region at each of the seven buffers: the entry contents, but at the output row
  have h1 : Wout2 W c main_v10 = W c main_v10 := Function.update_of_ne (StableHlo.devRef_ne_of_ne (by decide)) _ _
  have h3 : Wout2 W c main_v5 = W c main_v5 := Function.update_of_ne (StableHlo.devRef_ne_of_ne (by decide)) _ _
  have h6 : Wout2 W c main_v11 = W c main_v11 := Function.update_of_ne (StableHlo.devRef_ne_of_ne (by decide)) _ _
  have h7 : Wout2 W c main_v12 = W c main_v12 := Function.update_of_ne (StableHlo.devRef_ne_of_ne (by decide)) _ _
  have h8 : Wout2 W c main_v13 = W c main_v13 := Function.update_of_ne (StableHlo.devRef_ne_of_ne (by decide)) _ _
  have h9 : Wout2 W c main_v14 = W c main_v14 := Function.update_of_ne (StableHlo.devRef_ne_of_ne (by decide)) _ _
  have h10 : Wout2 W c main_v15 = (dat2 (VW2 W) c).arrAt 7 cfg2.N := Function.update_self _ _ _
  iintro ⟨H0, H1, H2, H3, H4, H5, H6, H7⟩
  ihave H13 := join_hidden2 W c $$ [H1 H6]
  · isplitl [H1]; · iexact H1
    iexact H6
  -- each input window's holding, read at its buffer, is that buffer at the entry contents
  isplitl [H0]; · rw [holdN_12 W c 0 rfl main_v10 rfl _ (share2_0 W c), h1]; exact .rfl
  isplitl [H13]; · rw [h3]; iexact H13
  isplitl [H2]; · rw [holdN_12 W c 2 rfl main_v11 rfl _ (share2_2 W c), h6]; exact .rfl
  isplitl [H3]; · rw [holdN_12 W c 3 rfl main_v12 rfl _ (share2_3 W c), h7]; exact .rfl
  isplitl [H4]; · rw [holdN_12 W c 4 rfl main_v13 rfl _ (share2_4 W c), h8]; exact .rfl
  isplitl [H5]; · rw [holdN_12 W c 5 rfl main_v14 rfl _ (share2_5 W c), h9]; exact .rfl
  rw [share2_7, h10]; iexact H7

/-! ## The four entailments of the region's record -/

/-- ENTRY: of the unscoped buffers at the entry contents, those behind the windows become the windows' holdings and
    the others go around the region; the generator register enters the invariant; the core owes nothing. -/
theorem entry2 (c : Dev nD) :
    (iprop(iprop(StableHlo.held (c : Thread nD τ) (Pipeline.ucRefs τ sig) (W c) ∗ Rst2 c)
        ∗ Pipeline.ownSems0 (fun k : PEmpty => k.elim) c ∗ levAts (fun _ => ∅) (fun _ _ => 0)) : sProp 𝕄)
      ⊢ |={Set.univ}=> iprop((dat2 (VW2 W) c).arrays ((dat2 (VW2 W) c).arrAt · 0)
          ∗ Pipeline.prefHeld (pcfgs (F := F) 2).pre c (fun _ => fullShare) (cfg2.toPCfg_adm (Val := Elt F)).1
          ∗ (dat2 (VW2 W) c).owesAt () 0 ∗ X2 W c ∗ Z2 W c) := by
  unfold Pipeline.Dat.owesAt Pipeline.owesWithin Pipeline.Dat.bound
  rw [Pipeline.ownSems0_none, owed2, recorded2,
    ← Pipeline.unscopedBufs_held (Ix := Unit) (Name := ℕ) (U := Pipeline.UD sig nD τ) (Lvl := ℕ) c (W c),
    Pipeline.unscopedBufs_split₀ (fun _ : Unit => cfg2) () Gen.winFacts₀2.arr_unscoped c (VW2 W c)]
  iintro ⟨⟨⟨Hab, Hrest⟩, Hp, HO⟩, -, -⟩
  ihave Ha := arrays_split2 W c $$ Hab
  imodintro
  isplitl [Ha]; · iexact Ha
  isplitr; · unfold Pipeline.prefHeld; rw [show (Finset.univ : Finset (Fin 0)) = ∅ from rfl, BI.bigSep_empty]; iempintro
  isplitl [HO]
  · icases HO with ⟨%Wt, HO⟩; iexists Wt; isplitr; · ipureintro; exact fun _ _ => Or.inl trivial
    iexact HO
  isplitl [Hp]; · iexact Hp
  iexact Hrest

/-- The invariant at the first point: the generator register and the scoped buffers no window stages. -/
theorem in2 (c : Dev nD) :
    (iprop(X2 W c ∗ Pipeline.prefHeld (pcfgs (F := F) 2).pre c (fun _ => fullShare) (cfg2.toPCfg_adm (Val := Elt F)).1
        ∗ Pipeline.scopedRest spec2 c) : sProp 𝕄)
      ⊢ (dat2 (VW2 W) c).Φ 0 := by
  rw [Phi2]; unfold Pipeline.ΦA
  iintro ⟨Hp, -, Hr⟩
  isplitl [Hr]; · iexact Hr
  iexact Hp

/-- The invariant at the last point gives the same back; the kernel has no semaphore of its own. -/
theorem out2 (c : Dev nD) :
    (dat2 (VW2 W) c).Φ (Fin.last cfg2.N)
      ⊢ (iprop(Y2 W c ∗ Pipeline.ownSems0 (fun k : PEmpty => k.elim) c ∗ Pipeline.scopedRest spec2 c) : sProp 𝕄) := by
  rw [Pipeline.ownSems0_none, Phi2]; unfold Pipeline.ΦA
  iintro ⟨Hr, Hp⟩
  isplitl [Hp]; · iexact Hp
  isplitr; · iempintro
  iexact Hr

/-- EXIT: the windows' holdings at their final contents and the buffers that went around the region are the
    unscoped buffers at the contents after the region, which differ from the entry contents at the output row only. -/
theorem exit2 (c : Dev nD) :
    (iprop((dat2 (VW2 W) c).arrays ((dat2 (VW2 W) c).arrAt · cfg2.N) ∗ (dat2 (VW2 W) c).owesAt () (Fin.last cfg2.N)
        ∗ Y2 W c ∗ Z2 W c) : sProp 𝕄)
      ⊢ |={Set.univ}=> iprop(StableHlo.held (c : Thread nD τ) (Pipeline.ucRefs τ sig) (Wout2 W c) ∗ Rst2 c) := by
  -- off the windows' arrays the contents are the entry contents
  have hrest : (Z2 W c : sProp 𝕄)
      = Pipeline.unscopedRest (Ix := Unit) (Name := ℕ) (U := Pipeline.UD sig nD τ) (Lvl := ℕ) spec2 c (fun b => Wout2 W c b) := by
    unfold Pipeline.unscopedRest
    exact bigSep_congr fun b hb => by
      have hb' : b ≠ main_v15 := fun e =>
        (Finset.mem_sdiff.mp hb).2 (e ▸ Finset.mem_image.mpr ⟨(7 : Fin 8), Finset.mem_univ _, rfl⟩)
      have e : Wout2 W c b = W c b := Function.update_of_ne (StableHlo.devRef_ne_of_ne hb') _ _
      show ((((c : Thread nD τ).loc b) ↦{fullShare} W c b) : sProp 𝕄) = (((c : Thread nD τ).loc b) ↦{fullShare} Wout2 W c b)
      rw [e]
  unfold Pipeline.Dat.owesAt Pipeline.owesWithin
  rw [owed2, hrest,
    ← Pipeline.unscopedBufs_held (Ix := Unit) (Name := ℕ) (U := Pipeline.UD sig nD τ) (Lvl := ℕ) c (Wout2 W c),
    Pipeline.unscopedBufs_split₀ (fun _ : Unit => cfg2) () Gen.winFacts₀2.arr_unscoped c (fun b => Wout2 W c b)]
  iintro ⟨Ha, HO, HY, Hrest⟩
  ihave Hab := arrays_join2 W c $$ Ha
  imodintro
  isplitl [Hab Hrest]
  · isplitl [Hab]; · iexact Hab
    iexact Hrest
  isplitl [HY]; · iexact HY
  icases HO with ⟨%Wt, -, HO⟩; iexists Wt; iexact HO

end Cert.KernelIdeal.Reg

end
-- ==== Proof.KI.Dec.lean ====
/-
  The decoder's launch (the fourth pallas_call of the program), at the contents V the launch finds in the
  buffers: what each grid point's body leaves in the output tile, the proof data, the body obligation at
  every point, and the four entailments that carry the thread state into the launch and out of it.

  A grid point t handles 128 of the 256 vocabulary entries. Its body reads the whole hidden row x [1,4096],
  its own block of 128 rows of the decoder matrix [128,4096] and its own tile of 128 bias entries [1,128],
  rounds x and the matrix block to bf16, and stores the tile
     x * (block)^T + bias      (a row times a transposed block, accumulated in f32 from zero, plus the bias tile)
  over the whole output tile [1,128]; the value it loads from the output tile beforehand is not used.
-/
import proofs.«417261_j67628555043381_3_alg».proof.Proof.Gen.KernelIdeal.Launch
import proofs.«417261_j67628555043381_3_alg».proof.Proof.Gen.KernelIdeal.Skeleton
import proofs.«417261_j67628555043381_3_alg».proof.Proof.Gen.KernelIdeal.Points
import Idealize.ShloMosaic.Lib.Pipeline.FrameBody
import Idealize.ShloMosaic.Lib.Pipeline.Frame
import Idealize.ShloMosaic.Lib.Pipeline.Regions
import Idealize.ShloMosaic.Lib.Pipeline.RegionsLoop
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Body
-- the TensorCore's buffer contents when the region is entered: the parameter everything here is stated at
variable (V : (c : Dev nD) → (b : Ref sig .tc) → Buf (Elt F) ((c : Thread nD τ).loc b))

/-! ## The windows' blocks -/

/-- Window `w`'s block at grid point `t`, read off its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: each of the four buffers is read or written whole -/

/-- the hidden row, whole -/
abbrev rX3 : Rect S1x4096 := Rect.unit (s := S1x4096) ![0, 0] S1x4096.size inb_S1x4096_S1x4096_0_0
/-- the matrix block, whole -/
abbrev rM3 : Rect S128x4096 := Rect.unit (s := S128x4096) ![0, 0] S128x4096.size inb_S128x4096_S128x4096_0_0
/-- a tile of 128 entries (the bias tile and the output tile), whole -/
abbrev rT3 : Rect S1x128 := Rect.unit (s := S1x128) ![0, 0] S1x128.size inb_S1x128_S1x128_0_0

/-! ## What the body leaves in the output tile -/

/-- The output tile after the body, from the three input blocks: its one store, over the whole tile, of the
    row-times-transposed-block product plus the bias tile, computed from what the three loads read. -/
def out3_3 (x0 : Vec F S1x4096 .f32) (x1 : Vec F S128x4096 .f32) (x2 : Vec F S1x128 .f32) : Vec F S1x128 .f32 :=
  View.canon [⟨rT3, k3_pay1 (View.ld x0 rX3) (View.ld x1 rM3) (View.ld x2 rT3)⟩]

/-- The one store covers the tile: its rectangle is the whole tile. -/
theorem cover3_3 (p : Vec F S1x128 .f32) (y : S1x128.Idx) :
    ∃ pc ∈ ([⟨rT3, p⟩] : List (View.Piece (Elt F) S1x128 .f32)), y ∈ pc.1.set :=
  View.cover_of_tiled [⟨rT3, p⟩] S1x128.size (by rfl) y

/-! ## The body's triple -/

set_option maxHeartbeats 1000000 in
/-- The body on whole staging memrefs — the three inputs' at contents reading `x0`, `x1`, `x2`, the output's at
    anything — runs to the continuation holding the inputs' as they were and the output's at `out3_3` of them.
    The value the body loads from the output tile before its store is whatever was there; nothing is computed
    from it, and the store, covering the tile, leaves no trace of it. -/
theorem sound_kernel3 (c : Dev nD) (E : Set ℕ) (i : grid3.Coords)
    (arg1 : Memref sig .tc .vmem S1x4096 .f32) (harg1 : arg1.IsWhole) (arg2 : Memref sig .tc .vmem S128x4096 .f32) (harg2 : arg2.IsWhole)
    (arg3 : Memref sig .tc .vmem S1x128 .f32) (harg3 : arg3.IsWhole) (arg4 : Memref sig .tc .vmem S1x128 .f32) (harg4 : arg4.IsWhole)
    (x0 : Vec F S1x4096 .f32) (x1 : Vec F S128x4096 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__decode_kernel i arg1 harg1 arg2 harg2 arg3 harg3 arg4 harg4) K := by
  simp only [cc3__decode_kernel_eq_skeleton]; unfold cc3__decode_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The launch's proof data -/

/-- The proof data on core `c`: the arrays as the launch finds them; after the body at point `t` each input's
    buffer at its block and the output's at `out3_3` of the three input blocks; the invariant the scoped rest and
    the generator register, untouched; nothing owed; every array held in full. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem Phi3 (c : Dev nD) (n : Fin (cfg3.N + 1)) : (dat3 V c).Φ n = Pipeline.ΦA spec3 c := by
  dsimp only [dat3]
theorem owed3 (c : Dev nD) (n : Fin (cfg3.N + 1)) : (dat3 V c).owed n = 0 := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-! ## What the body finds in the inputs' buffers

An input's current staging buffer holds the window's block at every point, whether a copy brought it there at
this point or at an earlier one with the block index unmoved since (the hidden row comes in once, at the first
point; the matrix block and the bias tile at both): the windows are uncut and never idle, and the body leaves
an input's buffer as it was. -/

theorem before3_0 (c : Dev nD) (t : Fin cfg3.N) (d) : (dat3 V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
      (fun t => by rw [after3_2]; unfold Dat.blockOf iblk3; rw [A_eq3]; try rfl) t d).trans
    (by unfold Dat.fetched Dat.blockOf iblk3; rw [A_eq3]; try rfl)

/-! ## The body obligation, at a generic point -/

/-- What the body is called with at point `t`: the invariant, the core's debts, and the four current staging
    buffers, each at what the pipeline left in it, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns: the same, the buffers at what the proof data say the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and
    the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every grid point. -/
theorem body_obligation3 (c : Dev nD) : BodyObligation (dat3 (F := F) V c) (defs₀ (F := F)) Variants.none () Set.univ := fun t => by
  rw [bigSep_W3, bigSep_W3]
  exact sound_body3 V c t

end Body

section Region

/-! # The launch between two thread states

Before the launch the thread holds every unscoped buffer at a valuation `W c`, beside the generator register
and the core owing nothing; after it the same, with the output array alone changed, to what the write-backs
of the two grid points leave in it. -/

/-- the valuation read at the TensorCore's references -/
abbrev VW3 (W : Dev nD → Valuation τ sig (Elt F)) : (c : Dev nD) → (b : Ref sig .tc) → Buf (Elt F) ((c : Thread nD τ).loc b) := fun c b => W c b
/-- what rides beside the buffers: the generator register at some state, and the core owing nothing -/
abbrev Rst3 (c : Dev nD) : sProp 𝕄 := iprop((∃ r, prngReg c r) ∗ ∃ Wt, owes (c : Thread nD τ) (0 : CellTallies nD τ sig Unit) Wt)
/-- the buffers after the region: only the output array main_v17 changes, to what the write-backs leave -/
abbrev Wout3 (W : Dev nD → Valuation τ sig (Elt F)) (c : Dev nD) : Valuation τ sig (Elt F) :=
  Function.update (W c) main_v17 ((dat3 (VW3 W) c).arrAt 3 cfg3.N)
/-- what enters the invariant: the generator register at some state -/
abbrev X3 (W : Dev nD → Valuation τ sig (Elt F)) (c : Dev nD) : sProp 𝕄 := iprop(∃ r, prngReg c r)
/-- what the invariant gives back: the same -/
abbrev Y3 (W : Dev nD → Valuation τ sig (Elt F)) (c : Dev nD) : sProp 𝕄 := iprop(∃ r, prngReg c r)
/-- what bypasses the launch: every unscoped buffer that is none of its four arrays, as entered -/
abbrev Z3 (W : Dev nD → Valuation τ sig (Elt F)) (c : Dev nD) : sProp 𝕄 :=
  Pipeline.unscopedRest (Ix := Unit) (Name := ℕ) (U := Pipeline.UD sig nD τ) (Lvl := ℕ) spec3 c (VW3 W c)

/-- The launch alone as a one-member family of pipelines: the form the library's array lemmas are stated in. -/
abbrev pcs3 : Unit → Pipeline.PCfg sig Λ₀ (Elt F) := fun _ => cfg3.toPCfg
abbrev adm3 : (p : Unit) → (pcs3 (F := F) p).Adm := fun _ => cfg3.toPCfg_adm
abbrev fam3 (W : Dev nD → Valuation τ sig (Elt F)) :
    (p : Unit) → (c : Dev nD) → Dat τ (Elt F) Unit ℕ (Pipeline.UD sig nD τ) ℕ (Pipeline.pin (pcs3 (F := F)) adm3 p) c :=
  fun _ c => dat3 (VW3 W) c

variable (W : Dev nD → Valuation τ sig (Elt F))

/-- After the two grid points each array holds what the changed valuation says: an input's array is as it was
    entered (nothing is written back to it), and none of the three is the output array; the output array is the
    one the valuation was changed at. -/
theorem hF3 (c : Dev nD) (w : Fin cfg3.W) : (dat3 (VW3 W) c).arrAt w cfg3.N = Wout3 W c (Pipeline.arrRef spec3 w) :=
  match w with
  | ⟨0, _⟩ => ((dat3 (VW3 W) c).arrAt_in 0 rfl _).trans ((A_eq3 (VW3 W) c 0).trans
      (Function.update_of_ne (StableHlo.devRef_ne_of_ne (by decide)) _ _).symm)
  | ⟨1, _⟩ => ((dat3 (VW3 W) c).arrAt_in 1 rfl _).trans ((A_eq3 (VW3 W) c 1).trans
      (Function.update_of_ne (StableHlo.devRef_ne_of_ne (by decide)) _ _).symm)
  | ⟨2, _⟩ => ((dat3 (VW3 W) c).arrAt_in 2 rfl _).trans ((A_eq3 (VW3 W) c 2).trans
      (Function.update_of_ne (StableHlo.devRef_ne_of_ne (by decide)) _ _).symm)
  | ⟨3, _⟩ => (Function.update_self _ _ (W c)).symm

/-- Every buffer that is none of the four arrays is, in particular, not the output array: unchanged. -/
theorem hrest3 (c : Dev nD) : ∀ b, b ∉ Finset.univ.image (Pipeline.arrRef spec3) → (fun b : Ref sig .tc => Wout3 W c b) b = VW3 W c b :=
  fun b hb => Function.update_of_ne (StableHlo.devRef_ne_of_ne fun e =>
    hb (Finset.mem_image.mpr ⟨3, Finset.mem_univ _, e.symm⟩)) _ _

set_option backward.isDefEq.respectTransparency.types false in
/-- ENTRY: the four arrays split out of the unscoped buffers at the contents the proof data start from; no table is
    prefetched; the core owes nothing; the generator register and the other buffers go their ways. -/
theorem entry3 (c : Dev nD) :
    iprop(iprop(StableHlo.held (c : Thread nD τ) (Pipeline.ucRefs τ sig) (W c) ∗ Rst3 (F := F) c)
        ∗ Pipeline.ownSems0 (Ix := Unit) (Name := ℕ) (U := Pipeline.UD sig nD τ) (Lvl := ℕ) (Val := Elt F) (τ := τ) (fun k : PEmpty => k.elim) c
        ∗ levAts (fun _ => ∅) (fun _ _ => 0))
      ⊢ |={Set.univ}=> iprop((dat3 (VW3 W) c).arrays ((dat3 (VW3 W) c).arrAt · 0)
        ∗ Pipeline.prefHeld (Ix := Unit) (Name := ℕ) (U := Pipeline.UD sig nD τ) (Lvl := ℕ) (pcfgs (F := F) 3).pre c (fun _ => fullShare) (cfg3.toPCfg_adm (Val := Elt F)).1
        ∗ (dat3 (VW3 W) c).owesAt () 0 ∗ X3 W c ∗ Z3 W c) := by
  rw [Pipeline.ownSems0_none]
  have hsplit := Pipeline.arrays_of_unscopedBufs (p := ()) (pcs3 (F := F)) adm3 (fam3 W) winFacts3 arr_whole3 c
    ((dat3 (VW3 W) c).share_full fun _ => rfl) (VW3 W c) fun _ => rfl
  rw [Pipeline.unscopedBufs_held] at hsplit
  iintro ⟨⟨Hub, Hp, HO⟩, -, -⟩
  ihave H := hsplit $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The invariant at the first point: the scoped buffers no window stages, and the generator register. -/
theorem in3 (c : Dev nD) :
    iprop(X3 W c ∗ Pipeline.prefHeld (Ix := Unit) (Name := ℕ) (U := Pipeline.UD sig nD τ) (Lvl := ℕ) (pcfgs (F := F) 3).pre c (fun _ => fullShare) (cfg3.toPCfg_adm (Val := Elt F)).1
        ∗ Pipeline.scopedRest (Ix := Unit) (Name := ℕ) (U := Pipeline.UD sig nD τ) (Lvl := ℕ) (Val := Elt F) (τ := τ) spec3 c)
      ⊢ (dat3 (VW3 W) c).Φ 0 := by
  rw [Phi3]; unfold Pipeline.ΦA
  iintro ⟨Hp, -, Hr⟩
  isplitl [Hr]; · iexact Hr
  iexact Hp

/-- The invariant at the last point gives both back; the kernel has no semaphore of its own. -/
theorem out3 (c : Dev nD) :
    (dat3 (VW3 W) c).Φ (Fin.last cfg3.N)
      ⊢ iprop(Y3 W c ∗ Pipeline.ownSems0 (Ix := Unit) (Name := ℕ) (U := Pipeline.UD sig nD τ) (Lvl := ℕ) (Val := Elt F) (τ := τ) (fun k : PEmpty => k.elim) c
        ∗ Pipeline.scopedRest (Ix := Unit) (Name := ℕ) (U := Pipeline.UD sig nD τ) (Lvl := ℕ) (Val := Elt F) (τ := τ) spec3 c) := by
  rw [Pipeline.ownSems0_none, Phi3]; unfold Pipeline.ΦA
  iintro ⟨Hr, Hp⟩
  isplitl [Hp]; · iexact Hp
  isplitr; · iempintro
  iexact Hr

set_option backward.isDefEq.respectTransparency.types false in
/-- EXIT: the four arrays at their final contents and the other buffers as entered are the unscoped buffers at the
    changed valuation; the generator register and the core's empty debts ride along. -/
theorem exit3 (c : Dev nD) :
    iprop((dat3 (VW3 W) c).arrays ((dat3 (VW3 W) c).arrAt · cfg3.N) ∗ (dat3 (VW3 W) c).owesAt () (Fin.last cfg3.N) ∗ Y3 W c ∗ Z3 W c)
      ⊢ |={Set.univ}=> iprop(StableHlo.held (c : Thread nD τ) (Pipeline.ucRefs τ sig) (Wout3 W c) ∗ Rst3 (F := F) c) := by
  have hjoin := Pipeline.unscopedBufs_of_arrays (p := ()) (pcs3 (F := F)) adm3 (Ix := Unit) (Name := ℕ) (U := Pipeline.UD sig nD τ) (Lvl := ℕ)
    winFacts3 arr_whole3 c (fam3 W) ((dat3 (VW3 W) c).share_full fun _ => rfl)
    (VW3 W c) (fun b => Wout3 W c b) ((dat3 (VW3 W) c).arrAt · cfg3.N) (hF3 W c) (hrest3 W c)
  rw [Pipeline.unscopedBufs_held] at hjoin
  iintro ⟨Ha, HO, HY, Hrest⟩
  imodintro
  isplitl [Ha Hrest]
  · iapply hjoin; isplitl [Ha] <;> iassumption
  isplitl [HY]; · iexact HY
  unfold Pipeline.Dat.owesAt Pipeline.owesWithin
  icases HO with ⟨%Wt, -, HO⟩; iexists Wt; iexact HO

end Region

end Cert.KernelIdeal.Reg

end
-- ==== Proof.KI.TableWord.lean ====
/-
  The prefetched table of the first launch: the one-entry integer buffer the host code fills before it.

  Two host stretches run before that launch. The first writes the scalars 0 and 255. The second, the outlined
  clip, copies each scalar, broadcasts it to one entry, takes the entrywise signed maximum of the 0-vector with
  the input, and the entrywise signed minimum of the 255-vector with that maximum; the minimum is the table.
  So at every launch memory the table is the input clamped to [0, 255]: its word names a row of the 256-row
  embedding matrix, which is the side condition the body assumes of it, and the row copied is the word's value.
  When the input already lies in [0, 256) the table is the input itself.
-/
import proofs.«417261_j67628555043381_3_alg».proof.Proof.Gen.KernelIdeal.Regions
import proofs.«417261_j67628555043381_3_alg».proof.Proof.InpRange
import Idealize.ShloMosaic.Lib.StableHlo.Run
import Idealize.ShloMosaic.Lib.ValueIdx

noncomputable section

namespace Cert.KernelIdeal.Reg

open Idealize.ShloMosaic Idealize.ShloMosaic.TcCoe
open Idealize.ShloMosaic.StableHlo
open Cert.KernelIdeal Cert.KernelIdeal.Gen

variable {F : FTy → Type} [FloatOps F] (m : (ℓ : Loc nD τ sig) → Buf (Elt F) ℓ)

/-- The table before the first launch is the input clamped to [0, 255], entrywise: min(255, max(0, input)). -/
theorem tbl_eq (c : Dev nD) :
    (Gen.V2 m c main_v0 : IVec S1 32)
      = minsi (broadcastInDim S1 ![] bcast_S_S1 (constantI S_ 32 255#32))
          (maxsi (broadcastInDim S1 ![] bcast_S_S1 (constantI S_ 32 0#32)) (m ((c : Thread nD τ).loc main_arg0))) := by
  dsimp only [Gen.V2, Gen.V1, Gen.V0, Gen.hostOps0, Gen.hostOps0_1]
  after_results
  rfl

/-- At every launch memory the table's word, as a row offset, leaves one row of the matrix inside it. -/
theorem tbl_chk (c : Dev nD) : k0_chk1 ((Gen.V2 m c main_v0 : IVec S1 32) (ValueIdx.ix1 0)) := by
  rw [tbl_eq]
  -- the clamped word is at most 255, so row + 1 ≤ 256; the column offset is 0 and the row is 4096 wide
  have hle := Cert.InpRange.clamp_vec_le bcast_S_S1 bcast_S_S1 (m ((c : Thread nD τ).loc main_arg0))
  intro a
  match a with
  | ⟨0, _⟩ => exact Nat.succ_le_succ hle
  | ⟨1, _⟩ => exact Nat.le_refl 4096

/-- The offsets read off the table's word: the row is the word's value, the column 0. -/
theorem tbl_row (c : Dev nD) :
    k0_off1 ((Gen.V2 m c main_v0 : IVec S1 32) (ValueIdx.ix1 0))
      = ![((Gen.V2 m c main_v0 : IVec S1 32) (ValueIdx.ix1 0)).toNat, 0] := rfl

/-- When the input lies in [0, 256) the table holds the input itself. -/
theorem tbl_id (c : Dev nD)
    (h0 : ((m ((c : Thread nD τ).loc main_arg0) : IVec S1 32) (ValueIdx.ix1 0)).slt 0#32 = false)
    (h1 : ((m ((c : Thread nD τ).loc main_arg0) : IVec S1 32) (ValueIdx.ix1 0)).slt 256#32 = true) :
    (Gen.V2 m c main_v0 : IVec S1 32) = m ((c : Thread nD τ).loc main_arg0) := by
  rw [tbl_eq]
  exact Cert.InpRange.clamp_vec_id bcast_S_S1 bcast_S_S1 _ h0 h1

end Cert.KernelIdeal.Reg

end
-- ==== Proof.KI.Contents.lean ====
/-
  The buffers between the program's items, and each launch's proof data at the contents it finds.

  Before the first launch the host has clamped the looked-up index into the table's 256 rows and left it in the
  prefetched table; from there the valuations chain: each launch replaces exactly its output array by what its
  write-backs leave, each host stretch applies its operations. The four launches' proof data are taken at these
  valuations: the embedding copy at the valuation after the clamp (its table contents are that valuation's),
  the first recurrent layer at the valuation after the reshapes that follow it, and so on.
-/
import proofs.«417261_j67628555043381_3_alg».proof.Proof.KI.Emb
import proofs.«417261_j67628555043381_3_alg».proof.Proof.KI.GruARec
import proofs.«417261_j67628555043381_3_alg».proof.Proof.KI.GruBRec
import proofs.«417261_j67628555043381_3_alg».proof.Proof.KI.Dec
import proofs.«417261_j67628555043381_3_alg».proof.Proof.KI.TableWord
import proofs.«417261_j67628555043381_3_alg».proof.Proof.KI.RunAll

set_option maxRecDepth 16384

noncomputable section

namespace Cert.KernelIdeal.Reg

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)
open Cert.KernelIdeal Cert.KernelIdeal.Gen

variable {F : FTy → Type} [FloatOps F]
variable (m : (ℓ : Loc nD τ sig) → Buf (Elt F) ℓ)

/-! ## The table the first launch prefetches -/

/-- The program runs on one device. -/
abbrev dev0 : Dev nD := (0 : Fin 1)
theorem dev_eq (c : Dev nD) : c = dev0 := Subsingleton.elim _ _

/-- The pipeline's one table is the buffer the clamp's result is left in. -/
theorem pre0_ref0 : pre0.ref (0 : Fin pre0.K) = main_v0 := rfl
/-- A dependent function at two equal arguments. -/
theorem dep_congr {α : Type} {β : α → Type} (f : ∀ a, β a) {a b : α} (h : a = b) : HEq (f a) (f b) := by subst h; rfl

/-- The clamp's result as the first launch finds it, under a name of its own: nothing below looks inside it. -/
def tblBuf : Buf (Elt F) ((dev0 : Thread nD τ).loc main_v0) := Gen.V2 m dev0 main_v0
theorem tblBuf_eq : tblBuf m = Gen.V2 m dev0 main_v0 := rfl
attribute [irreducible] tblBuf

/-- The table's contents when the first launch is entered: what the host's clamp left. -/
def tbl : pre0.Contents (Elt F) := fun
  | ⟨0, _⟩ => tblBuf m
/-- Every contents is admissible for this pipeline (its one window's index map reads no table). -/
def a0 : (pcfg0 (F := F)).Adm := ⟨tbl m, trivial⟩
theorem a0_val (c : Dev nD) (k : Fin pre0.K) : (a0 m).1 k = VW0 (Gen.V2 m) c (pre0.ref k) := by
  have hc := dev_eq c
  subst hc
  have hk : k = (0 : Fin pre0.K) := Subsingleton.elim _ _
  subst hk
  exact eq_of_heq ((heq_of_eq (tblBuf_eq m)).trans (dep_congr (fun b : Ref sig .tc => VW0 (Gen.V2 m) dev0 b) pre0_ref0.symm))

/-- The word the embedding copy reads off the table is the clamp's result, which satisfies the copy's side
    condition for every input. -/
theorem word0_chk : k0_chk1 (word0 (a0 m).1) := by
  rw [word0_eq]
  have h := tbl_chk m dev0
  rw [← tblBuf_eq m] at h
  exact h

/-- The admissible contents of every pipeline's tables: only the first has one. -/
def adm : (p : Fin 4) → (pcfgs (F := F) p).Adm
  | ⟨0, _⟩ => a0 m
  | ⟨1, _⟩ => cfg1.toPCfg_adm
  | ⟨2, _⟩ => cfg2.toPCfg_adm
  | ⟨3, _⟩ => cfg3.toPCfg_adm
  | ⟨_ + 4, h⟩ => absurd h (Nat.not_lt.2 (Nat.le_add_left _ _))

/-! ## The valuations between the items -/

/-- Before the embedding copy: the launch memory after the two constants and the clamp. -/
abbrev U2 (c : Dev nD) : Valuation τ sig (Elt F) := Gen.V2 m c
/-- After it: the looked-up row's array replaced. -/
abbrev U3 (c : Dev nD) : Valuation τ sig (Elt F) := Wout0 (a0 m) (U2 m) c
/-- After the slices and reshapes that feed the first layer. -/
abbrev U4 (c : Dev nD) : Valuation τ sig (Elt F) := StableHlo.after hostOps1 (U3 m c)
/-- After the first layer: its new hidden row's array replaced. -/
abbrev U5 (c : Dev nD) : Valuation τ sig (Elt F) := Wout1 (U4 m) c
/-- After the reshapes that feed the second layer. -/
abbrev U6 (c : Dev nD) : Valuation τ sig (Elt F) := StableHlo.after hostOps2 (U5 m c)
/-- After the second layer. -/
abbrev U7 (c : Dev nD) : Valuation τ sig (Elt F) := Wout2 (U6 m) c
/-- After the decoder bias's reshape. -/
abbrev U8 (c : Dev nD) : Valuation τ sig (Elt F) := StableHlo.after hostOps3 (U7 m c)
/-- After the decoder: the logits' array replaced. -/
abbrev U9 (c : Dev nD) : Valuation τ sig (Elt F) := Wout3 (U8 m) c
/-- At the end: the two new hidden rows stacked. -/
abbrev U10 (c : Dev nD) : Valuation τ sig (Elt F) := StableHlo.after hostOps4 (U9 m c)

/-- What each launch leaves in its output array, in the form the generated valuations take it. -/
def outs : Gen.Outs (F := F) := fun J r c =>
  match J with
  | 3 => U3 m c r
  | 5 => U5 m c r
  | 7 => U7 m c r
  | 9 => U9 m c r
  | _ => U2 m c r

/-- Replacing an entry by what the replaced function holds there changes nothing more. -/
theorem upd_idem {α : Type} [DecidableEq α] {β : α → Type} (W : ∀ a, β a) (a : α) (X : β a) :
    Function.update W a (Function.update W a X a) = Function.update W a X := by rw [Function.update_self]

theorem V3_eq (c : Dev nD) : Gen.V3 m (outs m) c = U3 m c :=
  upd_idem (Gen.V2 m c) _ _
theorem V4_eq (c : Dev nD) : Gen.V4 m (outs m) c = U4 m c := congrArg (StableHlo.after hostOps1) (V3_eq m c)
theorem V5_eq (c : Dev nD) : Gen.V5 m (outs m) c = U5 m c := by
  show Function.update (Gen.V4 m (outs m) c) main_v10 (U5 m c main_v10) = U5 m c
  rw [V4_eq]; exact upd_idem (U4 m c) _ _
theorem V6_eq (c : Dev nD) : Gen.V6 m (outs m) c = U6 m c := congrArg (StableHlo.after hostOps2) (V5_eq m c)
theorem V7_eq (c : Dev nD) : Gen.V7 m (outs m) c = U7 m c := by
  show Function.update (Gen.V6 m (outs m) c) main_v15 (U7 m c main_v15) = U7 m c
  rw [V6_eq]; exact upd_idem (U6 m c) _ _
theorem V8_eq (c : Dev nD) : Gen.V8 m (outs m) c = U8 m c := congrArg (StableHlo.after hostOps3) (V7_eq m c)
theorem V9_eq (c : Dev nD) : Gen.V9 m (outs m) c = U9 m c := by
  show Function.update (Gen.V8 m (outs m) c) main_v17 (U9 m c main_v17) = U9 m c
  rw [V8_eq]; exact upd_idem (U8 m c) _ _
theorem V10_eq (c : Dev nD) : Gen.V10 m (outs m) c = U10 m c := congrArg (StableHlo.after hostOps4) (V9_eq m c)

/-! ## The proof data family -/

/-- Every pipeline's proof data, each at the valuation its launch is entered from: a literal match, so that the
    pipeline pinned at a numeral reduces to the printed configuration. -/
def pdats : (p : Fin 4) → (c : Dev nD) → Dat τ (Elt F) Unit ℕ (Pipeline.UD sig nD τ) ℕ (Pipeline.pin (pcfgs (F := F)) (adm m) p) c
  | ⟨0, _⟩ => fun c => dat0 (a0 m) (VW0 (U2 m)) c
  | ⟨1, _⟩ => fun c => dat1 (VW1 (U4 m)) c
  | ⟨2, _⟩ => fun c => dat2 (VW2 (U6 m)) c
  | ⟨3, _⟩ => fun c => dat3 (VW3 (U8 m)) c
  | ⟨_ + 4, h⟩ => absurd h (Nat.not_lt.2 (Nat.le_add_left _ _))

end Cert.KernelIdeal.Reg

end
-- ==== Proof.KI.Segs.lean ====
/-
  The four launches as records over the run's thread states.

  Between two items a core holds every unscoped buffer at the valuation of Contents.lean, beside its generator
  register at some state and the fact that it owes nothing. Each launch's record is entered from the valuation
  before it and left at the valuation after it; its four entailments are the launch's own (its module proves them
  at an arbitrary entry valuation), instantiated here.
-/
import proofs.«417261_j67628555043381_3_alg».proof.Proof.KI.Contents

set_option maxRecDepth 16384

noncomputable section

namespace Cert.KernelIdeal.Reg

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RegionSeg)
open Cert.KernelIdeal Cert.KernelIdeal.Gen

variable {F : FTy → Type} [FloatOps F]
variable (m : (ℓ : Loc nD τ sig) → Buf (Elt F) ℓ)

local notation "𝕄" => MT nD τ sig Unit (Elt F) ℕ (Pipeline.UD sig nD τ) ℕ

/-- No level is assigned: no core owes another anything. -/
abbrev L0 : GSem nD τ sig → Finset Unit := fun _ => ∅
abbrev lv0 : GSem nD τ sig → Unit → ℕ := fun _ _ => 0

/-- What rides beside the buffers through every item: the generator register at some state, nothing owed. -/
abbrev Rst (c : Dev nD) : sProp 𝕄 := iprop((∃ r, prngReg c r) ∗ ∃ Wt, owes (c : Thread nD τ) (0 : CellTallies nD τ sig Unit) Wt)
/-- The same at every boundary. -/
abbrev Erest : Fin 5 → Dev nD → sProp 𝕄 := fun _ c => Rst (F := F) c

set_option backward.isDefEq.respectTransparency.types false in
/-- The embedding copy: one cell of its own, the table at the clamp's result (which satisfies the body's side
    condition whatever the input), the embedding array left where it is. -/
def reg0 : RegionSeg (pcfgs (F := F)) (adm m) (pdats m) () defs₀ Variants.none L0 lv0 0 where
  win := winFacts0.to₀
  block_pos := block_pos0
  stage_whole := stage_whole0
  K := Fin 1
  osem := osem0
  ho := ownSemFacts0
  hbody c := (body_obligation0 (a0 m) (VW0 (U2 m)) c (word0_chk m)).loose
  hwaits := Pipeline.hwaits_of_owed_zero _ _ _ _ L0 lv0 0 fun _ _ => rfl
  pre c := iprop(StableHlo.held (c : Thread nD τ) (Pipeline.ucRefs τ sig) (U2 m c) ∗ Rst c)
  post c := iprop(StableHlo.held (c : Thread nD τ) (Pipeline.ucRefs τ sig) (U3 m c) ∗ Rst c)
  X c := X0 (U2 m) c
  Y c := Y0 (a0 m) (U2 m) c
  Z c := Z0 (U2 m) c
  hentry c := entry0 (a0 m) (U2 m) c (a0_val m c)
  hin c := in0 (a0 m) (U2 m) c
  hout c := out0 (a0 m) (U2 m) c
  hexit c := exit0 (a0 m) (U2 m) c (a0_val m c)

set_option backward.isDefEq.respectTransparency.types false in
/-- The first recurrent layer. -/
def reg1 : RegionSeg (pcfgs (F := F)) (adm m) (pdats m) () defs₀ Variants.none L0 lv0 1 where
  win := winFacts₀1
  block_pos := block_pos1
  stage_whole := stage_whole1
  K := PEmpty
  osem k := k.elim
  ho := Pipeline.OwnSemFacts.none _
  hbody c := (body_obligation1 (VW1 (U4 m)) c).loose
  hwaits := Pipeline.hwaits_of_owed_zero _ _ _ _ L0 lv0 1 fun _ _ => rfl
  pre c := iprop(StableHlo.held (c : Thread nD τ) (Pipeline.ucRefs τ sig) (U4 m c) ∗ Rst c)
  post c := iprop(StableHlo.held (c : Thread nD τ) (Pipeline.ucRefs τ sig) (U5 m c) ∗ Rst c)
  X c := X1 (U4 m) c
  Y c := Y1 (U4 m) c
  Z c := Z1 (U4 m) c
  hentry c := entry1 (U4 m) c
  hin c := in1 (U4 m) c
  hout c := out1 (U4 m) c
  hexit c := exit1 (U4 m) c

set_option backward.isDefEq.respectTransparency.types false in
/-- The second recurrent layer. -/
def reg2 : RegionSeg (pcfgs (F := F)) (adm m) (pdats m) () defs₀ Variants.none L0 lv0 2 where
  win := winFacts₀2
  block_pos := block_pos2
  stage_whole := stage_whole2
  K := PEmpty
  osem k := k.elim
  ho := Pipeline.OwnSemFacts.none _
  hbody c := (body_obligation2 (VW2 (U6 m)) c).loose
  hwaits := Pipeline.hwaits_of_owed_zero _ _ _ _ L0 lv0 2 fun _ _ => rfl
  pre c := iprop(StableHlo.held (c : Thread nD τ) (Pipeline.ucRefs τ sig) (U6 m c) ∗ Rst c)
  post c := iprop(StableHlo.held (c : Thread nD τ) (Pipeline.ucRefs τ sig) (U7 m c) ∗ Rst c)
  X c := X2 (U6 m) c
  Y c := Y2 (U6 m) c
  Z c := Z2 (U6 m) c
  hentry c := entry2 (U6 m) c
  hin c := in2 (U6 m) c
  hout c := out2 (U6 m) c
  hexit c := exit2 (U6 m) c

set_option backward.isDefEq.respectTransparency.types false in
/-- The decoder. -/
def reg3 : RegionSeg (pcfgs (F := F)) (adm m) (pdats m) () defs₀ Variants.none L0 lv0 3 where
  win := winFacts3.to₀
  block_pos := block_pos3
  stage_whole := stage_whole3
  K := PEmpty
  osem k := k.elim
  ho := Pipeline.OwnSemFacts.none _
  hbody c := (body_obligation3 (VW3 (U8 m)) c).loose
  hwaits := Pipeline.hwaits_of_owed_zero _ _ _ _ L0 lv0 3 fun _ _ => rfl
  pre c := iprop(StableHlo.held (c : Thread nD τ) (Pipeline.ucRefs τ sig) (U8 m c) ∗ Rst c)
  post c := iprop(StableHlo.held (c : Thread nD τ) (Pipeline.ucRefs τ sig) (U9 m c) ∗ Rst c)
  X c := X3 (U8 m) c
  Y c := Y3 (U8 m) c
  Z c := Z3 (U8 m) c
  hentry c := entry3 (U8 m) c
  hin c := in3 (U8 m) c
  hout c := out3 (U8 m) c
  hexit c := exit3 (U8 m) c

/-! ## Entered from, and left at, the run's valuations -/

theorem hpre0 (c : Dev nD) : iprop(StableHlo.held (c : Thread nD τ) (Pipeline.ucRefs τ sig) (Gen.V2 m c) ∗ Erest (F := F) 0 c) ⊢ (reg0 m).pre c := .rfl
theorem hpost0 (c : Dev nD) : (reg0 m).post c ⊢ iprop(StableHlo.held (c : Thread nD τ) (Pipeline.ucRefs τ sig) (Gen.V3 m (outs m) c) ∗ Erest (F := F) 1 c) := by
  rw [V3_eq]; exact .rfl
theorem hpre1 (c : Dev nD) : iprop(StableHlo.held (c : Thread nD τ) (Pipeline.ucRefs τ sig) (Gen.V4 m (outs m) c) ∗ Erest (F := F) 1 c) ⊢ (reg1 m).pre c := by
  rw [V4_eq]; exact .rfl
theorem hpost1 (c : Dev nD) : (reg1 m).post c ⊢ iprop(StableHlo.held (c : Thread nD τ) (Pipeline.ucRefs τ sig) (Gen.V5 m (outs m) c) ∗ Erest (F := F) 2 c) := by
  rw [V5_eq]; exact .rfl
theorem hpre2 (c : Dev nD) : iprop(StableHlo.held (c : Thread nD τ) (Pipeline.ucRefs τ sig) (Gen.V6 m (outs m) c) ∗ Erest (F := F) 2 c) ⊢ (reg2 m).pre c := by
  rw [V6_eq]; exact .rfl
theorem hpost2 (c : Dev nD) : (reg2 m).post c ⊢ iprop(StableHlo.held (c : Thread nD τ) (Pipeline.ucRefs τ sig) (Gen.V7 m (outs m) c) ∗ Erest (F := F) 3 c) := by
  rw [V7_eq]; exact .rfl
theorem hpre3 (c : Dev nD) : iprop(StableHlo.held (c : Thread nD τ) (Pipeline.ucRefs τ sig) (Gen.V8 m (outs m) c) ∗ Erest (F := F) 3 c) ⊢ (reg3 m).pre c := by
  rw [V8_eq]; exact .rfl
theorem hpost3 (c : Dev nD) : (reg3 m).post c ⊢ iprop(StableHlo.held (c : Thread nD τ) (Pipeline.ucRefs τ sig) (Gen.V9 m (outs m) c) ∗ Erest (F := F) 4 c) := by
  rw [V9_eq]; exact .rfl

end Cert.KernelIdeal.Reg

end
-- ==== Proof.KI.Run.lean ====
/-
  The program's run: it ends, nothing faults, every argument array ends as launched, and the two results end at
  the last valuation's contents.
-/
import proofs.«417261_j67628555043381_3_alg».proof.Proof.KI.Segs

set_option maxRecDepth 16384

noncomputable section

namespace Cert.KernelIdeal.Reg

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window RegionSeg)
open Cert.KernelIdeal Cert.KernelIdeal.Gen

variable {F : FTy → Type} [FloatOps F]
variable (m : (ℓ : Loc nD τ sig) → Buf (Elt F) ℓ)

local notation "𝕄" => MT nD τ sig Unit (Elt F) ℕ (Pipeline.UD sig nD τ) ℕ

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution from memory `m` terminates, and the final memory holds every unscoped buffer at
    the last valuation. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = Gen.V10 m (outs m) c b) :=
  run_cond m embL () Variants.none L0 lv0 (fun _ _ => rfl) ρ (outs m) (adm m) (pdats m)
    (O₀ := 0) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (E := Erest)
    (hE0 := by
      refine Pipeline.initEach L0 lv0 fun c => ?_
      iintro ⟨⟨-, HO, -, Hp, -⟩, -⟩
      imodintro
      isplitl [Hp]; · iexists _; iexact Hp
      iexists ∅; iexact HO)
    (hE4 := fun c => by iintro ⟨-, H⟩; iexact H)
    (reg0 m) (hpre0 m) (hpost0 m) (reg1 m) (hpre1 m) (hpost1 m) (reg2 m) (hpre2 m) (hpost2 m) (reg3 m) (hpre3 m) (hpost3 m)

/-- The frame: every argument array ends holding its launch contents (no item writes one). -/
theorem frame_all (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (Gen.V10_main_arg0 m (outs m) c),
     (h c _ (mem_uc main_arg1 (by decide))).trans (Gen.V10_main_arg1 m (outs m) c),
     (h c _ (mem_uc main_arg2 (by decide))).trans (Gen.V10_main_arg2 m (outs m) c),
     (h c _ (mem_uc main_arg3 (by decide))).trans (Gen.V10_main_arg3 m (outs m) c),
     (h c _ (mem_uc main_arg4 (by decide))).trans (Gen.V10_main_arg4 m (outs m) c),
     (h c _ (mem_uc main_arg5 (by decide))).trans (Gen.V10_main_arg5 m (outs m) c),
     (h c _ (mem_uc main_arg6 (by decide))).trans (Gen.V10_main_arg6 m (outs m) c),
     (h c _ (mem_uc main_arg7 (by decide))).trans (Gen.V10_main_arg7 m (outs m) c),
     (h c _ (mem_uc main_arg8 (by decide))).trans (Gen.V10_main_arg8 m (outs m) c),
     (h c _ (mem_uc main_arg9 (by decide))).trans (Gen.V10_main_arg9 m (outs m) c),
     (h c _ (mem_uc main_arg10 (by decide))).trans (Gen.V10_main_arg10 m (outs m) c),
     (h c _ (mem_uc main_arg11 (by decide))).trans (Gen.V10_main_arg11 m (outs m) c),
     (h c _ (mem_uc main_arg12 (by decide))).trans (Gen.V10_main_arg12 m (outs m) c)⟩) (run_all m ρ)

/-- The results: the logits' array and the stacked hidden rows end at the last valuation's contents, beside the frame. -/
theorem run_vals (ρ : Dev nD → PrngReg) :
    θ_run defs (onTc (τ := τ) (main (F := F))) ⟨m, fun _ => 0, ρ⟩ (fun r => ∀ c : Dev nD,
      r.2.mem ((c.tc : Thread nD τ).loc main_v17) = U10 m c main_v17
      ∧ r.2.mem ((c.tc : Thread nD τ).loc main_v20) = U10 m c main_v20
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v17 (by decide))).trans (congrFun (V10_eq m c) _),
     (h c _ (mem_uc main_v20 (by decide))).trans (congrFun (V10_eq m c) _),
     (h c _ (mem_uc main_arg0 (by decide))).trans (Gen.V10_main_arg0 m (outs m) c),
     (h c _ (mem_uc main_arg1 (by decide))).trans (Gen.V10_main_arg1 m (outs m) c),
     (h c _ (mem_uc main_arg2 (by decide))).trans (Gen.V10_main_arg2 m (outs m) c),
     (h c _ (mem_uc main_arg3 (by decide))).trans (Gen.V10_main_arg3 m (outs m) c),
     (h c _ (mem_uc main_arg4 (by decide))).trans (Gen.V10_main_arg4 m (outs m) c),
     (h c _ (mem_uc main_arg5 (by decide))).trans (Gen.V10_main_arg5 m (outs m) c),
     (h c _ (mem_uc main_arg6 (by decide))).trans (Gen.V10_main_arg6 m (outs m) c),
     (h c _ (mem_uc main_arg7 (by decide))).trans (Gen.V10_main_arg7 m (outs m) c),
     (h c _ (mem_uc main_arg8 (by decide))).trans (Gen.V10_main_arg8 m (outs m) c),
     (h c _ (mem_uc main_arg9 (by decide))).trans (Gen.V10_main_arg9 m (outs m) c),
     (h c _ (mem_uc main_arg10 (by decide))).trans (Gen.V10_main_arg10 m (outs m) c),
     (h c _ (mem_uc main_arg11 (by decide))).trans (Gen.V10_main_arg11 m (outs m) c),
     (h c _ (mem_uc main_arg12 (by decide))).trans (Gen.V10_main_arg12 m (outs m) c)⟩) (run_all m ρ)

end Cert.KernelIdeal.Reg

end
-- ==== Proof.RefLemmas.lean ====
/-
  Two scalar facts about the reference's spelling of the logistic function, over the extended reals.

  The reference has no logistic operation: at an entry with pre-activation s it negates s, exponentiates,
  adds the float literal 1.0 on the left, and divides the same literal by the sum. The float word
  0x3F800000 (sign 0, exponent field 127, fraction 0) denotes the real number one, so the four operations
  compute 1 / (1 + e^(-s)), which is the logistic function by its definition.
-/
import Idealize.ShloMosaic.PureOps.Ideal

noncomputable section

namespace Cert.ReferenceIdeal.RefSide

open Idealize.ShloMosaic

/-- The single-precision word with exponent field 127 and zero fraction denotes one. -/
theorem ofBits_f32_one : Ideal.ofBits .f32 0x3F800000#32 = (1 : EReal) := by
  simp [Ideal.ofBits, Ideal.ieee, -EReal.coe_mul]
  norm_num

/-- The same literal as the float structure's own constant. -/
theorem floatOps_ofBits_f32_one : FloatOps.ofBits (F := Ideal) .f32 0x3F800000#32 = (1 : EReal) :=
  ofBits_f32_one

/-- One over (one plus e to the minus s), with both ones spelled as the literal, is the logistic of s. -/
theorem sigmoid_printed (s : EReal) :
    Ideal.div (Ideal.ofBits .f32 0x3F800000#32) (Ideal.ofBits .f32 0x3F800000#32 + Ideal.exp (-s)) = Ideal.logistic s := by
  rw [ofBits_f32_one]
  rfl

/-- The same fact on the four host operations as an entry of the reference presents them:
    divide (literal) (add (literal) (exponential (negate s))). -/
theorem sigmoid_host (s : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf s)))
      = Ideal.logistic s :=
  sigmoid_printed s

end Cert.ReferenceIdeal.RefSide

end
-- ==== Proof.GruSpec.lean ====
/-
  What one step of the network computes, entry by entry, over the extended reals.

  A gate's pre-activation for one hidden unit is a row times a weight row plus a bias:
      pre x w b = (sum over k of x k * w k) + b.
  A GRU cell's new value for one hidden unit, from the input row x, the previous hidden row h, the unit's three
  input-side weight rows wi 0, wi 1, wi 2 and biases bi (reset, update, candidate, in that order), its three
  hidden-side ones wh, bh, and the unit's own previous value hown:
      r = sigma (pre x (wi 0) (bi 0) + pre h (wh 0) (bh 0))
      z = sigma (pre x (wi 1) (bi 1) + pre h (wh 1) (bh 1))
      n = tanh  (pre x (wi 2) (bi 2) + r * pre h (wh 2) (bh 2))
      new = (one - z) * n + z * hown,
  with sigma x = 1 / (1 + e^(-x)) and every operation the extended reals' own. The constant in (one - z) is a
  parameter: both programs carry the same float word there, and nothing depends on which number it denotes.
  A decoder entry is one more pre-activation.
-/
import Idealize.ShloMosaic.PureOps.Ideal
import Mathlib.Algebra.BigOperators.Group.Finset.Basic

noncomputable section

namespace Cert.GruSpec

open Idealize.ShloMosaic
open scoped BigOperators

/-- A row times a weight row, plus a bias. -/
def pre {n : Nat} (x w : Fin n → EReal) (b : EReal) : EReal := (∑ k, x k * w k) + b

/-- One hidden unit's new value. -/
def gruCell {n : Nat} (one : EReal) (x h : Fin n → EReal) (wi wh : Fin 3 → Fin n → EReal) (bi bh : Fin 3 → EReal)
    (hown : EReal) : EReal :=
  let r := Ideal.logistic (pre x (wi 0) (bi 0) + pre h (wh 0) (bh 0))
  let z := Ideal.logistic (pre x (wi 1) (bi 1) + pre h (wh 1) (bh 1))
  let nn := Ideal.tanh (pre x (wi 2) (bi 2) + r * pre h (wh 2) (bh 2))
  (one - z) * nn + z * hown

end Cert.GruSpec

end
-- ==== Proof.NetSpec.lean ====
/-
  The whole step over plain functions of the thirteen argument arrays.

  With `row` the embedding row looked up, the first layer's new hidden row is, unit by unit, the cell of
  GruSpec.lean applied to that embedding row, the first previous hidden row and the first layer's weights; the
  second layer's is the cell applied to the FIRST layer's new row, the second previous hidden row and the second
  layer's weights; a logit is one more pre-activation of the second layer's new row against a decoder row.
  The weights of a layer arrive as one array of 3 * 4096 rows, the reset gate's rows first, then the update
  gate's, then the candidate's: unit J's row for gate g is row g * 4096 + J.
-/
import proofs.«417261_j67628555043381_3_alg».proof.Proof.GruSpec

noncomputable section

namespace Cert.NetSpec

open Cert.GruSpec

/-- Unit `J`'s row for gate `g` in an array of three stacked 4096-row blocks. -/
def gateRow (g : Fin 3) (J : Fin 4096) : Fin 12288 := ⟨g.val * 4096 + J.val, by omega⟩

variable (one : EReal) (row : Fin 256)
  (emb : Fin 256 → Fin 4096 → EReal) (hid : Fin 2 → Fin 4096 → EReal)
  (Wih0 Whh0 : Fin 12288 → Fin 4096 → EReal) (bih0 bhh0 : Fin 12288 → EReal)
  (Wih1 Whh1 : Fin 12288 → Fin 4096 → EReal) (bih1 bhh1 : Fin 12288 → EReal)
  (Wdec : Fin 256 → Fin 4096 → EReal) (bdec : Fin 256 → EReal)

/-- A layer: the cell at every unit. -/
def layer (x h : Fin 4096 → EReal) (Wih Whh : Fin 12288 → Fin 4096 → EReal) (bih bhh : Fin 12288 → EReal) (J : Fin 4096) : EReal :=
  gruCell one x h (fun g => Wih (gateRow g J)) (fun g => Whh (gateRow g J)) (fun g => bih (gateRow g J)) (fun g => bhh (gateRow g J)) (h J)

/-- The first layer's new hidden row. -/
def h0 : Fin 4096 → EReal := layer one (emb row) (hid 0) Wih0 Whh0 bih0 bhh0
/-- The second layer's new hidden row. -/
def h1 : Fin 4096 → EReal := layer one (h0 one row emb hid Wih0 Whh0 bih0 bhh0) (hid 1) Wih1 Whh1 bih1 bhh1
/-- The logits. -/
def logits (v : Fin 256) : EReal := pre (h1 one row emb hid Wih0 Whh0 bih0 bhh0 Wih1 Whh1 bih1 bhh1) (Wdec v) (bdec v)

end Cert.NetSpec

end
-- ==== Proof.RefA.lean ====
/-
  The reference's first GRU layer, read entry by entry over the extended reals.

  The reference looks up one row of the embedding table (a gather of one row at the input word, after a wrap of
  negative indices that a nonnegative word passes through unchanged), multiplies that row against the stacked
  input-side weights and the first previous hidden row against the stacked hidden-side weights, adds the biases,
  cuts each 12288-entry row into its reset, update and candidate thirds, and combines them:
      r = sigma (i_r + h_r),   z = sigma (i_z + h_z),   n = tanh (i_n + r * h_n),   new = (1 - z) * n + z * h.
  Each statement below is one equation: a stage at entry (0, J) equals the matching piece of the shared
  specification (GruSpec.pre at row NetSpec.gateRow g J, then NetSpec.h0) over the argument arrays read as plain
  functions of their coordinates. The input word w satisfies 0 <= w < 256, given as two hypotheses on the word;
  the row looked up is then w itself. The sums and products are grouped on both sides alike, so no finiteness of
  any entry is used.
-/
import proofs.«417261_j67628555043381_3_alg».proof.Proof.Gen.ReferenceIdeal.Read
import proofs.«417261_j67628555043381_3_alg».proof.Proof.RefLemmas
import proofs.«417261_j67628555043381_3_alg».proof.Proof.NetSpec
import proofs.«417261_j67628555043381_3_alg».proof.Proof.InpRange
import Idealize.ShloMosaic.PureOps.Dims
import Idealize.ShloMosaic.PureOps.ShapeOps
import Idealize.ShloMosaic.PureOps.Ideal
import Idealize.ShloMosaic.Lib.ValueIdx
import Mathlib.Algebra.BigOperators.Group.Finset.Basic

noncomputable section

namespace Cert.ReferenceIdeal.RefSide

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-! ## Gathering one row -/

/-- The one-by-one array of start indices has one index. -/
theorem S1x1_idx (i : S1x1.Idx) : i = ix2 0 0 := by
  funext a
  match a with
  | ⟨0, _⟩ => exact Subsingleton.elim (α := Fin 1) _ _
  | ⟨1, _⟩ => exact Subsingleton.elim (α := Fin 1) _ _

/-- Gathering one row of a 256 x 4096 table: entry (t, k) of the result is the table at (r, k), r the start index
    read signed and clamped into [0, 255]. -/
theorem gather_row {α : Type} {w : Nat} (x : S256x4096.Idx → α) (idx : IVec S1x1 w) (j : S1x4096.Idx) :
    Host.gather gather_S256x4096_S1x1_S1x4096_1_0_n_n_0_1_14096 x idx j
      = x (ix2 ⟨min (idx (ix2 0 0)).toInt.toNat 255, by omega⟩ (j 1)) := by
  unfold Host.gather
  congr 1
  funext a
  refine Fin.ext ?_
  match a with
  | ⟨0, _⟩ =>
    -- the row axis: collapsed and start-indexed, so the clamped start index alone
    show gather_S256x4096_S1x1_S1x4096_1_0_n_n_0_1_14096.start j idx 0
        + gather_S256x4096_S1x1_S1x4096_1_0_n_n_0_1_14096.batchCoord j 0
        + gather_S256x4096_S1x1_S1x4096_1_0_n_n_0_1_14096.offCoord j 0 = min (idx (ix2 0 0)).toInt.toNat 255
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S256x4096_S1x1_S1x4096_1_0_n_n_0_1_14096.startIndexMap from List.mem_singleton.mpr rfl)]
    rw [S1x1_idx (gather_S256x4096_S1x1_S1x4096_1_0_n_n_0_1_14096.siIdx j _)]
    rfl
  | ⟨1, _⟩ =>
    -- the column axis: an offset axis, neither start-indexed nor batching, so the result's own column
    show gather_S256x4096_S1x1_S1x4096_1_0_n_n_0_1_14096.start j idx 1
        + gather_S256x4096_S1x1_S1x4096_1_0_n_n_0_1_14096.batchCoord j 1
        + gather_S256x4096_S1x1_S1x4096_1_0_n_n_0_1_14096.offCoord j 1 = (j 1).val
    rw [GatherDims.batchCoord_eq_zero _ _ _ List.not_mem_nil]
    unfold GatherDims.start
    rw [dif_neg (show ¬ (1 : Fin 2) ∈ gather_S256x4096_S1x1_S1x4096_1_0_n_n_0_1_14096.startIndexMap from by
      show ¬ (1 : Fin 2) ∈ [(0 : Fin 2)]
      decide)]
    unfold GatherDims.offCoord
    rw [dif_pos ((GatherDims.mem_sKept _ _).mpr ⟨by show ¬ (1 : Fin 2) ∈ [(0 : Fin 2)]; decide, List.not_mem_nil⟩)]
    simp only [Nat.zero_add]
    rfl

/-! ## The lookup -/

section Lookup

variable (a0 : (⟨S1, .i32⟩ : BufTy).Contents (Elt Ideal)) (a2 : (⟨S256x4096, .f32⟩ : BufTy).Contents (Elt Ideal))

/-- The start index the gather reads is the input word itself: a nonnegative word is not wrapped. -/
theorem ref_start_apply (h0 : (a0 (ix1 0)).slt 0#32 = false) (i : S1x1.Idx) :
    Read.val_main_v5 (F := Ideal) a0 i = a0 (ix1 0) := by
  rw [Read.val_main_v5_apply, Read.val_main_v4_apply, Read.val_main_v1_apply, Read.val_main_v3_apply,
    Read.val_main_v0_apply, Read.val_main_v2_apply, Read.val_main_c_apply, Read.val_main_c_0_apply,
    Cert.InpRange.S1_idx (Read.idx_main_v5 i)]
  exact Cert.InpRange.wrap_id_select _ h0

/-- The looked-up row: entry k of the gathered block is the table at (row, k), row the input word. -/
theorem ref_x_apply (h0 : (a0 (ix1 0)).slt 0#32 = false) (h1 : (a0 (ix1 0)).slt 256#32 = true) (k : Fin 4096) :
    Read.val_main_v6 (F := Ideal) a0 a2 (ix2 0 k)
      = a2 (ix2 (⟨(a0 (ix1 0)).toNat, Cert.InpRange.toNat_lt_256 _ h0 h1⟩ : Fin 256) k) := by
  unfold Read.val_main_v6
  rw [gather_row]
  congr 1
  funext a
  match a with
  | ⟨0, _⟩ =>
    refine Fin.ext ?_
    show min (Read.val_main_v5 (F := Ideal) a0 (ix2 0 0)).toInt.toNat 255 = (a0 (ix1 0)).toNat
    rw [ref_start_apply a0 h0]
    have hlt := Cert.InpRange.toNat_lt_256 _ h0 h1
    have hnn := (Cert.InpRange.slt_zero_eq_false _).mp h0
    rcases Cert.InpRange.toInt_split (a0 (ix1 0)) with ⟨_, e⟩ | ⟨_, e⟩ <;> omega
  | ⟨1, _⟩ => rfl

end Lookup

/-! ## The arguments as plain functions -/

/-- The embedding table, entry (r, k). -/
abbrev embF (a2 : (⟨S256x4096, .f32⟩ : BufTy).Contents (Elt Ideal)) : Fin 256 → Fin 4096 → EReal := fun r k => a2 (ix2 r k)
/-- The previous hidden rows, entry (l, k). -/
abbrev hidF (a1 : (⟨S2x1x4096, .f32⟩ : BufTy).Contents (Elt Ideal)) : Fin 2 → Fin 4096 → EReal := fun l k => a1 (ix3 l 0 k)
/-- A stacked weight array, entry (r, k). -/
abbrev matF (a : (⟨S12288x4096, .f32⟩ : BufTy).Contents (Elt Ideal)) : Fin 12288 → Fin 4096 → EReal := fun r k => a (ix2 r k)
/-- A stacked bias array, entry r. -/
abbrev vecF (a : (⟨S12288, .f32⟩ : BufTy).Contents (Elt Ideal)) : Fin 12288 → EReal := fun r => a (ix1 r)
/-- The row looked up: the input word, which the precondition bounds by 256. -/
abbrev rowF (a0 : (⟨S1, .i32⟩ : BufTy).Contents (Elt Ideal)) (h0 : (a0 (ix1 0)).slt 0#32 = false)
    (h1 : (a0 (ix1 0)).slt 256#32 = true) : Fin 256 := ⟨(a0 (ix1 0)).toNat, Cert.InpRange.toNat_lt_256 _ h0 h1⟩
/-- The literal the reference subtracts the update gate from, as the extended real its word denotes. -/
abbrev oneF : EReal := Ideal.ofBits .f32 0x3F800000#32

/-! ## The pre-activations -/

section Pre

variable (a0 : (⟨S1, .i32⟩ : BufTy).Contents (Elt Ideal)) (a1 : (⟨S2x1x4096, .f32⟩ : BufTy).Contents (Elt Ideal))
  (a2 : (⟨S256x4096, .f32⟩ : BufTy).Contents (Elt Ideal)) (a3 a4 : (⟨S12288x4096, .f32⟩ : BufTy).Contents (Elt Ideal))
  (a5 a6 : (⟨S12288, .f32⟩ : BufTy).Contents (Elt Ideal))
  (h0 : (a0 (ix1 0)).slt 0#32 = false) (h1 : (a0 (ix1 0)).slt 256#32 = true)

/-- The first previous hidden row: entry k of the reshaped slice is the hidden array at (0, 0, k). -/
theorem ref_hprev_apply (k : Fin 4096) : Read.val_main_v8 (F := Ideal) a1 (ix2 0 k) = hidF a1 0 k := by
  rw [Read.val_main_v8_apply, Read.val_main_v7_apply]
  show a1 _ = a1 (ix3 0 0 k)
  congr 1
  funext a
  match a with
  | ⟨0, _⟩ => rfl
  | ⟨1, _⟩ => rfl
  | ⟨2, _⟩ => exact Fin.ext (by show (0 * 4096 + k.val) % 4096 = k.val; omega)

/-- Entry c of the input-side row gi = x W_ih^T + b_ih: the looked-up row against weight row c, plus bias c. -/
theorem ref_gi_apply (c : Fin 12288) :
    Read.val_main_v12 (F := Ideal) a0 a2 a3 a5 (ix2 0 c)
      = Cert.GruSpec.pre (embF a2 (rowF a0 h0 h1)) (matF a3 c) (vecF a5 c) := by
  rw [Read.val_main_v12_apply, Read.val_main_v10_apply, Read.val_main_v11_apply, Ideal.addf_def]
  show _ = (∑ k, a2 (ix2 (rowF a0 h0 h1) k) * a3 (ix2 c k)) + a5 (ix1 c)
  congr 1
  · refine Finset.sum_congr rfl fun k _ => ?_
    rw [show Read.lidx_main_v10 (ix2 0 c) k = ix2 0 k from funext fun a => match a with | ⟨0, _⟩ => rfl | ⟨1, _⟩ => rfl,
      ref_x_apply a0 a2 h0 h1, Read.val_main_v9_apply,
      show Read.idx_main_v9 (Read.ridx_main_v10 (ix2 0 c) k) = ix2 c k from
        funext fun a => match a with | ⟨0, _⟩ => rfl | ⟨1, _⟩ => rfl]
  · exact congrArg a5 (funext fun a => match a with | ⟨0, _⟩ => rfl)

/-- Entry c of the hidden-side row gh = h W_hh^T + b_hh: the previous hidden row against weight row c, plus bias c. -/
theorem ref_gh_apply (c : Fin 12288) :
    Read.val_main_v16 (F := Ideal) a1 a4 a6 (ix2 0 c) = Cert.GruSpec.pre (hidF a1 0) (matF a4 c) (vecF a6 c) := by
  rw [Read.val_main_v16_apply, Read.val_main_v14_apply, Read.val_main_v15_apply, Ideal.addf_def]
  show _ = (∑ k, a1 (ix3 0 0 k) * a4 (ix2 c k)) + a6 (ix1 c)
  congr 1
  · refine Finset.sum_congr rfl fun k _ => ?_
    rw [show Read.lidx_main_v14 (ix2 0 c) k = ix2 0 k from funext fun a => match a with | ⟨0, _⟩ => rfl | ⟨1, _⟩ => rfl,
      ref_hprev_apply a1, Read.val_main_v13_apply,
      show Read.idx_main_v13 (Read.ridx_main_v14 (ix2 0 c) k) = ix2 c k from
        funext fun a => match a with | ⟨0, _⟩ => rfl | ⟨1, _⟩ => rfl]
  · exact congrArg a6 (funext fun a => match a with | ⟨0, _⟩ => rfl)

end Pre

/-! ## The three gate slices of each row

Entry J of slice g (columns g * 4096 … g * 4096 + 4095) is entry g * 4096 + J of the sliced row. -/

section Gates

variable (a0 : (⟨S1, .i32⟩ : BufTy).Contents (Elt Ideal)) (a1 : (⟨S2x1x4096, .f32⟩ : BufTy).Contents (Elt Ideal))
  (a2 : (⟨S256x4096, .f32⟩ : BufTy).Contents (Elt Ideal)) (a3 a4 : (⟨S12288x4096, .f32⟩ : BufTy).Contents (Elt Ideal))
  (a5 a6 : (⟨S12288, .f32⟩ : BufTy).Contents (Elt Ideal))
  (h0 : (a0 (ix1 0)).slt 0#32 = false) (h1 : (a0 (ix1 0)).slt 256#32 = true)

/-- An input-side gate's pre-activation for unit J, as the specification writes it. -/
abbrev preI (g : Fin 3) (J : Fin 4096) : EReal :=
  Cert.GruSpec.pre (embF a2 (rowF a0 h0 h1)) (matF a3 (Cert.NetSpec.gateRow g J)) (vecF a5 (Cert.NetSpec.gateRow g J))
/-- A hidden-side gate's pre-activation for unit J. -/
abbrev preH (g : Fin 3) (J : Fin 4096) : EReal :=
  Cert.GruSpec.pre (hidF a1 0) (matF a4 (Cert.NetSpec.gateRow g J)) (vecF a6 (Cert.NetSpec.gateRow g J))

theorem ref_ir_apply (J : Fin 4096) : Read.val_main_v17 (F := Ideal) a0 a2 a3 a5 (ix2 0 J) = preI a0 a2 a3 a5 h0 h1 0 J := by
  rw [Read.val_main_v17_apply,
    show Read.idx_main_v17 (ix2 0 J) = ix2 0 (Cert.NetSpec.gateRow 0 J) from funext fun a => match a with
      | ⟨0, _⟩ => rfl
      | ⟨1, _⟩ => Fin.ext (by show J.val = 0 * 4096 + J.val; omega),
    ref_gi_apply a0 a2 a3 a5 h0 h1]

theorem ref_iz_apply (J : Fin 4096) : Read.val_main_v18 (F := Ideal) a0 a2 a3 a5 (ix2 0 J) = preI a0 a2 a3 a5 h0 h1 1 J := by
  rw [Read.val_main_v18_apply,
    show Read.idx_main_v18 (ix2 0 J) = ix2 0 (Cert.NetSpec.gateRow 1 J) from funext fun a => match a with
      | ⟨0, _⟩ => rfl
      | ⟨1, _⟩ => Fin.ext (by show 4096 + J.val = 1 * 4096 + J.val; omega),
    ref_gi_apply a0 a2 a3 a5 h0 h1]

theorem ref_in_apply (J : Fin 4096) : Read.val_main_v19 (F := Ideal) a0 a2 a3 a5 (ix2 0 J) = preI a0 a2 a3 a5 h0 h1 2 J := by
  rw [Read.val_main_v19_apply,
    show Read.idx_main_v19 (ix2 0 J) = ix2 0 (Cert.NetSpec.gateRow 2 J) from funext fun a => match a with
      | ⟨0, _⟩ => rfl
      | ⟨1, _⟩ => Fin.ext (by show 8192 + J.val = 2 * 4096 + J.val; omega),
    ref_gi_apply a0 a2 a3 a5 h0 h1]

theorem ref_hr_apply (J : Fin 4096) : Read.val_main_v20 (F := Ideal) a1 a4 a6 (ix2 0 J) = preH a1 a4 a6 0 J := by
  rw [Read.val_main_v20_apply,
    show Read.idx_main_v20 (ix2 0 J) = ix2 0 (Cert.NetSpec.gateRow 0 J) from funext fun a => match a with
      | ⟨0, _⟩ => rfl
      | ⟨1, _⟩ => Fin.ext (by show J.val = 0 * 4096 + J.val; omega),
    ref_gh_apply a1 a4 a6]

theorem ref_hz_apply (J : Fin 4096) : Read.val_main_v21 (F := Ideal) a1 a4 a6 (ix2 0 J) = preH a1 a4 a6 1 J := by
  rw [Read.val_main_v21_apply,
    show Read.idx_main_v21 (ix2 0 J) = ix2 0 (Cert.NetSpec.gateRow 1 J) from funext fun a => match a with
      | ⟨0, _⟩ => rfl
      | ⟨1, _⟩ => Fin.ext (by show 4096 + J.val = 1 * 4096 + J.val; omega),
    ref_gh_apply a1 a4 a6]

theorem ref_hn_apply (J : Fin 4096) : Read.val_main_v22 (F := Ideal) a1 a4 a6 (ix2 0 J) = preH a1 a4 a6 2 J := by
  rw [Read.val_main_v22_apply,
    show Read.idx_main_v22 (ix2 0 J) = ix2 0 (Cert.NetSpec.gateRow 2 J) from funext fun a => match a with
      | ⟨0, _⟩ => rfl
      | ⟨1, _⟩ => Fin.ext (by show 8192 + J.val = 2 * 4096 + J.val; omega),
    ref_gh_apply a1 a4 a6]

/-! ## The gates and the new hidden value -/

/-- The reset gate: negate, exponential, add one, divide one, of i_r + h_r, is the logistic of that sum. -/
theorem ref_r_apply (J : Fin 4096) :
    Read.val_main_v29 (F := Ideal) a0 a1 a2 a3 a4 a5 a6 (ix2 0 J)
      = Ideal.logistic (preI a0 a2 a3 a5 h0 h1 0 J + preH a1 a4 a6 0 J) := by
  rw [Read.val_main_v29_apply, Read.val_main_v28_apply, Read.val_main_cst_1_apply, Read.val_main_v27_apply,
    Read.val_main_v26_apply, Read.val_main_cst_apply, Read.val_main_v25_apply, Read.val_main_v24_apply, sigmoid_host,
    Read.val_main_v23_apply, ref_ir_apply a0 a2 a3 a5 h0 h1, ref_hr_apply a1 a4 a6, Ideal.addf_def]

/-- The update gate, the same four operations of i_z + h_z. -/
theorem ref_z_apply (J : Fin 4096) :
    Read.val_main_v36 (F := Ideal) a0 a1 a2 a3 a4 a5 a6 (ix2 0 J)
      = Ideal.logistic (preI a0 a2 a3 a5 h0 h1 1 J + preH a1 a4 a6 1 J) := by
  rw [Read.val_main_v36_apply, Read.val_main_v35_apply, Read.val_main_cst_3_apply, Read.val_main_v34_apply,
    Read.val_main_v33_apply, Read.val_main_cst_2_apply, Read.val_main_v32_apply, Read.val_main_v31_apply, sigmoid_host,
    Read.val_main_v30_apply, ref_iz_apply a0 a2 a3 a5 h0 h1, ref_hz_apply a1 a4 a6, Ideal.addf_def]

/-- The candidate: tanh of i_n + r * h_n. -/
theorem ref_n_apply (J : Fin 4096) :
    Read.val_main_v39 (F := Ideal) a0 a1 a2 a3 a4 a5 a6 (ix2 0 J)
      = Ideal.tanh (preI a0 a2 a3 a5 h0 h1 2 J
          + Ideal.logistic (preI a0 a2 a3 a5 h0 h1 0 J + preH a1 a4 a6 0 J) * preH a1 a4 a6 2 J) := by
  rw [Read.val_main_v39_apply, Read.val_main_v38_apply, Read.val_main_v37_apply, ref_r_apply a0 a1 a2 a3 a4 a5 a6 h0 h1,
    ref_in_apply a0 a2 a3 a5 h0 h1, ref_hn_apply a1 a4 a6, Ideal.hostUnary_tanh_def, Ideal.addf_def, Ideal.mulf_def]

/-- THE FIRST LAYER. Entry J of the first cell's last sum, (1 - z) * n + z * h, is the specification's first
    layer at unit J, over the arguments read as plain functions; the literal subtracted from is left as its word. -/
theorem ref_h0_apply (J : Fin 4096) :
    Read.val_main_v44 (F := Ideal) a0 a1 a2 a3 a4 a5 a6 (ix2 0 J)
      = Cert.NetSpec.h0 oneF (rowF a0 h0 h1) (embF a2) (hidF a1) (matF a3) (matF a4) (vecF a5) (vecF a6) J := by
  rw [Read.val_main_v44_apply, Read.val_main_v42_apply, Read.val_main_v43_apply, Read.val_main_v41_apply,
    Read.val_main_v40_apply, Read.val_main_cst_4_apply, ref_z_apply a0 a1 a2 a3 a4 a5 a6 h0 h1,
    ref_n_apply a0 a1 a2 a3 a4 a5 a6 h0 h1, ref_hprev_apply a1, Ideal.addf_def, Ideal.mulf_def, Ideal.mulf_def,
    Ideal.subf_def, Ideal.ofBits_def]
  rfl

end Gates

end Cert.ReferenceIdeal.RefSide

end
-- ==== Proof.RefB.lean ====
/-
  The reference's second GRU layer, its decoder and the stack of the two new hidden rows, read entry by entry,
  with the first layer's new hidden row as a parameter.

  Let x be the first layer's new row (the stage feeding the second cell's input-side product and stacked first at
  the end). The second cell multiplies x by the transposed input-side weights and adds the bias, multiplies the
  second previous hidden row by the transposed hidden-side weights and adds that bias, and cuts each [1, 3·4096]
  row into the reset, update and candidate blocks: block g at column J is column g·4096 + J. Entry (0, R) of
  either affine map is one pre-activation: the sum over k of the row at k times weight row R at k, plus bias R.
  The reset and update gates are spelled as literal 1.0 divided by (literal 1.0 plus e to the minus s), which is
  the logistic of s; the candidate is tanh of the input-side candidate pre-activation plus the reset gate times
  the hidden-side one; the new value is (literal 1.0 minus update) times candidate plus update times the unit's
  previous value. That is the specification's layer with its constant read as the same literal. A logit is one
  more pre-activation of the new row against a decoder row; the stacked result at layer l is x for l = 0 and the
  second layer's new row for l = 1, each piece of the concatenation being one [1, 1, 4096] block.
-/
import proofs.«417261_j67628555043381_3_alg».proof.Proof.Gen.ReferenceIdeal.Run
import proofs.«417261_j67628555043381_3_alg».proof.Proof.Gen.ReferenceIdeal.Read
import proofs.«417261_j67628555043381_3_alg».proof.Proof.GruSpec
import proofs.«417261_j67628555043381_3_alg».proof.Proof.NetSpec
import proofs.«417261_j67628555043381_3_alg».proof.Proof.RefLemmas
import Idealize.ShloMosaic.Lib.Pipeline.Value
import Idealize.ShloMosaic.Lib.ValueIdx
import Idealize.ShloMosaic.PureOps.Ideal

noncomputable section

namespace Cert.ReferenceIdeal.RefSide

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

variable (a0 : (⟨S1, .i32⟩ : BufTy).Contents (Elt Ideal)) (a1 : (⟨S2x1x4096, .f32⟩ : BufTy).Contents (Elt Ideal))
  (a2 : (⟨S256x4096, .f32⟩ : BufTy).Contents (Elt Ideal)) (a3 a4 : (⟨S12288x4096, .f32⟩ : BufTy).Contents (Elt Ideal))
  (a5 a6 : (⟨S12288, .f32⟩ : BufTy).Contents (Elt Ideal)) (a7 a8 : (⟨S12288x4096, .f32⟩ : BufTy).Contents (Elt Ideal))
  (a9 a10 : (⟨S12288, .f32⟩ : BufTy).Contents (Elt Ideal)) (a11 : (⟨S256x4096, .f32⟩ : BufTy).Contents (Elt Ideal))
  (a12 : (⟨S256, .f32⟩ : BufTy).Contents (Elt Ideal))

/-! ## Where each stage reads its operands: the composed index functions at a row-0 index -/

/-- Entry (0, R) of the input-side product sums over k the first layer's row at (0, k) … -/
theorem lidx48_row (R : Fin 12288) (k : Fin 4096) : lidx_main_v48 (ix2 (0 : Fin 1) R) k = ix2 (0 : Fin 1) k :=
  funext fun a => Fin.ext (by match a with | ⟨0, _⟩ => rfl | ⟨1, _⟩ => rfl)
/-- … times the transposed weight at (k, R), which is the weight array at (R, k). -/
theorem ridx48_row (R : Fin 12288) (k : Fin 4096) : idx_main_v47 (ridx_main_v48 (ix2 (0 : Fin 1) R) k) = ix2 R k :=
  funext fun a => Fin.ext (by match a with | ⟨0, _⟩ => rfl | ⟨1, _⟩ => rfl)
/-- The broadcast bias at (0, R) is the bias at R. -/
theorem idx49_row (R : Fin 12288) : idx_main_v49 (ix2 (0 : Fin 1) R) = ix1 R :=
  funext fun a => Fin.ext (by match a with | ⟨0, _⟩ => rfl)
/-- The hidden-side product reads the second previous hidden row at (0, k) … -/
theorem lidx52_row (R : Fin 12288) (k : Fin 4096) : lidx_main_v52 (ix2 (0 : Fin 1) R) k = ix2 (0 : Fin 1) k :=
  funext fun a => Fin.ext (by match a with | ⟨0, _⟩ => rfl | ⟨1, _⟩ => rfl)
/-- … and its transposed weight at (k, R), the weight array at (R, k). -/
theorem ridx52_row (R : Fin 12288) (k : Fin 4096) : idx_main_v51 (ridx_main_v52 (ix2 (0 : Fin 1) R) k) = ix2 R k :=
  funext fun a => Fin.ext (by match a with | ⟨0, _⟩ => rfl | ⟨1, _⟩ => rfl)
/-- Its broadcast bias at (0, R) is the bias at R. -/
theorem idx53_row (R : Fin 12288) : idx_main_v53 (ix2 (0 : Fin 1) R) = ix1 R :=
  funext fun a => Fin.ext (by match a with | ⟨0, _⟩ => rfl)
/-- The second previous hidden row: slice [1:2] of the hidden array, reshaped to one row. -/
theorem idx46_row (k : Fin 4096) : idx_main_v45 (idx_main_v46 (ix2 (0 : Fin 1) k)) = ix3 (1 : Fin 2) (0 : Fin 1) k :=
  funext fun a => Fin.ext (by
    match a with
    | ⟨0, _⟩ => rfl
    | ⟨1, _⟩ => rfl
    | ⟨2, _⟩ => have hk := k.isLt; show (0 * 4096 + k.val) % 4096 = k.val; omega)

/-- The three column blocks of a [1, 3·4096] row: block g at column J is column g·4096 + J. -/
theorem idx55_row (J : Fin 4096) : idx_main_v55 (ix2 (0 : Fin 1) J) = ix2 (0 : Fin 1) (Cert.NetSpec.gateRow 0 J) :=
  funext fun a => Fin.ext (by
    match a with
    | ⟨0, _⟩ => rfl
    | ⟨1, _⟩ => show J.val = 0 * 4096 + J.val; omega)
/-- The update block of the input-side row. -/
theorem idx56_row (J : Fin 4096) : idx_main_v56 (ix2 (0 : Fin 1) J) = ix2 (0 : Fin 1) (Cert.NetSpec.gateRow 1 J) :=
  funext fun a => Fin.ext (by
    match a with
    | ⟨0, _⟩ => rfl
    | ⟨1, _⟩ => show 4096 + J.val = 1 * 4096 + J.val; omega)
/-- The candidate block of the input-side row. -/
theorem idx57_row (J : Fin 4096) : idx_main_v57 (ix2 (0 : Fin 1) J) = ix2 (0 : Fin 1) (Cert.NetSpec.gateRow 2 J) :=
  funext fun a => Fin.ext (by
    match a with
    | ⟨0, _⟩ => rfl
    | ⟨1, _⟩ => show 8192 + J.val = 2 * 4096 + J.val; omega)
/-- The reset block of the hidden-side row. -/
theorem idx58_row (J : Fin 4096) : idx_main_v58 (ix2 (0 : Fin 1) J) = ix2 (0 : Fin 1) (Cert.NetSpec.gateRow 0 J) :=
  funext fun a => Fin.ext (by
    match a with
    | ⟨0, _⟩ => rfl
    | ⟨1, _⟩ => show J.val = 0 * 4096 + J.val; omega)
/-- The update block of the hidden-side row. -/
theorem idx59_row (J : Fin 4096) : idx_main_v59 (ix2 (0 : Fin 1) J) = ix2 (0 : Fin 1) (Cert.NetSpec.gateRow 1 J) :=
  funext fun a => Fin.ext (by
    match a with
    | ⟨0, _⟩ => rfl
    | ⟨1, _⟩ => show 4096 + J.val = 1 * 4096 + J.val; omega)
/-- The candidate block of the hidden-side row. -/
theorem idx60_row (J : Fin 4096) : idx_main_v60 (ix2 (0 : Fin 1) J) = ix2 (0 : Fin 1) (Cert.NetSpec.gateRow 2 J) :=
  funext fun a => Fin.ext (by
    match a with
    | ⟨0, _⟩ => rfl
    | ⟨1, _⟩ => show 8192 + J.val = 2 * 4096 + J.val; omega)

/-! ## The second layer's six pre-activations -/

/-- The second previous hidden row at k. -/
theorem hid1_apply (k : Fin 4096) : val_main_v46 (F := Ideal) a1 (ix2 0 k) = a1 (ix3 1 0 k) := by
  rw [val_main_v46_apply, val_main_v45_apply, idx46_row]

/-- Row R of the input-side affine map: the first layer's new row against weight row R, plus bias R. -/
theorem gi1_apply (x : Fin 4096 → EReal)
    (hH : ∀ J : Fin 4096, val_main_v44 (F := Ideal) a0 a1 a2 a3 a4 a5 a6 (ix2 0 J) = x J) (R : Fin 12288) :
    val_main_v50 (F := Ideal) a0 a1 a2 a3 a4 a5 a6 a7 a9 (ix2 0 R)
      = Cert.GruSpec.pre x (fun k => a7 (ix2 R k)) (a9 (ix1 R)) := by
  rw [val_main_v50_apply, val_main_v48_apply, val_main_v49_apply]
  simp only [val_main_v47_apply, lidx48_row, ridx48_row, idx49_row, hH, Ideal.addf_def, Cert.GruSpec.pre]

/-- Row R of the hidden-side affine map: the second previous hidden row against weight row R, plus bias R. -/
theorem gh1_apply (R : Fin 12288) :
    val_main_v54 (F := Ideal) a1 a8 a10 (ix2 0 R)
      = Cert.GruSpec.pre (fun k => a1 (ix3 1 0 k)) (fun k => a8 (ix2 R k)) (a10 (ix1 R)) := by
  rw [val_main_v54_apply, val_main_v52_apply, val_main_v53_apply]
  simp only [val_main_v51_apply, lidx52_row, ridx52_row, idx53_row, hid1_apply, Ideal.addf_def, Cert.GruSpec.pre]

/-! ## The gates, the candidate, the new value -/

section Cell
variable (x : Fin 4096 → EReal)
  (hH : ∀ J : Fin 4096, val_main_v44 (F := Ideal) a0 a1 a2 a3 a4 a5 a6 (ix2 0 J) = x J)
include hH

/-- The reset gate of unit J: the logistic of the sum of the two reset pre-activations. -/
theorem reset1_apply (J : Fin 4096) :
    val_main_v67 (F := Ideal) a0 a1 a2 a3 a4 a5 a6 a7 a8 a9 a10 (ix2 0 J)
      = Ideal.logistic (Cert.GruSpec.pre x (fun k => a7 (ix2 (Cert.NetSpec.gateRow 0 J) k)) (a9 (ix1 (Cert.NetSpec.gateRow 0 J)))
          + Cert.GruSpec.pre (fun k => a1 (ix3 1 0 k)) (fun k => a8 (ix2 (Cert.NetSpec.gateRow 0 J) k)) (a10 (ix1 (Cert.NetSpec.gateRow 0 J)))) := by
  rw [val_main_v67_apply, val_main_v66_apply, val_main_cst_6_apply, val_main_v65_apply, val_main_v64_apply, val_main_cst_5_apply,
    val_main_v63_apply, val_main_v62_apply, sigmoid_host, val_main_v61_apply, val_main_v55_apply, val_main_v58_apply,
    idx55_row, idx58_row, gi1_apply a0 a1 a2 a3 a4 a5 a6 a7 a9 x hH, gh1_apply, Ideal.addf_def]

/-- The update gate of unit J. -/
theorem update1_apply (J : Fin 4096) :
    val_main_v74 (F := Ideal) a0 a1 a2 a3 a4 a5 a6 a7 a8 a9 a10 (ix2 0 J)
      = Ideal.logistic (Cert.GruSpec.pre x (fun k => a7 (ix2 (Cert.NetSpec.gateRow 1 J) k)) (a9 (ix1 (Cert.NetSpec.gateRow 1 J)))
          + Cert.GruSpec.pre (fun k => a1 (ix3 1 0 k)) (fun k => a8 (ix2 (Cert.NetSpec.gateRow 1 J) k)) (a10 (ix1 (Cert.NetSpec.gateRow 1 J)))) := by
  rw [val_main_v74_apply, val_main_v73_apply, val_main_cst_8_apply, val_main_v72_apply, val_main_v71_apply, val_main_cst_7_apply,
    val_main_v70_apply, val_main_v69_apply, sigmoid_host, val_main_v68_apply, val_main_v56_apply, val_main_v59_apply,
    idx56_row, idx59_row, gi1_apply a0 a1 a2 a3 a4 a5 a6 a7 a9 x hH, gh1_apply, Ideal.addf_def]

/-- The candidate of unit J: tanh of the input-side candidate pre-activation plus the reset gate times the hidden-side one. -/
theorem cand1_apply (J : Fin 4096) :
    val_main_v77 (F := Ideal) a0 a1 a2 a3 a4 a5 a6 a7 a8 a9 a10 (ix2 0 J)
      = Ideal.tanh (Cert.GruSpec.pre x (fun k => a7 (ix2 (Cert.NetSpec.gateRow 2 J) k)) (a9 (ix1 (Cert.NetSpec.gateRow 2 J)))
          + val_main_v67 (F := Ideal) a0 a1 a2 a3 a4 a5 a6 a7 a8 a9 a10 (ix2 0 J)
            * Cert.GruSpec.pre (fun k => a1 (ix3 1 0 k)) (fun k => a8 (ix2 (Cert.NetSpec.gateRow 2 J) k)) (a10 (ix1 (Cert.NetSpec.gateRow 2 J)))) := by
  rw [val_main_v77_apply, val_main_v76_apply, val_main_v75_apply, val_main_v57_apply, val_main_v60_apply,
    idx57_row, idx60_row, gi1_apply a0 a1 a2 a3 a4 a5 a6 a7 a9 x hH, gh1_apply,
    Ideal.hostUnary_tanh_def, Ideal.addf_def, Ideal.mulf_def]

/-- The second cell's result at unit J is the specification's layer over the first layer's row. -/
theorem ref_h1_apply (J : Fin 4096) :
    val_main_v82 (F := Ideal) a0 a1 a2 a3 a4 a5 a6 a7 a8 a9 a10 (ix2 0 J)
      = Cert.NetSpec.layer (Ideal.ofBits .f32 0x3F800000#32) x (fun k => a1 (ix3 1 0 k))
          (fun r k => a7 (ix2 r k)) (fun r k => a8 (ix2 r k)) (fun r => a9 (ix1 r)) (fun r => a10 (ix1 r)) J := by
  rw [val_main_v82_apply, val_main_v80_apply, val_main_v81_apply, val_main_v79_apply, val_main_v78_apply, val_main_cst_9_apply,
    cand1_apply a0 a1 a2 a3 a4 a5 a6 a7 a8 a9 a10 x hH, reset1_apply a0 a1 a2 a3 a4 a5 a6 a7 a8 a9 a10 x hH,
    update1_apply a0 a1 a2 a3 a4 a5 a6 a7 a8 a9 a10 x hH, hid1_apply]
  rfl

end Cell

/-! ## The decoder -/

/-- Logit v sums over k the new row at (0, k) … -/
theorem lidx84_row (v : Fin 256) (k : Fin 4096) : lidx_main_v84 (ix2 (0 : Fin 1) v) k = ix2 (0 : Fin 1) k :=
  funext fun a => Fin.ext (by match a with | ⟨0, _⟩ => rfl | ⟨1, _⟩ => rfl)
/-- … times the transposed decoder weight at (k, v), the decoder array at (v, k). -/
theorem ridx84_row (v : Fin 256) (k : Fin 4096) : idx_main_v83 (ridx_main_v84 (ix2 (0 : Fin 1) v) k) = ix2 v k :=
  funext fun a => Fin.ext (by match a with | ⟨0, _⟩ => rfl | ⟨1, _⟩ => rfl)
/-- The broadcast decoder bias at (0, v) is the bias at v. -/
theorem idx85_row (v : Fin 256) : idx_main_v85 (ix2 (0 : Fin 1) v) = ix1 v :=
  funext fun a => Fin.ext (by match a with | ⟨0, _⟩ => rfl)

/-- Logit v: the second layer's new row against decoder row v, plus decoder bias v. -/
theorem ref_logits_apply (x : Fin 4096 → EReal)
    (hH : ∀ J : Fin 4096, val_main_v44 (F := Ideal) a0 a1 a2 a3 a4 a5 a6 (ix2 0 J) = x J) (v : Fin 256) :
    val_main_v86 (F := Ideal) a0 a1 a2 a3 a4 a5 a6 a7 a8 a9 a10 a11 a12 (ix2 0 v)
      = Cert.GruSpec.pre (fun J => Cert.NetSpec.layer (Ideal.ofBits .f32 0x3F800000#32) x (fun k => a1 (ix3 1 0 k))
          (fun r k => a7 (ix2 r k)) (fun r k => a8 (ix2 r k)) (fun r => a9 (ix1 r)) (fun r => a10 (ix1 r)) J)
          (fun k => a11 (ix2 v k)) (a12 (ix1 v)) := by
  rw [val_main_v86_apply, val_main_v84_apply, val_main_v85_apply]
  simp only [val_main_v83_apply, lidx84_row, ridx84_row, idx85_row, ref_h1_apply a0 a1 a2 a3 a4 a5 a6 a7 a8 a9 a10 x hH,
    Ideal.addf_def, Cert.GruSpec.pre]

/-! ## The stack of the two new hidden rows -/

/-- A row lifted to a [1, 1, 4096] block: entry (0, 0, J) is the row's entry (0, J). -/
theorem idx87_row (J : Fin 4096) : idx_main_v87 (ix3 (0 : Fin 1) (0 : Fin 1) J) = ix2 (0 : Fin 1) J :=
  funext fun a => Fin.ext (by match a with | ⟨0, _⟩ => rfl | ⟨1, _⟩ => rfl)
theorem idx88_row (J : Fin 4096) : idx_main_v88 (ix3 (0 : Fin 1) (0 : Fin 1) J) = ix2 (0 : Fin 1) J :=
  funext fun a => Fin.ext (by match a with | ⟨0, _⟩ => rfl | ⟨1, _⟩ => rfl)

/-- Layer l of the stacked result: the first layer's new row for l = 0, the second layer's for l = 1. -/
theorem ref_stack_apply (x : Fin 4096 → EReal)
    (hH : ∀ J : Fin 4096, val_main_v44 (F := Ideal) a0 a1 a2 a3 a4 a5 a6 (ix2 0 J) = x J) (l : Fin 2) (J : Fin 4096) :
    val_main_v89 (F := Ideal) a0 a1 a2 a3 a4 a5 a6 a7 a8 a9 a10 (ix3 l 0 J)
      = if l = 0 then x J else Cert.NetSpec.layer (Ideal.ofBits .f32 0x3F800000#32) x (fun k => a1 (ix3 1 0 k))
          (fun r k => a7 (ix2 r k)) (fun r k => a8 (ix2 r k)) (fun r => a9 (ix1 r)) (fun r => a10 (ix1 r)) J := by
  unfold val_main_v89
  by_cases hl : l = 0
  · subst hl
    rw [if_pos rfl]
    refine (concatenate_pair_apply_left (t := S2x1x4096) (s₁ := S1x1x4096) (s₂ := S1x1x4096) (0 : Fin 3) _ _ concatenates_S1x1x4096_S1x1x4096_S2x1x4096_d0 (ix3 (0 : Fin 2) (0 : Fin 1) J) rfl
      (ix3 (0 : Fin 1) (0 : Fin 1) J) (fun b => by match b with | ⟨0, _⟩ => rfl | ⟨1, _⟩ => rfl | ⟨2, _⟩ => rfl)).trans ?_
    rw [val_main_v87_apply, idx87_row, hH]
  · have h1 : l = 1 := Fin.ext (by have := l.isLt; have : l.val ≠ 0 := fun h => hl (Fin.ext h); show l.val = 1; omega)
    subst h1
    rw [if_neg hl]
    refine (concatenate_pair_apply_right (t := S2x1x4096) (s₁ := S1x1x4096) (s₂ := S1x1x4096) (0 : Fin 3) _ _ concatenates_S1x1x4096_S1x1x4096_S2x1x4096_d0 (ix3 (1 : Fin 2) (0 : Fin 1) J) rfl rfl
      (ix3 (0 : Fin 1) (0 : Fin 1) J)
      (fun b hb => by match b, hb with | ⟨0, _⟩, hb => exact absurd rfl hb | ⟨1, _⟩, _ => rfl | ⟨2, _⟩, _ => rfl) rfl).trans ?_
    rw [val_main_v88_apply, idx88_row, ref_h1_apply a0 a1 a2 a3 a4 a5 a6 a7 a8 a9 a10 x hH]

/-! ## The run's two result terms are these stages -/

section Run
variable (m : (ℓ : Loc nD τ sig) → Buf (Elt Ideal) ℓ) (c : Dev nD)

/-- The run's first result is the logits stage of the thirteen argument arrays as the memory holds them. -/
theorem res_logits_eq :
    Cert.ReferenceIdeal.Value.res_main_v86 m c = val_main_v86 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  val_main_v86_eq m c

/-- The run's second result is the stack stage of the first eleven argument arrays as the memory holds them. -/
theorem res_stack_eq :
    Cert.ReferenceIdeal.Value.res_main_v89 m c = val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  val_main_v89_eq m c

end Run

end Cert.ReferenceIdeal.RefSide

end
-- ==== Proof.BridgeRef.lean ====
/-
  The reference's two results as the shared specification of its arguments: the first layer's lemma fed into the
  lemmas for the second layer, the decoder and the stack.
-/
import proofs.«417261_j67628555043381_3_alg».proof.Proof.RefA
import proofs.«417261_j67628555043381_3_alg».proof.Proof.RefB

noncomputable section

namespace Cert.Bridge

open Idealize.ShloMosaic Idealize.ShloMosaic.ValueIdx
open Cert.ReferenceIdeal Cert.ReferenceIdeal.RefSide

section
variable (a0 : (⟨S1, .i32⟩ : BufTy).Contents (Elt Ideal)) (a1 : (⟨S2x1x4096, .f32⟩ : BufTy).Contents (Elt Ideal))
  (a2 : (⟨S256x4096, .f32⟩ : BufTy).Contents (Elt Ideal))
  (a3 a4 : (⟨S12288x4096, .f32⟩ : BufTy).Contents (Elt Ideal)) (a5 a6 : (⟨S12288, .f32⟩ : BufTy).Contents (Elt Ideal))
  (a7 a8 : (⟨S12288x4096, .f32⟩ : BufTy).Contents (Elt Ideal)) (a9 a10 : (⟨S12288, .f32⟩ : BufTy).Contents (Elt Ideal))
  (a11 : (⟨S256x4096, .f32⟩ : BufTy).Contents (Elt Ideal)) (a12 : (⟨S256, .f32⟩ : BufTy).Contents (Elt Ideal))
  (h0 : (a0 (ix1 0)).slt 0#32 = false) (h1 : (a0 (ix1 0)).slt 256#32 = true)

/-- The reference's logits. -/
theorem ref_logits (v : Fin 256) :
    Read.val_main_v86 (F := Ideal) a0 a1 a2 a3 a4 a5 a6 a7 a8 a9 a10 a11 a12 (ix2 0 v)
      = Cert.NetSpec.logits oneF (rowF a0 h0 h1) (embF a2) (hidF a1) (matF a3) (matF a4) (vecF a5) (vecF a6)
          (matF a7) (matF a8) (vecF a9) (vecF a10) (embF a11) (fun r => a12 (ix1 r)) v :=
  ref_logits_apply a0 a1 a2 a3 a4 a5 a6 a7 a8 a9 a10 a11 a12 _ (fun J => ref_h0_apply a0 a1 a2 a3 a4 a5 a6 h0 h1 J) v

/-- The reference's stacked hidden rows. -/
theorem ref_stack (l : Fin 2) (J : Fin 4096) :
    Read.val_main_v89 (F := Ideal) a0 a1 a2 a3 a4 a5 a6 a7 a8 a9 a10 (ix3 l 0 J)
      = if l = 0 then Cert.NetSpec.h0 oneF (rowF a0 h0 h1) (embF a2) (hidF a1) (matF a3) (matF a4) (vecF a5) (vecF a6) J
        else Cert.NetSpec.h1 oneF (rowF a0 h0 h1) (embF a2) (hidF a1) (matF a3) (matF a4) (vecF a5) (vecF a6)
          (matF a7) (matF a8) (vecF a9) (vecF a10) J :=
  ref_stack_apply a0 a1 a2 a3 a4 a5 a6 a7 a8 a9 a10 _ (fun J => ref_h0_apply a0 a1 a2 a3 a4 a5 a6 h0 h1 J) l J
end

end Cert.Bridge

end
-- ==== Proof.KI.ValHost.lean ====
/-
  What the host operations between the launches do to the arrays, read entry by entry.

  Between two launches the host only moves entries around. Before the first recurrent layer it cuts each layer's
  previous hidden row out of the stacked hidden states [2,1,4096] and drops the unit axis; it views each weight
  array of 3 * 4096 rows as three stacked blocks of 4096 rows, and each bias of 3 * 4096 entries as three rows of
  4096; before the second layer the same for that layer's weights and biases; before the decoder it views the
  decoder bias of 256 entries as one row; at the end it puts a unit axis in front of each new hidden row and
  lays the two one after the other. A reshape keeps an entry's row-major position, a slice shifts one
  coordinate, the stacking sends a leading coordinate to a piece; so every entry of a produced array is one
  named entry of an array that was there before, and, where that array is an argument nothing has written, of
  the launch memory.

  First at an arbitrary valuation of the buffers (the four host stretches one by one), then at the valuations the
  run goes through, with what each item leaves unchanged.
-/
import proofs.«417261_j67628555043381_3_alg».proof.Proof.KI.Contents
import proofs.«417261_j67628555043381_3_alg».proof.Proof.Gen.KernelIdeal.Regions
import proofs.«417261_j67628555043381_3_alg».proof.Proof.NetSpec
import Idealize.ShloMosaic.Lib.Pipeline.Value
import Idealize.ShloMosaic.Lib.ValueIdx
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen

variable {F : FTy → Type} [FloatOps F]

/-! # At any valuation: each produced array as the operations' term, and read at an index -/

section AnyValuation
variable (W : Valuation τ sig (Elt F))

theorem host1_v3 :
    (StableHlo.after hostOps1 W main_v3 : S1x4096.Idx → Elt F .f32)
      = shapeCast S1x4096 (extractStridedSlice S1x1x4096 ![0, 0, 0] (W main_arg1 : S2x1x4096.Idx → Elt F .f32) slices_S2x1x4096_S1x1x4096_0_0_0) shapeCasts_S1x1x4096_S1x4096 := by
  show StableHlo.after hostOps1 W (Proc.devRef .tc main_v3) = _
  after_results; rfl

/-- Entry `k` of the previous hidden row of layer 0 is entry `(0, 0, k)` of the stacked hidden states: the slice
    keeps layer 0, the reshape drops the unit axis; both keep the position along the row. -/
theorem host1_v3_apply (k : Fin 4096) :
    (StableHlo.after hostOps1 W main_v3 : S1x4096.Idx → Elt F .f32) (ix2 (0 : Fin 1) k)
      = (W main_arg1 : S2x1x4096.Idx → Elt F .f32) (ix3 (0 : Fin 2) (0 : Fin 1) k) := by
  rw [host1_v3]
  refine (shapeCast_apply _ _ (ix2 (0 : Fin 1) k) (ix3 (0 : Fin 1) (0 : Fin 1) k) ?_).trans ?_
  · rw [Shape.rowMajor_val_three, Shape.rowMajor_val_two]; rfl
  · exact extractStridedSlice_apply _ _ _ _ (ix3 (0 : Fin 2) (0 : Fin 1) k)
      (fun a => match a with | ⟨0, _⟩ => rfl | ⟨1, _⟩ => rfl | ⟨2, _⟩ => (Nat.zero_add _).symm)

theorem host1_v5 :
    (StableHlo.after hostOps1 W main_v5 : S1x4096.Idx → Elt F .f32)
      = shapeCast S1x4096 (extractStridedSlice S1x1x4096 ![1, 0, 0] (W main_arg1 : S2x1x4096.Idx → Elt F .f32) slices_S2x1x4096_S1x1x4096_1_0_0) shapeCasts_S1x1x4096_S1x4096 := by
  show StableHlo.after hostOps1 W (Proc.devRef .tc main_v5) = _
  after_results; rfl

/-- Entry `k` of the previous hidden row of layer 1 is entry `(1, 0, k)` of the stacked hidden states: the slice
    keeps layer 1, the reshape drops the unit axis; both keep the position along the row. -/
theorem host1_v5_apply (k : Fin 4096) :
    (StableHlo.after hostOps1 W main_v5 : S1x4096.Idx → Elt F .f32) (ix2 (0 : Fin 1) k)
      = (W main_arg1 : S2x1x4096.Idx → Elt F .f32) (ix3 (1 : Fin 2) (0 : Fin 1) k) := by
  rw [host1_v5]
  refine (shapeCast_apply _ _ (ix2 (0 : Fin 1) k) (ix3 (0 : Fin 1) (0 : Fin 1) k) ?_).trans ?_
  · rw [Shape.rowMajor_val_three, Shape.rowMajor_val_two]; rfl
  · exact extractStridedSlice_apply _ _ _ _ (ix3 (1 : Fin 2) (0 : Fin 1) k)
      (fun a => match a with | ⟨0, _⟩ => rfl | ⟨1, _⟩ => rfl | ⟨2, _⟩ => (Nat.zero_add _).symm)

theorem host1_v6 :
    (StableHlo.after hostOps1 W main_v6 : S3x4096x4096.Idx → Elt F .f32)
      = shapeCast S3x4096x4096 (W main_arg3 : S12288x4096.Idx → Elt F .f32) shapeCasts_S12288x4096_S3x4096x4096 := by
  show StableHlo.after hostOps1 W (Proc.devRef .tc main_v6) = _
  after_results; rfl

/-- Entry `(g, J, k)` of the weights seen as three stacked blocks is entry `(g * 4096 + J, k)` of the weights as
    given: the reshape keeps the row-major position. -/
theorem host1_v6_apply (g : Fin 3) (J k : Fin 4096) :
    (StableHlo.after hostOps1 W main_v6 : S3x4096x4096.Idx → Elt F .f32) (ix3 g J k)
      = (W main_arg3 : S12288x4096.Idx → Elt F .f32) (ix2 (Cert.NetSpec.gateRow g J) k) := by
  rw [host1_v6]
  refine shapeCast_apply _ _ (ix3 g J k) (ix2 (Cert.NetSpec.gateRow g J) k) ?_
  rw [Shape.rowMajor_val_three, Shape.rowMajor_val_two]; rfl

theorem host1_v7 :
    (StableHlo.after hostOps1 W main_v7 : S3x4096x4096.Idx → Elt F .f32)
      = shapeCast S3x4096x4096 (W main_arg4 : S12288x4096.Idx → Elt F .f32) shapeCasts_S12288x4096_S3x4096x4096 := by
  show StableHlo.after hostOps1 W (Proc.devRef .tc main_v7) = _
  after_results; rfl

/-- Entry `(g, J, k)` of the weights seen as three stacked blocks is entry `(g * 4096 + J, k)` of the weights as
    given: the reshape keeps the row-major position. -/
theorem host1_v7_apply (g : Fin 3) (J k : Fin 4096) :
    (StableHlo.after hostOps1 W main_v7 : S3x4096x4096.Idx → Elt F .f32) (ix3 g J k)
      = (W main_arg4 : S12288x4096.Idx → Elt F .f32) (ix2 (Cert.NetSpec.gateRow g J) k) := by
  rw [host1_v7]
  refine shapeCast_apply _ _ (ix3 g J k) (ix2 (Cert.NetSpec.gateRow g J) k) ?_
  rw [Shape.rowMajor_val_three, Shape.rowMajor_val_two]; rfl

theorem host1_v8 :
    (StableHlo.after hostOps1 W main_v8 : S3x4096.Idx → Elt F .f32)
      = shapeCast S3x4096 (W main_arg5 : S12288.Idx → Elt F .f32) shapeCasts_S12288_S3x4096 := by
  show StableHlo.after hostOps1 W (Proc.devRef .tc main_v8) = _
  after_results; rfl

/-- Entry `(g, J)` of the bias seen as three stacked rows is entry `g * 4096 + J` of the bias as given. -/
theorem host1_v8_apply (g : Fin 3) (J : Fin 4096) :
    (StableHlo.after hostOps1 W main_v8 : S3x4096.Idx → Elt F .f32) (ix2 g J)
      = (W main_arg5 : S12288.Idx → Elt F .f32) (ix1 (Cert.NetSpec.gateRow g J)) := by
  rw [host1_v8]
  refine shapeCast_apply _ _ (ix2 g J) (ix1 (Cert.NetSpec.gateRow g J)) ?_
  rw [Shape.rowMajor_val_two, Shape.rowMajor_val_one]; rfl

theorem host1_v9 :
    (StableHlo.after hostOps1 W main_v9 : S3x4096.Idx → Elt F .f32)
      = shapeCast S3x4096 (W main_arg6 : S12288.Idx → Elt F .f32) shapeCasts_S12288_S3x4096 := by
  show StableHlo.after hostOps1 W (Proc.devRef .tc main_v9) = _
  after_results; rfl

/-- Entry `(g, J)` of the bias seen as three stacked rows is entry `g * 4096 + J` of the bias as given. -/
theorem host1_v9_apply (g : Fin 3) (J : Fin 4096) :
    (StableHlo.after hostOps1 W main_v9 : S3x4096.Idx → Elt F .f32) (ix2 g J)
      = (W main_arg6 : S12288.Idx → Elt F .f32) (ix1 (Cert.NetSpec.gateRow g J)) := by
  rw [host1_v9]
  refine shapeCast_apply _ _ (ix2 g J) (ix1 (Cert.NetSpec.gateRow g J)) ?_
  rw [Shape.rowMajor_val_two, Shape.rowMajor_val_one]; rfl

theorem host2_v11 :
    (StableHlo.after hostOps2 W main_v11 : S3x4096x4096.Idx → Elt F .f32)
      = shapeCast S3x4096x4096 (W main_arg7 : S12288x4096.Idx → Elt F .f32) shapeCasts_S12288x4096_S3x4096x4096 := by
  show StableHlo.after hostOps2 W (Proc.devRef .tc main_v11) = _
  after_results; rfl

/-- Entry `(g, J, k)` of the weights seen as three stacked blocks is entry `(g * 4096 + J, k)` of the weights as
    given: the reshape keeps the row-major position. -/
theorem host2_v11_apply (g : Fin 3) (J k : Fin 4096) :
    (StableHlo.after hostOps2 W main_v11 : S3x4096x4096.Idx → Elt F .f32) (ix3 g J k)
      = (W main_arg7 : S12288x4096.Idx → Elt F .f32) (ix2 (Cert.NetSpec.gateRow g J) k) := by
  rw [host2_v11]
  refine shapeCast_apply _ _ (ix3 g J k) (ix2 (Cert.NetSpec.gateRow g J) k) ?_
  rw [Shape.rowMajor_val_three, Shape.rowMajor_val_two]; rfl

theorem host2_v12 :
    (StableHlo.after hostOps2 W main_v12 : S3x4096x4096.Idx → Elt F .f32)
      = shapeCast S3x4096x4096 (W main_arg8 : S12288x4096.Idx → Elt F .f32) shapeCasts_S12288x4096_S3x4096x4096 := by
  show StableHlo.after hostOps2 W (Proc.devRef .tc main_v12) = _
  after_results; rfl

/-- Entry `(g, J, k)` of the weights seen as three stacked blocks is entry `(g * 4096 + J, k)` of the weights as
    given: the reshape keeps the row-major position. -/
theorem host2_v12_apply (g : Fin 3) (J k : Fin 4096) :
    (StableHlo.after hostOps2 W main_v12 : S3x4096x4096.Idx → Elt F .f32) (ix3 g J k)
      = (W main_arg8 : S12288x4096.Idx → Elt F .f32) (ix2 (Cert.NetSpec.gateRow g J) k) := by
  rw [host2_v12]
  refine shapeCast_apply _ _ (ix3 g J k) (ix2 (Cert.NetSpec.gateRow g J) k) ?_
  rw [Shape.rowMajor_val_three, Shape.rowMajor_val_two]; rfl

theorem host2_v13 :
    (StableHlo.after hostOps2 W main_v13 : S3x4096.Idx → Elt F .f32)
      = shapeCast S3x4096 (W main_arg9 : S12288.Idx → Elt F .f32) shapeCasts_S12288_S3x4096 := by
  show StableHlo.after hostOps2 W (Proc.devRef .tc main_v13) = _
  after_results; rfl

/-- Entry `(g, J)` of the bias seen as three stacked rows is entry `g * 4096 + J` of the bias as given. -/
theorem host2_v13_apply (g : Fin 3) (J : Fin 4096) :
    (StableHlo.after hostOps2 W main_v13 : S3x4096.Idx → Elt F .f32) (ix2 g J)
      = (W main_arg9 : S12288.Idx → Elt F .f32) (ix1 (Cert.NetSpec.gateRow g J)) := by
  rw [host2_v13]
  refine shapeCast_apply _ _ (ix2 g J) (ix1 (Cert.NetSpec.gateRow g J)) ?_
  rw [Shape.rowMajor_val_two, Shape.rowMajor_val_one]; rfl

theorem host2_v14 :
    (StableHlo.after hostOps2 W main_v14 : S3x4096.Idx → Elt F .f32)
      = shapeCast S3x4096 (W main_arg10 : S12288.Idx → Elt F .f32) shapeCasts_S12288_S3x4096 := by
  show StableHlo.after hostOps2 W (Proc.devRef .tc main_v14) = _
  after_results; rfl

/-- Entry `(g, J)` of the bias seen as three stacked rows is entry `g * 4096 + J` of the bias as given. -/
theorem host2_v14_apply (g : Fin 3) (J : Fin 4096) :
    (StableHlo.after hostOps2 W main_v14 : S3x4096.Idx → Elt F .f32) (ix2 g J)
      = (W main_arg10 : S12288.Idx → Elt F .f32) (ix1 (Cert.NetSpec.gateRow g J)) := by
  rw [host2_v14]
  refine shapeCast_apply _ _ (ix2 g J) (ix1 (Cert.NetSpec.gateRow g J)) ?_
  rw [Shape.rowMajor_val_two, Shape.rowMajor_val_one]; rfl

theorem host3_v16 :
    (StableHlo.after hostOps3 W main_v16 : S1x256.Idx → Elt F .f32)
      = shapeCast S1x256 (W main_arg12 : S256.Idx → Elt F .f32) shapeCasts_S256_S1x256 := by
  show StableHlo.after hostOps3 W (Proc.devRef .tc main_v16) = _
  after_results; rfl

/-- Entry `(0, v)` of the decoder bias seen as one row is entry `v` of the bias as given. -/
theorem host3_v16_apply (v : Fin 256) :
    (StableHlo.after hostOps3 W main_v16 : S1x256.Idx → Elt F .f32) (ix2 (0 : Fin 1) v)
      = (W main_arg12 : S256.Idx → Elt F .f32) (ix1 v) := by
  rw [host3_v16]
  refine shapeCast_apply _ _ (ix2 (0 : Fin 1) v) (ix1 v) ?_
  rw [Shape.rowMajor_val_two, Shape.rowMajor_val_one]
  show v.val = 0 * 256 + v.val; omega

theorem host4_v20 :
    (StableHlo.after hostOps4 W main_v20 : S2x1x4096.Idx → Elt F .f32)
      = concatenate S2x1x4096 0
          [⟨S1x1x4096, broadcastInDim S1x1x4096 ![1, 2] bcast_S1x4096_S1x1x4096_1_2 (W main_v10 : S1x4096.Idx → Elt F .f32)⟩,
           ⟨S1x1x4096, broadcastInDim S1x1x4096 ![1, 2] bcast_S1x4096_S1x1x4096_1_2 (W main_v15 : S1x4096.Idx → Elt F .f32)⟩]
          concatenates_S1x1x4096_S1x1x4096_S2x1x4096_d0 := by
  show StableHlo.after hostOps4 W (Proc.devRef .tc main_v20) = _
  after_results

/-- Entry `(l, 0, k)` of the two stacked new hidden rows: the first layer's row at `k` for `l = 0`, the second
    layer's for `l = 1` (each row gains a unit axis in front, and the two are laid one after the other along it). -/
theorem host4_v20_apply (l : Fin 2) (k : Fin 4096) :
    (StableHlo.after hostOps4 W main_v20 : S2x1x4096.Idx → Elt F .f32) (ix3 l (0 : Fin 1) k)
      = if l = 0 then (W main_v10 : S1x4096.Idx → Elt F .f32) (ix2 (0 : Fin 1) k)
        else (W main_v15 : S1x4096.Idx → Elt F .f32) (ix2 (0 : Fin 1) k) := by
  rw [host4_v20]
  by_cases hl : l = 0
  · subst hl
    rw [if_pos rfl]
    refine (concatenate_pair_apply_left (t := S2x1x4096) (s₁ := S1x1x4096) (s₂ := S1x1x4096) 0 _ _ _
      (ix3 (0 : Fin 2) (0 : Fin 1) k) rfl (ix3 (0 : Fin 1) (0 : Fin 1) k)
      (fun b => match b with | ⟨0, _⟩ => rfl | ⟨1, _⟩ => rfl | ⟨2, _⟩ => rfl)).trans ?_
    exact broadcastInDim_apply _ _ _ _ (ix2 (0 : Fin 1) k) (fun a => match a with | ⟨0, _⟩ => rfl | ⟨1, _⟩ => rfl)
  · have hl1 : l = 1 := Fin.ext (by have := l.isLt; have : l.val ≠ 0 := fun h => hl (Fin.ext h); omega)
    subst hl1
    rw [if_neg hl]
    refine (concatenate_pair_apply_right (t := S2x1x4096) (s₁ := S1x1x4096) (s₂ := S1x1x4096) 0 _ _ _
      (ix3 (1 : Fin 2) (0 : Fin 1) k) rfl rfl (ix3 (0 : Fin 1) (0 : Fin 1) k)
      (fun b hb => match b, hb with | ⟨0, _⟩, hb => (hb rfl).elim | ⟨1, _⟩, _ => rfl | ⟨2, _⟩, _ => rfl) rfl).trans ?_
    exact broadcastInDim_apply _ _ _ _ (ix2 (0 : Fin 1) k) (fun a => match a with | ⟨0, _⟩ => rfl | ⟨1, _⟩ => rfl)

end AnyValuation

section AtTheRun
open Cert.KernelIdeal.Reg
variable (m : (ℓ : Loc nD τ sig) → Buf (Elt F) ℓ) (c : Dev nD)

/-! ## What the items leave unchanged

A host stretch changes only the arrays its operations produce; a launch changes only its output array. -/

/-- A buffer changed at one reference reads, at any other reference, what it read before. -/
theorem update_other (X : Valuation τ sig (Elt F)) {r r' : Ref sig .tc} (x : (Proc.devRef .tc r' : DevRef τ sig).ty.Contents (Elt F)) (h : r ≠ r') :
    Function.update X (Proc.devRef .tc r') x (Proc.devRef .tc r) = X (Proc.devRef .tc r) :=
  Function.update_of_ne (StableHlo.devRef_ne_of_ne h) _ _

/-- Before the first launch an array that neither the constants nor the clamp produce holds the launch memory's contents. -/
theorem U2_of (r : Ref sig .tc) (h0 : r ∉ hostOps0_W) (h1 : r ∉ hostOps0_1_W) : U2 m c r = m ((c : Thread nD τ).loc r) :=
  (StableHlo.after_of_writes_sub hostOps0_1 _ hostOps0_1_writes h1).trans (StableHlo.after_of_writes_sub hostOps0 _ hostOps0_writes h0)
theorem U3_of (r : Ref sig .tc) (h : r ≠ main_v1) : U3 m c r = U2 m c r := update_other _ _ h
theorem U4_of (r : Ref sig .tc) (h : r ∉ hostOps1_W) : U4 m c r = U3 m c r := StableHlo.after_of_writes_sub hostOps1 _ hostOps1_writes h
theorem U5_of (r : Ref sig .tc) (h : r ≠ main_v10) : U5 m c r = U4 m c r := update_other _ _ h
theorem U6_of (r : Ref sig .tc) (h : r ∉ hostOps2_W) : U6 m c r = U5 m c r := StableHlo.after_of_writes_sub hostOps2 _ hostOps2_writes h
theorem U7_of (r : Ref sig .tc) (h : r ≠ main_v15) : U7 m c r = U6 m c r := update_other _ _ h
theorem U8_of (r : Ref sig .tc) (h : r ∉ hostOps3_W) : U8 m c r = U7 m c r := StableHlo.after_of_writes_sub hostOps3 _ hostOps3_writes h
theorem U9_of (r : Ref sig .tc) (h : r ≠ main_v17) : U9 m c r = U8 m c r := update_other _ _ h
theorem U10_of (r : Ref sig .tc) (h : r ∉ hostOps4_W) : U10 m c r = U9 m c r := StableHlo.after_of_writes_sub hostOps4 _ hostOps4_writes h

theorem U4_v1 : U4 m c main_v1 = U3 m c main_v1 := U4_of m c _ (by decide)
theorem U6_v10 : U6 m c main_v10 = U5 m c main_v10 := U6_of m c _ (by decide)
theorem U6_v5 : U6 m c main_v5 = U4 m c main_v5 := (U6_of m c _ (by decide)).trans (U5_of m c _ (by decide))
theorem U8_v15 : U8 m c main_v15 = U7 m c main_v15 := U8_of m c _ (by decide)
theorem U10_v17 : U10 m c main_v17 = U9 m c main_v17 := U10_of m c _ (by decide)
theorem U9_v10 : U9 m c main_v10 = U5 m c main_v10 :=
  (U9_of m c _ (by decide)).trans <| (U8_of m c _ (by decide)).trans <| (U7_of m c _ (by decide)).trans (U6_of m c _ (by decide))
theorem U9_v15 : U9 m c main_v15 = U7 m c main_v15 := (U9_of m c _ (by decide)).trans (U8_of m c _ (by decide))

/-- No item writes an argument: read at the valuation a host reshape (or the decoder) finds it in, it is the launch memory's. -/
theorem U3_arg (r : Ref sig .tc) (h0 : r ∉ hostOps0_W) (h1 : r ∉ hostOps0_1_W) (h3 : r ≠ main_v1) : U3 m c r = m ((c : Thread nD τ).loc r) :=
  (U3_of m c r h3).trans (U2_of m c r h0 h1)
theorem U5_arg (r : Ref sig .tc) (h0 : r ∉ hostOps0_W) (h1 : r ∉ hostOps0_1_W) (h3 : r ≠ main_v1) (h4 : r ∉ hostOps1_W) (h5 : r ≠ main_v10) :
    U5 m c r = m ((c : Thread nD τ).loc r) :=
  (U5_of m c r h5).trans <| (U4_of m c r h4).trans (U3_arg m c r h0 h1 h3)
theorem U7_arg (r : Ref sig .tc) (h0 : r ∉ hostOps0_W) (h1 : r ∉ hostOps0_1_W) (h3 : r ≠ main_v1) (h4 : r ∉ hostOps1_W) (h5 : r ≠ main_v10)
    (h6 : r ∉ hostOps2_W) (h7 : r ≠ main_v15) : U7 m c r = m ((c : Thread nD τ).loc r) :=
  (U7_of m c r h7).trans <| (U6_of m c r h6).trans (U5_arg m c r h0 h1 h3 h4 h5)

theorem U3_arg1 : U3 m c main_arg1 = m ((c : Thread nD τ).loc main_arg1) := U3_arg m c _ (by decide) (by decide) (by decide)
theorem U3_arg3 : U3 m c main_arg3 = m ((c : Thread nD τ).loc main_arg3) := U3_arg m c _ (by decide) (by decide) (by decide)
theorem U3_arg4 : U3 m c main_arg4 = m ((c : Thread nD τ).loc main_arg4) := U3_arg m c _ (by decide) (by decide) (by decide)
theorem U3_arg5 : U3 m c main_arg5 = m ((c : Thread nD τ).loc main_arg5) := U3_arg m c _ (by decide) (by decide) (by decide)
theorem U3_arg6 : U3 m c main_arg6 = m ((c : Thread nD τ).loc main_arg6) := U3_arg m c _ (by decide) (by decide) (by decide)
theorem U5_arg7 : U5 m c main_arg7 = m ((c : Thread nD τ).loc main_arg7) := U5_arg m c _ (by decide) (by decide) (by decide) (by decide) (by decide)
theorem U5_arg8 : U5 m c main_arg8 = m ((c : Thread nD τ).loc main_arg8) := U5_arg m c _ (by decide) (by decide) (by decide) (by decide) (by decide)
theorem U5_arg9 : U5 m c main_arg9 = m ((c : Thread nD τ).loc main_arg9) := U5_arg m c _ (by decide) (by decide) (by decide) (by decide) (by decide)
theorem U5_arg10 : U5 m c main_arg10 = m ((c : Thread nD τ).loc main_arg10) := U5_arg m c _ (by decide) (by decide) (by decide) (by decide) (by decide)
theorem U7_arg12 : U7 m c main_arg12 = m ((c : Thread nD τ).loc main_arg12) :=
  U7_arg m c _ (by decide) (by decide) (by decide) (by decide) (by decide) (by decide) (by decide)
theorem U8_arg11 : U8 m c main_arg11 = m ((c : Thread nD τ).loc main_arg11) :=
  (U8_of m c _ (by decide)).trans (U7_arg m c _ (by decide) (by decide) (by decide) (by decide) (by decide) (by decide) (by decide))

/-! ## The arrays the host produces, read at an index, in terms of the launch memory -/

theorem U4_v3_apply (k : Fin 4096) :
    (U4 m c main_v3 : S1x4096.Idx → Elt F .f32) (ix2 (0 : Fin 1) k)
      = (m ((c : Thread nD τ).loc main_arg1) : S2x1x4096.Idx → Elt F .f32) (ix3 (0 : Fin 2) (0 : Fin 1) k) :=
  (host1_v3_apply (U3 m c) k).trans (congrFun (U3_arg1 m c) _)
theorem U4_v5_apply (k : Fin 4096) :
    (U4 m c main_v5 : S1x4096.Idx → Elt F .f32) (ix2 (0 : Fin 1) k)
      = (m ((c : Thread nD τ).loc main_arg1) : S2x1x4096.Idx → Elt F .f32) (ix3 (1 : Fin 2) (0 : Fin 1) k) :=
  (host1_v5_apply (U3 m c) k).trans (congrFun (U3_arg1 m c) _)
theorem U4_v6_apply (g : Fin 3) (J k : Fin 4096) :
    (U4 m c main_v6 : S3x4096x4096.Idx → Elt F .f32) (ix3 g J k)
      = (m ((c : Thread nD τ).loc main_arg3) : S12288x4096.Idx → Elt F .f32) (ix2 (Cert.NetSpec.gateRow g J) k) :=
  (host1_v6_apply (U3 m c) g J k).trans (congrFun (U3_arg3 m c) _)
theorem U4_v7_apply (g : Fin 3) (J k : Fin 4096) :
    (U4 m c main_v7 : S3x4096x4096.Idx → Elt F .f32) (ix3 g J k)
      = (m ((c : Thread nD τ).loc main_arg4) : S12288x4096.Idx → Elt F .f32) (ix2 (Cert.NetSpec.gateRow g J) k) :=
  (host1_v7_apply (U3 m c) g J k).trans (congrFun (U3_arg4 m c) _)
theorem U4_v8_apply (g : Fin 3) (J : Fin 4096) :
    (U4 m c main_v8 : S3x4096.Idx → Elt F .f32) (ix2 g J)
      = (m ((c : Thread nD τ).loc main_arg5) : S12288.Idx → Elt F .f32) (ix1 (Cert.NetSpec.gateRow g J)) :=
  (host1_v8_apply (U3 m c) g J).trans (congrFun (U3_arg5 m c) _)
theorem U4_v9_apply (g : Fin 3) (J : Fin 4096) :
    (U4 m c main_v9 : S3x4096.Idx → Elt F .f32) (ix2 g J)
      = (m ((c : Thread nD τ).loc main_arg6) : S12288.Idx → Elt F .f32) (ix1 (Cert.NetSpec.gateRow g J)) :=
  (host1_v9_apply (U3 m c) g J).trans (congrFun (U3_arg6 m c) _)
theorem U6_v11_apply (g : Fin 3) (J k : Fin 4096) :
    (U6 m c main_v11 : S3x4096x4096.Idx → Elt F .f32) (ix3 g J k)
      = (m ((c : Thread nD τ).loc main_arg7) : S12288x4096.Idx → Elt F .f32) (ix2 (Cert.NetSpec.gateRow g J) k) :=
  (host2_v11_apply (U5 m c) g J k).trans (congrFun (U5_arg7 m c) _)
theorem U6_v12_apply (g : Fin 3) (J k : Fin 4096) :
    (U6 m c main_v12 : S3x4096x4096.Idx → Elt F .f32) (ix3 g J k)
      = (m ((c : Thread nD τ).loc main_arg8) : S12288x4096.Idx → Elt F .f32) (ix2 (Cert.NetSpec.gateRow g J) k) :=
  (host2_v12_apply (U5 m c) g J k).trans (congrFun (U5_arg8 m c) _)
theorem U6_v13_apply (g : Fin 3) (J : Fin 4096) :
    (U6 m c main_v13 : S3x4096.Idx → Elt F .f32) (ix2 g J)
      = (m ((c : Thread nD τ).loc main_arg9) : S12288.Idx → Elt F .f32) (ix1 (Cert.NetSpec.gateRow g J)) :=
  (host2_v13_apply (U5 m c) g J).trans (congrFun (U5_arg9 m c) _)
theorem U6_v14_apply (g : Fin 3) (J : Fin 4096) :
    (U6 m c main_v14 : S3x4096.Idx → Elt F .f32) (ix2 g J)
      = (m ((c : Thread nD τ).loc main_arg10) : S12288.Idx → Elt F .f32) (ix1 (Cert.NetSpec.gateRow g J)) :=
  (host2_v14_apply (U5 m c) g J).trans (congrFun (U5_arg10 m c) _)
theorem U8_v16_apply (v : Fin 256) :
    (U8 m c main_v16 : S1x256.Idx → Elt F .f32) (ix2 (0 : Fin 1) v)
      = (m ((c : Thread nD τ).loc main_arg12) : S256.Idx → Elt F .f32) (ix1 v) :=
  (host3_v16_apply (U7 m c) v).trans (congrFun (U7_arg12 m c) _)
theorem U10_v20_apply (l : Fin 2) (k : Fin 4096) :
    (U10 m c main_v20 : S2x1x4096.Idx → Elt F .f32) (ix3 l (0 : Fin 1) k)
      = if l = 0 then (U9 m c main_v10 : S1x4096.Idx → Elt F .f32) (ix2 (0 : Fin 1) k)
        else (U9 m c main_v15 : S1x4096.Idx → Elt F .f32) (ix2 (0 : Fin 1) k) :=
  host4_v20_apply (U9 m c) l k

end AtTheRun

end Cert.KernelIdeal.Val

end
-- ==== Proof.KI.ValGru.lean ====
/-
  One step of a gated recurrent layer, for the 128 hidden units of one grid point: the block the first
  recurrent layer's body stores, read column by column as the cell's formula of the seven blocks it loads.

  For unit j the body's value is
      (1 - z) * n + z * hown,
      r = logistic (i_r + h_r),  z = logistic (i_z + h_z),  n = tanh (i_n + r * h_n),
  where each of the six pre-activations is a [1,4096] row against row j of one gate of a [3,128,4096] slab,
  summed over the 4096 inputs, plus entry j of that gate's bias row: i_r, i_z, i_n from the input row with
  gates 0, 1, 2 of the input-side slab and bias, h_r, h_z, h_n from the state row with gates 0, 1, 2 of the
  state-side ones. The sums, products and the order of every addition are the body's own; no law of arithmetic
  is used. The narrowing of the rows and slabs to half precision changes no value over the extended reals.

  First how a block is read at an index (a slab's gate, a gate as a matrix, the row-by-matrix product), then the
  cell from its six pre-activations, then the layer's stored block.
-/
import proofs.«417261_j67628555043381_3_alg».proof.Proof.Gen.KernelIdeal.Skeleton
import proofs.«417261_j67628555043381_3_alg».proof.Proof.GruSpec
import Idealize.ShloMosaic.Lib.ValueIdx
import Idealize.ShloMosaic.Lib.Pipeline.Value
import Idealize.ShloMosaic.Lib.ValueLayout
import Idealize.ShloMosaic.PureOps.Ideal.Laws

noncomputable section

open scoped BigOperators

/-! ## Blocks read at an index -/

namespace Cert.KernelIdeal.Val

open Idealize.ShloMosaic Idealize.ShloMosaic.ValueIdx Cert.KernelIdeal Cert.KernelIdeal.Gen

/-- A rank-3 array cut along its first axis from `o` reads, at `(j, b, e)`, the source at `(k, b, e)` with
    `k = o + j`. -/
theorem slice3_axis0_apply {α : Type} {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-! The product of a [1,4096] row with a [128,4096] matrix over the second axis of both: which entry of each
    operand meets output entry `i` at contraction position `q`. -/

/-- The row's first coordinate is the output's first. -/
theorem rowIdx_0 (i : S1x128.Idx) (q : dot_S1x4096_S128x4096_S1x128_1_1_0_0_n_n.contr.Idx) :
    (dot_S1x4096_S128x4096_S1x128_1_1_0_0_n_n.lhsIdx i q 0).val = (i 0).val := by
  unfold DotDims.lhsIdx
  rw [dif_neg (show ¬(0 : Fin S1x4096.rank) ∈ dot_S1x4096_S128x4096_S1x128_1_1_0_0_n_n.lhsBatch by decide),
    dif_pos (show (0 : Fin S1x4096.rank) ∈ dot_S1x4096_S128x4096_S1x128_1_1_0_0_n_n.lhsNonContracting by decide)]
  rfl
/-- The row's second coordinate is the contraction position. -/
theorem rowIdx_1 (i : S1x128.Idx) (q : dot_S1x4096_S128x4096_S1x128_1_1_0_0_n_n.contr.Idx) :
    (dot_S1x4096_S128x4096_S1x128_1_1_0_0_n_n.lhsIdx i q 1).val = (q ⟨0, by decide⟩).val :=
  dot_S1x4096_S128x4096_S1x128_1_1_0_0_n_n.lhsIdx_val_of_single rfl i q
/-- The matrix's first coordinate is the output's second. -/
theorem matIdx_0 (i : S1x128.Idx) (q : dot_S1x4096_S128x4096_S1x128_1_1_0_0_n_n.contr.Idx) :
    (dot_S1x4096_S128x4096_S1x128_1_1_0_0_n_n.rhsIdx i q 0).val = (i 1).val := by
  unfold DotDims.rhsIdx
  rw [dif_neg (show ¬(0 : Fin S128x4096.rank) ∈ dot_S1x4096_S128x4096_S1x128_1_1_0_0_n_n.rhsBatch by decide),
    dif_pos (show (0 : Fin S128x4096.rank) ∈ dot_S1x4096_S128x4096_S1x128_1_1_0_0_n_n.rhsNonContracting by decide)]
  rfl
/-- The matrix's second coordinate is the contraction position. -/
theorem matIdx_1 (i : S1x128.Idx) (q : dot_S1x4096_S128x4096_S1x128_1_1_0_0_n_n.contr.Idx) :
    (dot_S1x4096_S128x4096_S1x128_1_1_0_0_n_n.rhsIdx i q 1).val = (q ⟨0, by decide⟩).val :=
  dot_S1x4096_S128x4096_S1x128_1_1_0_0_n_n.rhsIdx_val_of_single rfl i q

/-- Into the zero block, the product at column `j` is `∑ k, l[0,k] * r[j,k]`. -/
theorem rowMat_apply {φ₁ φ₂ : FTy} (l : FVec Ideal S1x4096 φ₁) (r : FVec Ideal S128x4096 φ₂) (j : Fin 128) :
    matmul (F := Ideal) dot_S1x4096_S128x4096_S1x128_1_1_0_0_n_n none l r (constant (F := Ideal) S1x128 .f32 0x00000000#32) (ix2 (0 : Fin 1) j)
      = ∑ k : Fin 4096, l (ix2 (0 : Fin 1) k) * r (ix2 j k) := by
  simp only [matmul]
  rw [Ideal.matmul_constant_zero_apply, ← Equiv.sum_comp (contrEquiv1 dot_S1x4096_S128x4096_S1x128_1_1_0_0_n_n 4096 rfl rfl).symm]
  refine Finset.sum_congr rfl fun k _ => ?_
  have hk := contrEquiv1_symm_val dot_S1x4096_S128x4096_S1x128_1_1_0_0_n_n 4096 rfl rfl k
  have el : dot_S1x4096_S128x4096_S1x128_1_1_0_0_n_n.lhsIdx (ix2 (0 : Fin 1) j) ((contrEquiv1 dot_S1x4096_S128x4096_S1x128_1_1_0_0_n_n 4096 rfl rfl).symm k) = ix2 (0 : Fin 1) k :=
    funext fun a => Fin.ext (by
      match a with
      | ⟨0, _⟩ => exact rowIdx_0 _ _
      | ⟨1, _⟩ => exact (rowIdx_1 _ _).trans hk)
  have er : dot_S1x4096_S128x4096_S1x128_1_1_0_0_n_n.rhsIdx (ix2 (0 : Fin 1) j) ((contrEquiv1 dot_S1x4096_S128x4096_S1x128_1_1_0_0_n_n 4096 rfl rfl).symm k) = ix2 j k :=
    funext fun a => Fin.ext (by
      match a with
      | ⟨0, _⟩ => exact matIdx_0 _ _
      | ⟨1, _⟩ => exact (matIdx_1 _ _).trans hk)
  rw [el, er]

/-- One gate's pre-activation as the body spells it — the row and the slab narrowed to half precision (no change
    of value), gate `o` of the slab taken as a [128,4096] matrix, their product into the zero block, and row `o` of
    the bias added — is, at column `j`, the row against row `j` of that gate plus the gate's bias at `j`. -/
theorem rowGate_apply (o : Nat) (g : Fin 3) (hg : g.val = o)
    (v : Vec Ideal S1x4096 .f32) (W : Vec Ideal S3x128x4096 .f32) (b : Vec Ideal S3x128 .f32)
    (c1 : S1x4096.ShapeCasts S1x4096) (c3 : S3x128x4096.ShapeCasts S3x128x4096) (c2 : S3x128.ShapeCasts S3x128)
    (lt : FTy.bits .bf16 < FTy.bits .f32)
    (sW : S3x128x4096.Slices ![o, 0, 0] S1x128x4096) (cW : S1x128x4096.ShapeCasts S128x4096)
    (sb : S3x128.Slices ![o, 0] S1x128) (j : Fin 128) :
    addf (F := Ideal)
        (matmul (F := Ideal) dot_S1x4096_S128x4096_S1x128_1_1_0_0_n_n none (truncf (F := Ideal) .bf16 (shapeCast S1x4096 v c1) lt)
          (shapeCast S128x4096
            (extractStridedSlice S1x128x4096 ![o, 0, 0] (truncf (F := Ideal) .bf16 (shapeCast S3x128x4096 W c3) lt) sW) cW)
          (constant (F := Ideal) S1x128 .f32 0x00000000#32))
        (extractStridedSlice S1x128 ![o, 0] (shapeCast S3x128 b c2) sb) (ix2 (0 : Fin 1) j)
      = Cert.GruSpec.pre (fun k => v (ix2 (0 : Fin 1) k)) (fun k => W (ix3 g j k)) (b (ix2 g j)) := by
  rw [shapeCast_self, shapeCast_self, shapeCast_self, addf_apply, rowMat_apply,
    slice2_axis0_apply o b sb (0 : Fin 1) j g (by omega)]
  unfold Cert.GruSpec.pre
  refine congrArg (· + b (ix2 g j)) (Finset.sum_congr rfl fun k _ => ?_)
  rw [shapeCast_1ab_ab_apply, slice3_axis0_apply o _ sW (0 : Fin 1) j k g (by omega)]
  rfl

/-! ## The cell from its six pre-activations -/

/-- The new value of a unit from the three input-side pre-activations `ir iz inn`, the three state-side ones
    `hr hz hn`, the unit's old value and the constant of `one - z`, grouped as the body groups them. -/
def cellOf (one ir iz inn hr hz hn hown : EReal) : EReal :=
  (one - Ideal.logistic (iz + hz)) * Ideal.tanh (inn + Ideal.logistic (ir + hr) * hn)
    + Ideal.logistic (iz + hz) * hown

/-- The cell's formula is that, of its six pre-activations. -/
theorem gruCell_eq_cellOf {n : Nat} (one : EReal) (x h : Fin n → EReal) (wi wh : Fin 3 → Fin n → EReal)
    (bi bh : Fin 3 → EReal) (hown : EReal) :
    Cert.GruSpec.gruCell one x h wi wh bi bh hown
      = cellOf one (Cert.GruSpec.pre x (wi 0) (bi 0)) (Cert.GruSpec.pre x (wi 1) (bi 1)) (Cert.GruSpec.pre x (wi 2) (bi 2))
          (Cert.GruSpec.pre h (wh 0) (bh 0)) (Cert.GruSpec.pre h (wh 1) (bh 1)) (Cert.GruSpec.pre h (wh 2) (bh 2)) hown := rfl

/-! ## The first recurrent layer's stored block -/

section Layer
variable {F : FTy → Type} [FloatOps F]

/-- The block the body stores, of the seven blocks it loads: the input row `x0`, the state row `x1`, the
    input-side and state-side gate slabs `x2`, `x3`, their bias rows `x4`, `x5`, and the point's own 128 state
    entries `x6`. -/
def gruStore (x0 x1 : Vec F S1x4096 .f32) (x2 x3 : Vec F S3x128x4096 .f32) (x4 x5 : Vec F S3x128 .f32)
    (x6 : Vec F S1x128 .f32) : FVec F S1x128 .f32 :=
  k1_pay1 (k1_pay3 x1) (k1_pay5 x3) (k1_pay7 x5) (k1_pay8 x6) (k1_pay9 x0 x2 x4) (k1_pay10 x0 x2 x4)
    (k1_pay11 x0 x2 x4) (k1_pay12 x1 x3 x5) (k1_pay13 x3)

/-- The state side's update-gate pre-activation block, as the body forms it from the narrowed state row, the
    gate-1 matrix and row 1 of the bias. -/
def k1_hz (x1 : Vec F S1x4096 .f32) (x3 : Vec F S3x128x4096 .f32) (x5 : Vec F S3x128 .f32) : FVec F S1x128 .f32 :=
  addf (matmul dot_S1x4096_S128x4096_S1x128_1_1_0_0_n_n none (k1_pay3 x1)
      (shapeCast S128x4096 (k1_pay13 x3) shapeCasts_S1x128x4096_S128x4096) (constant S1x128 .f32 0x00000000#32))
    (extractStridedSlice S1x128 ![1, 0] (k1_pay7 x5) slices_S3x128_o1_0_S1x128)

/-- The state side's candidate pre-activation block: gate 2 of the narrowed slab as a matrix, row 2 of the bias. -/
def k1_hn (x1 : Vec F S1x4096 .f32) (x3 : Vec F S3x128x4096 .f32) (x5 : Vec F S3x128 .f32) : FVec F S1x128 .f32 :=
  addf (matmul dot_S1x4096_S128x4096_S1x128_1_1_0_0_n_n none (k1_pay3 x1)
      (shapeCast S128x4096
        (extractStridedSlice S1x128x4096 ![2, 0, 0] (k1_pay5 x3) slices_S3x128x4096_o2_0_0_S1x128x4096)
        shapeCasts_S1x128x4096_S128x4096) (constant S1x128 .f32 0x00000000#32))
    (extractStridedSlice S1x128 ![2, 0] (k1_pay7 x5) slices_S3x128_o2_0_S1x128)

end Layer

/-- The input side's reset-gate pre-activation at column `j`. -/
theorem k1_pay9_apply (x0 : Vec Ideal S1x4096 .f32) (x2 : Vec Ideal S3x128x4096 .f32) (x4 : Vec Ideal S3x128 .f32)
    (j : Fin 128) :
    k1_pay9 (F := Ideal) x0 x2 x4 (ix2 (0 : Fin 1) j)
      = Cert.GruSpec.pre (fun k => x0 (ix2 (0 : Fin 1) k)) (fun k => x2 (ix3 (0 : Fin 3) j k)) (x4 (ix2 (0 : Fin 3) j)) := by
  unfold k1_pay9 k1_pay2 k1_pay4 k1_pay6
  exact rowGate_apply 0 0 rfl x0 x2 x4 _ _ _ _ _ _ _ j

/-- The input side's update-gate pre-activation at column `j`. -/
theorem k1_pay10_apply (x0 : Vec Ideal S1x4096 .f32) (x2 : Vec Ideal S3x128x4096 .f32) (x4 : Vec Ideal S3x128 .f32)
    (j : Fin 128) :
    k1_pay10 (F := Ideal) x0 x2 x4 (ix2 (0 : Fin 1) j)
      = Cert.GruSpec.pre (fun k => x0 (ix2 (0 : Fin 1) k)) (fun k => x2 (ix3 (1 : Fin 3) j k)) (x4 (ix2 (1 : Fin 3) j)) := by
  unfold k1_pay10 k1_pay2 k1_pay4 k1_pay6
  exact rowGate_apply 1 1 rfl x0 x2 x4 _ _ _ _ _ _ _ j

/-- The input side's candidate pre-activation at column `j`. -/
theorem k1_pay11_apply (x0 : Vec Ideal S1x4096 .f32) (x2 : Vec Ideal S3x128x4096 .f32) (x4 : Vec Ideal S3x128 .f32)
    (j : Fin 128) :
    k1_pay11 (F := Ideal) x0 x2 x4 (ix2 (0 : Fin 1) j)
      = Cert.GruSpec.pre (fun k => x0 (ix2 (0 : Fin 1) k)) (fun k => x2 (ix3 (2 : Fin 3) j k)) (x4 (ix2 (2 : Fin 3) j)) := by
  unfold k1_pay11 k1_pay2 k1_pay4 k1_pay6
  exact rowGate_apply 2 2 rfl x0 x2 x4 _ _ _ _ _ _ _ j

/-- The state side's reset-gate pre-activation at column `j`. -/
theorem k1_pay12_apply (x1 : Vec Ideal S1x4096 .f32) (x3 : Vec Ideal S3x128x4096 .f32) (x5 : Vec Ideal S3x128 .f32)
    (j : Fin 128) :
    k1_pay12 (F := Ideal) x1 x3 x5 (ix2 (0 : Fin 1) j)
      = Cert.GruSpec.pre (fun k => x1 (ix2 (0 : Fin 1) k)) (fun k => x3 (ix3 (0 : Fin 3) j k)) (x5 (ix2 (0 : Fin 3) j)) := by
  unfold k1_pay12 k1_pay3 k1_pay5 k1_pay7
  exact rowGate_apply 0 0 rfl x1 x3 x5 _ _ _ _ _ _ _ j

/-- The state side's update-gate pre-activation at column `j`. -/
theorem k1_hz_apply (x1 : Vec Ideal S1x4096 .f32) (x3 : Vec Ideal S3x128x4096 .f32) (x5 : Vec Ideal S3x128 .f32)
    (j : Fin 128) :
    k1_hz (F := Ideal) x1 x3 x5 (ix2 (0 : Fin 1) j)
      = Cert.GruSpec.pre (fun k => x1 (ix2 (0 : Fin 1) k)) (fun k => x3 (ix3 (1 : Fin 3) j k)) (x5 (ix2 (1 : Fin 3) j)) := by
  unfold k1_hz k1_pay13 k1_pay3 k1_pay5 k1_pay7
  exact rowGate_apply 1 1 rfl x1 x3 x5 _ _ _ _ _ _ _ j

/-- The state side's candidate pre-activation at column `j`. -/
theorem k1_hn_apply (x1 : Vec Ideal S1x4096 .f32) (x3 : Vec Ideal S3x128x4096 .f32) (x5 : Vec Ideal S3x128 .f32)
    (j : Fin 128) :
    k1_hn (F := Ideal) x1 x3 x5 (ix2 (0 : Fin 1) j)
      = Cert.GruSpec.pre (fun k => x1 (ix2 (0 : Fin 1) k)) (fun k => x3 (ix3 (2 : Fin 3) j k)) (x5 (ix2 (2 : Fin 3) j)) := by
  unfold k1_hn k1_pay3 k1_pay5 k1_pay7
  exact rowGate_apply 2 2 rfl x1 x3 x5 _ _ _ _ _ _ _ j

/-- The point's own state entries pass through unchanged. -/
theorem k1_pay8_apply (x6 : Vec Ideal S1x128 .f32) (j : Fin 128) :
    k1_pay8 (F := Ideal) x6 (ix2 (0 : Fin 1) j) = x6 (ix2 (0 : Fin 1) j) := by
  unfold k1_pay8
  rw [shapeCast_self]

/-- The stored block at column `j` is the cell of the six pre-activation blocks at `j`: every operation after
    them acts entry by entry. -/
theorem gruStore_cellOf (x0 x1 : Vec Ideal S1x4096 .f32) (x2 x3 : Vec Ideal S3x128x4096 .f32)
    (x4 x5 : Vec Ideal S3x128 .f32) (x6 : Vec Ideal S1x128 .f32) (j : Fin 128) :
    gruStore (F := Ideal) x0 x1 x2 x3 x4 x5 x6 (ix2 (0 : Fin 1) j)
      = cellOf (Ideal.ofBits .f32 0x3F800000#32)
          (k1_pay9 (F := Ideal) x0 x2 x4 (ix2 (0 : Fin 1) j)) (k1_pay10 (F := Ideal) x0 x2 x4 (ix2 (0 : Fin 1) j))
          (k1_pay11 (F := Ideal) x0 x2 x4 (ix2 (0 : Fin 1) j)) (k1_pay12 (F := Ideal) x1 x3 x5 (ix2 (0 : Fin 1) j))
          (k1_hz (F := Ideal) x1 x3 x5 (ix2 (0 : Fin 1) j)) (k1_hn (F := Ideal) x1 x3 x5 (ix2 (0 : Fin 1) j))
          (k1_pay8 (F := Ideal) x6 (ix2 (0 : Fin 1) j)) := rfl

/-- THE STORED BLOCK, column by column: the cell's formula of the seven loaded blocks, each read at its
    coordinates — the rows at `(0, k)`, the slabs at `(gate, j, k)`, the biases at `(gate, j)`, the own state at
    `(0, j)`. -/
theorem gruStore_apply (x0 x1 : Vec Ideal S1x4096 .f32) (x2 x3 : Vec Ideal S3x128x4096 .f32)
    (x4 x5 : Vec Ideal S3x128 .f32) (x6 : Vec Ideal S1x128 .f32) (j : Fin 128) :
    gruStore (F := Ideal) x0 x1 x2 x3 x4 x5 x6 (ix2 (0 : Fin 1) j)
      = Cert.GruSpec.gruCell (Ideal.ofBits .f32 0x3F800000#32)
          (fun k => x0 (ix2 (0 : Fin 1) k)) (fun k => x1 (ix2 (0 : Fin 1) k))
          (fun g k => x2 (ix3 g j k)) (fun g k => x3 (ix3 g j k))
          (fun g => x4 (ix2 g j)) (fun g => x5 (ix2 g j)) (x6 (ix2 (0 : Fin 1) j)) := by
  rw [gruStore_cellOf, gruCell_eq_cellOf, k1_pay9_apply, k1_pay10_apply, k1_pay11_apply, k1_pay12_apply,
    k1_hz_apply, k1_hn_apply, k1_pay8_apply]

end Cert.KernelIdeal.Val

end
-- ==== Proof.KI.ValGruArr.lean ====
/-
  From the blocks to the array, for the first recurrent layer's launch: after its 32 grid points the output
  row holds, at every hidden unit J, the cell's formula of the arrays the launch found.

  Grid point t works on units 128 t .. 128 t + 127. The two rows x and h are the same block at every point;
  the gate slabs and bias rows of point t are rows (columns) 128 t .. 128 t + 127 of their arrays' unit axis;
  the point's own state entries and its output tile are columns 128 t .. 128 t + 127 of h and of the output row.
  So the tile point t writes back is, entry by entry, one function of the arrays read at unit 128 t + u, and the 32
  tiles cover the row.
-/
import proofs.«417261_j67628555043381_3_alg».proof.Proof.KI.ValGru
import proofs.«417261_j67628555043381_3_alg».proof.Proof.KI.GruA
import Idealize.ShloMosaic.Lib.Pipeline.Value

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Reg

variable (V : (c : Dev nD) → (b : Ref sig .tc) → Buf (Elt Ideal) ((c : Thread nD τ).loc b))

/-! ## The arrays, and the row the launch leaves -/

/-- The arrays the launch reads, each at its literal shape: the input row, the state row, the input-side and
    state-side weights (gate, unit, input), the two biases (gate, unit). -/
abbrev arrX (c : Dev nD) : S1x4096.Idx → Elt Ideal .f32 := V c main_v1
abbrev arrH (c : Dev nD) : S1x4096.Idx → Elt Ideal .f32 := V c main_v3
abbrev arrWi (c : Dev nD) : S3x4096x4096.Idx → Elt Ideal .f32 := V c main_v6
abbrev arrWh (c : Dev nD) : S3x4096x4096.Idx → Elt Ideal .f32 := V c main_v7
abbrev arrBi (c : Dev nD) : S3x4096.Idx → Elt Ideal .f32 := V c main_v8
abbrev arrBh (c : Dev nD) : S3x4096.Idx → Elt Ideal .f32 := V c main_v9

/-- The new state of hidden unit `J`: the cell's formula of the two rows, the unit's three weight rows and biases
    on each side, and the unit's old state. -/
def gruAt (c : Dev nD) (J : Fin 4096) : EReal :=
  Cert.GruSpec.gruCell (Ideal.ofBits .f32 0x3F800000#32)
    (fun k => arrX V c (ix2 (0 : Fin 1) k)) (fun k => arrH V c (ix2 (0 : Fin 1) k))
    (fun g k => arrWi V c (ix3 g J k)) (fun g k => arrWh V c (ix3 g J k))
    (fun g => arrBi V c (ix2 g J)) (fun g => arrBh V c (ix2 g J)) (arrH V c (ix2 (0 : Fin 1) J))

/-- The whole output row: entry `(0, J)` is unit `J`'s new state. -/
def gruArr (c : Dev nD) : S1x4096.Idx → Elt Ideal .f32 := fun i => gruAt V c ⟨(i 1).val, idx2_lt1 i⟩

/-! ## Where each window's block sits at point `t` -/

/-- The two rows' block index is (0, 0) at every point. -/
theorem rowIdx_facts : ∀ t : Fin cfg1.N, win1_0.index t (0 : Fin 2) = 0 ∧ win1_0.index t (1 : Fin 2) = 0
    ∧ win1_1.index t (0 : Fin 2) = 0 ∧ win1_1.index t (1 : Fin 2) = 0 :=
  (by decide +kernel : ∀ t : Fin grid1.N, _)

/-- The slabs' block index is (0, t, 0). -/
theorem slabIdx_facts : ∀ t : Fin cfg1.N, win1_2.index t (0 : Fin 3) = 0 ∧ win1_2.index t (1 : Fin 3) = t.val
    ∧ win1_2.index t (2 : Fin 3) = 0 ∧ win1_3.index t (0 : Fin 3) = 0 ∧ win1_3.index t (1 : Fin 3) = t.val
    ∧ win1_3.index t (2 : Fin 3) = 0 :=
  (by decide +kernel : ∀ t : Fin grid1.N, _)

/-- The biases', the own state's and the output tile's block index is (0, t). -/
theorem tileIdx_facts : ∀ t : Fin cfg1.N, win1_4.index t (0 : Fin 2) = 0 ∧ win1_4.index t (1 : Fin 2) = t.val
    ∧ win1_5.index t (0 : Fin 2) = 0 ∧ win1_5.index t (1 : Fin 2) = t.val
    ∧ win1_6.index t (0 : Fin 2) = 0 ∧ win1_6.index t (1 : Fin 2) = t.val
    ∧ win1_7.index t (0 : Fin 2) = 0 ∧ win1_7.index t (1 : Fin 2) = t.val :=
  (by decide +kernel : ∀ t : Fin grid1.N, _)

/-! ## Each input block, read off its array -/

/-- The input row's block is the input row. -/
theorem iblk1_0_apply (c : Dev nD) (t : Fin cfg1.N) (k : Fin 4096) :
    (iblk1 V c 0 t : Vec Ideal S1x4096 .f32) (ix2 (0 : Fin 1) k) = arrX V c (ix2 (0 : Fin 1) k) := by
  obtain ⟨e0, e1, -, -⟩ := rowIdx_facts t
  unfold iblk1
  rw [View.read_apply]
  show V c main_v1 _ = V c main_v1 _
  congr 1
  funext a
  apply Fin.ext
  match a with
  | ⟨0, _⟩ => show win1_0.index t (0 : Fin 2) * 1 + 1 * 0 = 0; rw [e0]
  | ⟨1, _⟩ => show win1_0.index t (1 : Fin 2) * 4096 + 1 * k.val = k.val; rw [e1]; omega

/-- The state row's block is the state row. -/
theorem iblk1_1_apply (c : Dev nD) (t : Fin cfg1.N) (k : Fin 4096) :
    (iblk1 V c 1 t : Vec Ideal S1x4096 .f32) (ix2 (0 : Fin 1) k) = arrH V c (ix2 (0 : Fin 1) k) := by
  obtain ⟨-, -, e0, e1⟩ := rowIdx_facts t
  unfold iblk1
  rw [View.read_apply]
  show V c main_v3 _ = V c main_v3 _
  congr 1
  funext a
  apply Fin.ext
  match a with
  | ⟨0, _⟩ => show win1_1.index t (0 : Fin 2) * 1 + 1 * 0 = 0; rw [e0]
  | ⟨1, _⟩ => show win1_1.index t (1 : Fin 2) * 4096 + 1 * k.val = k.val; rw [e1]; omega

/-- Row `u` of a gate of the input-side slab at point `t` is unit `128 t + u`'s weight row of that gate. -/
theorem iblk1_2_apply (c : Dev nD) (t : Fin cfg1.N) (g : Fin 3) (u : Fin 128) (k : Fin 4096) (U : Fin 4096)
    (hU : U.val = 128 * t.val + u.val) :
    (iblk1 V c 2 t : Vec Ideal S3x128x4096 .f32) (ix3 g u k) = arrWi V c (ix3 g U k) := by
  obtain ⟨e0, e1, e2, -, -, -⟩ := slabIdx_facts t
  unfold iblk1
  rw [View.read_apply]
  show V c main_v6 _ = V c main_v6 _
  congr 1
  funext a
  apply Fin.ext
  match a with
  | ⟨0, _⟩ => show win1_2.index t (0 : Fin 3) * 3 + 1 * g.val = g.val; rw [e0]; omega
  | ⟨1, _⟩ => show win1_2.index t (1 : Fin 3) * 128 + 1 * u.val = U.val; rw [e1, hU]; omega
  | ⟨2, _⟩ => show win1_2.index t (2 : Fin 3) * 4096 + 1 * k.val = k.val; rw [e2]; omega

/-- The same of the state-side slab. -/
theorem iblk1_3_apply (c : Dev nD) (t : Fin cfg1.N) (g : Fin 3) (u : Fin 128) (k : Fin 4096) (U : Fin 4096)
    (hU : U.val = 128 * t.val + u.val) :
    (iblk1 V c 3 t : Vec Ideal S3x128x4096 .f32) (ix3 g u k) = arrWh V c (ix3 g U k) := by
  obtain ⟨-, -, -, e0, e1, e2⟩ := slabIdx_facts t
  unfold iblk1
  rw [View.read_apply]
  show V c main_v7 _ = V c main_v7 _
  congr 1
  funext a
  apply Fin.ext
  match a with
  | ⟨0, _⟩ => show win1_3.index t (0 : Fin 3) * 3 + 1 * g.val = g.val; rw [e0]; omega
  | ⟨1, _⟩ => show win1_3.index t (1 : Fin 3) * 128 + 1 * u.val = U.val; rw [e1, hU]; omega
  | ⟨2, _⟩ => show win1_3.index t (2 : Fin 3) * 4096 + 1 * k.val = k.val; rw [e2]; omega

/-- Entry `u` of a gate of the input-side bias block at point `t` is unit `128 t + u`'s bias of that gate. -/
theorem iblk1_4_apply (c : Dev nD) (t : Fin cfg1.N) (g : Fin 3) (u : Fin 128) (U : Fin 4096)
    (hU : U.val = 128 * t.val + u.val) :
    (iblk1 V c 4 t : Vec Ideal S3x128 .f32) (ix2 g u) = arrBi V c (ix2 g U) := by
  obtain ⟨e0, e1, -, -, -, -, -, -⟩ := tileIdx_facts t
  unfold iblk1
  rw [View.read_apply]
  show V c main_v8 _ = V c main_v8 _
  congr 1
  funext a
  apply Fin.ext
  match a with
  | ⟨0, _⟩ => show win1_4.index t (0 : Fin 2) * 3 + 1 * g.val = g.val; rw [e0]; omega
  | ⟨1, _⟩ => show win1_4.index t (1 : Fin 2) * 128 + 1 * u.val = U.val; rw [e1, hU]; omega

/-- The same of the state-side bias block. -/
theorem iblk1_5_apply (c : Dev nD) (t : Fin cfg1.N) (g : Fin 3) (u : Fin 128) (U : Fin 4096)
    (hU : U.val = 128 * t.val + u.val) :
    (iblk1 V c 5 t : Vec Ideal S3x128 .f32) (ix2 g u) = arrBh V c (ix2 g U) := by
  obtain ⟨-, -, e0, e1, -, -, -, -⟩ := tileIdx_facts t
  unfold iblk1
  rw [View.read_apply]
  show V c main_v9 _ = V c main_v9 _
  congr 1
  funext a
  apply Fin.ext
  match a with
  | ⟨0, _⟩ => show win1_5.index t (0 : Fin 2) * 3 + 1 * g.val = g.val; rw [e0]; omega
  | ⟨1, _⟩ => show win1_5.index t (1 : Fin 2) * 128 + 1 * u.val = U.val; rw [e1, hU]; omega

/-- Entry `u` of the point's own state tile is unit `128 t + u`'s old state. -/
theorem iblk1_6_apply (c : Dev nD) (t : Fin cfg1.N) (u : Fin 128) (U : Fin 4096) (hU : U.val = 128 * t.val + u.val) :
    (iblk1 V c 6 t : Vec Ideal S1x128 .f32) (ix2 (0 : Fin 1) u) = arrH V c (ix2 (0 : Fin 1) U) := by
  obtain ⟨-, -, -, -, e0, e1, -, -⟩ := tileIdx_facts t
  unfold iblk1
  rw [View.read_apply]
  show V c main_v3 _ = V c main_v3 _
  congr 1
  funext a
  apply Fin.ext
  match a with
  | ⟨0, _⟩ => show win1_6.index t (0 : Fin 2) * 1 + 1 * 0 = 0; rw [e0]
  | ⟨1, _⟩ => show win1_6.index t (1 : Fin 2) * 128 + 1 * u.val = U.val; rw [e1, hU]; omega

/-! ## One point's stored tile, over blocks that are such restrictions of arrays -/

/-- If the seven blocks are the arrays read at the units `128 tv + u`, the stored tile at `y` is the cell's formula
    of the arrays at the unit `J = 128 tv + y 1`. -/
theorem gruStore_block (X H : S1x4096.Idx → Elt Ideal .f32) (Wi Wh : S3x4096x4096.Idx → Elt Ideal .f32)
    (Bi Bh : S3x4096.Idx → Elt Ideal .f32)
    (x0 x1 : Vec Ideal S1x4096 .f32) (x2 x3 : Vec Ideal S3x128x4096 .f32) (x4 x5 : Vec Ideal S3x128 .f32)
    (x6 : Vec Ideal S1x128 .f32) (tv : Nat) (y : S1x128.Idx) (J : Fin 4096) (hJ : J.val = 128 * tv + (y 1).val)
    (h0 : ∀ k : Fin 4096, x0 (ix2 (0 : Fin 1) k) = X (ix2 (0 : Fin 1) k))
    (h1 : ∀ k : Fin 4096, x1 (ix2 (0 : Fin 1) k) = H (ix2 (0 : Fin 1) k))
    (h2 : ∀ (g : Fin 3) (u : Fin 128) (k : Fin 4096) (U : Fin 4096), U.val = 128 * tv + u.val →
      x2 (ix3 g u k) = Wi (ix3 g U k))
    (h3 : ∀ (g : Fin 3) (u : Fin 128) (k : Fin 4096) (U : Fin 4096), U.val = 128 * tv + u.val →
      x3 (ix3 g u k) = Wh (ix3 g U k))
    (h4 : ∀ (g : Fin 3) (u : Fin 128) (U : Fin 4096), U.val = 128 * tv + u.val → x4 (ix2 g u) = Bi (ix2 g U))
    (h5 : ∀ (g : Fin 3) (u : Fin 128) (U : Fin 4096), U.val = 128 * tv + u.val → x5 (ix2 g u) = Bh (ix2 g U))
    (h6 : ∀ (u : Fin 128) (U : Fin 4096), U.val = 128 * tv + u.val → x6 (ix2 (0 : Fin 1) u) = H (ix2 (0 : Fin 1) U)) :
    gruStore (F := Ideal) x0 x1 x2 x3 x4 x5 x6 y
      = Cert.GruSpec.gruCell (Ideal.ofBits .f32 0x3F800000#32)
          (fun k => X (ix2 (0 : Fin 1) k)) (fun k => H (ix2 (0 : Fin 1) k))
          (fun g k => Wi (ix3 g J k)) (fun g k => Wh (ix3 g J k))
          (fun g => Bi (ix2 g J)) (fun g => Bh (ix2 g J)) (H (ix2 (0 : Fin 1) J)) := by
  obtain ⟨p, u, rfl⟩ : ∃ (p : Fin 1) (u : Fin 128), y = ix2 p u := ⟨y 0, y 1, eq_ix2 y⟩
  obtain rfl : p = 0 := Subsingleton.elim _ _
  have hu : J.val = 128 * tv + u.val := hJ
  rw [gruStore_apply,
    show (fun k => x0 (ix2 (0 : Fin 1) k)) = fun k => X (ix2 (0 : Fin 1) k) from funext h0,
    show (fun k => x1 (ix2 (0 : Fin 1) k)) = fun k => H (ix2 (0 : Fin 1) k) from funext h1,
    show (fun g k => x2 (ix3 g u k)) = fun g k => Wi (ix3 g J k) from funext fun g => funext fun k => h2 g u k J hu,
    show (fun g k => x3 (ix3 g u k)) = fun g k => Wh (ix3 g J k) from funext fun g => funext fun k => h3 g u k J hu,
    show (fun g => x4 (ix2 g u)) = fun g => Bi (ix2 g J) from funext fun g => h4 g u J hu,
    show (fun g => x5 (ix2 g u)) = fun g => Bh (ix2 g J) from funext fun g => h5 g u J hu,
    h6 u J hu]

/-! ## What a point writes back, the cover, the array -/

/-- WHAT POINT `t` WRITES BACK is its tile of the row `gruArr`. -/
theorem gruFlushed_eq
    (hstore : ∀ (x0 x1 : Vec Ideal S1x4096 .f32) (x2 x3 : Vec Ideal S3x128x4096 .f32) (x4 x5 : Vec Ideal S3x128 .f32)
      (x6 : Vec Ideal S1x128 .f32),
      Cert.KernelIdeal.Reg.out1_7 (F := Ideal) x0 x1 x2 x3 x4 x5 x6 = gruStore (F := Ideal) x0 x1 x2 x3 x4 x5 x6)
    (c : Dev nD) (t : Fin cfg1.N) :
    (dat1 V c).flushed 7 t = ((cfg1.win 7).blk t).view.read (Elt Ideal) (gruArr V c) := by
  show (cfg1.win 7).cut (grid1.coords t) ((dat1 V c).after 7 t) = _
  rw [after1_7, hstore]
  obtain ⟨-, -, -, -, -, -, e0, e1⟩ := tileIdx_facts t
  have ht : t.val < 32 := lt_of_lt_of_eq t.isLt N_1
  funext y
  have hy : (y 1).val < 128 := (y 1).isLt
  rw [View.read_apply]
  show gruStore (F := Ideal) (iblk1 V c 0 t) (iblk1 V c 1 t) (iblk1 V c 2 t) (iblk1 V c 3 t) (iblk1 V c 4 t)
      (iblk1 V c 5 t) (iblk1 V c 6 t) y = gruArr V c (((cfg1.win 7).blk t).view.emb y)
  refine (gruStore_block (arrX V c) (arrH V c) (arrWi V c) (arrWh V c) (arrBi V c) (arrBh V c) _ _ _ _ _ _ _ t.val y
    ⟨128 * t.val + (y 1).val, by omega⟩ rfl (iblk1_0_apply V c t) (iblk1_1_apply V c t) (iblk1_2_apply V c t)
    (iblk1_3_apply V c t) (iblk1_4_apply V c t) (iblk1_5_apply V c t) (iblk1_6_apply V c t)).trans ?_
  show gruAt V c _ = gruAt V c _
  congr 1
  apply Fin.ext
  show 128 * t.val + (y 1).val = win1_7.index t (1 : Fin 2) * 128 + 1 * (y 1).val
  rw [e1]; omega

/-- An entry of the row is in point `t`'s tile iff each coordinate is in the tile's range on its axis. -/
theorem mem_gruTile (t : Fin cfg1.N) (i : S1x4096.Idx) :
    i ∈ ((cfg1.win 7).blk t).view.set ↔ ∀ a : Fin 2, win1_7.index t a * S1x128.size a ≤ (i a).val
      ∧ (i a).val < win1_7.index t a * S1x128.size a + S1x128.size a := by
  show i ∈ ((View.whole main_v10).slice (win1_7.rect t)).set ↔ _
  rw [View.set_slice_whole, Rect.mem_set_unit]
  exact Iff.rfl

/-- Every entry of the row is in some point's tile: entry `(0, J)` in point `J / 128`'s. -/
theorem gruCover (i : S1x4096.Idx) :
    ∃ t : Fin cfg1.N, (cfg1.win 7).flush t = true ∧ i ∈ ((cfg1.win 7).blk t).view.set := by
  have hi0 : (i 0).val < 1 := (i 0).isLt
  have hi1 : (i 1).val < 4096 := (i 1).isLt
  have hN : cfg1.N = 32 := N_1
  refine ⟨⟨(i 1).val / 128, by rw [hN]; omega⟩, flush1_7 _, ?_⟩
  obtain ⟨-, -, -, -, -, -, e0, e1⟩ := tileIdx_facts ⟨(i 1).val / 128, by rw [hN]; omega⟩
  rw [mem_gruTile]
  intro a
  match a with
  | ⟨0, _⟩ =>
    show win1_7.index _ (0 : Fin 2) * 1 ≤ (i 0).val ∧ (i 0).val < win1_7.index _ (0 : Fin 2) * 1 + 1
    rw [e0]; omega
  | ⟨1, _⟩ =>
    show win1_7.index _ (1 : Fin 2) * 128 ≤ (i 1).val ∧ (i 1).val < win1_7.index _ (1 : Fin 2) * 128 + 128
    rw [e1]
    show (i 1).val / 128 * 128 ≤ (i 1).val ∧ (i 1).val < (i 1).val / 128 * 128 + 128
    omega

/-- THE ROW after the launch's 32 points. -/
theorem gruFinal
    (hstore : ∀ (x0 x1 : Vec Ideal S1x4096 .f32) (x2 x3 : Vec Ideal S3x128x4096 .f32) (x4 x5 : Vec Ideal S3x128 .f32)
      (x6 : Vec Ideal S1x128 .f32),
      Cert.KernelIdeal.Reg.out1_7 (F := Ideal) x0 x1 x2 x3 x4 x5 x6 = gruStore (F := Ideal) x0 x1 x2 x3 x4 x5 x6)
    (c : Dev nD) : (dat1 V c).arrAt 7 cfg1.N = gruArr V c :=
  (dat1 V c).arrAt_eq_of_cover 7 (gruArr V c) (fun t _ => gruFlushed_eq V hstore c t) gruCover

/-- Entry by entry: unit `J`'s new state. -/
theorem gruArr_apply
    (hstore : ∀ (x0 x1 : Vec Ideal S1x4096 .f32) (x2 x3 : Vec Ideal S3x128x4096 .f32) (x4 x5 : Vec Ideal S3x128 .f32)
      (x6 : Vec Ideal S1x128 .f32),
      Cert.KernelIdeal.Reg.out1_7 (F := Ideal) x0 x1 x2 x3 x4 x5 x6 = gruStore (F := Ideal) x0 x1 x2 x3 x4 x5 x6)
    (c : Dev nD) (J : Fin 4096) : (dat1 V c).arrAt 7 cfg1.N (ix2 (0 : Fin 1) J) = gruAt V c J := by
  rw [gruFinal V hstore c]
  rfl

end Cert.KernelIdeal.Val

end
-- ==== Proof.KI.ValGruB.lean ====
/-
  The second recurrent layer's stored block at the ideal instance, entry by entry: the part of the value module
  that names the layer's payloads, over the shared lemmas of ValGru.lean (the blocks read at an index, the row
  times a transposed matrix, the cell from its six pre-activations).
-/
import proofs.«417261_j67628555043381_3_alg».proof.Proof.KI.ValGru

noncomputable section

open scoped BigOperators

namespace Cert.KernelIdeal.Val

open Idealize.ShloMosaic Idealize.ShloMosaic.ValueIdx Cert.KernelIdeal Cert.KernelIdeal.Gen

/-! ## The second recurrent layer's stored block -/

section Layer
variable {F : FTy → Type} [FloatOps F]

/-- The block the body stores, of the seven blocks it loads: the input row `x0`, the state row `x1`, the
    input-side and state-side gate slabs `x2`, `x3`, their bias rows `x4`, `x5`, and the point's own 128 state
    entries `x6`. -/
def gruStore2 (x0 x1 : Vec F S1x4096 .f32) (x2 x3 : Vec F S3x128x4096 .f32) (x4 x5 : Vec F S3x128 .f32)
    (x6 : Vec F S1x128 .f32) : FVec F S1x128 .f32 :=
  k2_pay1 (k2_pay3 x1) (k2_pay5 x3) (k2_pay7 x5) (k2_pay8 x6) (k2_pay9 x0 x2 x4) (k2_pay10 x0 x2 x4)
    (k2_pay11 x0 x2 x4) (k2_pay12 x1 x3 x5) (k2_pay13 x3)

/-- The state side's update-gate pre-activation block, as the body forms it from the narrowed state row, the
    gate-1 matrix and row 1 of the bias. -/
def k2_hz (x1 : Vec F S1x4096 .f32) (x3 : Vec F S3x128x4096 .f32) (x5 : Vec F S3x128 .f32) : FVec F S1x128 .f32 :=
  addf (matmul dot_S1x4096_S128x4096_S1x128_1_1_0_0_n_n none (k2_pay3 x1)
      (shapeCast S128x4096 (k2_pay13 x3) shapeCasts_S1x128x4096_S128x4096) (constant S1x128 .f32 0x00000000#32))
    (extractStridedSlice S1x128 ![1, 0] (k2_pay7 x5) slices_S3x128_o1_0_S1x128)

/-- The state side's candidate pre-activation block: gate 2 of the narrowed slab as a matrix, row 2 of the bias. -/
def k2_hn (x1 : Vec F S1x4096 .f32) (x3 : Vec F S3x128x4096 .f32) (x5 : Vec F S3x128 .f32) : FVec F S1x128 .f32 :=
  addf (matmul dot_S1x4096_S128x4096_S1x128_1_1_0_0_n_n none (k2_pay3 x1)
      (shapeCast S128x4096
        (extractStridedSlice S1x128x4096 ![2, 0, 0] (k2_pay5 x3) slices_S3x128x4096_o2_0_0_S1x128x4096)
        shapeCasts_S1x128x4096_S128x4096) (constant S1x128 .f32 0x00000000#32))
    (extractStridedSlice S1x128 ![2, 0] (k2_pay7 x5) slices_S3x128_o2_0_S1x128)

end Layer

/-- The input side's reset-gate pre-activation at column `j`. -/
theorem k2_pay9_apply (x0 : Vec Ideal S1x4096 .f32) (x2 : Vec Ideal S3x128x4096 .f32) (x4 : Vec Ideal S3x128 .f32)
    (j : Fin 128) :
    k2_pay9 (F := Ideal) x0 x2 x4 (ix2 (0 : Fin 1) j)
      = Cert.GruSpec.pre (fun k => x0 (ix2 (0 : Fin 1) k)) (fun k => x2 (ix3 (0 : Fin 3) j k)) (x4 (ix2 (0 : Fin 3) j)) := by
  unfold k2_pay9 k2_pay2 k2_pay4 k2_pay6
  exact rowGate_apply 0 0 rfl x0 x2 x4 _ _ _ _ _ _ _ j

/-- The input side's update-gate pre-activation at column `j`. -/
theorem k2_pay10_apply (x0 : Vec Ideal S1x4096 .f32) (x2 : Vec Ideal S3x128x4096 .f32) (x4 : Vec Ideal S3x128 .f32)
    (j : Fin 128) :
    k2_pay10 (F := Ideal) x0 x2 x4 (ix2 (0 : Fin 1) j)
      = Cert.GruSpec.pre (fun k => x0 (ix2 (0 : Fin 1) k)) (fun k => x2 (ix3 (1 : Fin 3) j k)) (x4 (ix2 (1 : Fin 3) j)) := by
  unfold k2_pay10 k2_pay2 k2_pay4 k2_pay6
  exact rowGate_apply 1 1 rfl x0 x2 x4 _ _ _ _ _ _ _ j

/-- The input side's candidate pre-activation at column `j`. -/
theorem k2_pay11_apply (x0 : Vec Ideal S1x4096 .f32) (x2 : Vec Ideal S3x128x4096 .f32) (x4 : Vec Ideal S3x128 .f32)
    (j : Fin 128) :
    k2_pay11 (F := Ideal) x0 x2 x4 (ix2 (0 : Fin 1) j)
      = Cert.GruSpec.pre (fun k => x0 (ix2 (0 : Fin 1) k)) (fun k => x2 (ix3 (2 : Fin 3) j k)) (x4 (ix2 (2 : Fin 3) j)) := by
  unfold k2_pay11 k2_pay2 k2_pay4 k2_pay6
  exact rowGate_apply 2 2 rfl x0 x2 x4 _ _ _ _ _ _ _ j

/-- The state side's reset-gate pre-activation at column `j`. -/
theorem k2_pay12_apply (x1 : Vec Ideal S1x4096 .f32) (x3 : Vec Ideal S3x128x4096 .f32) (x5 : Vec Ideal S3x128 .f32)
    (j : Fin 128) :
    k2_pay12 (F := Ideal) x1 x3 x5 (ix2 (0 : Fin 1) j)
      = Cert.GruSpec.pre (fun k => x1 (ix2 (0 : Fin 1) k)) (fun k => x3 (ix3 (0 : Fin 3) j k)) (x5 (ix2 (0 : Fin 3) j)) := by
  unfold k2_pay12 k2_pay3 k2_pay5 k2_pay7
  exact rowGate_apply 0 0 rfl x1 x3 x5 _ _ _ _ _ _ _ j

/-- The state side's update-gate pre-activation at column `j`. -/
theorem k2_hz_apply (x1 : Vec Ideal S1x4096 .f32) (x3 : Vec Ideal S3x128x4096 .f32) (x5 : Vec Ideal S3x128 .f32)
    (j : Fin 128) :
    k2_hz (F := Ideal) x1 x3 x5 (ix2 (0 : Fin 1) j)
      = Cert.GruSpec.pre (fun k => x1 (ix2 (0 : Fin 1) k)) (fun k => x3 (ix3 (1 : Fin 3) j k)) (x5 (ix2 (1 : Fin 3) j)) := by
  unfold k2_hz k2_pay13 k2_pay3 k2_pay5 k2_pay7
  exact rowGate_apply 1 1 rfl x1 x3 x5 _ _ _ _ _ _ _ j

/-- The state side's candidate pre-activation at column `j`. -/
theorem k2_hn_apply (x1 : Vec Ideal S1x4096 .f32) (x3 : Vec Ideal S3x128x4096 .f32) (x5 : Vec Ideal S3x128 .f32)
    (j : Fin 128) :
    k2_hn (F := Ideal) x1 x3 x5 (ix2 (0 : Fin 1) j)
      = Cert.GruSpec.pre (fun k => x1 (ix2 (0 : Fin 1) k)) (fun k => x3 (ix3 (2 : Fin 3) j k)) (x5 (ix2 (2 : Fin 3) j)) := by
  unfold k2_hn k2_pay3 k2_pay5 k2_pay7
  exact rowGate_apply 2 2 rfl x1 x3 x5 _ _ _ _ _ _ _ j

/-- The point's own state entries pass through unchanged. -/
theorem k2_pay8_apply (x6 : Vec Ideal S1x128 .f32) (j : Fin 128) :
    k2_pay8 (F := Ideal) x6 (ix2 (0 : Fin 1) j) = x6 (ix2 (0 : Fin 1) j) := by
  unfold k2_pay8
  rw [shapeCast_self]

/-- The stored block at column `j` is the cell of the six pre-activation blocks at `j`: every operation after
    them acts entry by entry. -/
theorem gruStore_cellOf2 (x0 x1 : Vec Ideal S1x4096 .f32) (x2 x3 : Vec Ideal S3x128x4096 .f32)
    (x4 x5 : Vec Ideal S3x128 .f32) (x6 : Vec Ideal S1x128 .f32) (j : Fin 128) :
    gruStore2 (F := Ideal) x0 x1 x2 x3 x4 x5 x6 (ix2 (0 : Fin 1) j)
      = cellOf (Ideal.ofBits .f32 0x3F800000#32)
          (k2_pay9 (F := Ideal) x0 x2 x4 (ix2 (0 : Fin 1) j)) (k2_pay10 (F := Ideal) x0 x2 x4 (ix2 (0 : Fin 1) j))
          (k2_pay11 (F := Ideal) x0 x2 x4 (ix2 (0 : Fin 1) j)) (k2_pay12 (F := Ideal) x1 x3 x5 (ix2 (0 : Fin 1) j))
          (k2_hz (F := Ideal) x1 x3 x5 (ix2 (0 : Fin 1) j)) (k2_hn (F := Ideal) x1 x3 x5 (ix2 (0 : Fin 1) j))
          (k2_pay8 (F := Ideal) x6 (ix2 (0 : Fin 1) j)) := rfl

/-- THE STORED BLOCK, column by column: the cell's formula of the seven loaded blocks, each read at its
    coordinates — the rows at `(0, k)`, the slabs at `(gate, j, k)`, the biases at `(gate, j)`, the own state at
    `(0, j)`. -/
theorem gruStore_apply2 (x0 x1 : Vec Ideal S1x4096 .f32) (x2 x3 : Vec Ideal S3x128x4096 .f32)
    (x4 x5 : Vec Ideal S3x128 .f32) (x6 : Vec Ideal S1x128 .f32) (j : Fin 128) :
    gruStore2 (F := Ideal) x0 x1 x2 x3 x4 x5 x6 (ix2 (0 : Fin 1) j)
      = Cert.GruSpec.gruCell (Ideal.ofBits .f32 0x3F800000#32)
          (fun k => x0 (ix2 (0 : Fin 1) k)) (fun k => x1 (ix2 (0 : Fin 1) k))
          (fun g k => x2 (ix3 g j k)) (fun g k => x3 (ix3 g j k))
          (fun g => x4 (ix2 g j)) (fun g => x5 (ix2 g j)) (x6 (ix2 (0 : Fin 1) j)) := by
  rw [gruStore_cellOf2, gruCell_eq_cellOf, k2_pay9_apply, k2_pay10_apply, k2_pay11_apply, k2_pay12_apply,
    k2_hz_apply, k2_hn_apply, k2_pay8_apply]

end Cert.KernelIdeal.Val

end
-- ==== Proof.KI.ValGruArrB.lean ====
/-
  From the blocks to the array, for the second recurrent layer's launch: after its 32 grid points the output
  row holds, at every hidden unit J, the cell's formula of the arrays the launch found.

  Grid point t works on units 128 t .. 128 t + 127. The two rows x and h are the same block at every point;
  the gate slabs and bias rows of point t are rows (columns) 128 t .. 128 t + 127 of their arrays' unit axis;
  the point's own state entries and its output tile are columns 128 t .. 128 t + 127 of h and of the output row.
  So the tile point t writes back is, entry by entry, one function of the arrays read at unit 128 t + u, and the 32
  tiles cover the row.
-/
import proofs.«417261_j67628555043381_3_alg».proof.Proof.KI.ValGruB
import proofs.«417261_j67628555043381_3_alg».proof.Proof.KI.GruB
import Idealize.ShloMosaic.Lib.Pipeline.Value

set_option maxRecDepth 16384

noncomputable section

open scoped BigOperators

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Reg

variable (V : (c : Dev nD) → (b : Ref sig .tc) → Buf (Elt Ideal) ((c : Thread nD τ).loc b))

/-! ## The arrays, and the row the launch leaves -/

/-- The arrays the launch reads, each at its literal shape: the input row, the state row, the input-side and
    state-side weights (gate, unit, input), the two biases (gate, unit). -/
abbrev arrX2 (c : Dev nD) : S1x4096.Idx → Elt Ideal .f32 := V c main_v10
abbrev arrH2 (c : Dev nD) : S1x4096.Idx → Elt Ideal .f32 := V c main_v5
abbrev arrWi2 (c : Dev nD) : S3x4096x4096.Idx → Elt Ideal .f32 := V c main_v11
abbrev arrWh2 (c : Dev nD) : S3x4096x4096.Idx → Elt Ideal .f32 := V c main_v12
abbrev arrBi2 (c : Dev nD) : S3x4096.Idx → Elt Ideal .f32 := V c main_v13
abbrev arrBh2 (c : Dev nD) : S3x4096.Idx → Elt Ideal .f32 := V c main_v14

/-- The new state of hidden unit `J`: the cell's formula of the two rows, the unit's three weight rows and biases
    on each side, and the unit's old state. -/
def gruAt2 (c : Dev nD) (J : Fin 4096) : EReal :=
  Cert.GruSpec.gruCell (Ideal.ofBits .f32 0x3F800000#32)
    (fun k => arrX2 V c (ix2 (0 : Fin 1) k)) (fun k => arrH2 V c (ix2 (0 : Fin 1) k))
    (fun g k => arrWi2 V c (ix3 g J k)) (fun g k => arrWh2 V c (ix3 g J k))
    (fun g => arrBi2 V c (ix2 g J)) (fun g => arrBh2 V c (ix2 g J)) (arrH2 V c (ix2 (0 : Fin 1) J))

/-- The whole output row: entry `(0, J)` is unit `J`'s new state. -/
def gruArr2 (c : Dev nD) : S1x4096.Idx → Elt Ideal .f32 := fun i => gruAt2 V c ⟨(i 1).val, idx2_lt1 i⟩

/-! ## Where each window's block sits at point `t` -/

/-- The two rows' block index is (0, 0) at every point. -/
theorem rowIdx_facts2 : ∀ t : Fin cfg2.N, win2_0.index t (0 : Fin 2) = 0 ∧ win2_0.index t (1 : Fin 2) = 0
    ∧ win2_1.index t (0 : Fin 2) = 0 ∧ win2_1.index t (1 : Fin 2) = 0 :=
  (by decide +kernel : ∀ t : Fin grid2.N, _)

/-- The slabs' block index is (0, t, 0). -/
theorem slabIdx_facts2 : ∀ t : Fin cfg2.N, win2_2.index t (0 : Fin 3) = 0 ∧ win2_2.index t (1 : Fin 3) = t.val
    ∧ win2_2.index t (2 : Fin 3) = 0 ∧ win2_3.index t (0 : Fin 3) = 0 ∧ win2_3.index t (1 : Fin 3) = t.val
    ∧ win2_3.index t (2 : Fin 3) = 0 :=
  (by decide +kernel : ∀ t : Fin grid2.N, _)

/-- The biases', the own state's and the output tile's block index is (0, t). -/
theorem tileIdx_facts2 : ∀ t : Fin cfg2.N, win2_4.index t (0 : Fin 2) = 0 ∧ win2_4.index t (1 : Fin 2) = t.val
    ∧ win2_5.index t (0 : Fin 2) = 0 ∧ win2_5.index t (1 : Fin 2) = t.val
    ∧ win2_6.index t (0 : Fin 2) = 0 ∧ win2_6.index t (1 : Fin 2) = t.val
    ∧ win2_7.index t (0 : Fin 2) = 0 ∧ win2_7.index t (1 : Fin 2) = t.val :=
  (by decide +kernel : ∀ t : Fin grid2.N, _)

/-! ## Each input block, read off its array -/

/-- The input row's block is the input row. -/
theorem iblk1_0_apply2 (c : Dev nD) (t : Fin cfg2.N) (k : Fin 4096) :
    (iblk2 V c 0 t : Vec Ideal S1x4096 .f32) (ix2 (0 : Fin 1) k) = arrX2 V c (ix2 (0 : Fin 1) k) := by
  obtain ⟨e0, e1, -, -⟩ := rowIdx_facts2 t
  unfold iblk2
  rw [View.read_apply]
  show V c main_v10 _ = V c main_v10 _
  congr 1
  funext a
  apply Fin.ext
  match a with
  | ⟨0, _⟩ => show win2_0.index t (0 : Fin 2) * 1 + 1 * 0 = 0; rw [e0]
  | ⟨1, _⟩ => show win2_0.index t (1 : Fin 2) * 4096 + 1 * k.val = k.val; rw [e1]; omega

/-- The state row's block is the state row. -/
theorem iblk1_1_apply2 (c : Dev nD) (t : Fin cfg2.N) (k : Fin 4096) :
    (iblk2 V c 1 t : Vec Ideal S1x4096 .f32) (ix2 (0 : Fin 1) k) = arrH2 V c (ix2 (0 : Fin 1) k) := by
  obtain ⟨-, -, e0, e1⟩ := rowIdx_facts2 t
  unfold iblk2
  rw [View.read_apply]
  show V c main_v5 _ = V c main_v5 _
  congr 1
  funext a
  apply Fin.ext
  match a with
  | ⟨0, _⟩ => show win2_1.index t (0 : Fin 2) * 1 + 1 * 0 = 0; rw [e0]
  | ⟨1, _⟩ => show win2_1.index t (1 : Fin 2) * 4096 + 1 * k.val = k.val; rw [e1]; omega

/-- Row `u` of a gate of the input-side slab at point `t` is unit `128 t + u`'s weight row of that gate. -/
theorem iblk1_2_apply2 (c : Dev nD) (t : Fin cfg2.N) (g : Fin 3) (u : Fin 128) (k : Fin 4096) (U : Fin 4096)
    (hU : U.val = 128 * t.val + u.val) :
    (iblk2 V c 2 t : Vec Ideal S3x128x4096 .f32) (ix3 g u k) = arrWi2 V c (ix3 g U k) := by
  obtain ⟨e0, e1, e2, -, -, -⟩ := slabIdx_facts2 t
  unfold iblk2
  rw [View.read_apply]
  show V c main_v11 _ = V c main_v11 _
  congr 1
  funext a
  apply Fin.ext
  match a with
  | ⟨0, _⟩ => show win2_2.index t (0 : Fin 3) * 3 + 1 * g.val = g.val; rw [e0]; omega
  | ⟨1, _⟩ => show win2_2.index t (1 : Fin 3) * 128 + 1 * u.val = U.val; rw [e1, hU]; omega
  | ⟨2, _⟩ => show win2_2.index t (2 : Fin 3) * 4096 + 1 * k.val = k.val; rw [e2]; omega

/-- The same of the state-side slab. -/
theorem iblk1_3_apply2 (c : Dev nD) (t : Fin cfg2.N) (g : Fin 3) (u : Fin 128) (k : Fin 4096) (U : Fin 4096)
    (hU : U.val = 128 * t.val + u.val) :
    (iblk2 V c 3 t : Vec Ideal S3x128x4096 .f32) (ix3 g u k) = arrWh2 V c (ix3 g U k) := by
  obtain ⟨-, -, -, e0, e1, e2⟩ := slabIdx_facts2 t
  unfold iblk2
  rw [View.read_apply]
  show V c main_v12 _ = V c main_v12 _
  congr 1
  funext a
  apply Fin.ext
  match a with
  | ⟨0, _⟩ => show win2_3.index t (0 : Fin 3) * 3 + 1 * g.val = g.val; rw [e0]; omega
  | ⟨1, _⟩ => show win2_3.index t (1 : Fin 3) * 128 + 1 * u.val = U.val; rw [e1, hU]; omega
  | ⟨2, _⟩ => show win2_3.index t (2 : Fin 3) * 4096 + 1 * k.val = k.val; rw [e2]; omega

/-- Entry `u` of a gate of the input-side bias block at point `t` is unit `128 t + u`'s bias of that gate. -/
theorem iblk1_4_apply2 (c : Dev nD) (t : Fin cfg2.N) (g : Fin 3) (u : Fin 128) (U : Fin 4096)
    (hU : U.val = 128 * t.val + u.val) :
    (iblk2 V c 4 t : Vec Ideal S3x128 .f32) (ix2 g u) = arrBi2 V c (ix2 g U) := by
  obtain ⟨e0, e1, -, -, -, -, -, -⟩ := tileIdx_facts2 t
  unfold iblk2
  rw [View.read_apply]
  show V c main_v13 _ = V c main_v13 _
  congr 1
  funext a
  apply Fin.ext
  match a with
  | ⟨0, _⟩ => show win2_4.index t (0 : Fin 2) * 3 + 1 * g.val = g.val; rw [e0]; omega
  | ⟨1, _⟩ => show win2_4.index t (1 : Fin 2) * 128 + 1 * u.val = U.val; rw [e1, hU]; omega

/-- The same of the state-side bias block. -/
theorem iblk1_5_apply2 (c : Dev nD) (t : Fin cfg2.N) (g : Fin 3) (u : Fin 128) (U : Fin 4096)
    (hU : U.val = 128 * t.val + u.val) :
    (iblk2 V c 5 t : Vec Ideal S3x128 .f32) (ix2 g u) = arrBh2 V c (ix2 g U) := by
  obtain ⟨-, -, e0, e1, -, -, -, -⟩ := tileIdx_facts2 t
  unfold iblk2
  rw [View.read_apply]
  show V c main_v14 _ = V c main_v14 _
  congr 1
  funext a
  apply Fin.ext
  match a with
  | ⟨0, _⟩ => show win2_5.index t (0 : Fin 2) * 3 + 1 * g.val = g.val; rw [e0]; omega
  | ⟨1, _⟩ => show win2_5.index t (1 : Fin 2) * 128 + 1 * u.val = U.val; rw [e1, hU]; omega

/-- Entry `u` of the point's own state tile is unit `128 t + u`'s old state. -/
theorem iblk1_6_apply2 (c : Dev nD) (t : Fin cfg2.N) (u : Fin 128) (U : Fin 4096) (hU : U.val = 128 * t.val + u.val) :
    (iblk2 V c 6 t : Vec Ideal S1x128 .f32) (ix2 (0 : Fin 1) u) = arrH2 V c (ix2 (0 : Fin 1) U) := by
  obtain ⟨-, -, -, -, e0, e1, -, -⟩ := tileIdx_facts2 t
  unfold iblk2
  rw [View.read_apply]
  show V c main_v5 _ = V c main_v5 _
  congr 1
  funext a
  apply Fin.ext
  match a with
  | ⟨0, _⟩ => show win2_6.index t (0 : Fin 2) * 1 + 1 * 0 = 0; rw [e0]
  | ⟨1, _⟩ => show win2_6.index t (1 : Fin 2) * 128 + 1 * u.val = U.val; rw [e1, hU]; omega

/-! ## One point's stored tile, over blocks that are such restrictions of arrays -/

/-- If the seven blocks are the arrays read at the units `128 tv + u`, the stored tile at `y` is the cell's formula
    of the arrays at the unit `J = 128 tv + y 1`. -/
theorem gruStore_block2 (X H : S1x4096.Idx → Elt Ideal .f32) (Wi Wh : S3x4096x4096.Idx → Elt Ideal .f32)
    (Bi Bh : S3x4096.Idx → Elt Ideal .f32)
    (x0 x1 : Vec Ideal S1x4096 .f32) (x2 x3 : Vec Ideal S3x128x4096 .f32) (x4 x5 : Vec Ideal S3x128 .f32)
    (x6 : Vec Ideal S1x128 .f32) (tv : Nat) (y : S1x128.Idx) (J : Fin 4096) (hJ : J.val = 128 * tv + (y 1).val)
    (h0 : ∀ k : Fin 4096, x0 (ix2 (0 : Fin 1) k) = X (ix2 (0 : Fin 1) k))
    (h1 : ∀ k : Fin 4096, x1 (ix2 (0 : Fin 1) k) = H (ix2 (0 : Fin 1) k))
    (h2 : ∀ (g : Fin 3) (u : Fin 128) (k : Fin 4096) (U : Fin 4096), U.val = 128 * tv + u.val →
      x2 (ix3 g u k) = Wi (ix3 g U k))
    (h3 : ∀ (g : Fin 3) (u : Fin 128) (k : Fin 4096) (U : Fin 4096), U.val = 128 * tv + u.val →
      x3 (ix3 g u k) = Wh (ix3 g U k))
    (h4 : ∀ (g : Fin 3) (u : Fin 128) (U : Fin 4096), U.val = 128 * tv + u.val → x4 (ix2 g u) = Bi (ix2 g U))
    (h5 : ∀ (g : Fin 3) (u : Fin 128) (U : Fin 4096), U.val = 128 * tv + u.val → x5 (ix2 g u) = Bh (ix2 g U))
    (h6 : ∀ (u : Fin 128) (U : Fin 4096), U.val = 128 * tv + u.val → x6 (ix2 (0 : Fin 1) u) = H (ix2 (0 : Fin 1) U)) :
    gruStore2 (F := Ideal) x0 x1 x2 x3 x4 x5 x6 y
      = Cert.GruSpec.gruCell (Ideal.ofBits .f32 0x3F800000#32)
          (fun k => X (ix2 (0 : Fin 1) k)) (fun k => H (ix2 (0 : Fin 1) k))
          (fun g k => Wi (ix3 g J k)) (fun g k => Wh (ix3 g J k))
          (fun g => Bi (ix2 g J)) (fun g => Bh (ix2 g J)) (H (ix2 (0 : Fin 1) J)) := by
  obtain ⟨p, u, rfl⟩ : ∃ (p : Fin 1) (u : Fin 128), y = ix2 p u := ⟨y 0, y 1, eq_ix2 y⟩
  obtain rfl : p = 0 := Subsingleton.elim _ _
  have hu : J.val = 128 * tv + u.val := hJ
  rw [gruStore_apply2,
    show (fun k => x0 (ix2 (0 : Fin 1) k)) = fun k => X (ix2 (0 : Fin 1) k) from funext h0,
    show (fun k => x1 (ix2 (0 : Fin 1) k)) = fun k => H (ix2 (0 : Fin 1) k) from funext h1,
    show (fun g k => x2 (ix3 g u k)) = fun g k => Wi (ix3 g J k) from funext fun g => funext fun k => h2 g u k J hu,
    show (fun g k => x3 (ix3 g u k)) = fun g k => Wh (ix3 g J k) from funext fun g => funext fun k => h3 g u k J hu,
    show (fun g => x4 (ix2 g u)) = fun g => Bi (ix2 g J) from funext fun g => h4 g u J hu,
    show (fun g => x5 (ix2 g u)) = fun g => Bh (ix2 g J) from funext fun g => h5 g u J hu,
    h6 u J hu]

/-! ## What a point writes back, the cover, the array -/

/-- WHAT POINT `t` WRITES BACK is its tile of the row `gruArr2`. -/
theorem gruFlushed_eq2
    (hstore : ∀ (x0 x1 : Vec Ideal S1x4096 .f32) (x2 x3 : Vec Ideal S3x128x4096 .f32) (x4 x5 : Vec Ideal S3x128 .f32)
      (x6 : Vec Ideal S1x128 .f32),
      Cert.KernelIdeal.Reg.out2_7 (F := Ideal) x0 x1 x2 x3 x4 x5 x6 = gruStore2 (F := Ideal) x0 x1 x2 x3 x4 x5 x6)
    (c : Dev nD) (t : Fin cfg2.N) :
    (dat2 V c).flushed 7 t = ((cfg2.win 7).blk t).view.read (Elt Ideal) (gruArr2 V c) := by
  show (cfg2.win 7).cut (grid2.coords t) ((dat2 V c).after 7 t) = _
  rw [after2_7, hstore]
  obtain ⟨-, -, -, -, -, -, e0, e1⟩ := tileIdx_facts2 t
  have ht : t.val < 32 := lt_of_lt_of_eq t.isLt N_2
  funext y
  have hy : (y 1).val < 128 := (y 1).isLt
  rw [View.read_apply]
  show gruStore2 (F := Ideal) (iblk2 V c 0 t) (iblk2 V c 1 t) (iblk2 V c 2 t) (iblk2 V c 3 t) (iblk2 V c 4 t)
      (iblk2 V c 5 t) (iblk2 V c 6 t) y = gruArr2 V c (((cfg2.win 7).blk t).view.emb y)
  refine (gruStore_block2 (arrX2 V c) (arrH2 V c) (arrWi2 V c) (arrWh2 V c) (arrBi2 V c) (arrBh2 V c) _ _ _ _ _ _ _ t.val y
    ⟨128 * t.val + (y 1).val, by omega⟩ rfl (iblk1_0_apply2 V c t) (iblk1_1_apply2 V c t) (iblk1_2_apply2 V c t)
    (iblk1_3_apply2 V c t) (iblk1_4_apply2 V c t) (iblk1_5_apply2 V c t) (iblk1_6_apply2 V c t)).trans ?_
  show gruAt2 V c _ = gruAt2 V c _
  congr 1
  apply Fin.ext
  show 128 * t.val + (y 1).val = win2_7.index t (1 : Fin 2) * 128 + 1 * (y 1).val
  rw [e1]; omega

/-- An entry of the row is in point `t`'s tile iff each coordinate is in the tile's range on its axis. -/
theorem mem_gruTile2 (t : Fin cfg2.N) (i : S1x4096.Idx) :
    i ∈ ((cfg2.win 7).blk t).view.set ↔ ∀ a : Fin 2, win2_7.index t a * S1x128.size a ≤ (i a).val
      ∧ (i a).val < win2_7.index t a * S1x128.size a + S1x128.size a := by
  show i ∈ ((View.whole main_v15).slice (win2_7.rect t)).set ↔ _
  rw [View.set_slice_whole, Rect.mem_set_unit]
  exact Iff.rfl

/-- Every entry of the row is in some point's tile: entry `(0, J)` in point `J / 128`'s. -/
theorem gruCover2 (i : S1x4096.Idx) :
    ∃ t : Fin cfg2.N, (cfg2.win 7).flush t = true ∧ i ∈ ((cfg2.win 7).blk t).view.set := by
  have hi0 : (i 0).val < 1 := (i 0).isLt
  have hi1 : (i 1).val < 4096 := (i 1).isLt
  have hN : cfg2.N = 32 := N_2
  refine ⟨⟨(i 1).val / 128, by rw [hN]; omega⟩, flush2_7 _, ?_⟩
  obtain ⟨-, -, -, -, -, -, e0, e1⟩ := tileIdx_facts2 ⟨(i 1).val / 128, by rw [hN]; omega⟩
  rw [mem_gruTile2]
  intro a
  match a with
  | ⟨0, _⟩ =>
    show win2_7.index _ (0 : Fin 2) * 1 ≤ (i 0).val ∧ (i 0).val < win2_7.index _ (0 : Fin 2) * 1 + 1
    rw [e0]; omega
  | ⟨1, _⟩ =>
    show win2_7.index _ (1 : Fin 2) * 128 ≤ (i 1).val ∧ (i 1).val < win2_7.index _ (1 : Fin 2) * 128 + 128
    rw [e1]
    show (i 1).val / 128 * 128 ≤ (i 1).val ∧ (i 1).val < (i 1).val / 128 * 128 + 128
    omega

/-- THE ROW after the launch's 32 points. -/
theorem gruFinal2
    (hstore : ∀ (x0 x1 : Vec Ideal S1x4096 .f32) (x2 x3 : Vec Ideal S3x128x4096 .f32) (x4 x5 : Vec Ideal S3x128 .f32)
      (x6 : Vec Ideal S1x128 .f32),
      Cert.KernelIdeal.Reg.out2_7 (F := Ideal) x0 x1 x2 x3 x4 x5 x6 = gruStore2 (F := Ideal) x0 x1 x2 x3 x4 x5 x6)
    (c : Dev nD) : (dat2 V c).arrAt 7 cfg2.N = gruArr2 V c :=
  (dat2 V c).arrAt_eq_of_cover 7 (gruArr2 V c) (fun t _ => gruFlushed_eq2 V hstore c t) gruCover2

/-- Entry by entry: unit `J`'s new state. -/
theorem gruArr_apply2
    (hstore : ∀ (x0 x1 : Vec Ideal S1x4096 .f32) (x2 x3 : Vec Ideal S3x128x4096 .f32) (x4 x5 : Vec Ideal S3x128 .f32)
      (x6 : Vec Ideal S1x128 .f32),
      Cert.KernelIdeal.Reg.out2_7 (F := Ideal) x0 x1 x2 x3 x4 x5 x6 = gruStore2 (F := Ideal) x0 x1 x2 x3 x4 x5 x6)
    (c : Dev nD) (J : Fin 4096) : (dat2 V c).arrAt 7 cfg2.N (ix2 (0 : Fin 1) J) = gruAt2 V c J := by
  rw [gruFinal2 V hstore c]
  rfl

end Cert.KernelIdeal.Val

end
-- ==== Proof.KI.GruStore.lean ====
/-
  The block the first recurrent layer's body leaves in its output buffer is the stored block of the seven blocks
  it loads: the body's one store writes the whole output block, and each of its loads reads a whole input block
  from the block's origin, so nothing of the rectangles remains.
-/
import proofs.«417261_j67628555043381_3_alg».proof.Proof.KI.GruA
import proofs.«417261_j67628555043381_3_alg».proof.Proof.KI.ValGru
import Idealize.ShloMosaic.Lib.Pipeline.Value

noncomputable section

namespace Cert.KernelIdeal.Val

open Idealize.ShloMosaic Cert.KernelIdeal Cert.KernelIdeal.Gen

variable {F : FTy → Type} [FloatOps F]

/-- The origin of a rank-2 block, written coordinate by coordinate, is the all-zero offset. -/
theorem origin2 : (![0, 0] : Fin 2 → Nat) = fun _ => 0 :=
  funext fun a => match a with | ⟨0, _⟩ => rfl | ⟨1, _⟩ => rfl
/-- The origin of a rank-3 block likewise. -/
theorem origin3 : (![0, 0, 0] : Fin 3 → Nat) = fun _ => 0 :=
  funext fun a => match a with | ⟨0, _⟩ => rfl | ⟨1, _⟩ => rfl | ⟨2, _⟩ => rfl

/-- What the layer's body leaves in its output block is the stored block of the seven loaded blocks: the one
    store fills the whole block, so the block holds its payload; each load reads a whole block from its origin,
    so it reads the block itself. -/
theorem out1_7_eq_gruStore (x0 x1 : Vec F S1x4096 .f32) (x2 x3 : Vec F S3x128x4096 .f32) (x4 x5 : Vec F S3x128 .f32)
    (x6 : Vec F S1x128 .f32) :
    Cert.KernelIdeal.Reg.out1_7 x0 x1 x2 x3 x4 x5 x6 = gruStore x0 x1 x2 x3 x4 x5 x6 := by
  unfold Cert.KernelIdeal.Reg.out1_7 gruStore
  rw [View.canon_unit_zero origin2]
  simp only [View.ld_unit_zero (S := S1x4096) origin2, View.ld_unit_zero (S := S3x128x4096) origin3,
    View.ld_unit_zero (S := S3x128) origin2, View.ld_unit_zero (S := S1x128) origin2]

end Cert.KernelIdeal.Val

end
-- ==== Proof.KI.GruStoreB.lean ====
/-
  The block the second recurrent layer's body leaves in its output buffer is the stored block of the seven blocks
  it loads: the body's one store writes the whole output block, and each of its loads reads a whole input block
  from the block's origin, so nothing of the rectangles remains.
-/
import proofs.«417261_j67628555043381_3_alg».proof.Proof.KI.GruB
import proofs.«417261_j67628555043381_3_alg».proof.Proof.KI.ValGruB
import Idealize.ShloMosaic.Lib.Pipeline.Value

noncomputable section

namespace Cert.KernelIdeal.Val

open Idealize.ShloMosaic Cert.KernelIdeal Cert.KernelIdeal.Gen

variable {F : FTy → Type} [FloatOps F]

/-- The origin of a rank-2 block, written coordinate by coordinate, is the all-zero offset. -/
theorem origin22 : (![0, 0] : Fin 2 → Nat) = fun _ => 0 :=
  funext fun a => match a with | ⟨0, _⟩ => rfl | ⟨1, _⟩ => rfl
/-- The origin of a rank-3 block likewise. -/
theorem origin32 : (![0, 0, 0] : Fin 3 → Nat) = fun _ => 0 :=
  funext fun a => match a with | ⟨0, _⟩ => rfl | ⟨1, _⟩ => rfl | ⟨2, _⟩ => rfl

/-- What the layer's body leaves in its output block is the stored block of the seven loaded blocks: the one
    store fills the whole block, so the block holds its payload; each load reads a whole block from its origin,
    so it reads the block itself. -/
theorem out2_7_eq_gruStore2 (x0 x1 : Vec F S1x4096 .f32) (x2 x3 : Vec F S3x128x4096 .f32) (x4 x5 : Vec F S3x128 .f32)
    (x6 : Vec F S1x128 .f32) :
    Cert.KernelIdeal.Reg.out2_7 x0 x1 x2 x3 x4 x5 x6 = gruStore2 x0 x1 x2 x3 x4 x5 x6 := by
  unfold Cert.KernelIdeal.Reg.out2_7 gruStore2
  rw [View.canon_unit_zero origin22]
  simp only [View.ld_unit_zero (S := S1x4096) origin22, View.ld_unit_zero (S := S3x128x4096) origin32,
    View.ld_unit_zero (S := S3x128) origin22, View.ld_unit_zero (S := S1x128) origin22]

end Cert.KernelIdeal.Val

end
-- ==== Proof.KI.ValDec.lean ====
/-
  The decoder's launch, read as values over the extended reals.

  A grid point's body stores, at column j of its [1,128] tile, the hidden row against row j of the point's
  [128,4096] block of the decoder matrix, summed over the 4096 inputs, plus entry j of the point's bias tile:
  one pre-activation. The narrowing of the row and of the block to half precision changes no value here, the
  accumulator starts from zero, and the bias is added after the sum, as the body groups them.

  Point t of the two takes rows 128 t .. 128 t + 127 of the [256,4096] matrix and columns 128 t .. 128 t + 127
  of the [1,256] bias and of the [1,256] output; the hidden row is the same block at both points. The two
  tiles written back cover the output row, so after the launch entry v of the output is the hidden row against
  row v of the whole matrix plus entry v of the whole bias.
-/
import proofs.«417261_j67628555043381_3_alg».proof.Proof.KI.Dec
import proofs.«417261_j67628555043381_3_alg».proof.Proof.KI.ValGru
import proofs.«417261_j67628555043381_3_alg».proof.Proof.GruSpec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.ValueIdx Idealize.ShloMosaic.TcCoe
open Idealize.ShloMosaic.Pipeline (Dat)
open Cert.KernelIdeal Cert.KernelIdeal.Gen Cert.KernelIdeal.Reg

/-! ## One point's stored tile -/

/-- The zero offsets of a whole rank-2 block. -/
theorem off2_zero : (![0, 0] : Fin 2 → Nat) = fun _ => 0 := funext fun a => by fin_cases a <;> rfl

/-- THE STORED TILE, column by column: the row against row j of the block, plus the bias tile at j. -/
theorem decStore_apply (x0 : Vec Ideal S1x4096 .f32) (x1 : Vec Ideal S128x4096 .f32) (x2 : Vec Ideal S1x128 .f32)
    (j : Fin 128) :
    out3_3 (F := Ideal) x0 x1 x2 (ix2 (0 : Fin 1) j)
      = Cert.GruSpec.pre (fun k => x0 (ix2 (0 : Fin 1) k)) (fun k => x1 (ix2 j k)) (x2 (ix2 (0 : Fin 1) j)) := by
  unfold out3_3
  rw [View.canon_unit_zero off2_zero]
  simp only [View.ld_unit_zero (S := S1x4096) off2_zero, View.ld_unit_zero (S := S128x4096) off2_zero,
    View.ld_unit_zero (S := S1x128) off2_zero]
  unfold k3_pay1
  rw [shapeCast_self, shapeCast_self, addf_apply, rowMat_apply]
  rfl

/-! ## The output row after the launch -/

section Arr
variable (V : (c : Dev nD) → (b : Ref sig .tc) → Buf (Elt Ideal) ((c : Thread nD τ).loc b))

/-- The row the launch leaves in the output array, as one function of the three arrays it finds: entry i is the
    hidden row against row (i 1) of the matrix, plus the bias at (i 1). -/
def decRow (c : Dev nD) : S1x256.Idx → EReal := fun i =>
  Cert.GruSpec.pre (fun k => (V c main_v15 : S1x4096.Idx → EReal) (ix2 (0 : Fin 1) k))
    (fun k => (V c main_arg11 : S256x4096.Idx → EReal) (ix2 (i 1) k))
    ((V c main_v16 : S1x256.Idx → EReal) (ix2 (0 : Fin 1) (i 1)))

/-- Where the four windows' blocks sit at point t, over the two points: the hidden row's block does not move;
    the matrix's block is block t of rows; the bias's and the output's are block t of columns. -/
theorem blkAt : ∀ t : Fin cfg3.N,
    win3_0.index t (0 : Fin 2) = 0 ∧ win3_0.index t (1 : Fin 2) = 0
    ∧ win3_1.index t (0 : Fin 2) = t.val ∧ win3_1.index t (1 : Fin 2) = 0
    ∧ win3_2.index t (0 : Fin 2) = 0 ∧ win3_2.index t (1 : Fin 2) = t.val
    ∧ win3_3.index t (0 : Fin 2) = 0 ∧ win3_3.index t (1 : Fin 2) = t.val :=
  (by decide +kernel : ∀ t : Fin grid3.N, _)

/-- The hidden row's block at any point is the hidden row. -/
theorem rowBlk_apply (c : Dev nD) (t : Fin cfg3.N) (k : Fin 4096) :
    (iblk3 V c 0 t : S1x4096.Idx → EReal) (ix2 (0 : Fin 1) k) = (V c main_v15 : S1x4096.Idx → EReal) (ix2 (0 : Fin 1) k) := by
  obtain ⟨e00, e01, -⟩ := blkAt t
  unfold iblk3
  rw [View.read_apply]
  show (V c main_v15 : S1x4096.Idx → EReal) _ = (V c main_v15 : S1x4096.Idx → EReal) _
  congr 1
  funext a
  apply Fin.ext
  match a with
  | ⟨0, _⟩ => show win3_0.index t (0 : Fin 2) * 1 + 1 * 0 = 0; omega
  | ⟨1, _⟩ => show win3_0.index t (1 : Fin 2) * 4096 + 1 * k.val = k.val; omega

/-- Row q of the matrix's block at point t is row 128 t + q of the matrix. -/
theorem matBlk_apply (c : Dev nD) (t : Fin cfg3.N) (q : Fin 128) (k : Fin 4096) (r : Fin 256) (hr : r.val = 128 * t.val + q.val) :
    (iblk3 V c 1 t : S128x4096.Idx → EReal) (ix2 q k) = (V c main_arg11 : S256x4096.Idx → EReal) (ix2 r k) := by
  obtain ⟨-, -, e10, e11, -⟩ := blkAt t
  unfold iblk3
  rw [View.read_apply]
  show (V c main_arg11 : S256x4096.Idx → EReal) _ = (V c main_arg11 : S256x4096.Idx → EReal) _
  congr 1
  funext a
  apply Fin.ext
  match a with
  | ⟨0, _⟩ => show win3_1.index t (0 : Fin 2) * 128 + 1 * q.val = r.val; omega
  | ⟨1, _⟩ => show win3_1.index t (1 : Fin 2) * 4096 + 1 * k.val = k.val; omega

/-- Entry q of the bias's tile at point t is entry 128 t + q of the bias. -/
theorem biasBlk_apply (c : Dev nD) (t : Fin cfg3.N) (q : Fin 128) (r : Fin 256) (hr : r.val = 128 * t.val + q.val) :
    (iblk3 V c 2 t : S1x128.Idx → EReal) (ix2 (0 : Fin 1) q) = (V c main_v16 : S1x256.Idx → EReal) (ix2 (0 : Fin 1) r) := by
  obtain ⟨-, -, -, -, e20, e21, -⟩ := blkAt t
  unfold iblk3
  rw [View.read_apply]
  show (V c main_v16 : S1x256.Idx → EReal) _ = (V c main_v16 : S1x256.Idx → EReal) _
  congr 1
  funext a
  apply Fin.ext
  match a with
  | ⟨0, _⟩ => show win3_2.index t (0 : Fin 2) * 1 + 1 * 0 = 0; omega
  | ⟨1, _⟩ => show win3_2.index t (1 : Fin 2) * 128 + 1 * q.val = r.val; omega

/-- WHAT POINT t WRITES BACK is its tile of that row: columns 128 t .. 128 t + 127. -/
theorem decFlushed (c : Dev nD) (t : Fin cfg3.N) :
    (dat3 V c).flushed 3 t = ((cfg3.win 3).blk t).view.read (Elt Ideal) (decRow V c) := by
  show (cfg3.win 3).cut (grid3.coords t) ((dat3 V c).after 3 t) = _
  rw [after3_3]
  obtain ⟨-, -, -, -, -, -, e30, e31⟩ := blkAt t
  funext y
  obtain ⟨p, q, rfl⟩ : ∃ (p : Fin 1) (q : Fin 128), y = ix2 p q := ⟨y 0, y 1, eq_ix2 y⟩
  obtain rfl : p = 0 := Subsingleton.elim _ _
  show out3_3 (F := Ideal) (iblk3 V c 0 t) (iblk3 V c 1 t) (iblk3 V c 2 t) (ix2 (0 : Fin 1) q)
    = decRow V c (((cfg3.win 3).blk t).view.emb (ix2 (0 : Fin 1) q))
  rw [decStore_apply]
  have hr : ((((cfg3.win 3).blk t).view.emb (ix2 (0 : Fin 1) q) : S1x256.Idx) 1).val = 128 * t.val + q.val := by
    show win3_3.index t (1 : Fin 2) * 128 + 1 * q.val = 128 * t.val + q.val
    omega
  exact congr (congr (congrArg Cert.GruSpec.pre (funext fun k => rowBlk_apply V c t k))
    (funext fun k => matBlk_apply V c t q k _ hr)) (biasBlk_apply V c t q _ hr)

/-- An entry of the output row is in point t's tile iff each coordinate is in the tile's range on its axis. -/
theorem mem_outBlk (t : Fin cfg3.N) (i : S1x256.Idx) :
    i ∈ ((cfg3.win 3).blk t).view.set
      ↔ ∀ a : Fin 2, win3_3.index t a * S1x128.size a ≤ (i a).val ∧ (i a).val < win3_3.index t a * S1x128.size a + S1x128.size a := by
  show i ∈ ((View.whole main_v17).slice (win3_3.rect t)).set ↔ _
  rw [View.set_slice_whole, Rect.mem_set_unit]
  exact Iff.rfl

/-- The two tiles cover the row: column v lies in the tile of point v / 128, and every point writes back. -/
theorem out_cover (i : S1x256.Idx) :
    ∃ t : Fin cfg3.N, (cfg3.win 3).flush t = true ∧ i ∈ ((cfg3.win 3).blk t).view.set := by
  have hi0 : (i 0).val < 1 := (i 0).isLt
  have hi1 : (i 1).val < 256 := (i 1).isLt
  obtain ⟨t, ht⟩ : ∃ t : Fin cfg3.N, t.val = (i 1).val / 128 := ⟨⟨(i 1).val / 128, by rw [show cfg3.N = 2 from N_3]; omega⟩, rfl⟩
  obtain ⟨-, -, -, -, -, -, e30, e31⟩ := blkAt t
  refine ⟨t, flush3_3 t, ?_⟩
  rw [mem_outBlk]
  intro a
  match a with
  | ⟨0, _⟩ =>
    show win3_3.index t (0 : Fin 2) * 1 ≤ (i 0).val ∧ (i 0).val < win3_3.index t (0 : Fin 2) * 1 + 1
    omega
  | ⟨1, _⟩ =>
    show win3_3.index t (1 : Fin 2) * 128 ≤ (i 1).val ∧ (i 1).val < win3_3.index t (1 : Fin 2) * 128 + 128
    omega

/-- THE OUTPUT ROW after the two points is that row. -/
theorem decArr_eq (c : Dev nD) : ((dat3 V c).arrAt 3 cfg3.N : S1x256.Idx → EReal) = decRow V c :=
  (dat3 V c).arrAt_eq_of_cover 3 (decRow V c) (fun t _ => decFlushed V c t) out_cover

/-- Entry v of it: the hidden row against row v of the matrix plus the bias at v. -/
theorem decArr_apply (c : Dev nD) (v : Fin 256) :
    ((dat3 V c).arrAt 3 cfg3.N : S1x256.Idx → EReal) (ix2 (0 : Fin 1) v)
      = Cert.GruSpec.pre (fun k => (V c main_v15 : S1x4096.Idx → EReal) (ix2 (0 : Fin 1) k))
          (fun k => (V c main_arg11 : S256x4096.Idx → EReal) (ix2 v k)) ((V c main_v16 : S1x256.Idx → EReal) (ix2 (0 : Fin 1) v)) := by
  rw [decArr_eq]
  rfl

end Arr

end Cert.KernelIdeal.Val

end
-- ==== Proof.KI.ValNet.lean ====
/-
  The program's two results as one function of its thirteen argument arrays.

  The four launches and the host lines between them are read one after the other: the embedding copy leaves the
  looked-up row; the first recurrent layer leaves, unit by unit, the cell's formula of that row, the first previous
  hidden row and the first layer's weights; the second layer the same of the first layer's new row, the second
  previous hidden row and its own weights; the decoder a row times a weight row plus a bias for each of the 256
  entries; the last host lines stack the two new hidden rows. Every array a launch reads is an argument array
  seen through the host's slices and reshapes, or an earlier launch's result; nothing is reordered.
-/
import proofs.«417261_j67628555043381_3_alg».proof.Proof.KI.Contents
import proofs.«417261_j67628555043381_3_alg».proof.Proof.KI.ValHost
import proofs.«417261_j67628555043381_3_alg».proof.Proof.KI.ValGruArr
import proofs.«417261_j67628555043381_3_alg».proof.Proof.KI.ValGruArrB
import proofs.«417261_j67628555043381_3_alg».proof.Proof.KI.GruStore
import proofs.«417261_j67628555043381_3_alg».proof.Proof.KI.GruStoreB
import proofs.«417261_j67628555043381_3_alg».proof.Proof.KI.ValDec
import proofs.«417261_j67628555043381_3_alg».proof.Proof.NetSpec
import proofs.«417261_j67628555043381_3_alg».proof.Proof.InpRange
import Idealize.ShloMosaic.Lib.ValueIdx

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Reg

section Views
variable (m : (ℓ : Loc nD τ sig) → Buf (Elt Ideal) ℓ) (c : Dev nD)

/-! ## The argument arrays as plain functions -/

/-- The float word the blend subtracts the update gate from. -/
abbrev oneW : EReal := Ideal.ofBits .f32 0x3F800000#32
/-- The one integer input, as the launch memory holds it. -/
abbrev inpWord : BitVec 32 := (m ((c : Thread nD τ).loc main_arg0) : IVec S1 32) (ix1 0)
/-- The input as a row of the 256-row embedding matrix, when it lies in [0, 256). -/
abbrev inpRow (h0 : (inpWord m c).slt 0#32 = false) (h1 : (inpWord m c).slt 256#32 = true) : Fin 256 :=
  ⟨(inpWord m c).toNat, Cert.InpRange.toNat_lt_256 _ h0 h1⟩
/-- The embedding matrix, row by column. -/
abbrev argEmb (r : Fin 256) (k : Fin 4096) : EReal :=
  (m ((c : Thread nD τ).loc main_arg2) : S256x4096.Idx → Elt Ideal .f32) (ix2 r k)
/-- The two previous hidden rows, layer by column. -/
abbrev argHid (l : Fin 2) (k : Fin 4096) : EReal :=
  (m ((c : Thread nD τ).loc main_arg1) : S2x1x4096.Idx → Elt Ideal .f32) (ix3 l (0 : Fin 1) k)
/-- The first layer's input-side and state-side weights (3 * 4096 rows) and biases. -/
abbrev argWih0 (r : Fin 12288) (k : Fin 4096) : EReal :=
  (m ((c : Thread nD τ).loc main_arg3) : S12288x4096.Idx → Elt Ideal .f32) (ix2 r k)
abbrev argWhh0 (r : Fin 12288) (k : Fin 4096) : EReal :=
  (m ((c : Thread nD τ).loc main_arg4) : S12288x4096.Idx → Elt Ideal .f32) (ix2 r k)
abbrev argBih0 (r : Fin 12288) : EReal := (m ((c : Thread nD τ).loc main_arg5) : S12288.Idx → Elt Ideal .f32) (ix1 r)
abbrev argBhh0 (r : Fin 12288) : EReal := (m ((c : Thread nD τ).loc main_arg6) : S12288.Idx → Elt Ideal .f32) (ix1 r)
/-- The second layer's. -/
abbrev argWih1 (r : Fin 12288) (k : Fin 4096) : EReal :=
  (m ((c : Thread nD τ).loc main_arg7) : S12288x4096.Idx → Elt Ideal .f32) (ix2 r k)
abbrev argWhh1 (r : Fin 12288) (k : Fin 4096) : EReal :=
  (m ((c : Thread nD τ).loc main_arg8) : S12288x4096.Idx → Elt Ideal .f32) (ix2 r k)
abbrev argBih1 (r : Fin 12288) : EReal := (m ((c : Thread nD τ).loc main_arg9) : S12288.Idx → Elt Ideal .f32) (ix1 r)
abbrev argBhh1 (r : Fin 12288) : EReal := (m ((c : Thread nD τ).loc main_arg10) : S12288.Idx → Elt Ideal .f32) (ix1 r)
/-- The decoder's weights and bias. -/
abbrev argWdec (v : Fin 256) (k : Fin 4096) : EReal :=
  (m ((c : Thread nD τ).loc main_arg11) : S256x4096.Idx → Elt Ideal .f32) (ix2 v k)
abbrev argBdec (v : Fin 256) : EReal := (m ((c : Thread nD τ).loc main_arg12) : S256.Idx → Elt Ideal .f32) (ix1 v)

end Views

/-! ## Two congruences: the cell and the pre-activation depend on their rows entry by entry -/

theorem gruCell_congr {n : Nat} (one : EReal) {x x' h h' : Fin n → EReal} {wi wi' wh wh' : Fin 3 → Fin n → EReal}
    {bi bi' bh bh' : Fin 3 → EReal} {o o' : EReal}
    (hx : ∀ k, x k = x' k) (hh : ∀ k, h k = h' k) (hwi : ∀ g k, wi g k = wi' g k) (hwh : ∀ g k, wh g k = wh' g k)
    (hbi : ∀ g, bi g = bi' g) (hbh : ∀ g, bh g = bh' g) (ho : o = o') :
    Cert.GruSpec.gruCell one x h wi wh bi bh o = Cert.GruSpec.gruCell one x' h' wi' wh' bi' bh' o' := by
  obtain rfl : x = x' := funext hx
  obtain rfl : h = h' := funext hh
  obtain rfl : wi = wi' := funext fun g => funext (hwi g)
  obtain rfl : wh = wh' := funext fun g => funext (hwh g)
  obtain rfl : bi = bi' := funext hbi
  obtain rfl : bh = bh' := funext hbh
  rw [ho]

theorem pre_congr {n : Nat} {x x' w w' : Fin n → EReal} {b b' : EReal}
    (hx : ∀ k, x k = x' k) (hw : ∀ k, w k = w' k) (hb : b = b') :
    Cert.GruSpec.pre x w b = Cert.GruSpec.pre x' w' b' := by
  obtain rfl : x = x' := funext hx
  obtain rfl : w = w' := funext hw
  rw [hb]

/-! ## The embedding copy's operands -/
section Operands
variable (m : (ℓ : Loc nD τ sig) → Buf (Elt Ideal) ℓ) (c : Dev nD)

/-- No host line before the first launch writes the embedding matrix. -/
theorem emb_unwritten : U2 m c main_arg2 = m ((c : Thread nD τ).loc main_arg2) :=
  (V2_of m c main_arg2 (by decide)).trans <| (V1_of m c main_arg2 (by decide)).trans rfl

/-- When the input lies in [0, 256) the word the copy reads off its table is the input. -/
theorem word0_inp (h0 : (inpWord m c).slt 0#32 = false) (h1 : (inpWord m c).slt 256#32 = true) :
    word0 (a0 m).1 = inpWord m c := by
  rw [word0_eq, a0_val m c 0]
  show (Gen.V2 m c main_v0 : IVec S1 32) (ix1 0) = _
  rw [tbl_id m c h0 h1]

end Operands

/-! ## The results -/
section Results
variable (m : (ℓ : Loc nD τ sig) → Buf (Elt Ideal) ℓ) (c : Dev nD)

/-- The copied row is the embedding matrix's row at the input. -/
theorem kern_x (h0 : (inpWord m c).slt 0#32 = false) (h1 : (inpWord m c).slt 256#32 = true) (k : Fin 4096) :
    (U4 m c main_v1 : S1x4096.Idx → Elt Ideal .f32) (ix2 (0 : Fin 1) k) = argEmb m c (inpRow m c h0 h1) k := by
  have hw : word0 (a0 m).1 = inpWord m c := word0_inp m c h0 h1
  have hlt : (inpWord m c).toNat < 256 := Cert.InpRange.toNat_lt_256 _ h0 h1
  have e : (U4 m c main_v1 : S1x4096.Idx → Elt Ideal .f32) = (dat0 (a0 m) (VW0 (U2 m)) c).arrAt 0 (cfg0 (a0 m)).N :=
    (U4_v1 m c).trans (Function.update_self _ _ _)
  refine (congrFun e _).trans
    ((embArr_apply (a0 m) (VW0 (U2 m)) c (ix2 (0 : Fin 1) k) (ix2 (inpRow m c h0 h1) k) ?_ rfl).trans ?_)
  · show (inpWord m c).toNat = min (word0 (a0 m).1).toNat 255
    rw [hw, Nat.min_eq_left (by omega)]
  · show (U2 m c main_arg2 : S256x4096.Idx → Elt Ideal .f32) _ = _
    rw [emb_unwritten m c]

/-- The first layer's new hidden row. -/
theorem kern_h0 (h0 : (inpWord m c).slt 0#32 = false) (h1 : (inpWord m c).slt 256#32 = true) (J : Fin 4096) :
    (U5 m c main_v10 : S1x4096.Idx → Elt Ideal .f32) (ix2 (0 : Fin 1) J)
      = Cert.NetSpec.h0 oneW (inpRow m c h0 h1) (argEmb m c) (argHid m c) (argWih0 m c) (argWhh0 m c) (argBih0 m c)
          (argBhh0 m c) J := by
  have e : (U5 m c main_v10 : S1x4096.Idx → Elt Ideal .f32) = (dat1 (VW1 (U4 m)) c).arrAt 7 cfg1.N :=
    Function.update_self _ _ _
  refine (congrFun e _).trans ((gruArr_apply (VW1 (U4 m)) (out1_7_eq_gruStore (F := Ideal)) c J).trans ?_)
  unfold gruAt Cert.NetSpec.h0 Cert.NetSpec.layer
  exact gruCell_congr _ (fun k => kern_x m c h0 h1 k) (fun k => U4_v3_apply m c k)
    (fun g k => U4_v6_apply m c g J k) (fun g k => U4_v7_apply m c g J k)
    (fun g => U4_v8_apply m c g J) (fun g => U4_v9_apply m c g J) (U4_v3_apply m c J)

/-- The second layer's new hidden row. -/
theorem kern_h1 (h0 : (inpWord m c).slt 0#32 = false) (h1 : (inpWord m c).slt 256#32 = true) (J : Fin 4096) :
    (U7 m c main_v15 : S1x4096.Idx → Elt Ideal .f32) (ix2 (0 : Fin 1) J)
      = Cert.NetSpec.h1 oneW (inpRow m c h0 h1) (argEmb m c) (argHid m c) (argWih0 m c) (argWhh0 m c) (argBih0 m c)
          (argBhh0 m c) (argWih1 m c) (argWhh1 m c) (argBih1 m c) (argBhh1 m c) J := by
  have e : (U7 m c main_v15 : S1x4096.Idx → Elt Ideal .f32) = (dat2 (VW2 (U6 m)) c).arrAt 7 cfg2.N :=
    Function.update_self _ _ _
  have hx : ∀ k : Fin 4096, (U6 m c main_v10 : S1x4096.Idx → Elt Ideal .f32) (ix2 (0 : Fin 1) k)
      = Cert.NetSpec.h0 oneW (inpRow m c h0 h1) (argEmb m c) (argHid m c) (argWih0 m c) (argWhh0 m c) (argBih0 m c)
          (argBhh0 m c) k := fun k => by
    rw [U6_v10 m c]; exact kern_h0 m c h0 h1 k
  have hh : ∀ k : Fin 4096, (U6 m c main_v5 : S1x4096.Idx → Elt Ideal .f32) (ix2 (0 : Fin 1) k) = argHid m c 1 k :=
    fun k => by rw [U6_v5 m c]; exact U4_v5_apply m c k
  refine (congrFun e _).trans ((gruArr_apply2 (VW2 (U6 m)) (out2_7_eq_gruStore2 (F := Ideal)) c J).trans ?_)
  unfold gruAt2 Cert.NetSpec.h1 Cert.NetSpec.layer
  exact gruCell_congr _ hx hh
    (fun g k => U6_v11_apply m c g J k) (fun g k => U6_v12_apply m c g J k)
    (fun g => U6_v13_apply m c g J) (fun g => U6_v14_apply m c g J) (hh J)

/-- The logits. -/
theorem kern_logits (h0 : (inpWord m c).slt 0#32 = false) (h1 : (inpWord m c).slt 256#32 = true) (v : Fin 256) :
    (U10 m c main_v17 : S1x256.Idx → Elt Ideal .f32) (ix2 (0 : Fin 1) v)
      = Cert.NetSpec.logits oneW (inpRow m c h0 h1) (argEmb m c) (argHid m c) (argWih0 m c) (argWhh0 m c) (argBih0 m c)
          (argBhh0 m c) (argWih1 m c) (argWhh1 m c) (argBih1 m c) (argBhh1 m c) (argWdec m c) (argBdec m c) v := by
  have e : (U10 m c main_v17 : S1x256.Idx → Elt Ideal .f32) = (dat3 (VW3 (U8 m)) c).arrAt 3 cfg3.N :=
    (U10_v17 m c).trans (Function.update_self _ _ _)
  have hx : ∀ k : Fin 4096, (U8 m c main_v15 : S1x4096.Idx → Elt Ideal .f32) (ix2 (0 : Fin 1) k)
      = Cert.NetSpec.h1 oneW (inpRow m c h0 h1) (argEmb m c) (argHid m c) (argWih0 m c) (argWhh0 m c) (argBih0 m c)
          (argBhh0 m c) (argWih1 m c) (argWhh1 m c) (argBih1 m c) (argBhh1 m c) k := fun k => by
    rw [U8_v15 m c]; exact kern_h1 m c h0 h1 k
  have hw : ∀ k : Fin 4096, (U8 m c main_arg11 : S256x4096.Idx → Elt Ideal .f32) (ix2 v k) = argWdec m c v k :=
    fun k => by rw [U8_arg11 m c]
  refine (congrFun e _).trans ((decArr_apply (VW3 (U8 m)) c v).trans ?_)
  unfold Cert.NetSpec.logits
  exact pre_congr hx hw (U8_v16_apply m c v)

/-- The stacked new hidden rows. -/
theorem kern_stack (h0 : (inpWord m c).slt 0#32 = false) (h1 : (inpWord m c).slt 256#32 = true) (l : Fin 2) (J : Fin 4096) :
    (U10 m c main_v20 : S2x1x4096.Idx → Elt Ideal .f32) (ix3 l (0 : Fin 1) J)
      = if l = 0 then
          Cert.NetSpec.h0 oneW (inpRow m c h0 h1) (argEmb m c) (argHid m c) (argWih0 m c) (argWhh0 m c) (argBih0 m c)
            (argBhh0 m c) J
        else
          Cert.NetSpec.h1 oneW (inpRow m c h0 h1) (argEmb m c) (argHid m c) (argWih0 m c) (argWhh0 m c) (argBih0 m c)
            (argBhh0 m c) (argWih1 m c) (argWhh1 m c) (argBih1 m c) (argBhh1 m c) J := by
  rw [U10_v20_apply m c l J]
  by_cases hl : l = 0
  · rw [if_pos hl, if_pos hl, U9_v10 m c]; exact kern_h0 m c h0 h1 J
  · rw [if_neg hl, if_neg hl, U9_v15 m c]; exact kern_h1 m c h0 h1 J

end Results

end Cert.KernelIdeal.Val

end
-- ==== Proof.Bridge.lean ====
/-
  The two programs end with the same results.

  Both are the specification of NetSpec.lean of the same thirteen argument arrays: the kernel program's results by
  the value modules of its four launches and of the host operations between them (ValNet.lean), the reference's by
  its operations read one at a time (BridgeRef.lean). The precondition's last two conjuncts put the looked-up index
  in the table's range; there the kernel's clamp and the reference's wrap of a negative index are both the
  identity, so both look the same row up. Nothing else of the precondition is used: the two programs group every
  sum and product the same way.
-/
import proofs.«417261_j67628555043381_3_alg».proof.Defs
import proofs.«417261_j67628555043381_3_alg».proof.Proof.BridgeRef
import proofs.«417261_j67628555043381_3_alg».proof.Proof.KI.ValNet
import proofs.«417261_j67628555043381_3_alg».proof.Proof.KI.Run
import proofs.«417261_j67628555043381_3_alg».proof.Proof.Gen.ReferenceIdeal.Run
import proofs.«417261_j67628555043381_3_alg».proof.Proof.InpRange
import proofs.«417261_j67628555043381_3_alg».proof.Proof.Gen.KernelIdeal
import proofs.«417261_j67628555043381_3_alg».proof.Proof.Gen.ReferenceIdeal
import proofs.«417261_j67628555043381_3_alg».proof.Proof.Gen.Pre_finite_inputs

noncomputable section

namespace Cert.Bridge

open Idealize.ShloMosaic Idealize.ShloMosaic.TcCoe Idealize.ShloMosaic.ValueIdx Idealize.SL.Sem

/-- Every index of a [1, n] array is (0, its column). -/
theorem idx_row {n : Nat} (i : (⟨2, ![1, n]⟩ : Shape).Idx) : i = ix2 (0 : Fin 1) (i 1) := by
  have hl : (i 0).val < 1 := (i 0).isLt
  have h : @Eq (Fin 1) (i 0) (0 : Fin 1) := Fin.ext (Nat.lt_one_iff.mp hl)
  exact (eq_ix2 i).trans (congrArg (fun p : Fin 1 => ix2 p (i 1)) h)
/-- Every index of a [2, 1, n] array is (its layer, 0, its column). -/
theorem idx_stack {n : Nat} (i : (⟨3, ![2, 1, n]⟩ : Shape).Idx) : i = ix3 (i 0) (0 : Fin 1) (i 2) := by
  have hl : (i 1).val < 1 := (i 1).isLt
  have h : @Eq (Fin 1) (i 1) (0 : Fin 1) := Fin.ext (Nat.lt_one_iff.mp hl)
  exact (eq_ix3 i).trans (congrArg (fun p : Fin 1 => ix3 (i 0) p (i 2)) h)

theorem algebraic : Cert.algebraic_KernelIdeal_ReferenceIdeal := by
  intro m ρ m' ρ' hpre hagree
  refine ⟨fun c => Cert.KernelIdeal.Reg.U10 m c Cert.KernelIdeal.main_v17, fun c => Cert.KernelIdeal.Reg.U10 m c Cert.KernelIdeal.main_v20,
    Cert.KernelIdeal.Reg.run_vals (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · -- the logits
    obtain ⟨e0, e1, e2, e3, e4, e5, e6, e7, e8, e9, e10, e11, e12⟩ := hagree c
    obtain ⟨h0, h1⟩ := Cert.InpRange.range_of_pre _ _ _ _ _ _ _ _ _ _ _ _ _ (hpre c)
    rw [Cert.ReferenceIdeal.RefSide.res_logits_eq, e0, e1, e2, e3, e4, e5, e6, e7, e8, e9, e10, e11, e12]
    funext i
    rw [idx_row i]
    exact (ref_logits _ _ _ _ _ _ _ _ _ _ _ _ _ h0 h1 (i 1)).trans (Cert.KernelIdeal.Val.kern_logits m c h0 h1 (i 1)).symm
  · -- the stacked hidden rows
    obtain ⟨e0, e1, e2, e3, e4, e5, e6, e7, e8, e9, e10, e11, e12⟩ := hagree c
    obtain ⟨h0, h1⟩ := Cert.InpRange.range_of_pre _ _ _ _ _ _ _ _ _ _ _ _ _ (hpre c)
    rw [Cert.ReferenceIdeal.RefSide.res_stack_eq, e0, e1, e2, e3, e4, e5, e6, e7, e8, e9, e10]
    funext i
    rw [idx_stack i]
    exact (ref_stack _ _ _ _ _ _ _ _ _ _ _ h0 h1 (i 0) (i 2)).trans (Cert.KernelIdeal.Val.kern_stack m c h0 h1 (i 0) (i 2)).symm

end Cert.Bridge

end
-- ==== Proof.lean ====
/-
  One decoding step of a two-layer recurrent language model, as four kernel launches, against its plain
  array-language reference: the embedding row of the input token is looked up, passed through two GRU cells
  (each with its own previous hidden row), and decoded to logits by one matrix product and a bias; the two
  new hidden rows are returned stacked.

  The frames: each program runs to the end, faults nowhere and leaves its thirteen argument arrays as they were.
  For the two kernel programs this is the run of the four launches one after the other, each launch's body
  obligation proved by running the body on its staged blocks; the embedding launch copies one row of the table
  by a transfer of its own, at a row offset the host has clamped into the table, so its side condition holds
  for every input. The reference's frame is its run with the results dropped.
  The idealization changes nothing the kernel computes (no rewrite applied), and over the extended reals the two
  programs end with equal logits and equal hidden rows, whenever the token index lies in the table's range.
-/
import proofs.«417261_j67628555043381_3_alg».proof.Defs
import proofs.«417261_j67628555043381_3_alg».proof.Proof.Gen.Kernel
import proofs.«417261_j67628555043381_3_alg».proof.Proof.Gen.KernelIdeal
import proofs.«417261_j67628555043381_3_alg».proof.Proof.Gen.ReferenceIdeal
import proofs.«417261_j67628555043381_3_alg».proof.Proof.Gen.Pre_finite_inputs
import proofs.«417261_j67628555043381_3_alg».proof.Proof.Gen.ReferenceIdeal.Run
import proofs.«417261_j67628555043381_3_alg».proof.Proof.K.Run
import proofs.«417261_j67628555043381_3_alg».proof.Proof.KI.Run
import proofs.«417261_j67628555043381_3_alg».proof.Proof.Bridge
import Idealize.ShloMosaic.Adequacy
import Idealize.ShloMosaic.Init

noncomputable section

namespace Cert.Proof

open Idealize.ShloMosaic Idealize.SL.Sem

/-- The word-level kernel program's frame. -/
theorem frame_kernel : Cert.frame_Kernel := fun m ρ _ => Cert.Kernel.Reg.frame_all (F := Bits) m ρ
/-- The idealized kernel program's frame. -/
theorem frame_kernelIdeal : Cert.frame_KernelIdeal := fun m ρ _ => Cert.KernelIdeal.Reg.frame_all (F := Ideal) m ρ
/-- The reference's frame: its run, the results dropped. -/
theorem frame_reference : Cert.frame_ReferenceIdeal := fun m ρ _ =>
  (θ_run Cert.ReferenceIdeal.defs _ _).mono (fun _ h c => (h c).2.2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, Cert.Bridge.algebraic⟩

end Cert.Proof

end
